-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x16384 : Shape := ⟨2, ![16384, 16384]⟩
abbrev S128x64 : Shape := ⟨2, ![128, 64]⟩
abbrev S64 : Shape := ⟨1, ![64]⟩
abbrev S4096 : Shape := ⟨1, ![4096]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : IVec S4096 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_c_6 : IVec S_ 32 := constantI S_ 32 0#32
  let main_v19 : IVec S4096 32 := broadcastInDim S4096 ![] bcast_S_S4096 main_c_6
  let main_v20 : IVec S4096 1 := cmpi .sge main_arg4 main_v19
  let main_c_7 : IVec S_ 32 := constantI S_ 32 16384#32
  let main_v21 : IVec S4096 32 := broadcastInDim S4096 ![] bcast_S_S4096 main_c_7
  let main_v22 : IVec S4096 1 := cmpi .slt main_arg4 main_v21
  let main_v23 : IVec S4096 1 := andi main_v20 main_v22
  let main_c_8 : IVec S_ 1 := constantI S_ 1 1#1
  let main_v24 : IVec S_ 1 := (fun x v => Host.reduce IntOp.andi x v reducesTo_S4096_S_d0 h_S_) main_v23 main_c_8
  let main_v25 : IVec S_ 1 := andi main_v18 main_v24
  main_v25

def fn {F : FTy → Type} [FloatOps F] (main_arg0 : FVec F S16384x128 .f32) (main_arg1 : FVec F S16384x16384 .f32) (main_arg2 : FVec F S128x64 .f32) (main_arg3 : FVec F S64 .f32) (main_arg4 : IVec S4096 32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Kernel.lean ====
abbrev S16384x128 : Shape := ⟨2, ![16384, 128]⟩
abbrev S16384x16384 : Shape := ⟨2, ![16384, 16384]⟩
abbrev S128x64 : Shape := ⟨2, ![128, 64]⟩
abbrev S64 : Shape := ⟨1, ![64]⟩
abbrev S4096 : Shape := ⟨1, ![4096]⟩
abbrev S16384x64 : Shape := ⟨2, ![16384, 64]⟩
abbrev S2048x128 : Shape := ⟨2, ![2048, 128]⟩
abbrev S2048x64 : Shape := ⟨2, ![2048, 64]⟩
abbrev S1x64 : Shape := ⟨2, ![1, 64]⟩
abbrev S4096x64 : Shape := ⟨2, ![4096, 64]⟩
abbrev S128x16384 : Shape := ⟨2, ![128, 16384]⟩
abbrev S128 : Shape := ⟨1, ![128]⟩
abbrev S1 : Shape := ⟨1, ![1]⟩
abbrev S_ : Shape := ⟨0, ![]⟩
abbrev S1x16384 : Shape := ⟨2, ![1, 16384]⟩
abbrev S16384 : Shape := ⟨1, ![16384]⟩

abbrev nBuf : Space → Nat
  | .hbm => 6
  | .vmem => 10
  | .smem => 1
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x64, .f32⟩
  | .hbm, ⟨3, _⟩ => ⟨S64, .f32⟩
  | .hbm, ⟨4, _⟩ => ⟨S16384x64, .bf16⟩
  | .hbm, ⟨5, _⟩ => ⟨S4096x64, .f32⟩
  | .local _ .vmem, ⟨0, _⟩ => ⟨S2048x128, .f32⟩
  | .local _ .vmem, ⟨1, _⟩ => ⟨S2048x128, .f32⟩
  | .local _ .vmem, ⟨2, _⟩ => ⟨S128x64, .f32⟩
  | .local _ .vmem, ⟨3, _⟩ => ⟨S64, .f32⟩
  | .local _ .vmem, ⟨4, _⟩ => ⟨S2048x64, .bf16⟩
  | .local _ .vmem, ⟨5, _⟩ => ⟨S2048x64, .bf16⟩
  | .local _ .vmem, ⟨6, _⟩ => ⟨S16384x64, .bf16⟩
  | .local _ .vmem, ⟨7, _⟩ => ⟨S128x64, .f32⟩
  | .local _ .vmem, ⟨8, _⟩ => ⟨S128x64, .f32⟩
  | .local _ .vmem, ⟨9, _⟩ => ⟨S128x16384, .f32⟩
  | .local _ .smem, ⟨0, _⟩ => ⟨S4096, .i32⟩
  | _, _ => ⟨S16384x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 137 → Bool
  | ⟨i, _⟩ => dmaSemScopedAt i

abbrev sig : RefSig :=
  ofTc nBuf bufTy 0 137 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_arg4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

abbrev pre1 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let c128_i32 : BitVec 32 := 128#32
  let v0 : BitVec 32 := Scalar.muli arg0 c128_i32
  let c0_i32 : BitVec 32 := 0#32
  let v1 : BitVec 32 := Scalar.addi v0 c0_i32
  let v2 : Index := Scalar.indexCast v1
  ![v2.toNat]
def k1_off2 (v3 : BitVec 32) : Fin 2 → Nat :=
  let c0_i32_1 : BitVec 32 := 0#32
  ![v3.toNat, 0]

def k1_chk1 (v3 : BitVec 32) : Prop :=
  (∀ a, (k1_off2 v3) a + S1x16384.size a ≤ S16384x16384.size a)
instance k1_chk1.dec : ∀ (v3 : BitVec 32), Decidable (k1_chk1 v3) := fun v3 => decidable_of_iff' _ (Iff.of_eq (k1_chk1.eq_1 v3))
theorem k1_off2_inb : ∀ (v3 : BitVec 32) (k1_hw1 : k1_chk1 v3), ∀ a, (k1_off2 v3) a + S1x16384.size a ≤ S16384x16384.size a := fun v3 k1_hw1 => k1_hw1

def k1_off3 (i : grid1.Coords) : Fin 1 → Nat :=
  let arg0 : BitVec 32 := BitVec.ofNat 32 (i 0).val
  let c128_i32_2 : BitVec 32 := 128#32
  let v10 : BitVec 32 := Scalar.muli arg0 c128_i32_2
  let c1_i32 : BitVec 32 := 1#32
  let v11 : BitVec 32 := Scalar.addi v10 c1_i32
  let v12 : Index := Scalar.indexCast v11
  ![v12.toNat]
def k1_off4 (v13 : BitVec 32) : Fin 2 → Nat :=
  let c0_i32_4 : BitVec 32 := 0#32
  ![v13.toNat, 0]

def k1_chk2 (v13 : BitVec 32) : Prop :=
  (∀ a, (k1_off4 v13) a + S1x16384.size a ≤ S16384x16384.size a)
instance k1_chk2.dec : ∀ (v13 : BitVec 32), Decidable (k1_chk2 v13) := fun v13 => decidable_of_iff' _ (Iff.of_eq (k1_chk2.eq_1 v13))
theorem k1_off4_inb : ∀ (v13 : BitVec 32) (k1_hw2 : k1_chk2 v13), ∀ a, (k1_off4 v13) a + S1x16384.size a ≤ S16384x16384.size a := fun v13 k1_hw2 => k1_hw2

def k1_off5 (i : grid1.Coords) : Fin 1 → Nat :=
  let arg0 : BitVec 32 := BitVec.ofNat 32 (i 0).val
  let c128_i32_5 : BitVec 32 := 128#32
  let v20 : BitVec 32 := Scalar.muli arg0 c128_i32_5
  let c2_i32 : BitVec 32 := 2#32
  let v21 : BitVec 32 := Scalar.addi v20 c2_i32
  let v22 : Index := Scalar.indexCast v21
  ![v22.toNat]
def k1_off6 (v23 : BitVec 32) : Fin 2 → Nat :=
  let c0_i32_7 : BitVec 32 := 0#32
  ![v23.toNat, 0]

def k1_chk3 (v23 : BitVec 32) : Prop :=
  (∀ a, (k1_off6 v23) a + S1x16384.size a ≤ S16384x16384.size a)
instance k1_chk3.dec : ∀ (v23 : BitVec 32), Decidable (k1_chk3 v23) := fun v23 => decidable_of_iff' _ (Iff.of_eq (k1_chk3.eq_1 v23))
theorem k1_off6_inb : ∀ (v23 : BitVec 32) (k1_hw3 : k1_chk3 v23), ∀ a, (k1_off6 v23) a + S1x16384.size a ≤ S16384x16384.size a := fun v23 k1_hw3 => k1_hw3

def k1_off7 (i : grid1.Coords) : Fin 1 → Nat :=
  let arg0 : BitVec 32 := BitVec.ofNat 32 (i 0).val
  let c128_i32_8 : BitVec 32 := 128#32
  let v30 : BitVec 32 := Scalar.muli arg0 c128_i32_8
  let c3_i32 : BitVec 32 := 3#32
  let v31 : BitVec 32 := Scalar.addi v30 c3_i32
  let v32 : Index := Scalar.indexCast v31
  ![v32.toNat]
def k1_off8 (v33 : BitVec 32) : Fin 2 → Nat :=
  let c0_i32_10 : BitVec 32 := 0#32
  ![v33.toNat, 0]

def k1_chk4 (v33 : BitVec 32) : Prop :=
  (∀ a, (k1_off8 v33) a + S1x16384.size a ≤ S16384x16384.size a)
instance k1_chk4.dec : ∀ (v33 : BitVec 32), Decidable (k1_chk4 v33) := fun v33 => decidable_of_iff' _ (Iff.of_eq (k1_chk4.eq_1 v33))
theorem k1_off8_inb : ∀ (v33 : BitVec 32) (k1_hw4 : k1_chk4 v33), ∀ a, (k1_off8 v33) a + S1x16384.size a ≤ S16384x16384.size a := fun v33 k1_hw4 => k1_hw4

def k1_off9 (i : grid1.Coords) : Fin 1 → Nat :=
  let arg0 : BitVec 32 := BitVec.ofNat 32 (i 0).val
  let c128_i32_11 : BitVec 32 := 128#32
  let v40 : BitVec 32 := Scalar.muli arg0 c128_i32_11
  let c4_i32 : BitVec 32 := 4#32
  let v41 : BitVec 32 := Scalar.addi v40 c4_i32
  let v42 : Index := Scalar.indexCast v41
  ![v42.toNat]
def k1_off10 (v43 : BitVec 32) : Fin 2 → Nat :=
  let c0_i32_13 : BitVec 32 := 0#32
  ![v43.toNat, 0]

def k1_chk5 (v43 : BitVec 32) : Prop :=
  (∀ a, (k1_off10 v43) a + S1x16384.size a ≤ S16384x16384.size a)
instance k1_chk5.dec : ∀ (v43 : BitVec 32), Decidable (k1_chk5 v43) := fun v43 => decidable_of_iff' _ (Iff.of_eq (k1_chk5.eq_1 v43))
theorem k1_off10_inb : ∀ (v43 : BitVec 32) (k1_hw5 : k1_chk5 v43), ∀ a, (k1_off10 v43) a + S1x16384.size a ≤ S16384x16384.size a := fun v43 k1_hw5 => k1_hw5

def k1_off11 (i : grid1.Coords) : Fin 1 → Nat :=
  let arg0 : BitVec 32 := BitVec.ofNat 32 (i 0).val
  let c128_i32_14 : BitVec 32 := 128#32
  let v50 : BitVec 32 := Scalar.muli arg0 c128_i32_14
  let c5_i32 : BitVec 32 := 5#32
  let v51 : BitVec 32 := Scalar.addi v50 c5_i32
  let v52 : Index := Scalar.indexCast v51
  ![v52.toNat]
def k1_off12 (v53 : BitVec 32) : Fin 2 → Nat :=
  let c0_i32_16 : BitVec 32 := 0#32
  ![v53.toNat, 0]

def k1_chk6 (v53 : BitVec 32) : Prop :=
  (∀ a, (k1_off12 v53) a + S1x16384.size a ≤ S16384x16384.size a)
instance k1_chk6.dec : ∀ (v53 : BitVec 32), Decidable (k1_chk6 v53) := fun v53 => decidable_of_iff' _ (Iff.of_eq (k1_chk6.eq_1 v53))
theorem k1_off12_inb : ∀ (v53 : BitVec 32) (k1_hw6 : k1_chk6 v53), ∀ a, (k1_off12 v53) a + S1x16384.size a ≤ S16384x16384.size a := fun v53 k1_hw6 => k1_hw6

def k1_off13 (i : grid1.Coords) : Fin 1 → Nat :=
  let arg0 : BitVec 32 := BitVec.ofNat 32 (i 0).val
  let c128_i32_17 : BitVec 32 := 128#32
  let v60 : BitVec 32 := Scalar.muli arg0 c128_i32_17
  let c6_i32 : BitVec 32 := 6#32
  let v61 : BitVec 32 := Scalar.addi v60 c6_i32
  let v62 : Index := Scalar.indexCast v61
  ![v62.toNat]
def k1_off14 (v63 : BitVec 32) : Fin 2 → Nat :=
  let c0_i32_19 : BitVec 32 := 0#32
  ![v63.toNat, 0]

def k1_chk7 (v63 : BitVec 32) : Prop :=
  (∀ a, (k1_off14 v63) a + S1x16384.size a ≤ S16384x16384.size a)
instance k1_chk7.dec : ∀ (v63 : BitVec 32), Decidable (k1_chk7 v63) := fun v63 => decidable_of_iff' _ (Iff.of_eq (k1_chk7.eq_1 v63))
theorem k1_off14_inb : ∀ (v63 : BitVec 32) (k1_hw7 : k1_chk7 v63), ∀ a, (k1_off14 v63) a + S1x16384.size a ≤ S16384x16384.size a := fun v63 k1_hw7 => k1_hw7

def k1_off15 (i : grid1.Coords) : Fin 1 → Nat :=
  let arg0 : BitVec 32 := BitVec.ofNat 32 (i 0).val
  let c128_i32_20 : BitVec 32 := 128#32
  let v70 : BitVec 32 := Scalar.muli arg0 c128_i32_20
  let c7_i32 : BitVec 32 := 7#32
  let v71 : BitVec 32 := Scalar.addi v70 c7_i32
  let v72 : Index := Scalar.indexCast v71
  ![v72.toNat]
def k1_off16 (v73 : BitVec 32) : Fin 2 → Nat :=
  let c0_i32_22 : BitVec 32 := 0#32
  ![v73.toNat, 0]

def k1_chk8 (v73 : BitVec 32) : Prop :=
  (∀ a, (k1_off16 v73) a + S1x16384.size a ≤ S16384x16384.size a)
instance k1_chk8.dec : ∀ (v73 : BitVec 32), Decidable (k1_chk8 v73) := fun v73 => decidable_of_iff' _ (Iff.of_eq (k1_chk8.eq_1 v73))
theorem k1_off16_inb : ∀ (v73 : BitVec 32) (k1_hw8 : k1_chk8 v73), ∀ a, (k1_off16 v73) a + S1x16384.size a ≤ S16384x16384.size a := fun v73 k1_hw8 => k1_hw8

def k1_off17 (i : grid1.Coords) : Fin 1 → Nat :=
  let arg0 : BitVec 32 := BitVec.ofNat 32 (i 0).val
  let c128_i32_23 : BitVec 32 := 128#32
  let v80 : BitVec 32 := Scalar.muli arg0 c128_i32_23
  let c8_i32 : BitVec 32 := 8#32
  let v81 : BitVec 32 := Scalar.addi v80 c8_i32
  let v82 : Index := Scalar.indexCast v81
  ![v82.toNat]
def k1_off18 (v83 : BitVec 32) : Fin 2 → Nat :=
  let c0_i32_25 : BitVec 32 := 0#32
  ![v83.toNat, 0]

def k1_chk9 (v83 : BitVec 32) : Prop :=
  (∀ a, (k1_off18 v83) a + S1x16384.size a ≤ S16384x16384.size a)
instance k1_chk9.dec : ∀ (v83 : BitVec 32), Decidable (k1_chk9 v83) := fun v83 => decidable_of_iff' _ (Iff.of_eq (k1_chk9.eq_1 v83))
theorem k1_off18_inb : ∀ (v83 : BitVec 32) (k1_hw9 : k1_chk9 v83), ∀ a, (k1_off18 v83) a + S1x16384.size a ≤ S16384x16384.size a := fun v83 k1_hw9 => k1_hw9

def k1_off19 (i : grid1.Coords) : Fin 1 → Nat :=
  let arg0 : BitVec 32 := BitVec.ofNat 32 (i 0).val
  let c128_i32_26 : BitVec 32 := 128#32
  let v90 : BitVec 32 := Scalar.muli arg0 c128_i32_26
  let c9_i32 : BitVec 32 := 9#32
  let v91 : BitVec 32 := Scalar.addi v90 c9_i32
  let v92 : Index := Scalar.indexCast v91
  ![v92.toNat]
def k1_off20 (v93 : BitVec 32) : Fin 2 → Nat :=
  let c0_i32_28 : BitVec 32 := 0#32
  ![v93.toNat, 0]

def k1_chk10 (v93 : BitVec 32) : Prop :=
  (∀ a, (k1_off20 v93) a + S1x16384.size a ≤ S16384x16384.size a)
instance k1_chk10.dec : ∀ (v93 : BitVec 32), Decidable (k1_chk10 v93) := fun v93 => decidable_of_iff' _ (Iff.of_eq (k1_chk10.eq_1 v93))
theorem k1_off20_inb : ∀ (v93 : BitVec 32) (k1_hw10 : k1_chk10 v93), ∀ a, (k1_off20 v93) a + S1x16384.size a ≤ S16384x16384.size a := fun v93 k1_hw10 => k1_hw10

def k1_off21 (i : grid1.Coords) : Fin 1 → Nat :=
  let arg0 : BitVec 32 := BitVec.ofNat 32 (i 0).val
  let c128_i32_29 : BitVec 32 := 128#32
  let v100 : BitVec 32 := Scalar.muli arg0 c128_i32_29
  let c10_i32 : BitVec 32 := 10#32
  let v101 : BitVec 32 := Scalar.addi v100 c10_i32
  let v102 : Index := Scalar.indexCast v101
  ![v102.toNat]
def k1_off22 (v103 : BitVec 32) : Fin 2 → Nat :=
  let c0_i32_31 : BitVec 32 := 0#32
  ![v103.toNat, 0]

def k1_chk11 (v103 : BitVec 32) : Prop :=
  (∀ a, (k1_off22 v103) a + S1x16384.size a ≤ S16384x16384.size a)
instance k1_chk11.dec : ∀ (v103 : BitVec 32), Decidable (k1_chk11 v103) := fun v103 => decidable_of_iff' _ (Iff.of_eq (k1_chk11.eq_1 v103))
theorem k1_off22_inb : ∀ (v103 : BitVec 32) (k1_hw11 : k1_chk11 v103), ∀ a, (k1_off22 v103) a + S1x16384.size a ≤ S16384x16384.size a := fun v103 k1_hw11 => k1_hw11

def k1_off23 (i : grid1.Coords) : Fin 1 → Nat :=
  let arg0 : BitVec 32 := BitVec.ofNat 32 (i 0).val
  let c128_i32_32 : BitVec 32 := 128#32
  let v110 : BitVec 32 := Scalar.muli arg0 c128_i32_32
  let c11_i32 : BitVec 32 := 11#32
  let v111 : BitVec 32 := Scalar.addi v110 c11_i32
  let v112 : Index := Scalar.indexCast v111
  ![v112.toNat]
def k1_off24 (v113 : BitVec 32) : Fin 2 → Nat :=
  let c0_i32_34 : BitVec 32 := 0#32
  ![v113.toNat, 0]

def k1_chk12 (v113 : BitVec 32) : Prop :=
  (∀ a, (k1_off24 v113) a + S1x16384.size a ≤ S16384x16384.size a)
instance k1_chk12.dec : ∀ (v113 : BitVec 32), Decidable (k1_chk12 v113) := fun v113 => decidable_of_iff' _ (Iff.of_eq (k1_chk12.eq_1 v113))
theorem k1_off24_inb : ∀ (v113 : BitVec 32) (k1_hw12 : k1_chk12 v113), ∀ a, (k1_off24 v113) a + S1x16384.size a ≤ S16384x16384.size a := fun v113 k1_hw12 => k1_hw12

def k1_off25 (i : grid1.Coords) : Fin 1 → Nat :=
  let arg0 : BitVec 32 := BitVec.ofNat 32 (i 0).val
  let c128_i32_35 : BitVec 32 := 128#32
  let v120 : BitVec 32 := Scalar.muli arg0 c128_i32_35
  let c12_i32 : BitVec 32 := 12#32
  let v121 : BitVec 32 := Scalar.addi v120 c12_i32
  let v122 : Index := Scalar.indexCast v121
  ![v122.toNat]
def k1_off26 (v123 : BitVec 32) : Fin 2 → Nat :=
  let c0_i32_37 : BitVec 32 := 0#32
  ![v123.toNat, 0]

def k1_chk13 (v123 : BitVec 32) : Prop :=
  (∀ a, (k1_off26 v123) a + S1x16384.size a ≤ S16384x16384.size a)
instance k1_chk13.dec : ∀ (v123 : BitVec 32), Decidable (k1_chk13 v123) := fun v123 => decidable_of_iff' _ (Iff.of_eq (k1_chk13.eq_1 v123))
theorem k1_off26_inb : ∀ (v123 : BitVec 32) (k1_hw13 : k1_chk13 v123), ∀ a, (k1_off26 v123) a + S1x16384.size a ≤ S16384x16384.size a := fun v123 k1_hw13 => k1_hw13

def k1_off27 (i : grid1.Coords) : Fin 1 → Nat :=
  let arg0 : BitVec 32 := BitVec.ofNat 32 (i 0).val
  let c128_i32_38 : BitVec 32 := 128#32
  let v130 : BitVec 32 := Scalar.muli arg0 c128_i32_38
  let c13_i32 : BitVec 32 := 13#32
  let v131 : BitVec 32 := Scalar.addi v130 c13_i32
  let v132 : Index := Scalar.indexCast v131
  ![v132.toNat]
def k1_off28 (v133 : BitVec 32) : Fin 2 → Nat :=
  let c0_i32_40 : BitVec 32 := 0#32
  ![v133.toNat, 0]

def k1_chk14 (v133 : BitVec 32) : Prop :=
  (∀ a, (k1_off28 v133) a + S1x16384.size a ≤ S16384x16384.size a)
instance k1_chk14.dec : ∀ (v133 : BitVec 32), Decidable (k1_chk14 v133) := fun v133 => decidable_of_iff' _ (Iff.of_eq (k1_chk14.eq_1 v133))
theorem k1_off28_inb : ∀ (v133 : BitVec 32) (k1_hw14 : k1_chk14 v133), ∀ a, (k1_off28 v133) a + S1x16384.size a ≤ S16384x16384.size a := fun v133 k1_hw14 => k1_hw14

def k1_off29 (i : grid1.Coords) : Fin 1 → Nat :=
  let arg0 : BitVec 32 := BitVec.ofNat 32 (i 0).val
  let c128_i32_41 : BitVec 32 := 128#32
  let v140 : BitVec 32 := Scalar.muli arg0 c128_i32_41
  let c14_i32 : BitVec 32 := 14#32
  let v141 : BitVec 32 := Scalar.addi v140 c14_i32
  let v142 : Index := Scalar.indexCast v141
  ![v142.toNat]
def k1_off30 (v143 : BitVec 32) : Fin 2 → Nat :=
  let c0_i32_43 : BitVec 32 := 0#32
  ![v143.toNat, 0]

def k1_chk15 (v143 : BitVec 32) : Prop :=
  (∀ a, (k1_off30 v143) a + S1x16384.size a ≤ S16384x16384.size a)
instance k1_chk15.dec : ∀ (v143 : BitVec 32), Decidable (k1_chk15 v143) := fun v143 => decidable_of_iff' _ (Iff.of_eq (k1_chk15.eq_1 v143))
theorem k1_off30_inb : ∀ (v143 : BitVec 32) (k1_hw15 : k1_chk15 v143), ∀ a, (k1_off30 v143) a + S1x16384.size a ≤ S16384x16384.size a := fun v143 k1_hw15 => k1_hw15

def k1_off31 (i : grid1.Coords) : Fin 1 → Nat :=
  let arg0 : BitVec 32 := BitVec.ofNat 32 (i 0).val
  let c128_i32_44 : BitVec 32 := 128#32
  let v150 : BitVec 32 := Scalar.muli arg0 c128_i32_44
  let c15_i32 : BitVec 32 := 15#32
  let v151 : BitVec 32 := Scalar.addi v150 c15_i32
  let v152 : Index := Scalar.indexCast v151
  ![v152.toNat]
def k1_off32 (v153 : BitVec 32) : Fin 2 → Nat :=
  let c0_i32_46 : BitVec 32 := 0#32
  ![v153.toNat, 0]

def k1_chk16 (v153 : BitVec 32) : Prop :=
  (∀ a, (k1_off32 v153) a + S1x16384.size a ≤ S16384x16384.size a)
instance k1_chk16.dec : ∀ (v153 : BitVec 32), Decidable (k1_chk16 v153) := fun v153 => decidable_of_iff' _ (Iff.of_eq (k1_chk16.eq_1 v153))
theorem k1_off32_inb : ∀ (v153 : BitVec 32) (k1_hw16 : k1_chk16 v153), ∀ a, (k1_off32 v153) a + S1x16384.size a ≤ S16384x16384.size a := fun v153 k1_hw16 => k1_hw16

def k1_off33 (i : grid1.Coords) : Fin 1 → Nat :=
  let arg0 : BitVec 32 := BitVec.ofNat 32 (i 0).val
  let c128_i32_47 : BitVec 32 := 128#32
  let v160 : BitVec 32 := Scalar.muli arg0 c128_i32_47
  let c16_i32 : BitVec 32 := 16#32
  let v161 : BitVec 32 := Scalar.addi v160 c16_i32
  let v162 : Index := Scalar.indexCast v161
  ![v162.toNat]
def k1_off34 (v163 : BitVec 32) : Fin 2 → Nat :=
  let c0_i32_49 : BitVec 32 := 0#32
  ![v163.toNat, 0]

def k1_chk17 (v163 : BitVec 32) : Prop :=
  (∀ a, (k1_off34 v163) a + S1x16384.size a ≤ S16384x16384.size a)
instance k1_chk17.dec : ∀ (v163 : BitVec 32), Decidable (k1_chk17 v163) := fun v163 => decidable_of_iff' _ (Iff.of_eq (k1_chk17.eq_1 v163))
theorem k1_off34_inb : ∀ (v163 : BitVec 32) (k1_hw17 : k1_chk17 v163), ∀ a, (k1_off34 v163) a + S1x16384.size a ≤ S16384x16384.size a := fun v163 k1_hw17 => k1_hw17

def k1_off35 (i : grid1.Coords) : Fin 1 → Nat :=
  let arg0 : BitVec 32 := BitVec.ofNat 32 (i 0).val
  let c128_i32_50 : BitVec 32 := 128#32
  let v170 : BitVec 32 := Scalar.muli arg0 c128_i32_50
  let c17_i32 : BitVec 32 := 17#32
  let v171 : BitVec 32 := Scalar.addi v170 c17_i32
  let v172 : Index := Scalar.indexCast v171
  ![v172.toNat]
def k1_off36 (v173 : BitVec 32) : Fin 2 → Nat :=
  let c0_i32_52 : BitVec 32 := 0#32
  ![v173.toNat, 0]

def k1_chk18 (v173 : BitVec 32) : Prop :=
  (∀ a, (k1_off36 v173) a + S1x16384.size a ≤ S16384x16384.size a)
instance k1_chk18.dec : ∀ (v173 : BitVec 32), Decidable (k1_chk18 v173) := fun v173 => decidable_of_iff' _ (Iff.of_eq (k1_chk18.eq_1 v173))
theorem k1_off36_inb : ∀ (v173 : BitVec 32) (k1_hw18 : k1_chk18 v173), ∀ a, (k1_off36 v173) a + S1x16384.size a ≤ S16384x16384.size a := fun v173 k1_hw18 => k1_hw18

def k1_off37 (i : grid1.Coords) : Fin 1 → Nat :=
  let arg0 : BitVec 32 := BitVec.ofNat 32 (i 0).val
  let c128_i32_53 : BitVec 32 := 128#32
  let v180 : BitVec 32 := Scalar.muli arg0 c128_i32_53
  let c18_i32 : BitVec 32 := 18#32
  let v181 : BitVec 32 := Scalar.addi v180 c18_i32
  let v182 : Index := Scalar.indexCast v181
  ![v182.toNat]
def k1_off38 (v183 : BitVec 32) : Fin 2 → Nat :=
  let c0_i32_55 : BitVec 32 := 0#32
  ![v183.toNat, 0]

def k1_chk19 (v183 : BitVec 32) : Prop :=
  (∀ a, (k1_off38 v183) a + S1x16384.size a ≤ S16384x16384.size a)
instance k1_chk19.dec : ∀ (v183 : BitVec 32), Decidable (k1_chk19 v183) := fun v183 => decidable_of_iff' _ (Iff.of_eq (k1_chk19.eq_1 v183))
theorem k1_off38_inb : ∀ (v183 : BitVec 32) (k1_hw19 : k1_chk19 v183), ∀ a, (k1_off38 v183) a + S1x16384.size a ≤ S16384x16384.size a := fun v183 k1_hw19 => k1_hw19

def k1_off39 (i : grid1.Coords) : Fin 1 → Nat :=
  let arg0 : BitVec 32 := BitVec.ofNat 32 (i 0).val
  let c128_i32_56 : BitVec 32 := 128#32
  let v190 : BitVec 32 := Scalar.muli arg0 c128_i32_56
  let c19_i32 : BitVec 32 := 19#32
  let v191 : BitVec 32 := Scalar.addi v190 c19_i32
  let v192 : Index := Scalar.indexCast v191
  ![v192.toNat]
def k1_off40 (v193 : BitVec 32) : Fin 2 → Nat :=
  let c0_i32_58 : BitVec 32 := 0#32
  ![v193.toNat, 0]

def k1_chk20 (v193 : BitVec 32) : Prop :=
  (∀ a, (k1_off40 v193) a + S1x16384.size a ≤ S16384x16384.size a)
instance k1_chk20.dec : ∀ (v193 : BitVec 32), Decidable (k1_chk20 v193) := fun v193 => decidable_of_iff' _ (Iff.of_eq (k1_chk20.eq_1 v193))
theorem k1_off40_inb : ∀ (v193 : BitVec 32) (k1_hw20 : k1_chk20 v193), ∀ a, (k1_off40 v193) a + S1x16384.size a ≤ S16384x16384.size a := fun v193 k1_hw20 => k1_hw20

def k1_off41 (i : grid1.Coords) : Fin 1 → Nat :=
  let arg0 : BitVec 32 := BitVec.ofNat 32 (i 0).val
  let c128_i32_59 : BitVec 32 := 128#32
  let v200 : BitVec 32 := Scalar.muli arg0 c128_i32_59
  let c20_i32 : BitVec 32 := 20#32
  let v201 : BitVec 32 := Scalar.addi v200 c20_i32
  let v202 : Index := Scalar.indexCast v201
  ![v202.toNat]
def k1_off42 (v203 : BitVec 32) : Fin 2 → Nat :=
  let c0_i32_61 : BitVec 32 := 0#32
  ![v203.toNat, 0]

def k1_chk21 (v203 : BitVec 32) : Prop :=
  (∀ a, (k1_off42 v203) a + S1x16384.size a ≤ S16384x16384.size a)
instance k1_chk21.dec : ∀ (v203 : BitVec 32), Decidable (k1_chk21 v203) := fun v203 => decidable_of_iff' _ (Iff.of_eq (k1_chk21.eq_1 v203))
theorem k1_off42_inb : ∀ (v203 : BitVec 32) (k1_hw21 : k1_chk21 v203), ∀ a, (k1_off42 v203) a + S1x16384.size a ≤ S16384x16384.size a := fun v203 k1_hw21 => k1_hw21

def k1_off43 (i : grid1.Coords) : Fin 1 → Nat :=
  let arg0 : BitVec 32 := BitVec.ofNat 32 (i 0).val
  let c128_i32_62 : BitVec 32 := 128#32
  let v210 : BitVec 32 := Scalar.muli arg0 c128_i32_62
  let c21_i32 : BitVec 32 := 21#32
  let v211 : BitVec 32 := Scalar.addi v210 c21_i32
  let v212 : Index := Scalar.indexCast v211
  ![v212.toNat]
def k1_off44 (v213 : BitVec 32) : Fin 2 → Nat :=
  let c0_i32_64 : BitVec 32 := 0#32
  ![v213.toNat, 0]

def k1_chk22 (v213 : BitVec 32) : Prop :=
  (∀ a, (k1_off44 v213) a + S1x16384.size a ≤ S16384x16384.size a)
instance k1_chk22.dec : ∀ (v213 : BitVec 32), Decidable (k1_chk22 v213) := fun v213 => decidable_of_iff' _ (Iff.of_eq (k1_chk22.eq_1 v213))
theorem k1_off44_inb : ∀ (v213 : BitVec 32) (k1_hw22 : k1_chk22 v213), ∀ a, (k1_off44 v213) a + S1x16384.size a ≤ S16384x16384.size a := fun v213 k1_hw22 => k1_hw22

def k1_off45 (i : grid1.Coords) : Fin 1 → Nat :=
  let arg0 : BitVec 32 := BitVec.ofNat 32 (i 0).val
  let c128_i32_65 : BitVec 32 := 128#32
  let v220 : BitVec 32 := Scalar.muli arg0 c128_i32_65
  let c22_i32 : BitVec 32 := 22#32
  let v221 : BitVec 32 := Scalar.addi v220 c22_i32
  let v222 : Index := Scalar.indexCast v221
  ![v222.toNat]
def k1_off46 (v223 : BitVec 32) : Fin 2 → Nat :=
  let c0_i32_67 : BitVec 32 := 0#32
  ![v223.toNat, 0]

def k1_chk23 (v223 : BitVec 32) : Prop :=
  (∀ a, (k1_off46 v223) a + S1x16384.size a ≤ S16384x16384.size a)
instance k1_chk23.dec : ∀ (v223 : BitVec 32), Decidable (k1_chk23 v223) := fun v223 => decidable_of_iff' _ (Iff.of_eq (k1_chk23.eq_1 v223))
theorem k1_off46_inb : ∀ (v223 : BitVec 32) (k1_hw23 : k1_chk23 v223), ∀ a, (k1_off46 v223) a + S1x16384.size a ≤ S16384x16384.size a := fun v223 k1_hw23 => k1_hw23

def k1_off47 (i : grid1.Coords) : Fin 1 → Nat :=
  let arg0 : BitVec 32 := BitVec.ofNat 32 (i 0).val
  let c128_i32_68 : BitVec 32 := 128#32
  let v230 : BitVec 32 := Scalar.muli arg0 c128_i32_68
  let c23_i32 : BitVec 32 := 23#32
  let v231 : BitVec 32 := Scalar.addi v230 c23_i32
  let v232 : Index := Scalar.indexCast v231
  ![v232.toNat]
def k1_off48 (v233 : BitVec 32) : Fin 2 → Nat :=
  let c0_i32_70 : BitVec 32 := 0#32
  ![v233.toNat, 0]

def k1_chk24 (v233 : BitVec 32) : Prop :=
  (∀ a, (k1_off48 v233) a + S1x16384.size a ≤ S16384x16384.size a)
instance k1_chk24.dec : ∀ (v233 : BitVec 32), Decidable (k1_chk24 v233) := fun v233 => decidable_of_iff' _ (Iff.of_eq (k1_chk24.eq_1 v233))
theorem k1_off48_inb : ∀ (v233 : BitVec 32) (k1_hw24 : k1_chk24 v233), ∀ a, (k1_off48 v233) a + S1x16384.size a ≤ S16384x16384.size a := fun v233 k1_hw24 => k1_hw24

def k1_off49 (i : grid1.Coords) : Fin 1 → Nat :=
  let arg0 : BitVec 32 := BitVec.ofNat 32 (i 0).val
  let c128_i32_71 : BitVec 32 := 128#32
  let v240 : BitVec 32 := Scalar.muli arg0 c128_i32_71
  let c24_i32 : BitVec 32 := 24#32
  let v241 : BitVec 32 := Scalar.addi v240 c24_i32
  let v242 : Index := Scalar.indexCast v241
  ![v242.toNat]
def k1_off50 (v243 : BitVec 32) : Fin 2 → Nat :=
  let c0_i32_73 : BitVec 32 := 0#32
  ![v243.toNat, 0]

def k1_chk25 (v243 : BitVec 32) : Prop :=
  (∀ a, (k1_off50 v243) a + S1x16384.size a ≤ S16384x16384.size a)
instance k1_chk25.dec : ∀ (v243 : BitVec 32), Decidable (k1_chk25 v243) := fun v243 => decidable_of_iff' _ (Iff.of_eq (k1_chk25.eq_1 v243))
theorem k1_off50_inb : ∀ (v243 : BitVec 32) (k1_hw25 : k1_chk25 v243), ∀ a, (k1_off50 v243) a + S1x16384.size a ≤ S16384x16384.size a := fun v243 k1_hw25 => k1_hw25

def k1_off51 (i : grid1.Coords) : Fin 1 → Nat :=
  let arg0 : BitVec 32 := BitVec.ofNat 32 (i 0).val
  let c128_i32_74 : BitVec 32 := 128#32
  let v250 : BitVec 32 := Scalar.muli arg0 c128_i32_74
  let c25_i32 : BitVec 32 := 25#32
  let v251 : BitVec 32 := Scalar.addi v250 c25_i32
  let v252 : Index := Scalar.indexCast v251
  ![v252.toNat]
def k1_off52 (v253 : BitVec 32) : Fin 2 → Nat :=
  let c0_i32_76 : BitVec 32 := 0#32
  ![v253.toNat, 0]

def k1_chk26 (v253 : BitVec 32) : Prop :=
  (∀ a, (k1_off52 v253) a + S1x16384.size a ≤ S16384x16384.size a)
instance k1_chk26.dec : ∀ (v253 : BitVec 32), Decidable (k1_chk26 v253) := fun v253 => decidable_of_iff' _ (Iff.of_eq (k1_chk26.eq_1 v253))
theorem k1_off52_inb : ∀ (v253 : BitVec 32) (k1_hw26 : k1_chk26 v253), ∀ a, (k1_off52 v253) a + S1x16384.size a ≤ S16384x16384.size a := fun v253 k1_hw26 => k1_hw26

def k1_off53 (i : grid1.Coords) : Fin 1 → Nat :=
  let arg0 : BitVec 32 := BitVec.ofNat 32 (i 0).val
  let c128_i32_77 : BitVec 32 := 128#32
  let v260 : BitVec 32 := Scalar.muli arg0 c128_i32_77
  let c26_i32 : BitVec 32 := 26#32
  let v261 : BitVec 32 := Scalar.addi v260 c26_i32
  let v262 : Index := Scalar.indexCast v261
  ![v262.toNat]
def k1_off54 (v263 : BitVec 32) : Fin 2 → Nat :=
  let c0_i32_79 : BitVec 32 := 0#32
  ![v263.toNat, 0]

def k1_chk27 (v263 : BitVec 32) : Prop :=
  (∀ a, (k1_off54 v263) a + S1x16384.size a ≤ S16384x16384.size a)
instance k1_chk27.dec : ∀ (v263 : BitVec 32), Decidable (k1_chk27 v263) := fun v263 => decidable_of_iff' _ (Iff.of_eq (k1_chk27.eq_1 v263))
theorem k1_off54_inb : ∀ (v263 : BitVec 32) (k1_hw27 : k1_chk27 v263), ∀ a, (k1_off54 v263) a + S1x16384.size a ≤ S16384x16384.size a := fun v263 k1_hw27 => k1_hw27

def k1_off55 (i : grid1.Coords) : Fin 1 → Nat :=
  let arg0 : BitVec 32 := BitVec.ofNat 32 (i 0).val
  let c128_i32_80 : BitVec 32 := 128#32
  let v270 : BitVec 32 := Scalar.muli arg0 c128_i32_80
  let c27_i32 : BitVec 32 := 27#32
  let v271 : BitVec 32 := Scalar.addi v270 c27_i32
  let v272 : Index := Scalar.indexCast v271
  ![v272.toNat]
def k1_off56 (v273 : BitVec 32) : Fin 2 → Nat :=
  let c0_i32_82 : BitVec 32 := 0#32
  ![v273.toNat, 0]

def k1_chk28 (v273 : BitVec 32) : Prop :=
  (∀ a, (k1_off56 v273) a + S1x16384.size a ≤ S16384x16384.size a)
instance k1_chk28.dec : ∀ (v273 : BitVec 32), Decidable (k1_chk28 v273) := fun v273 => decidable_of_iff' _ (Iff.of_eq (k1_chk28.eq_1 v273))
theorem k1_off56_inb : ∀ (v273 : BitVec 32) (k1_hw28 : k1_chk28 v273), ∀ a, (k1_off56 v273) a + S1x16384.size a ≤ S16384x16384.size a := fun v273 k1_hw28 => k1_hw28

def k1_off57 (i : grid1.Coords) : Fin 1 → Nat :=
  let arg0 : BitVec 32 := BitVec.ofNat 32 (i 0).val
  let c128_i32_83 : BitVec 32 := 128#32
  let v280 : BitVec 32 := Scalar.muli arg0 c128_i32_83
  let c28_i32 : BitVec 32 := 28#32
  let v281 : BitVec 32 := Scalar.addi v280 c28_i32
  let v282 : Index := Scalar.indexCast v281
  ![v282.toNat]
def k1_off58 (v283 : BitVec 32) : Fin 2 → Nat :=
  let c0_i32_85 : BitVec 32 := 0#32
  ![v283.toNat, 0]

def k1_chk29 (v283 : BitVec 32) : Prop :=
  (∀ a, (k1_off58 v283) a + S1x16384.size a ≤ S16384x16384.size a)
instance k1_chk29.dec : ∀ (v283 : BitVec 32), Decidable (k1_chk29 v283) := fun v283 => decidable_of_iff' _ (Iff.of_eq (k1_chk29.eq_1 v283))
theorem k1_off58_inb : ∀ (v283 : BitVec 32) (k1_hw29 : k1_chk29 v283), ∀ a, (k1_off58 v283) a + S1x16384.size a ≤ S16384x16384.size a := fun v283 k1_hw29 => k1_hw29

def k1_off59 (i : grid1.Coords) : Fin 1 → Nat :=
  let arg0 : BitVec 32 := BitVec.ofNat 32 (i 0).val
  let c128_i32_86 : BitVec 32 := 128#32
  let v290 : BitVec 32 := Scalar.muli arg0 c128_i32_86
  let c29_i32 : BitVec 32 := 29#32
  let v291 : BitVec 32 := Scalar.addi v290 c29_i32
  let v292 : Index := Scalar.indexCast v291
  ![v292.toNat]
def k1_off60 (v293 : BitVec 32) : Fin 2 → Nat :=
  let c0_i32_88 : BitVec 32 := 0#32
  ![v293.toNat, 0]

def k1_chk30 (v293 : BitVec 32) : Prop :=
  (∀ a, (k1_off60 v293) a + S1x16384.size a ≤ S16384x16384.size a)
instance k1_chk30.dec : ∀ (v293 : BitVec 32), Decidable (k1_chk30 v293) := fun v293 => decidable_of_iff' _ (Iff.of_eq (k1_chk30.eq_1 v293))
theorem k1_off60_inb : ∀ (v293 : BitVec 32) (k1_hw30 : k1_chk30 v293), ∀ a, (k1_off60 v293) a + S1x16384.size a ≤ S16384x16384.size a := fun v293 k1_hw30 => k1_hw30

def k1_off61 (i : grid1.Coords) : Fin 1 → Nat :=
  let arg0 : BitVec 32 := BitVec.ofNat 32 (i 0).val
  let c128_i32_89 : BitVec 32 := 128#32
  let v300 : BitVec 32 := Scalar.muli arg0 c128_i32_89
  let c30_i32 : BitVec 32 := 30#32
  let v301 : BitVec 32 := Scalar.addi v300 c30_i32
  let v302 : Index := Scalar.indexCast v301
  ![v302.toNat]
def k1_off62 (v303 : BitVec 32) : Fin 2 → Nat :=
  let c0_i32_91 : BitVec 32 := 0#32
  ![v303.toNat, 0]

def k1_chk31 (v303 : BitVec 32) : Prop :=
  (∀ a, (k1_off62 v303) a + S1x16384.size a ≤ S16384x16384.size a)
instance k1_chk31.dec : ∀ (v303 : BitVec 32), Decidable (k1_chk31 v303) := fun v303 => decidable_of_iff' _ (Iff.of_eq (k1_chk31.eq_1 v303))
theorem k1_off62_inb : ∀ (v303 : BitVec 32) (k1_hw31 : k1_chk31 v303), ∀ a, (k1_off62 v303) a + S1x16384.size a ≤ S16384x16384.size a := fun v303 k1_hw31 => k1_hw31

def k1_off63 (i : grid1.Coords) : Fin 1 → Nat :=
  let arg0 : BitVec 32 := BitVec.ofNat 32 (i 0).val
  let c128_i32_92 : BitVec 32 := 128#32
  let v310 : BitVec 32 := Scalar.muli arg0 c128_i32_92
  let c31_i32 : BitVec 32 := 31#32
  let v311 : BitVec 32 := Scalar.addi v310 c31_i32
  let v312 : Index := Scalar.indexCast v311
  ![v312.toNat]
def k1_off64 (v313 : BitVec 32) : Fin 2 → Nat :=
  let c0_i32_94 : BitVec 32 := 0#32
  ![v313.toNat, 0]

def k1_chk32 (v313 : BitVec 32) : Prop :=
  (∀ a, (k1_off64 v313) a + S1x16384.size a ≤ S16384x16384.size a)
instance k1_chk32.dec : ∀ (v313 : BitVec 32), Decidable (k1_chk32 v313) := fun v313 => decidable_of_iff' _ (Iff.of_eq (k1_chk32.eq_1 v313))
theorem k1_off64_inb : ∀ (v313 : BitVec 32) (k1_hw32 : k1_chk32 v313), ∀ a, (k1_off64 v313) a + S1x16384.size a ≤ S16384x16384.size a := fun v313 k1_hw32 => k1_hw32

def k1_off65 (i : grid1.Coords) : Fin 1 → Nat :=
  let arg0 : BitVec 32 := BitVec.ofNat 32 (i 0).val
  let c128_i32_95 : BitVec 32 := 128#32
  let v320 : BitVec 32 := Scalar.muli arg0 c128_i32_95
  let c32_i32 : BitVec 32 := 32#32
  let v321 : BitVec 32 := Scalar.addi v320 c32_i32
  let v322 : Index := Scalar.indexCast v321
  ![v322.toNat]
def k1_off66 (v323 : BitVec 32) : Fin 2 → Nat :=
  let c0_i32_97 : BitVec 32 := 0#32
  ![v323.toNat, 0]

def k1_chk33 (v323 : BitVec 32) : Prop :=
  (∀ a, (k1_off66 v323) a + S1x16384.size a ≤ S16384x16384.size a)
instance k1_chk33.dec : ∀ (v323 : BitVec 32), Decidable (k1_chk33 v323) := fun v323 => decidable_of_iff' _ (Iff.of_eq (k1_chk33.eq_1 v323))
theorem k1_off66_inb : ∀ (v323 : BitVec 32) (k1_hw33 : k1_chk33 v323), ∀ a, (k1_off66 v323) a + S1x16384.size a ≤ S16384x16384.size a := fun v323 k1_hw33 => k1_hw33

def k1_off67 (i : grid1.Coords) : Fin 1 → Nat :=
  let arg0 : BitVec 32 := BitVec.ofNat 32 (i 0).val
  let c128_i32_98 : BitVec 32 := 128#32
  let v330 : BitVec 32 := Scalar.muli arg0 c128_i32_98
  let c33_i32 : BitVec 32 := 33#32
  let v331 : BitVec 32 := Scalar.addi v330 c33_i32
  let v332 : Index := Scalar.indexCast v331
  ![v332.toNat]
def k1_off68 (v333 : BitVec 32) : Fin 2 → Nat :=
  let c0_i32_100 : BitVec 32 := 0#32
  ![v333.toNat, 0]

def k1_chk34 (v333 : BitVec 32) : Prop :=
  (∀ a, (k1_off68 v333) a + S1x16384.size a ≤ S16384x16384.size a)
instance k1_chk34.dec : ∀ (v333 : BitVec 32), Decidable (k1_chk34 v333) := fun v333 => decidable_of_iff' _ (Iff.of_eq (k1_chk34.eq_1 v333))
theorem k1_off68_inb : ∀ (v333 : BitVec 32) (k1_hw34 : k1_chk34 v333), ∀ a, (k1_off68 v333) a + S1x16384.size a ≤ S16384x16384.size a := fun v333 k1_hw34 => k1_hw34

def k1_off69 (i : grid1.Coords) : Fin 1 → Nat :=
  let arg0 : BitVec 32 := BitVec.ofNat 32 (i 0).val
  let c128_i32_101 : BitVec 32 := 128#32
  let v340 : BitVec 32 := Scalar.muli arg0 c128_i32_101
  let c34_i32 : BitVec 32 := 34#32
  let v341 : BitVec 32 := Scalar.addi v340 c34_i32
  let v342 : Index := Scalar.indexCast v341
  ![v342.toNat]
def k1_off70 (v343 : BitVec 32) : Fin 2 → Nat :=
  let c0_i32_103 : BitVec 32 := 0#32
  ![v343.toNat, 0]

def k1_chk35 (v343 : BitVec 32) : Prop :=
  (∀ a, (k1_off70 v343) a + S1x16384.size a ≤ S16384x16384.size a)
instance k1_chk35.dec : ∀ (v343 : BitVec 32), Decidable (k1_chk35 v343) := fun v343 => decidable_of_iff' _ (Iff.of_eq (k1_chk35.eq_1 v343))
theorem k1_off70_inb : ∀ (v343 : BitVec 32) (k1_hw35 : k1_chk35 v343), ∀ a, (k1_off70 v343) a + S1x16384.size a ≤ S16384x16384.size a := fun v343 k1_hw35 => k1_hw35

def k1_off71 (i : grid1.Coords) : Fin 1 → Nat :=
  let arg0 : BitVec 32 := BitVec.ofNat 32 (i 0).val
  let c128_i32_104 : BitVec 32 := 128#32
  let v350 : BitVec 32 := Scalar.muli arg0 c128_i32_104
  let c35_i32 : BitVec 32 := 35#32
  let v351 : BitVec 32 := Scalar.addi v350 c35_i32
  let v352 : Index := Scalar.indexCast v351
  ![v352.toNat]
def k1_off72 (v353 : BitVec 32) : Fin 2 → Nat :=
  let c0_i32_106 : BitVec 32 := 0#32
  ![v353.toNat, 0]

def k1_chk36 (v353 : BitVec 32) : Prop :=
  (∀ a, (k1_off72 v353) a + S1x16384.size a ≤ S16384x16384.size a)
instance k1_chk36.dec : ∀ (v353 : BitVec 32), Decidable (k1_chk36 v353) := fun v353 => decidable_of_iff' _ (Iff.of_eq (k1_chk36.eq_1 v353))
theorem k1_off72_inb : ∀ (v353 : BitVec 32) (k1_hw36 : k1_chk36 v353), ∀ a, (k1_off72 v353) a + S1x16384.size a ≤ S16384x16384.size a := fun v353 k1_hw36 => k1_hw36

def k1_off73 (i : grid1.Coords) : Fin 1 → Nat :=
  let arg0 : BitVec 32 := BitVec.ofNat 32 (i 0).val
  let c128_i32_107 : BitVec 32 := 128#32
  let v360 : BitVec 32 := Scalar.muli arg0 c128_i32_107
  let c36_i32 : BitVec 32 := 36#32
  let v361 : BitVec 32 := Scalar.addi v360 c36_i32
  let v362 : Index := Scalar.indexCast v361
  ![v362.toNat]
def k1_off74 (v363 : BitVec 32) : Fin 2 → Nat :=
  let c0_i32_109 : BitVec 32 := 0#32
  ![v363.toNat, 0]

def k1_chk37 (v363 : BitVec 32) : Prop :=
  (∀ a, (k1_off74 v363) a + S1x16384.size a ≤ S16384x16384.size a)
instance k1_chk37.dec : ∀ (v363 : BitVec 32), Decidable (k1_chk37 v363) := fun v363 => decidable_of_iff' _ (Iff.of_eq (k1_chk37.eq_1 v363))
theorem k1_off74_inb : ∀ (v363 : BitVec 32) (k1_hw37 : k1_chk37 v363), ∀ a, (k1_off74 v363) a + S1x16384.size a ≤ S16384x16384.size a := fun v363 k1_hw37 => k1_hw37

def k1_off75 (i : grid1.Coords) : Fin 1 → Nat :=
  let arg0 : BitVec 32 := BitVec.ofNat 32 (i 0).val
  let c128_i32_110 : BitVec 32 := 128#32
  let v370 : BitVec 32 := Scalar.muli arg0 c128_i32_110
  let c37_i32 : BitVec 32 := 37#32
  let v371 : BitVec 32 := Scalar.addi v370 c37_i32
  let v372 : Index := Scalar.indexCast v371
  ![v372.toNat]
def k1_off76 (v373 : BitVec 32) : Fin 2 → Nat :=
  let c0_i32_112 : BitVec 32 := 0#32
  ![v373.toNat, 0]

def k1_chk38 (v373 : BitVec 32) : Prop :=
  (∀ a, (k1_off76 v373) a + S1x16384.size a ≤ S16384x16384.size a)
instance k1_chk38.dec : ∀ (v373 : BitVec 32), Decidable (k1_chk38 v373) := fun v373 => decidable_of_iff' _ (Iff.of_eq (k1_chk38.eq_1 v373))
theorem k1_off76_inb : ∀ (v373 : BitVec 32) (k1_hw38 : k1_chk38 v373), ∀ a, (k1_off76 v373) a + S1x16384.size a ≤ S16384x16384.size a := fun v373 k1_hw38 => k1_hw38

def k1_off77 (i : grid1.Coords) : Fin 1 → Nat :=
  let arg0 : BitVec 32 := BitVec.ofNat 32 (i 0).val
  let c128_i32_113 : BitVec 32 := 128#32
  let v380 : BitVec 32 := Scalar.muli arg0 c128_i32_113
  let c38_i32 : BitVec 32 := 38#32
  let v381 : BitVec 32 := Scalar.addi v380 c38_i32
  let v382 : Index := Scalar.indexCast v381
  ![v382.toNat]
def k1_off78 (v383 : BitVec 32) : Fin 2 → Nat :=
  let c0_i32_115 : BitVec 32 := 0#32
  ![v383.toNat, 0]

def k1_chk39 (v383 : BitVec 32) : Prop :=
  (∀ a, (k1_off78 v383) a + S1x16384.size a ≤ S16384x16384.size a)
instance k1_chk39.dec : ∀ (v383 : BitVec 32), Decidable (k1_chk39 v383) := fun v383 => decidable_of_iff' _ (Iff.of_eq (k1_chk39.eq_1 v383))
theorem k1_off78_inb : ∀ (v383 : BitVec 32) (k1_hw39 : k1_chk39 v383), ∀ a, (k1_off78 v383) a + S1x16384.size a ≤ S16384x16384.size a := fun v383 k1_hw39 => k1_hw39

def k1_off79 (i : grid1.Coords) : Fin 1 → Nat :=
  let arg0 : BitVec 32 := BitVec.ofNat 32 (i 0).val
  let c128_i32_116 : BitVec 32 := 128#32
  let v390 : BitVec 32 := Scalar.muli arg0 c128_i32_116
  let c39_i32 : BitVec 32 := 39#32
  let v391 : BitVec 32 := Scalar.addi v390 c39_i32
  let v392 : Index := Scalar.indexCast v391
  ![v392.toNat]
def k1_off80 (v393 : BitVec 32) : Fin 2 → Nat :=
  let c0_i32_118 : BitVec 32 := 0#32
  ![v393.toNat, 0]

def k1_chk40 (v393 : BitVec 32) : Prop :=
  (∀ a, (k1_off80 v393) a + S1x16384.size a ≤ S16384x16384.size a)
instance k1_chk40.dec : ∀ (v393 : BitVec 32), Decidable (k1_chk40 v393) := fun v393 => decidable_of_iff' _ (Iff.of_eq (k1_chk40.eq_1 v393))
theorem k1_off80_inb : ∀ (v393 : BitVec 32) (k1_hw40 : k1_chk40 v393), ∀ a, (k1_off80 v393) a + S1x16384.size a ≤ S16384x16384.size a := fun v393 k1_hw40 => k1_hw40

def k1_off81 (i : grid1.Coords) : Fin 1 → Nat :=
  let arg0 : BitVec 32 := BitVec.ofNat 32 (i 0).val
  let c128_i32_119 : BitVec 32 := 128#32
  let v400 : BitVec 32 := Scalar.muli arg0 c128_i32_119
  let c40_i32 : BitVec 32 := 40#32
  let v401 : BitVec 32 := Scalar.addi v400 c40_i32
  let v402 : Index := Scalar.indexCast v401
  ![v402.toNat]
def k1_off82 (v403 : BitVec 32) : Fin 2 → Nat :=
  let c0_i32_121 : BitVec 32 := 0#32
  ![v403.toNat, 0]

def k1_chk41 (v403 : BitVec 32) : Prop :=
  (∀ a, (k1_off82 v403) a + S1x16384.size a ≤ S16384x16384.size a)
instance k1_chk41.dec : ∀ (v403 : BitVec 32), Decidable (k1_chk41 v403) := fun v403 => decidable_of_iff' _ (Iff.of_eq (k1_chk41.eq_1 v403))
theorem k1_off82_inb : ∀ (v403 : BitVec 32) (k1_hw41 : k1_chk41 v403), ∀ a, (k1_off82 v403) a + S1x16384.size a ≤ S16384x16384.size a := fun v403 k1_hw41 => k1_hw41

def k1_off83 (i : grid1.Coords) : Fin 1 → Nat :=
  let arg0 : BitVec 32 := BitVec.ofNat 32 (i 0).val
  let c128_i32_122 : BitVec 32 := 128#32
  let v410 : BitVec 32 := Scalar.muli arg0 c128_i32_122
  let c41_i32 : BitVec 32 := 41#32
  let v411 : BitVec 32 := Scalar.addi v410 c41_i32
  let v412 : Index := Scalar.indexCast v411
  ![v412.toNat]
def k1_off84 (v413 : BitVec 32) : Fin 2 → Nat :=
  let c0_i32_124 : BitVec 32 := 0#32
  ![v413.toNat, 0]

def k1_chk42 (v413 : BitVec 32) : Prop :=
  (∀ a, (k1_off84 v413) a + S1x16384.size a ≤ S16384x16384.size a)
instance k1_chk42.dec : ∀ (v413 : BitVec 32), Decidable (k1_chk42 v413) := fun v413 => decidable_of_iff' _ (Iff.of_eq (k1_chk42.eq_1 v413))
theorem k1_off84_inb : ∀ (v413 : BitVec 32) (k1_hw42 : k1_chk42 v413), ∀ a, (k1_off84 v413) a + S1x16384.size a ≤ S16384x16384.size a := fun v413 k1_hw42 => k1_hw42

def k1_off85 (i : grid1.Coords) : Fin 1 → Nat :=
  let arg0 : BitVec 32 := BitVec.ofNat 32 (i 0).val
  let c128_i32_125 : BitVec 32 := 128#32
  let v420 : BitVec 32 := Scalar.muli arg0 c128_i32_125
  let c42_i32 : BitVec 32 := 42#32
  let v421 : BitVec 32 := Scalar.addi v420 c42_i32
  let v422 : Index := Scalar.indexCast v421
  ![v422.toNat]
def k1_off86 (v423 : BitVec 32) : Fin 2 → Nat :=
  let c0_i32_127 : BitVec 32 := 0#32
  ![v423.toNat, 0]

def k1_chk43 (v423 : BitVec 32) : Prop :=
  (∀ a, (k1_off86 v423) a + S1x16384.size a ≤ S16384x16384.size a)
instance k1_chk43.dec : ∀ (v423 : BitVec 32), Decidable (k1_chk43 v423) := fun v423 => decidable_of_iff' _ (Iff.of_eq (k1_chk43.eq_1 v423))
theorem k1_off86_inb : ∀ (v423 : BitVec 32) (k1_hw43 : k1_chk43 v423), ∀ a, (k1_off86 v423) a + S1x16384.size a ≤ S16384x16384.size a := fun v423 k1_hw43 => k1_hw43

def k1_off87 (i : grid1.Coords) : Fin 1 → Nat :=
  let arg0 : BitVec 32 := BitVec.ofNat 32 (i 0).val
  let c128_i32_128 : BitVec 32 := 128#32
  let v430 : BitVec 32 := Scalar.muli arg0 c128_i32_128
  let c43_i32 : BitVec 32 := 43#32
  let v431 : BitVec 32 := Scalar.addi v430 c43_i32
  let v432 : Index := Scalar.indexCast v431
  ![v432.toNat]
def k1_off88 (v433 : BitVec 32) : Fin 2 → Nat :=
  let c0_i32_130 : BitVec 32 := 0#32
  ![v433.toNat, 0]

def k1_chk44 (v433 : BitVec 32) : Prop :=
  (∀ a, (k1_off88 v433) a + S1x16384.size a ≤ S16384x16384.size a)
instance k1_chk44.dec : ∀ (v433 : BitVec 32), Decidable (k1_chk44 v433) := fun v433 => decidable_of_iff' _ (Iff.of_eq (k1_chk44.eq_1 v433))
theorem k1_off88_inb : ∀ (v433 : BitVec 32) (k1_hw44 : k1_chk44 v433), ∀ a, (k1_off88 v433) a + S1x16384.size a ≤ S16384x16384.size a := fun v433 k1_hw44 => k1_hw44

def k1_off89 (i : grid1.Coords) : Fin 1 → Nat :=
  let arg0 : BitVec 32 := BitVec.ofNat 32 (i 0).val
  let c128_i32_131 : BitVec 32 := 128#32
  let v440 : BitVec 32 := Scalar.muli arg0 c128_i32_131
  let c44_i32 : BitVec 32 := 44#32
  let v441 : BitVec 32 := Scalar.addi v440 c44_i32
  let v442 : Index := Scalar.indexCast v441
  ![v442.toNat]
def k1_off90 (v443 : BitVec 32) : Fin 2 → Nat :=
  let c0_i32_133 : BitVec 32 := 0#32
  ![v443.toNat, 0]

def k1_chk45 (v443 : BitVec 32) : Prop :=
  (∀ a, (k1_off90 v443) a + S1x16384.size a ≤ S16384x16384.size a)
instance k1_chk45.dec : ∀ (v443 : BitVec 32), Decidable (k1_chk45 v443) := fun v443 => decidable_of_iff' _ (Iff.of_eq (k1_chk45.eq_1 v443))
theorem k1_off90_inb : ∀ (v443 : BitVec 32) (k1_hw45 : k1_chk45 v443), ∀ a, (k1_off90 v443) a + S1x16384.size a ≤ S16384x16384.size a := fun v443 k1_hw45 => k1_hw45

def k1_off91 (i : grid1.Coords) : Fin 1 → Nat :=
  let arg0 : BitVec 32 := BitVec.ofNat 32 (i 0).val
  let c128_i32_134 : BitVec 32 := 128#32
  let v450 : BitVec 32 := Scalar.muli arg0 c128_i32_134
  let c45_i32 : BitVec 32 := 45#32
  let v451 : BitVec 32 := Scalar.addi v450 c45_i32
  let v452 : Index := Scalar.indexCast v451
  ![v452.toNat]
def k1_off92 (v453 : BitVec 32) : Fin 2 → Nat :=
  let c0_i32_136 : BitVec 32 := 0#32
  ![v453.toNat, 0]

def k1_chk46 (v453 : BitVec 32) : Prop :=
  (∀ a, (k1_off92 v453) a + S1x16384.size a ≤ S16384x16384.size a)
instance k1_chk46.dec : ∀ (v453 : BitVec 32), Decidable (k1_chk46 v453) := fun v453 => decidable_of_iff' _ (Iff.of_eq (k1_chk46.eq_1 v453))
theorem k1_off92_inb : ∀ (v453 : BitVec 32) (k1_hw46 : k1_chk46 v453), ∀ a, (k1_off92 v453) a + S1x16384.size a ≤ S16384x16384.size a := fun v453 k1_hw46 => k1_hw46

def k1_off93 (i : grid1.Coords) : Fin 1 → Nat :=
  let arg0 : BitVec 32 := BitVec.ofNat 32 (i 0).val
  let c128_i32_137 : BitVec 32 := 128#32
  let v460 : BitVec 32 := Scalar.muli arg0 c128_i32_137
  let c46_i32 : BitVec 32 := 46#32
  let v461 : BitVec 32 := Scalar.addi v460 c46_i32
  let v462 : Index := Scalar.indexCast v461
  ![v462.toNat]
def k1_off94 (v463 : BitVec 32) : Fin 2 → Nat :=
  let c0_i32_139 : BitVec 32 := 0#32
  ![v463.toNat, 0]

def k1_chk47 (v463 : BitVec 32) : Prop :=
  (∀ a, (k1_off94 v463) a + S1x16384.size a ≤ S16384x16384.size a)
instance k1_chk47.dec : ∀ (v463 : BitVec 32), Decidable (k1_chk47 v463) := fun v463 => decidable_of_iff' _ (Iff.of_eq (k1_chk47.eq_1 v463))
theorem k1_off94_inb : ∀ (v463 : BitVec 32) (k1_hw47 : k1_chk47 v463), ∀ a, (k1_off94 v463) a + S1x16384.size a ≤ S16384x16384.size a := fun v463 k1_hw47 => k1_hw47

def k1_off95 (i : grid1.Coords) : Fin 1 → Nat :=
  let arg0 : BitVec 32 := BitVec.ofNat 32 (i 0).val
  let c128_i32_140 : BitVec 32 := 128#32
  let v470 : BitVec 32 := Scalar.muli arg0 c128_i32_140
  let c47_i32 : BitVec 32 := 47#32
  let v471 : BitVec 32 := Scalar.addi v470 c47_i32
  let v472 : Index := Scalar.indexCast v471
  ![v472.toNat]
def k1_off96 (v473 : BitVec 32) : Fin 2 → Nat :=
  let c0_i32_142 : BitVec 32 := 0#32
  ![v473.toNat, 0]

def k1_chk48 (v473 : BitVec 32) : Prop :=
  (∀ a, (k1_off96 v473) a + S1x16384.size a ≤ S16384x16384.size a)
instance k1_chk48.dec : ∀ (v473 : BitVec 32), Decidable (k1_chk48 v473) := fun v473 => decidable_of_iff' _ (Iff.of_eq (k1_chk48.eq_1 v473))
theorem k1_off96_inb : ∀ (v473 : BitVec 32) (k1_hw48 : k1_chk48 v473), ∀ a, (k1_off96 v473) a + S1x16384.size a ≤ S16384x16384.size a := fun v473 k1_hw48 => k1_hw48

def k1_off97 (i : grid1.Coords) : Fin 1 → Nat :=
  let arg0 : BitVec 32 := BitVec.ofNat 32 (i 0).val
  let c128_i32_143 : BitVec 32 := 128#32
  let v480 : BitVec 32 := Scalar.muli arg0 c128_i32_143
  let c48_i32 : BitVec 32 := 48#32
  let v481 : BitVec 32 := Scalar.addi v480 c48_i32
  let v482 : Index := Scalar.indexCast v481
  ![v482.toNat]
def k1_off98 (v483 : BitVec 32) : Fin 2 → Nat :=
  let c0_i32_145 : BitVec 32 := 0#32
  ![v483.toNat, 0]

def k1_chk49 (v483 : BitVec 32) : Prop :=
  (∀ a, (k1_off98 v483) a + S1x16384.size a ≤ S16384x16384.size a)
instance k1_chk49.dec : ∀ (v483 : BitVec 32), Decidable (k1_chk49 v483) := fun v483 => decidable_of_iff' _ (Iff.of_eq (k1_chk49.eq_1 v483))
theorem k1_off98_inb : ∀ (v483 : BitVec 32) (k1_hw49 : k1_chk49 v483), ∀ a, (k1_off98 v483) a + S1x16384.size a ≤ S16384x16384.size a := fun v483 k1_hw49 => k1_hw49

def k1_off99 (i : grid1.Coords) : Fin 1 → Nat :=
  let arg0 : BitVec 32 := BitVec.ofNat 32 (i 0).val
  let c128_i32_146 : BitVec 32 := 128#32
  let v490 : BitVec 32 := Scalar.muli arg0 c128_i32_146
  let c49_i32 : BitVec 32 := 49#32
  let v491 : BitVec 32 := Scalar.addi v490 c49_i32
  let v492 : Index := Scalar.indexCast v491
  ![v492.toNat]
def k1_off100 (v493 : BitVec 32) : Fin 2 → Nat :=
  let c0_i32_148 : BitVec 32 := 0#32
  ![v493.toNat, 0]

def k1_chk50 (v493 : BitVec 32) : Prop :=
  (∀ a, (k1_off100 v493) a + S1x16384.size a ≤ S16384x16384.size a)
instance k1_chk50.dec : ∀ (v493 : BitVec 32), Decidable (k1_chk50 v493) := fun v493 => decidable_of_iff' _ (Iff.of_eq (k1_chk50.eq_1 v493))
theorem k1_off100_inb : ∀ (v493 : BitVec 32) (k1_hw50 : k1_chk50 v493), ∀ a, (k1_off100 v493) a + S1x16384.size a ≤ S16384x16384.size a := fun v493 k1_hw50 => k1_hw50

def k1_off101 (i : grid1.Coords) : Fin 1 → Nat :=
  let arg0 : BitVec 32 := BitVec.ofNat 32 (i 0).val
  let c128_i32_149 : BitVec 32 := 128#32
  let v500 : BitVec 32 := Scalar.muli arg0 c128_i32_149
  let c50_i32 : BitVec 32 := 50#32
  let v501 : BitVec 32 := Scalar.addi v500 c50_i32
  let v502 : Index := Scalar.indexCast v501
  ![v502.toNat]
def k1_off102 (v503 : BitVec 32) : Fin 2 → Nat :=
  let c0_i32_151 : BitVec 32 := 0#32
  ![v503.toNat, 0]

def k1_chk51 (v503 : BitVec 32) : Prop :=
  (∀ a, (k1_off102 v503) a + S1x16384.size a ≤ S16384x16384.size a)
instance k1_chk51.dec : ∀ (v503 : BitVec 32), Decidable (k1_chk51 v503) := fun v503 => decidable_of_iff' _ (Iff.of_eq (k1_chk51.eq_1 v503))
theorem k1_off102_inb : ∀ (v503 : BitVec 32) (k1_hw51 : k1_chk51 v503), ∀ a, (k1_off102 v503) a + S1x16384.size a ≤ S16384x16384.size a := fun v503 k1_hw51 => k1_hw51

def k1_off103 (i : grid1.Coords) : Fin 1 → Nat :=
  let arg0 : BitVec 32 := BitVec.ofNat 32 (i 0).val
  let c128_i32_152 : BitVec 32 := 128#32
  let v510 : BitVec 32 := Scalar.muli arg0 c128_i32_152
  let c51_i32 : BitVec 32 := 51#32
  let v511 : BitVec 32 := Scalar.addi v510 c51_i32
  let v512 : Index := Scalar.indexCast v511
  ![v512.toNat]
def k1_off104 (v513 : BitVec 32) : Fin 2 → Nat :=
  let c0_i32_154 : BitVec 32 := 0#32
  ![v513.toNat, 0]

def k1_chk52 (v513 : BitVec 32) : Prop :=
  (∀ a, (k1_off104 v513) a + S1x16384.size a ≤ S16384x16384.size a)
instance k1_chk52.dec : ∀ (v513 : BitVec 32), Decidable (k1_chk52 v513) := fun v513 => decidable_of_iff' _ (Iff.of_eq (k1_chk52.eq_1 v513))
theorem k1_off104_inb : ∀ (v513 : BitVec 32) (k1_hw52 : k1_chk52 v513), ∀ a, (k1_off104 v513) a + S1x16384.size a ≤ S16384x16384.size a := fun v513 k1_hw52 => k1_hw52

def k1_off105 (i : grid1.Coords) : Fin 1 → Nat :=
  let arg0 : BitVec 32 := BitVec.ofNat 32 (i 0).val
  let c128_i32_155 : BitVec 32 := 128#32
  let v520 : BitVec 32 := Scalar.muli arg0 c128_i32_155
  let c52_i32 : BitVec 32 := 52#32
  let v521 : BitVec 32 := Scalar.addi v520 c52_i32
  let v522 : Index := Scalar.indexCast v521
  ![v522.toNat]
def k1_off106 (v523 : BitVec 32) : Fin 2 → Nat :=
  let c0_i32_157 : BitVec 32 := 0#32
  ![v523.toNat, 0]

def k1_chk53 (v523 : BitVec 32) : Prop :=
  (∀ a, (k1_off106 v523) a + S1x16384.size a ≤ S16384x16384.size a)
instance k1_chk53.dec : ∀ (v523 : BitVec 32), Decidable (k1_chk53 v523) := fun v523 => decidable_of_iff' _ (Iff.of_eq (k1_chk53.eq_1 v523))
theorem k1_off106_inb : ∀ (v523 : BitVec 32) (k1_hw53 : k1_chk53 v523), ∀ a, (k1_off106 v523) a + S1x16384.size a ≤ S16384x16384.size a := fun v523 k1_hw53 => k1_hw53

def k1_off107 (i : grid1.Coords) : Fin 1 → Nat :=
  let arg0 : BitVec 32 := BitVec.ofNat 32 (i 0).val
  let c128_i32_158 : BitVec 32 := 128#32
  let v530 : BitVec 32 := Scalar.muli arg0 c128_i32_158
  let c53_i32 : BitVec 32 := 53#32
  let v531 : BitVec 32 := Scalar.addi v530 c53_i32
  let v532 : Index := Scalar.indexCast v531
  ![v532.toNat]
def k1_off108 (v533 : BitVec 32) : Fin 2 → Nat :=
  let c0_i32_160 : BitVec 32 := 0#32
  ![v533.toNat, 0]

def k1_chk54 (v533 : BitVec 32) : Prop :=
  (∀ a, (k1_off108 v533) a + S1x16384.size a ≤ S16384x16384.size a)
instance k1_chk54.dec : ∀ (v533 : BitVec 32), Decidable (k1_chk54 v533) := fun v533 => decidable_of_iff' _ (Iff.of_eq (k1_chk54.eq_1 v533))
theorem k1_off108_inb : ∀ (v533 : BitVec 32) (k1_hw54 : k1_chk54 v533), ∀ a, (k1_off108 v533) a + S1x16384.size a ≤ S16384x16384.size a := fun v533 k1_hw54 => k1_hw54

def k1_off109 (i : grid1.Coords) : Fin 1 → Nat :=
  let arg0 : BitVec 32 := BitVec.ofNat 32 (i 0).val
  let c128_i32_161 : BitVec 32 := 128#32
  let v540 : BitVec 32 := Scalar.muli arg0 c128_i32_161
  let c54_i32 : BitVec 32 := 54#32
  let v541 : BitVec 32 := Scalar.addi v540 c54_i32
  let v542 : Index := Scalar.indexCast v541
  ![v542.toNat]
def k1_off110 (v543 : BitVec 32) : Fin 2 → Nat :=
  let c0_i32_163 : BitVec 32 := 0#32
  ![v543.toNat, 0]

def k1_chk55 (v543 : BitVec 32) : Prop :=
  (∀ a, (k1_off110 v543) a + S1x16384.size a ≤ S16384x16384.size a)
instance k1_chk55.dec : ∀ (v543 : BitVec 32), Decidable (k1_chk55 v543) := fun v543 => decidable_of_iff' _ (Iff.of_eq (k1_chk55.eq_1 v543))
theorem k1_off110_inb : ∀ (v543 : BitVec 32) (k1_hw55 : k1_chk55 v543), ∀ a, (k1_off110 v543) a + S1x16384.size a ≤ S16384x16384.size a := fun v543 k1_hw55 => k1_hw55

def k1_off111 (i : grid1.Coords) : Fin 1 → Nat :=
  let arg0 : BitVec 32 := BitVec.ofNat 32 (i 0).val
  let c128_i32_164 : BitVec 32 := 128#32
  let v550 : BitVec 32 := Scalar.muli arg0 c128_i32_164
  let c55_i32 : BitVec 32 := 55#32
  let v551 : BitVec 32 := Scalar.addi v550 c55_i32
  let v552 : Index := Scalar.indexCast v551
  ![v552.toNat]
def k1_off112 (v553 : BitVec 32) : Fin 2 → Nat :=
  let c0_i32_166 : BitVec 32 := 0#32
  ![v553.toNat, 0]

def k1_chk56 (v553 : BitVec 32) : Prop :=
  (∀ a, (k1_off112 v553) a + S1x16384.size a ≤ S16384x16384.size a)
instance k1_chk56.dec : ∀ (v553 : BitVec 32), Decidable (k1_chk56 v553) := fun v553 => decidable_of_iff' _ (Iff.of_eq (k1_chk56.eq_1 v553))
theorem k1_off112_inb : ∀ (v553 : BitVec 32) (k1_hw56 : k1_chk56 v553), ∀ a, (k1_off112 v553) a + S1x16384.size a ≤ S16384x16384.size a := fun v553 k1_hw56 => k1_hw56

def k1_off113 (i : grid1.Coords) : Fin 1 → Nat :=
  let arg0 : BitVec 32 := BitVec.ofNat 32 (i 0).val
  let c128_i32_167 : BitVec 32 := 128#32
  let v560 : BitVec 32 := Scalar.muli arg0 c128_i32_167
  let c56_i32 : BitVec 32 := 56#32
  let v561 : BitVec 32 := Scalar.addi v560 c56_i32
  let v562 : Index := Scalar.indexCast v561
  ![v562.toNat]
def k1_off114 (v563 : BitVec 32) : Fin 2 → Nat :=
  let c0_i32_169 : BitVec 32 := 0#32
  ![v563.toNat, 0]

def k1_chk57 (v563 : BitVec 32) : Prop :=
  (∀ a, (k1_off114 v563) a + S1x16384.size a ≤ S16384x16384.size a)
instance k1_chk57.dec : ∀ (v563 : BitVec 32), Decidable (k1_chk57 v563) := fun v563 => decidable_of_iff' _ (Iff.of_eq (k1_chk57.eq_1 v563))
theorem k1_off114_inb : ∀ (v563 : BitVec 32) (k1_hw57 : k1_chk57 v563), ∀ a, (k1_off114 v563) a + S1x16384.size a ≤ S16384x16384.size a := fun v563 k1_hw57 => k1_hw57

def k1_off115 (i : grid1.Coords) : Fin 1 → Nat :=
  let arg0 : BitVec 32 := BitVec.ofNat 32 (i 0).val
  let c128_i32_170 : BitVec 32 := 128#32
  let v570 : BitVec 32 := Scalar.muli arg0 c128_i32_170
  let c57_i32 : BitVec 32 := 57#32
  let v571 : BitVec 32 := Scalar.addi v570 c57_i32
  let v572 : Index := Scalar.indexCast v571
  ![v572.toNat]
def k1_off116 (v573 : BitVec 32) : Fin 2 → Nat :=
  let c0_i32_172 : BitVec 32 := 0#32
  ![v573.toNat, 0]

def k1_chk58 (v573 : BitVec 32) : Prop :=
  (∀ a, (k1_off116 v573) a + S1x16384.size a ≤ S16384x16384.size a)
instance k1_chk58.dec : ∀ (v573 : BitVec 32), Decidable (k1_chk58 v573) := fun v573 => decidable_of_iff' _ (Iff.of_eq (k1_chk58.eq_1 v573))
theorem k1_off116_inb : ∀ (v573 : BitVec 32) (k1_hw58 : k1_chk58 v573), ∀ a, (k1_off116 v573) a + S1x16384.size a ≤ S16384x16384.size a := fun v573 k1_hw58 => k1_hw58

def k1_off117 (i : grid1.Coords) : Fin 1 → Nat :=
  let arg0 : BitVec 32 := BitVec.ofNat 32 (i 0).val
  let c128_i32_173 : BitVec 32 := 128#32
  let v580 : BitVec 32 := Scalar.muli arg0 c128_i32_173
  let c58_i32 : BitVec 32 := 58#32
  let v581 : BitVec 32 := Scalar.addi v580 c58_i32
  let v582 : Index := Scalar.indexCast v581
  ![v582.toNat]
def k1_off118 (v583 : BitVec 32) : Fin 2 → Nat :=
  let c0_i32_175 : BitVec 32 := 0#32
  ![v583.toNat, 0]

def k1_chk59 (v583 : BitVec 32) : Prop :=
  (∀ a, (k1_off118 v583) a + S1x16384.size a ≤ S16384x16384.size a)
instance k1_chk59.dec : ∀ (v583 : BitVec 32), Decidable (k1_chk59 v583) := fun v583 => decidable_of_iff' _ (Iff.of_eq (k1_chk59.eq_1 v583))
theorem k1_off118_inb : ∀ (v583 : BitVec 32) (k1_hw59 : k1_chk59 v583), ∀ a, (k1_off118 v583) a + S1x16384.size a ≤ S16384x16384.size a := fun v583 k1_hw59 => k1_hw59

def k1_off119 (i : grid1.Coords) : Fin 1 → Nat :=
  let arg0 : BitVec 32 := BitVec.ofNat 32 (i 0).val
  let c128_i32_176 : BitVec 32 := 128#32
  let v590 : BitVec 32 := Scalar.muli arg0 c128_i32_176
  let c59_i32 : BitVec 32 := 59#32
  let v591 : BitVec 32 := Scalar.addi v590 c59_i32
  let v592 : Index := Scalar.indexCast v591
  ![v592.toNat]
def k1_off120 (v593 : BitVec 32) : Fin 2 → Nat :=
  let c0_i32_178 : BitVec 32 := 0#32
  ![v593.toNat, 0]

def k1_chk60 (v593 : BitVec 32) : Prop :=
  (∀ a, (k1_off120 v593) a + S1x16384.size a ≤ S16384x16384.size a)
instance k1_chk60.dec : ∀ (v593 : BitVec 32), Decidable (k1_chk60 v593) := fun v593 => decidable_of_iff' _ (Iff.of_eq (k1_chk60.eq_1 v593))
theorem k1_off120_inb : ∀ (v593 : BitVec 32) (k1_hw60 : k1_chk60 v593), ∀ a, (k1_off120 v593) a + S1x16384.size a ≤ S16384x16384.size a := fun v593 k1_hw60 => k1_hw60

def k1_off121 (i : grid1.Coords) : Fin 1 → Nat :=
  let arg0 : BitVec 32 := BitVec.ofNat 32 (i 0).val
  let c128_i32_179 : BitVec 32 := 128#32
  let v600 : BitVec 32 := Scalar.muli arg0 c128_i32_179
  let c60_i32 : BitVec 32 := 60#32
  let v601 : BitVec 32 := Scalar.addi v600 c60_i32
  let v602 : Index := Scalar.indexCast v601
  ![v602.toNat]
def k1_off122 (v603 : BitVec 32) : Fin 2 → Nat :=
  let c0_i32_181 : BitVec 32 := 0#32
  ![v603.toNat, 0]

def k1_chk61 (v603 : BitVec 32) : Prop :=
  (∀ a, (k1_off122 v603) a + S1x16384.size a ≤ S16384x16384.size a)
instance k1_chk61.dec : ∀ (v603 : BitVec 32), Decidable (k1_chk61 v603) := fun v603 => decidable_of_iff' _ (Iff.of_eq (k1_chk61.eq_1 v603))
theorem k1_off122_inb : ∀ (v603 : BitVec 32) (k1_hw61 : k1_chk61 v603), ∀ a, (k1_off122 v603) a + S1x16384.size a ≤ S16384x16384.size a := fun v603 k1_hw61 => k1_hw61

def k1_off123 (i : grid1.Coords) : Fin 1 → Nat :=
  let arg0 : BitVec 32 := BitVec.ofNat 32 (i 0).val
  let c128_i32_182 : BitVec 32 := 128#32
  let v610 : BitVec 32 := Scalar.muli arg0 c128_i32_182
  let c61_i32 : BitVec 32 := 61#32
  let v611 : BitVec 32 := Scalar.addi v610 c61_i32
  let v612 : Index := Scalar.indexCast v611
  ![v612.toNat]
def k1_off124 (v613 : BitVec 32) : Fin 2 → Nat :=
  let c0_i32_184 : BitVec 32 := 0#32
  ![v613.toNat, 0]

def k1_chk62 (v613 : BitVec 32) : Prop :=
  (∀ a, (k1_off124 v613) a + S1x16384.size a ≤ S16384x16384.size a)
instance k1_chk62.dec : ∀ (v613 : BitVec 32), Decidable (k1_chk62 v613) := fun v613 => decidable_of_iff' _ (Iff.of_eq (k1_chk62.eq_1 v613))
theorem k1_off124_inb : ∀ (v613 : BitVec 32) (k1_hw62 : k1_chk62 v613), ∀ a, (k1_off124 v613) a + S1x16384.size a ≤ S16384x16384.size a := fun v613 k1_hw62 => k1_hw62

def k1_off125 (i : grid1.Coords) : Fin 1 → Nat :=
  let arg0 : BitVec 32 := BitVec.ofNat 32 (i 0).val
  let c128_i32_185 : BitVec 32 := 128#32
  let v620 : BitVec 32 := Scalar.muli arg0 c128_i32_185
  let c62_i32 : BitVec 32 := 62#32
  let v621 : BitVec 32 := Scalar.addi v620 c62_i32
  let v622 : Index := Scalar.indexCast v621
  ![v622.toNat]
def k1_off126 (v623 : BitVec 32) : Fin 2 → Nat :=
  let c0_i32_187 : BitVec 32 := 0#32
  ![v623.toNat, 0]

def k1_chk63 (v623 : BitVec 32) : Prop :=
  (∀ a, (k1_off126 v623) a + S1x16384.size a ≤ S16384x16384.size a)
instance k1_chk63.dec : ∀ (v623 : BitVec 32), Decidable (k1_chk63 v623) := fun v623 => decidable_of_iff' _ (Iff.of_eq (k1_chk63.eq_1 v623))
theorem k1_off126_inb : ∀ (v623 : BitVec 32) (k1_hw63 : k1_chk63 v623), ∀ a, (k1_off126 v623) a + S1x16384.size a ≤ S16384x16384.size a := fun v623 k1_hw63 => k1_hw63

def k1_off127 (i : grid1.Coords) : Fin 1 → Nat :=
  let arg0 : BitVec 32 := BitVec.ofNat 32 (i 0).val
  let c128_i32_188 : BitVec 32 := 128#32
  let v630 : BitVec 32 := Scalar.muli arg0 c128_i32_188
  let c63_i32 : BitVec 32 := 63#32
  let v631 : BitVec 32 := Scalar.addi v630 c63_i32
  let v632 : Index := Scalar.indexCast v631
  ![v632.toNat]
def k1_off128 (v633 : BitVec 32) : Fin 2 → Nat :=
  let c0_i32_190 : BitVec 32 := 0#32
  ![v633.toNat, 0]

def k1_chk64 (v633 : BitVec 32) : Prop :=
  (∀ a, (k1_off128 v633) a + S1x16384.size a ≤ S16384x16384.size a)
instance k1_chk64.dec : ∀ (v633 : BitVec 32), Decidable (k1_chk64 v633) := fun v633 => decidable_of_iff' _ (Iff.of_eq (k1_chk64.eq_1 v633))
theorem k1_off128_inb : ∀ (v633 : BitVec 32) (k1_hw64 : k1_chk64 v633), ∀ a, (k1_off128 v633) a + S1x16384.size a ≤ S16384x16384.size a := fun v633 k1_hw64 => k1_hw64

def k1_off129 (i : grid1.Coords) : Fin 1 → Nat :=
  let arg0 : BitVec 32 := BitVec.ofNat 32 (i 0).val
  let c128_i32_191 : BitVec 32 := 128#32
  let v640 : BitVec 32 := Scalar.muli arg0 c128_i32_191
  let c64_i32 : BitVec 32 := 64#32
  let v641 : BitVec 32 := Scalar.addi v640 c64_i32
  let v642 : Index := Scalar.indexCast v641
  ![v642.toNat]
def k1_off130 (v643 : BitVec 32) : Fin 2 → Nat :=
  let c0_i32_193 : BitVec 32 := 0#32
  ![v643.toNat, 0]

def k1_chk65 (v643 : BitVec 32) : Prop :=
  (∀ a, (k1_off130 v643) a + S1x16384.size a ≤ S16384x16384.size a)
instance k1_chk65.dec : ∀ (v643 : BitVec 32), Decidable (k1_chk65 v643) := fun v643 => decidable_of_iff' _ (Iff.of_eq (k1_chk65.eq_1 v643))
theorem k1_off130_inb : ∀ (v643 : BitVec 32) (k1_hw65 : k1_chk65 v643), ∀ a, (k1_off130 v643) a + S1x16384.size a ≤ S16384x16384.size a := fun v643 k1_hw65 => k1_hw65

def k1_off131 (i : grid1.Coords) : Fin 1 → Nat :=
  let arg0 : BitVec 32 := BitVec.ofNat 32 (i 0).val
  let c128_i32_194 : BitVec 32 := 128#32
  let v650 : BitVec 32 := Scalar.muli arg0 c128_i32_194
  let c65_i32 : BitVec 32 := 65#32
  let v651 : BitVec 32 := Scalar.addi v650 c65_i32
  let v652 : Index := Scalar.indexCast v651
  ![v652.toNat]
def k1_off132 (v653 : BitVec 32) : Fin 2 → Nat :=
  let c0_i32_196 : BitVec 32 := 0#32
  ![v653.toNat, 0]

def k1_chk66 (v653 : BitVec 32) : Prop :=
  (∀ a, (k1_off132 v653) a + S1x16384.size a ≤ S16384x16384.size a)
instance k1_chk66.dec : ∀ (v653 : BitVec 32), Decidable (k1_chk66 v653) := fun v653 => decidable_of_iff' _ (Iff.of_eq (k1_chk66.eq_1 v653))
theorem k1_off132_inb : ∀ (v653 : BitVec 32) (k1_hw66 : k1_chk66 v653), ∀ a, (k1_off132 v653) a + S1x16384.size a ≤ S16384x16384.size a := fun v653 k1_hw66 => k1_hw66

def k1_off133 (i : grid1.Coords) : Fin 1 → Nat :=
  let arg0 : BitVec 32 := BitVec.ofNat 32 (i 0).val
  let c128_i32_197 : BitVec 32 := 128#32
  let v660 : BitVec 32 := Scalar.muli arg0 c128_i32_197
  let c66_i32 : BitVec 32 := 66#32
  let v661 : BitVec 32 := Scalar.addi v660 c66_i32
  let v662 : Index := Scalar.indexCast v661
  ![v662.toNat]
def k1_off134 (v663 : BitVec 32) : Fin 2 → Nat :=
  let c0_i32_199 : BitVec 32 := 0#32
  ![v663.toNat, 0]

def k1_chk67 (v663 : BitVec 32) : Prop :=
  (∀ a, (k1_off134 v663) a + S1x16384.size a ≤ S16384x16384.size a)
instance k1_chk67.dec : ∀ (v663 : BitVec 32), Decidable (k1_chk67 v663) := fun v663 => decidable_of_iff' _ (Iff.of_eq (k1_chk67.eq_1 v663))
theorem k1_off134_inb : ∀ (v663 : BitVec 32) (k1_hw67 : k1_chk67 v663), ∀ a, (k1_off134 v663) a + S1x16384.size a ≤ S16384x16384.size a := fun v663 k1_hw67 => k1_hw67

def k1_off135 (i : grid1.Coords) : Fin 1 → Nat :=
  let arg0 : BitVec 32 := BitVec.ofNat 32 (i 0).val
  let c128_i32_200 : BitVec 32 := 128#32
  let v670 : BitVec 32 := Scalar.muli arg0 c128_i32_200
  let c67_i32 : BitVec 32 := 67#32
  let v671 : BitVec 32 := Scalar.addi v670 c67_i32
  let v672 : Index := Scalar.indexCast v671
  ![v672.toNat]
def k1_off136 (v673 : BitVec 32) : Fin 2 → Nat :=
  let c0_i32_202 : BitVec 32 := 0#32
  ![v673.toNat, 0]

def k1_chk68 (v673 : BitVec 32) : Prop :=
  (∀ a, (k1_off136 v673) a + S1x16384.size a ≤ S16384x16384.size a)
instance k1_chk68.dec : ∀ (v673 : BitVec 32), Decidable (k1_chk68 v673) := fun v673 => decidable_of_iff' _ (Iff.of_eq (k1_chk68.eq_1 v673))
theorem k1_off136_inb : ∀ (v673 : BitVec 32) (k1_hw68 : k1_chk68 v673), ∀ a, (k1_off136 v673) a + S1x16384.size a ≤ S16384x16384.size a := fun v673 k1_hw68 => k1_hw68

def k1_off137 (i : grid1.Coords) : Fin 1 → Nat :=
  let arg0 : BitVec 32 := BitVec.ofNat 32 (i 0).val
  let c128_i32_203 : BitVec 32 := 128#32
  let v680 : BitVec 32 := Scalar.muli arg0 c128_i32_203
  let c68_i32 : BitVec 32 := 68#32
  let v681 : BitVec 32 := Scalar.addi v680 c68_i32
  let v682 : Index := Scalar.indexCast v681
  ![v682.toNat]
def k1_off138 (v683 : BitVec 32) : Fin 2 → Nat :=
  let c0_i32_205 : BitVec 32 := 0#32
  ![v683.toNat, 0]

def k1_chk69 (v683 : BitVec 32) : Prop :=
  (∀ a, (k1_off138 v683) a + S1x16384.size a ≤ S16384x16384.size a)
instance k1_chk69.dec : ∀ (v683 : BitVec 32), Decidable (k1_chk69 v683) := fun v683 => decidable_of_iff' _ (Iff.of_eq (k1_chk69.eq_1 v683))
theorem k1_off138_inb : ∀ (v683 : BitVec 32) (k1_hw69 : k1_chk69 v683), ∀ a, (k1_off138 v683) a + S1x16384.size a ≤ S16384x16384.size a := fun v683 k1_hw69 => k1_hw69

def k1_off139 (i : grid1.Coords) : Fin 1 → Nat :=
  let arg0 : BitVec 32 := BitVec.ofNat 32 (i 0).val
  let c128_i32_206 : BitVec 32 := 128#32
  let v690 : BitVec 32 := Scalar.muli arg0 c128_i32_206
  let c69_i32 : BitVec 32 := 69#32
  let v691 : BitVec 32 := Scalar.addi v690 c69_i32
  let v692 : Index := Scalar.indexCast v691
  ![v692.toNat]
def k1_off140 (v693 : BitVec 32) : Fin 2 → Nat :=
  let c0_i32_208 : BitVec 32 := 0#32
  ![v693.toNat, 0]

def k1_chk70 (v693 : BitVec 32) : Prop :=
  (∀ a, (k1_off140 v693) a + S1x16384.size a ≤ S16384x16384.size a)
instance k1_chk70.dec : ∀ (v693 : BitVec 32), Decidable (k1_chk70 v693) := fun v693 => decidable_of_iff' _ (Iff.of_eq (k1_chk70.eq_1 v693))
theorem k1_off140_inb : ∀ (v693 : BitVec 32) (k1_hw70 : k1_chk70 v693), ∀ a, (k1_off140 v693) a + S1x16384.size a ≤ S16384x16384.size a := fun v693 k1_hw70 => k1_hw70

def k1_off141 (i : grid1.Coords) : Fin 1 → Nat :=
  let arg0 : BitVec 32 := BitVec.ofNat 32 (i 0).val
  let c128_i32_209 : BitVec 32 := 128#32
  let v700 : BitVec 32 := Scalar.muli arg0 c128_i32_209
  let c70_i32 : BitVec 32 := 70#32
  let v701 : BitVec 32 := Scalar.addi v700 c70_i32
  let v702 : Index := Scalar.indexCast v701
  ![v702.toNat]
def k1_off142 (v703 : BitVec 32) : Fin 2 → Nat :=
  let c0_i32_211 : BitVec 32 := 0#32
  ![v703.toNat, 0]

def k1_chk71 (v703 : BitVec 32) : Prop :=
  (∀ a, (k1_off142 v703) a + S1x16384.size a ≤ S16384x16384.size a)
instance k1_chk71.dec : ∀ (v703 : BitVec 32), Decidable (k1_chk71 v703) := fun v703 => decidable_of_iff' _ (Iff.of_eq (k1_chk71.eq_1 v703))
theorem k1_off142_inb : ∀ (v703 : BitVec 32) (k1_hw71 : k1_chk71 v703), ∀ a, (k1_off142 v703) a + S1x16384.size a ≤ S16384x16384.size a := fun v703 k1_hw71 => k1_hw71

def k1_off143 (i : grid1.Coords) : Fin 1 → Nat :=
  let arg0 : BitVec 32 := BitVec.ofNat 32 (i 0).val
  let c128_i32_212 : BitVec 32 := 128#32
  let v710 : BitVec 32 := Scalar.muli arg0 c128_i32_212
  let c71_i32 : BitVec 32 := 71#32
  let v711 : BitVec 32 := Scalar.addi v710 c71_i32
  let v712 : Index := Scalar.indexCast v711
  ![v712.toNat]
def k1_off144 (v713 : BitVec 32) : Fin 2 → Nat :=
  let c0_i32_214 : BitVec 32 := 0#32
  ![v713.toNat, 0]

def k1_chk72 (v713 : BitVec 32) : Prop :=
  (∀ a, (k1_off144 v713) a + S1x16384.size a ≤ S16384x16384.size a)
instance k1_chk72.dec : ∀ (v713 : BitVec 32), Decidable (k1_chk72 v713) := fun v713 => decidable_of_iff' _ (Iff.of_eq (k1_chk72.eq_1 v713))
theorem k1_off144_inb : ∀ (v713 : BitVec 32) (k1_hw72 : k1_chk72 v713), ∀ a, (k1_off144 v713) a + S1x16384.size a ≤ S16384x16384.size a := fun v713 k1_hw72 => k1_hw72

def k1_off145 (i : grid1.Coords) : Fin 1 → Nat :=
  let arg0 : BitVec 32 := BitVec.ofNat 32 (i 0).val
  let c128_i32_215 : BitVec 32 := 128#32
  let v720 : BitVec 32 := Scalar.muli arg0 c128_i32_215
  let c72_i32 : BitVec 32 := 72#32
  let v721 : BitVec 32 := Scalar.addi v720 c72_i32
  let v722 : Index := Scalar.indexCast v721
  ![v722.toNat]
def k1_off146 (v723 : BitVec 32) : Fin 2 → Nat :=
  let c0_i32_217 : BitVec 32 := 0#32
  ![v723.toNat, 0]

def k1_chk73 (v723 : BitVec 32) : Prop :=
  (∀ a, (k1_off146 v723) a + S1x16384.size a ≤ S16384x16384.size a)
instance k1_chk73.dec : ∀ (v723 : BitVec 32), Decidable (k1_chk73 v723) := fun v723 => decidable_of_iff' _ (Iff.of_eq (k1_chk73.eq_1 v723))
theorem k1_off146_inb : ∀ (v723 : BitVec 32) (k1_hw73 : k1_chk73 v723), ∀ a, (k1_off146 v723) a + S1x16384.size a ≤ S16384x16384.size a := fun v723 k1_hw73 => k1_hw73

def k1_off147 (i : grid1.Coords) : Fin 1 → Nat :=
  let arg0 : BitVec 32 := BitVec.ofNat 32 (i 0).val
  let c128_i32_218 : BitVec 32 := 128#32
  let v730 : BitVec 32 := Scalar.muli arg0 c128_i32_218
  let c73_i32 : BitVec 32 := 73#32
  let v731 : BitVec 32 := Scalar.addi v730 c73_i32
  let v732 : Index := Scalar.indexCast v731
  ![v732.toNat]
def k1_off148 (v733 : BitVec 32) : Fin 2 → Nat :=
  let c0_i32_220 : BitVec 32 := 0#32
  ![v733.toNat, 0]

def k1_chk74 (v733 : BitVec 32) : Prop :=
  (∀ a, (k1_off148 v733) a + S1x16384.size a ≤ S16384x16384.size a)
instance k1_chk74.dec : ∀ (v733 : BitVec 32), Decidable (k1_chk74 v733) := fun v733 => decidable_of_iff' _ (Iff.of_eq (k1_chk74.eq_1 v733))
theorem k1_off148_inb : ∀ (v733 : BitVec 32) (k1_hw74 : k1_chk74 v733), ∀ a, (k1_off148 v733) a + S1x16384.size a ≤ S16384x16384.size a := fun v733 k1_hw74 => k1_hw74

def k1_off149 (i : grid1.Coords) : Fin 1 → Nat :=
  let arg0 : BitVec 32 := BitVec.ofNat 32 (i 0).val
  let c128_i32_221 : BitVec 32 := 128#32
  let v740 : BitVec 32 := Scalar.muli arg0 c128_i32_221
  let c74_i32 : BitVec 32 := 74#32
  let v741 : BitVec 32 := Scalar.addi v740 c74_i32
  let v742 : Index := Scalar.indexCast v741
  ![v742.toNat]
def k1_off150 (v743 : BitVec 32) : Fin 2 → Nat :=
  let c0_i32_223 : BitVec 32 := 0#32
  ![v743.toNat, 0]

def k1_chk75 (v743 : BitVec 32) : Prop :=
  (∀ a, (k1_off150 v743) a + S1x16384.size a ≤ S16384x16384.size a)
instance k1_chk75.dec : ∀ (v743 : BitVec 32), Decidable (k1_chk75 v743) := fun v743 => decidable_of_iff' _ (Iff.of_eq (k1_chk75.eq_1 v743))
theorem k1_off150_inb : ∀ (v743 : BitVec 32) (k1_hw75 : k1_chk75 v743), ∀ a, (k1_off150 v743) a + S1x16384.size a ≤ S16384x16384.size a := fun v743 k1_hw75 => k1_hw75

def k1_off151 (i : grid1.Coords) : Fin 1 → Nat :=
  let arg0 : BitVec 32 := BitVec.ofNat 32 (i 0).val
  let c128_i32_224 : BitVec 32 := 128#32
  let v750 : BitVec 32 := Scalar.muli arg0 c128_i32_224
  let c75_i32 : BitVec 32 := 75#32
  let v751 : BitVec 32 := Scalar.addi v750 c75_i32
  let v752 : Index := Scalar.indexCast v751
  ![v752.toNat]
def k1_off152 (v753 : BitVec 32) : Fin 2 → Nat :=
  let c0_i32_226 : BitVec 32 := 0#32
  ![v753.toNat, 0]

def k1_chk76 (v753 : BitVec 32) : Prop :=
  (∀ a, (k1_off152 v753) a + S1x16384.size a ≤ S16384x16384.size a)
instance k1_chk76.dec : ∀ (v753 : BitVec 32), Decidable (k1_chk76 v753) := fun v753 => decidable_of_iff' _ (Iff.of_eq (k1_chk76.eq_1 v753))
theorem k1_off152_inb : ∀ (v753 : BitVec 32) (k1_hw76 : k1_chk76 v753), ∀ a, (k1_off152 v753) a + S1x16384.size a ≤ S16384x16384.size a := fun v753 k1_hw76 => k1_hw76

def k1_off153 (i : grid1.Coords) : Fin 1 → Nat :=
  let arg0 : BitVec 32 := BitVec.ofNat 32 (i 0).val
  let c128_i32_227 : BitVec 32 := 128#32
  let v760 : BitVec 32 := Scalar.muli arg0 c128_i32_227
  let c76_i32 : BitVec 32 := 76#32
  let v761 : BitVec 32 := Scalar.addi v760 c76_i32
  let v762 : Index := Scalar.indexCast v761
  ![v762.toNat]
def k1_off154 (v763 : BitVec 32) : Fin 2 → Nat :=
  let c0_i32_229 : BitVec 32 := 0#32
  ![v763.toNat, 0]

def k1_chk77 (v763 : BitVec 32) : Prop :=
  (∀ a, (k1_off154 v763) a + S1x16384.size a ≤ S16384x16384.size a)
instance k1_chk77.dec : ∀ (v763 : BitVec 32), Decidable (k1_chk77 v763) := fun v763 => decidable_of_iff' _ (Iff.of_eq (k1_chk77.eq_1 v763))
theorem k1_off154_inb : ∀ (v763 : BitVec 32) (k1_hw77 : k1_chk77 v763), ∀ a, (k1_off154 v763) a + S1x16384.size a ≤ S16384x16384.size a := fun v763 k1_hw77 => k1_hw77

def k1_off155 (i : grid1.Coords) : Fin 1 → Nat :=
  let arg0 : BitVec 32 := BitVec.ofNat 32 (i 0).val
  let c128_i32_230 : BitVec 32 := 128#32
  let v770 : BitVec 32 := Scalar.muli arg0 c128_i32_230
  let c77_i32 : BitVec 32 := 77#32
  let v771 : BitVec 32 := Scalar.addi v770 c77_i32
  let v772 : Index := Scalar.indexCast v771
  ![v772.toNat]
def k1_off156 (v773 : BitVec 32) : Fin 2 → Nat :=
  let c0_i32_232 : BitVec 32 := 0#32
  ![v773.toNat, 0]

def k1_chk78 (v773 : BitVec 32) : Prop :=
  (∀ a, (k1_off156 v773) a + S1x16384.size a ≤ S16384x16384.size a)
instance k1_chk78.dec : ∀ (v773 : BitVec 32), Decidable (k1_chk78 v773) := fun v773 => decidable_of_iff' _ (Iff.of_eq (k1_chk78.eq_1 v773))
theorem k1_off156_inb : ∀ (v773 : BitVec 32) (k1_hw78 : k1_chk78 v773), ∀ a, (k1_off156 v773) a + S1x16384.size a ≤ S16384x16384.size a := fun v773 k1_hw78 => k1_hw78

def k1_off157 (i : grid1.Coords) : Fin 1 → Nat :=
  let arg0 : BitVec 32 := BitVec.ofNat 32 (i 0).val
  let c128_i32_233 : BitVec 32 := 128#32
  let v780 : BitVec 32 := Scalar.muli arg0 c128_i32_233
  let c78_i32 : BitVec 32 := 78#32
  let v781 : BitVec 32 := Scalar.addi v780 c78_i32
  let v782 : Index := Scalar.indexCast v781
  ![v782.toNat]
def k1_off158 (v783 : BitVec 32) : Fin 2 → Nat :=
  let c0_i32_235 : BitVec 32 := 0#32
  ![v783.toNat, 0]

def k1_chk79 (v783 : BitVec 32) : Prop :=
  (∀ a, (k1_off158 v783) a + S1x16384.size a ≤ S16384x16384.size a)
instance k1_chk79.dec : ∀ (v783 : BitVec 32), Decidable (k1_chk79 v783) := fun v783 => decidable_of_iff' _ (Iff.of_eq (k1_chk79.eq_1 v783))
theorem k1_off158_inb : ∀ (v783 : BitVec 32) (k1_hw79 : k1_chk79 v783), ∀ a, (k1_off158 v783) a + S1x16384.size a ≤ S16384x16384.size a := fun v783 k1_hw79 => k1_hw79

def k1_off159 (i : grid1.Coords) : Fin 1 → Nat :=
  let arg0 : BitVec 32 := BitVec.ofNat 32 (i 0).val
  let c128_i32_236 : BitVec 32 := 128#32
  let v790 : BitVec 32 := Scalar.muli arg0 c128_i32_236
  let c79_i32 : BitVec 32 := 79#32
  let v791 : BitVec 32 := Scalar.addi v790 c79_i32
  let v792 : Index := Scalar.indexCast v791
  ![v792.toNat]
def k1_off160 (v793 : BitVec 32) : Fin 2 → Nat :=
  let c0_i32_238 : BitVec 32 := 0#32
  ![v793.toNat, 0]

def k1_chk80 (v793 : BitVec 32) : Prop :=
  (∀ a, (k1_off160 v793) a + S1x16384.size a ≤ S16384x16384.size a)
instance k1_chk80.dec : ∀ (v793 : BitVec 32), Decidable (k1_chk80 v793) := fun v793 => decidable_of_iff' _ (Iff.of_eq (k1_chk80.eq_1 v793))
theorem k1_off160_inb : ∀ (v793 : BitVec 32) (k1_hw80 : k1_chk80 v793), ∀ a, (k1_off160 v793) a + S1x16384.size a ≤ S16384x16384.size a := fun v793 k1_hw80 => k1_hw80

def k1_off161 (i : grid1.Coords) : Fin 1 → Nat :=
  let arg0 : BitVec 32 := BitVec.ofNat 32 (i 0).val
  let c128_i32_239 : BitVec 32 := 128#32
  let v800 : BitVec 32 := Scalar.muli arg0 c128_i32_239
  let c80_i32 : BitVec 32 := 80#32
  let v801 : BitVec 32 := Scalar.addi v800 c80_i32
  let v802 : Index := Scalar.indexCast v801
  ![v802.toNat]
def k1_off162 (v803 : BitVec 32) : Fin 2 → Nat :=
  let c0_i32_241 : BitVec 32 := 0#32
  ![v803.toNat, 0]

def k1_chk81 (v803 : BitVec 32) : Prop :=
  (∀ a, (k1_off162 v803) a + S1x16384.size a ≤ S16384x16384.size a)
instance k1_chk81.dec : ∀ (v803 : BitVec 32), Decidable (k1_chk81 v803) := fun v803 => decidable_of_iff' _ (Iff.of_eq (k1_chk81.eq_1 v803))
theorem k1_off162_inb : ∀ (v803 : BitVec 32) (k1_hw81 : k1_chk81 v803), ∀ a, (k1_off162 v803) a + S1x16384.size a ≤ S16384x16384.size a := fun v803 k1_hw81 => k1_hw81

def k1_off163 (i : grid1.Coords) : Fin 1 → Nat :=
  let arg0 : BitVec 32 := BitVec.ofNat 32 (i 0).val
  let c128_i32_242 : BitVec 32 := 128#32
  let v810 : BitVec 32 := Scalar.muli arg0 c128_i32_242
  let c81_i32 : BitVec 32 := 81#32
  let v811 : BitVec 32 := Scalar.addi v810 c81_i32
  let v812 : Index := Scalar.indexCast v811
  ![v812.toNat]
def k1_off164 (v813 : BitVec 32) : Fin 2 → Nat :=
  let c0_i32_244 : BitVec 32 := 0#32
  ![v813.toNat, 0]

def k1_chk82 (v813 : BitVec 32) : Prop :=
  (∀ a, (k1_off164 v813) a + S1x16384.size a ≤ S16384x16384.size a)
instance k1_chk82.dec : ∀ (v813 : BitVec 32), Decidable (k1_chk82 v813) := fun v813 => decidable_of_iff' _ (Iff.of_eq (k1_chk82.eq_1 v813))
theorem k1_off164_inb : ∀ (v813 : BitVec 32) (k1_hw82 : k1_chk82 v813), ∀ a, (k1_off164 v813) a + S1x16384.size a ≤ S16384x16384.size a := fun v813 k1_hw82 => k1_hw82

def k1_off165 (i : grid1.Coords) : Fin 1 → Nat :=
  let arg0 : BitVec 32 := BitVec.ofNat 32 (i 0).val
  let c128_i32_245 : BitVec 32 := 128#32
  let v820 : BitVec 32 := Scalar.muli arg0 c128_i32_245
  let c82_i32 : BitVec 32 := 82#32
  let v821 : BitVec 32 := Scalar.addi v820 c82_i32
  let v822 : Index := Scalar.indexCast v821
  ![v822.toNat]
def k1_off166 (v823 : BitVec 32) : Fin 2 → Nat :=
  let c0_i32_247 : BitVec 32 := 0#32
  ![v823.toNat, 0]

def k1_chk83 (v823 : BitVec 32) : Prop :=
  (∀ a, (k1_off166 v823) a + S1x16384.size a ≤ S16384x16384.size a)
instance k1_chk83.dec : ∀ (v823 : BitVec 32), Decidable (k1_chk83 v823) := fun v823 => decidable_of_iff' _ (Iff.of_eq (k1_chk83.eq_1 v823))
theorem k1_off166_inb : ∀ (v823 : BitVec 32) (k1_hw83 : k1_chk83 v823), ∀ a, (k1_off166 v823) a + S1x16384.size a ≤ S16384x16384.size a := fun v823 k1_hw83 => k1_hw83

def k1_off167 (i : grid1.Coords) : Fin 1 → Nat :=
  let arg0 : BitVec 32 := BitVec.ofNat 32 (i 0).val
  let c128_i32_248 : BitVec 32 := 128#32
  let v830 : BitVec 32 := Scalar.muli arg0 c128_i32_248
  let c83_i32 : BitVec 32 := 83#32
  let v831 : BitVec 32 := Scalar.addi v830 c83_i32
  let v832 : Index := Scalar.indexCast v831
  ![v832.toNat]
def k1_off168 (v833 : BitVec 32) : Fin 2 → Nat :=
  let c0_i32_250 : BitVec 32 := 0#32
  ![v833.toNat, 0]

def k1_chk84 (v833 : BitVec 32) : Prop :=
  (∀ a, (k1_off168 v833) a + S1x16384.size a ≤ S16384x16384.size a)
instance k1_chk84.dec : ∀ (v833 : BitVec 32), Decidable (k1_chk84 v833) := fun v833 => decidable_of_iff' _ (Iff.of_eq (k1_chk84.eq_1 v833))
theorem k1_off168_inb : ∀ (v833 : BitVec 32) (k1_hw84 : k1_chk84 v833), ∀ a, (k1_off168 v833) a + S1x16384.size a ≤ S16384x16384.size a := fun v833 k1_hw84 => k1_hw84

def k1_off169 (i : grid1.Coords) : Fin 1 → Nat :=
  let arg0 : BitVec 32 := BitVec.ofNat 32 (i 0).val
  let c128_i32_251 : BitVec 32 := 128#32
  let v840 : BitVec 32 := Scalar.muli arg0 c128_i32_251
  let c84_i32 : BitVec 32 := 84#32
  let v841 : BitVec 32 := Scalar.addi v840 c84_i32
  let v842 : Index := Scalar.indexCast v841
  ![v842.toNat]
def k1_off170 (v843 : BitVec 32) : Fin 2 → Nat :=
  let c0_i32_253 : BitVec 32 := 0#32
  ![v843.toNat, 0]

def k1_chk85 (v843 : BitVec 32) : Prop :=
  (∀ a, (k1_off170 v843) a + S1x16384.size a ≤ S16384x16384.size a)
instance k1_chk85.dec : ∀ (v843 : BitVec 32), Decidable (k1_chk85 v843) := fun v843 => decidable_of_iff' _ (Iff.of_eq (k1_chk85.eq_1 v843))
theorem k1_off170_inb : ∀ (v843 : BitVec 32) (k1_hw85 : k1_chk85 v843), ∀ a, (k1_off170 v843) a + S1x16384.size a ≤ S16384x16384.size a := fun v843 k1_hw85 => k1_hw85

def k1_off171 (i : grid1.Coords) : Fin 1 → Nat :=
  let arg0 : BitVec 32 := BitVec.ofNat 32 (i 0).val
  let c128_i32_254 : BitVec 32 := 128#32
  let v850 : BitVec 32 := Scalar.muli arg0 c128_i32_254
  let c85_i32 : BitVec 32 := 85#32
  let v851 : BitVec 32 := Scalar.addi v850 c85_i32
  let v852 : Index := Scalar.indexCast v851
  ![v852.toNat]
def k1_off172 (v853 : BitVec 32) : Fin 2 → Nat :=
  let c0_i32_256 : BitVec 32 := 0#32
  ![v853.toNat, 0]

def k1_chk86 (v853 : BitVec 32) : Prop :=
  (∀ a, (k1_off172 v853) a + S1x16384.size a ≤ S16384x16384.size a)
instance k1_chk86.dec : ∀ (v853 : BitVec 32), Decidable (k1_chk86 v853) := fun v853 => decidable_of_iff' _ (Iff.of_eq (k1_chk86.eq_1 v853))
theorem k1_off172_inb : ∀ (v853 : BitVec 32) (k1_hw86 : k1_chk86 v853), ∀ a, (k1_off172 v853) a + S1x16384.size a ≤ S16384x16384.size a := fun v853 k1_hw86 => k1_hw86

def k1_off173 (i : grid1.Coords) : Fin 1 → Nat :=
  let arg0 : BitVec 32 := BitVec.ofNat 32 (i 0).val
  let c128_i32_257 : BitVec 32 := 128#32
  let v860 : BitVec 32 := Scalar.muli arg0 c128_i32_257
  let c86_i32 : BitVec 32 := 86#32
  let v861 : BitVec 32 := Scalar.addi v860 c86_i32
  let v862 : Index := Scalar.indexCast v861
  ![v862.toNat]
def k1_off174 (v863 : BitVec 32) : Fin 2 → Nat :=
  let c0_i32_259 : BitVec 32 := 0#32
  ![v863.toNat, 0]

def k1_chk87 (v863 : BitVec 32) : Prop :=
  (∀ a, (k1_off174 v863) a + S1x16384.size a ≤ S16384x16384.size a)
instance k1_chk87.dec : ∀ (v863 : BitVec 32), Decidable (k1_chk87 v863) := fun v863 => decidable_of_iff' _ (Iff.of_eq (k1_chk87.eq_1 v863))
theorem k1_off174_inb : ∀ (v863 : BitVec 32) (k1_hw87 : k1_chk87 v863), ∀ a, (k1_off174 v863) a + S1x16384.size a ≤ S16384x16384.size a := fun v863 k1_hw87 => k1_hw87

def k1_off175 (i : grid1.Coords) : Fin 1 → Nat :=
  let arg0 : BitVec 32 := BitVec.ofNat 32 (i 0).val
  let c128_i32_260 : BitVec 32 := 128#32
  let v870 : BitVec 32 := Scalar.muli arg0 c128_i32_260
  let c87_i32 : BitVec 32 := 87#32
  let v871 : BitVec 32 := Scalar.addi v870 c87_i32
  let v872 : Index := Scalar.indexCast v871
  ![v872.toNat]
def k1_off176 (v873 : BitVec 32) : Fin 2 → Nat :=
  let c0_i32_262 : BitVec 32 := 0#32
  ![v873.toNat, 0]

def k1_chk88 (v873 : BitVec 32) : Prop :=
  (∀ a, (k1_off176 v873) a + S1x16384.size a ≤ S16384x16384.size a)
instance k1_chk88.dec : ∀ (v873 : BitVec 32), Decidable (k1_chk88 v873) := fun v873 => decidable_of_iff' _ (Iff.of_eq (k1_chk88.eq_1 v873))
theorem k1_off176_inb : ∀ (v873 : BitVec 32) (k1_hw88 : k1_chk88 v873), ∀ a, (k1_off176 v873) a + S1x16384.size a ≤ S16384x16384.size a := fun v873 k1_hw88 => k1_hw88

def k1_off177 (i : grid1.Coords) : Fin 1 → Nat :=
  let arg0 : BitVec 32 := BitVec.ofNat 32 (i 0).val
  let c128_i32_263 : BitVec 32 := 128#32
  let v880 : BitVec 32 := Scalar.muli arg0 c128_i32_263
  let c88_i32 : BitVec 32 := 88#32
  let v881 : BitVec 32 := Scalar.addi v880 c88_i32
  let v882 : Index := Scalar.indexCast v881
  ![v882.toNat]
def k1_off178 (v883 : BitVec 32) : Fin 2 → Nat :=
  let c0_i32_265 : BitVec 32 := 0#32
  ![v883.toNat, 0]

def k1_chk89 (v883 : BitVec 32) : Prop :=
  (∀ a, (k1_off178 v883) a + S1x16384.size a ≤ S16384x16384.size a)
instance k1_chk89.dec : ∀ (v883 : BitVec 32), Decidable (k1_chk89 v883) := fun v883 => decidable_of_iff' _ (Iff.of_eq (k1_chk89.eq_1 v883))
theorem k1_off178_inb : ∀ (v883 : BitVec 32) (k1_hw89 : k1_chk89 v883), ∀ a, (k1_off178 v883) a + S1x16384.size a ≤ S16384x16384.size a := fun v883 k1_hw89 => k1_hw89

def k1_off179 (i : grid1.Coords) : Fin 1 → Nat :=
  let arg0 : BitVec 32 := BitVec.ofNat 32 (i 0).val
  let c128_i32_266 : BitVec 32 := 128#32
  let v890 : BitVec 32 := Scalar.muli arg0 c128_i32_266
  let c89_i32 : BitVec 32 := 89#32
  let v891 : BitVec 32 := Scalar.addi v890 c89_i32
  let v892 : Index := Scalar.indexCast v891
  ![v892.toNat]
def k1_off180 (v893 : BitVec 32) : Fin 2 → Nat :=
  let c0_i32_268 : BitVec 32 := 0#32
  ![v893.toNat, 0]

def k1_chk90 (v893 : BitVec 32) : Prop :=
  (∀ a, (k1_off180 v893) a + S1x16384.size a ≤ S16384x16384.size a)
instance k1_chk90.dec : ∀ (v893 : BitVec 32), Decidable (k1_chk90 v893) := fun v893 => decidable_of_iff' _ (Iff.of_eq (k1_chk90.eq_1 v893))
theorem k1_off180_inb : ∀ (v893 : BitVec 32) (k1_hw90 : k1_chk90 v893), ∀ a, (k1_off180 v893) a + S1x16384.size a ≤ S16384x16384.size a := fun v893 k1_hw90 => k1_hw90

def k1_off181 (i : grid1.Coords) : Fin 1 → Nat :=
  let arg0 : BitVec 32 := BitVec.ofNat 32 (i 0).val
  let c128_i32_269 : BitVec 32 := 128#32
  let v900 : BitVec 32 := Scalar.muli arg0 c128_i32_269
  let c90_i32 : BitVec 32 := 90#32
  let v901 : BitVec 32 := Scalar.addi v900 c90_i32
  let v902 : Index := Scalar.indexCast v901
  ![v902.toNat]
def k1_off182 (v903 : BitVec 32) : Fin 2 → Nat :=
  let c0_i32_271 : BitVec 32 := 0#32
  ![v903.toNat, 0]

def k1_chk91 (v903 : BitVec 32) : Prop :=
  (∀ a, (k1_off182 v903) a + S1x16384.size a ≤ S16384x16384.size a)
instance k1_chk91.dec : ∀ (v903 : BitVec 32), Decidable (k1_chk91 v903) := fun v903 => decidable_of_iff' _ (Iff.of_eq (k1_chk91.eq_1 v903))
theorem k1_off182_inb : ∀ (v903 : BitVec 32) (k1_hw91 : k1_chk91 v903), ∀ a, (k1_off182 v903) a + S1x16384.size a ≤ S16384x16384.size a := fun v903 k1_hw91 => k1_hw91

def k1_off183 (i : grid1.Coords) : Fin 1 → Nat :=
  let arg0 : BitVec 32 := BitVec.ofNat 32 (i 0).val
  let c128_i32_272 : BitVec 32 := 128#32
  let v910 : BitVec 32 := Scalar.muli arg0 c128_i32_272
  let c91_i32 : BitVec 32 := 91#32
  let v911 : BitVec 32 := Scalar.addi v910 c91_i32
  let v912 : Index := Scalar.indexCast v911
  ![v912.toNat]
def k1_off184 (v913 : BitVec 32) : Fin 2 → Nat :=
  let c0_i32_274 : BitVec 32 := 0#32
  ![v913.toNat, 0]

def k1_chk92 (v913 : BitVec 32) : Prop :=
  (∀ a, (k1_off184 v913) a + S1x16384.size a ≤ S16384x16384.size a)
instance k1_chk92.dec : ∀ (v913 : BitVec 32), Decidable (k1_chk92 v913) := fun v913 => decidable_of_iff' _ (Iff.of_eq (k1_chk92.eq_1 v913))
theorem k1_off184_inb : ∀ (v913 : BitVec 32) (k1_hw92 : k1_chk92 v913), ∀ a, (k1_off184 v913) a + S1x16384.size a ≤ S16384x16384.size a := fun v913 k1_hw92 => k1_hw92

def k1_off185 (i : grid1.Coords) : Fin 1 → Nat :=
  let arg0 : BitVec 32 := BitVec.ofNat 32 (i 0).val
  let c128_i32_275 : BitVec 32 := 128#32
  let v920 : BitVec 32 := Scalar.muli arg0 c128_i32_275
  let c92_i32 : BitVec 32 := 92#32
  let v921 : BitVec 32 := Scalar.addi v920 c92_i32
  let v922 : Index := Scalar.indexCast v921
  ![v922.toNat]
def k1_off186 (v923 : BitVec 32) : Fin 2 → Nat :=
  let c0_i32_277 : BitVec 32 := 0#32
  ![v923.toNat, 0]

def k1_chk93 (v923 : BitVec 32) : Prop :=
  (∀ a, (k1_off186 v923) a + S1x16384.size a ≤ S16384x16384.size a)
instance k1_chk93.dec : ∀ (v923 : BitVec 32), Decidable (k1_chk93 v923) := fun v923 => decidable_of_iff' _ (Iff.of_eq (k1_chk93.eq_1 v923))
theorem k1_off186_inb : ∀ (v923 : BitVec 32) (k1_hw93 : k1_chk93 v923), ∀ a, (k1_off186 v923) a + S1x16384.size a ≤ S16384x16384.size a := fun v923 k1_hw93 => k1_hw93

def k1_off187 (i : grid1.Coords) : Fin 1 → Nat :=
  let arg0 : BitVec 32 := BitVec.ofNat 32 (i 0).val
  let c128_i32_278 : BitVec 32 := 128#32
  let v930 : BitVec 32 := Scalar.muli arg0 c128_i32_278
  let c93_i32 : BitVec 32 := 93#32
  let v931 : BitVec 32 := Scalar.addi v930 c93_i32
  let v932 : Index := Scalar.indexCast v931
  ![v932.toNat]
def k1_off188 (v933 : BitVec 32) : Fin 2 → Nat :=
  let c0_i32_280 : BitVec 32 := 0#32
  ![v933.toNat, 0]

def k1_chk94 (v933 : BitVec 32) : Prop :=
  (∀ a, (k1_off188 v933) a + S1x16384.size a ≤ S16384x16384.size a)
instance k1_chk94.dec : ∀ (v933 : BitVec 32), Decidable (k1_chk94 v933) := fun v933 => decidable_of_iff' _ (Iff.of_eq (k1_chk94.eq_1 v933))
theorem k1_off188_inb : ∀ (v933 : BitVec 32) (k1_hw94 : k1_chk94 v933), ∀ a, (k1_off188 v933) a + S1x16384.size a ≤ S16384x16384.size a := fun v933 k1_hw94 => k1_hw94

def k1_off189 (i : grid1.Coords) : Fin 1 → Nat :=
  let arg0 : BitVec 32 := BitVec.ofNat 32 (i 0).val
  let c128_i32_281 : BitVec 32 := 128#32
  let v940 : BitVec 32 := Scalar.muli arg0 c128_i32_281
  let c94_i32 : BitVec 32 := 94#32
  let v941 : BitVec 32 := Scalar.addi v940 c94_i32
  let v942 : Index := Scalar.indexCast v941
  ![v942.toNat]
def k1_off190 (v943 : BitVec 32) : Fin 2 → Nat :=
  let c0_i32_283 : BitVec 32 := 0#32
  ![v943.toNat, 0]

def k1_chk95 (v943 : BitVec 32) : Prop :=
  (∀ a, (k1_off190 v943) a + S1x16384.size a ≤ S16384x16384.size a)
instance k1_chk95.dec : ∀ (v943 : BitVec 32), Decidable (k1_chk95 v943) := fun v943 => decidable_of_iff' _ (Iff.of_eq (k1_chk95.eq_1 v943))
theorem k1_off190_inb : ∀ (v943 : BitVec 32) (k1_hw95 : k1_chk95 v943), ∀ a, (k1_off190 v943) a + S1x16384.size a ≤ S16384x16384.size a := fun v943 k1_hw95 => k1_hw95

def k1_off191 (i : grid1.Coords) : Fin 1 → Nat :=
  let arg0 : BitVec 32 := BitVec.ofNat 32 (i 0).val
  let c128_i32_284 : BitVec 32 := 128#32
  let v950 : BitVec 32 := Scalar.muli arg0 c128_i32_284
  let c95_i32 : BitVec 32 := 95#32
  let v951 : BitVec 32 := Scalar.addi v950 c95_i32
  let v952 : Index := Scalar.indexCast v951
  ![v952.toNat]
def k1_off192 (v953 : BitVec 32) : Fin 2 → Nat :=
  let c0_i32_286 : BitVec 32 := 0#32
  ![v953.toNat, 0]

def k1_chk96 (v953 : BitVec 32) : Prop :=
  (∀ a, (k1_off192 v953) a + S1x16384.size a ≤ S16384x16384.size a)
instance k1_chk96.dec : ∀ (v953 : BitVec 32), Decidable (k1_chk96 v953) := fun v953 => decidable_of_iff' _ (Iff.of_eq (k1_chk96.eq_1 v953))
theorem k1_off192_inb : ∀ (v953 : BitVec 32) (k1_hw96 : k1_chk96 v953), ∀ a, (k1_off192 v953) a + S1x16384.size a ≤ S16384x16384.size a := fun v953 k1_hw96 => k1_hw96

def k1_off193 (i : grid1.Coords) : Fin 1 → Nat :=
  let arg0 : BitVec 32 := BitVec.ofNat 32 (i 0).val
  let c128_i32_287 : BitVec 32 := 128#32
  let v960 : BitVec 32 := Scalar.muli arg0 c128_i32_287
  let c96_i32 : BitVec 32 := 96#32
  let v961 : BitVec 32 := Scalar.addi v960 c96_i32
  let v962 : Index := Scalar.indexCast v961
  ![v962.toNat]
def k1_off194 (v963 : BitVec 32) : Fin 2 → Nat :=
  let c0_i32_289 : BitVec 32 := 0#32
  ![v963.toNat, 0]

def k1_chk97 (v963 : BitVec 32) : Prop :=
  (∀ a, (k1_off194 v963) a + S1x16384.size a ≤ S16384x16384.size a)
instance k1_chk97.dec : ∀ (v963 : BitVec 32), Decidable (k1_chk97 v963) := fun v963 => decidable_of_iff' _ (Iff.of_eq (k1_chk97.eq_1 v963))
theorem k1_off194_inb : ∀ (v963 : BitVec 32) (k1_hw97 : k1_chk97 v963), ∀ a, (k1_off194 v963) a + S1x16384.size a ≤ S16384x16384.size a := fun v963 k1_hw97 => k1_hw97

def k1_off195 (i : grid1.Coords) : Fin 1 → Nat :=
  let arg0 : BitVec 32 := BitVec.ofNat 32 (i 0).val
  let c128_i32_290 : BitVec 32 := 128#32
  let v970 : BitVec 32 := Scalar.muli arg0 c128_i32_290
  let c97_i32 : BitVec 32 := 97#32
  let v971 : BitVec 32 := Scalar.addi v970 c97_i32
  let v972 : Index := Scalar.indexCast v971
  ![v972.toNat]
def k1_off196 (v973 : BitVec 32) : Fin 2 → Nat :=
  let c0_i32_292 : BitVec 32 := 0#32
  ![v973.toNat, 0]

def k1_chk98 (v973 : BitVec 32) : Prop :=
  (∀ a, (k1_off196 v973) a + S1x16384.size a ≤ S16384x16384.size a)
instance k1_chk98.dec : ∀ (v973 : BitVec 32), Decidable (k1_chk98 v973) := fun v973 => decidable_of_iff' _ (Iff.of_eq (k1_chk98.eq_1 v973))
theorem k1_off196_inb : ∀ (v973 : BitVec 32) (k1_hw98 : k1_chk98 v973), ∀ a, (k1_off196 v973) a + S1x16384.size a ≤ S16384x16384.size a := fun v973 k1_hw98 => k1_hw98

def k1_off197 (i : grid1.Coords) : Fin 1 → Nat :=
  let arg0 : BitVec 32 := BitVec.ofNat 32 (i 0).val
  let c128_i32_293 : BitVec 32 := 128#32
  let v980 : BitVec 32 := Scalar.muli arg0 c128_i32_293
  let c98_i32 : BitVec 32 := 98#32
  let v981 : BitVec 32 := Scalar.addi v980 c98_i32
  let v982 : Index := Scalar.indexCast v981
  ![v982.toNat]
def k1_off198 (v983 : BitVec 32) : Fin 2 → Nat :=
  let c0_i32_295 : BitVec 32 := 0#32
  ![v983.toNat, 0]

def k1_chk99 (v983 : BitVec 32) : Prop :=
  (∀ a, (k1_off198 v983) a + S1x16384.size a ≤ S16384x16384.size a)
instance k1_chk99.dec : ∀ (v983 : BitVec 32), Decidable (k1_chk99 v983) := fun v983 => decidable_of_iff' _ (Iff.of_eq (k1_chk99.eq_1 v983))
theorem k1_off198_inb : ∀ (v983 : BitVec 32) (k1_hw99 : k1_chk99 v983), ∀ a, (k1_off198 v983) a + S1x16384.size a ≤ S16384x16384.size a := fun v983 k1_hw99 => k1_hw99

def k1_off199 (i : grid1.Coords) : Fin 1 → Nat :=
  let arg0 : BitVec 32 := BitVec.ofNat 32 (i 0).val
  let c128_i32_296 : BitVec 32 := 128#32
  let v990 : BitVec 32 := Scalar.muli arg0 c128_i32_296
  let c99_i32 : BitVec 32 := 99#32
  let v991 : BitVec 32 := Scalar.addi v990 c99_i32
  let v992 : Index := Scalar.indexCast v991
  ![v992.toNat]
def k1_off200 (v993 : BitVec 32) : Fin 2 → Nat :=
  let c0_i32_298 : BitVec 32 := 0#32
  ![v993.toNat, 0]

def k1_chk100 (v993 : BitVec 32) : Prop :=
  (∀ a, (k1_off200 v993) a + S1x16384.size a ≤ S16384x16384.size a)
instance k1_chk100.dec : ∀ (v993 : BitVec 32), Decidable (k1_chk100 v993) := fun v993 => decidable_of_iff' _ (Iff.of_eq (k1_chk100.eq_1 v993))
theorem k1_off200_inb : ∀ (v993 : BitVec 32) (k1_hw100 : k1_chk100 v993), ∀ a, (k1_off200 v993) a + S1x16384.size a ≤ S16384x16384.size a := fun v993 k1_hw100 => k1_hw100

def k1_off201 (i : grid1.Coords) : Fin 1 → Nat :=
  let arg0 : BitVec 32 := BitVec.ofNat 32 (i 0).val
  let c128_i32_299 : BitVec 32 := 128#32
  let v1000 : BitVec 32 := Scalar.muli arg0 c128_i32_299
  let c100_i32 : BitVec 32 := 100#32
  let v1001 : BitVec 32 := Scalar.addi v1000 c100_i32
  let v1002 : Index := Scalar.indexCast v1001
  ![v1002.toNat]
def k1_off202 (v1003 : BitVec 32) : Fin 2 → Nat :=
  let c0_i32_301 : BitVec 32 := 0#32
  ![v1003.toNat, 0]

def k1_chk101 (v1003 : BitVec 32) : Prop :=
  (∀ a, (k1_off202 v1003) a + S1x16384.size a ≤ S16384x16384.size a)
instance k1_chk101.dec : ∀ (v1003 : BitVec 32), Decidable (k1_chk101 v1003) := fun v1003 => decidable_of_iff' _ (Iff.of_eq (k1_chk101.eq_1 v1003))
theorem k1_off202_inb : ∀ (v1003 : BitVec 32) (k1_hw101 : k1_chk101 v1003), ∀ a, (k1_off202 v1003) a + S1x16384.size a ≤ S16384x16384.size a := fun v1003 k1_hw101 => k1_hw101

def k1_off203 (i : grid1.Coords) : Fin 1 → Nat :=
  let arg0 : BitVec 32 := BitVec.ofNat 32 (i 0).val
  let c128_i32_302 : BitVec 32 := 128#32
  let v1010 : BitVec 32 := Scalar.muli arg0 c128_i32_302
  let c101_i32 : BitVec 32 := 101#32
  let v1011 : BitVec 32 := Scalar.addi v1010 c101_i32
  let v1012 : Index := Scalar.indexCast v1011
  ![v1012.toNat]
def k1_off204 (v1013 : BitVec 32) : Fin 2 → Nat :=
  let c0_i32_304 : BitVec 32 := 0#32
  ![v1013.toNat, 0]

def k1_chk102 (v1013 : BitVec 32) : Prop :=
  (∀ a, (k1_off204 v1013) a + S1x16384.size a ≤ S16384x16384.size a)
instance k1_chk102.dec : ∀ (v1013 : BitVec 32), Decidable (k1_chk102 v1013) := fun v1013 => decidable_of_iff' _ (Iff.of_eq (k1_chk102.eq_1 v1013))
theorem k1_off204_inb : ∀ (v1013 : BitVec 32) (k1_hw102 : k1_chk102 v1013), ∀ a, (k1_off204 v1013) a + S1x16384.size a ≤ S16384x16384.size a := fun v1013 k1_hw102 => k1_hw102

def k1_off205 (i : grid1.Coords) : Fin 1 → Nat :=
  let arg0 : BitVec 32 := BitVec.ofNat 32 (i 0).val
  let c128_i32_305 : BitVec 32 := 128#32
  let v1020 : BitVec 32 := Scalar.muli arg0 c128_i32_305
  let c102_i32 : BitVec 32 := 102#32
  let v1021 : BitVec 32 := Scalar.addi v1020 c102_i32
  let v1022 : Index := Scalar.indexCast v1021
  ![v1022.toNat]
def k1_off206 (v1023 : BitVec 32) : Fin 2 → Nat :=
  let c0_i32_307 : BitVec 32 := 0#32
  ![v1023.toNat, 0]

def k1_chk103 (v1023 : BitVec 32) : Prop :=
  (∀ a, (k1_off206 v1023) a + S1x16384.size a ≤ S16384x16384.size a)
instance k1_chk103.dec : ∀ (v1023 : BitVec 32), Decidable (k1_chk103 v1023) := fun v1023 => decidable_of_iff' _ (Iff.of_eq (k1_chk103.eq_1 v1023))
theorem k1_off206_inb : ∀ (v1023 : BitVec 32) (k1_hw103 : k1_chk103 v1023), ∀ a, (k1_off206 v1023) a + S1x16384.size a ≤ S16384x16384.size a := fun v1023 k1_hw103 => k1_hw103

def k1_off207 (i : grid1.Coords) : Fin 1 → Nat :=
  let arg0 : BitVec 32 := BitVec.ofNat 32 (i 0).val
  let c128_i32_308 : BitVec 32 := 128#32
  let v1030 : BitVec 32 := Scalar.muli arg0 c128_i32_308
  let c103_i32 : BitVec 32 := 103#32
  let v1031 : BitVec 32 := Scalar.addi v1030 c103_i32
  let v1032 : Index := Scalar.indexCast v1031
  ![v1032.toNat]
def k1_off208 (v1033 : BitVec 32) : Fin 2 → Nat :=
  let c0_i32_310 : BitVec 32 := 0#32
  ![v1033.toNat, 0]

def k1_chk104 (v1033 : BitVec 32) : Prop :=
  (∀ a, (k1_off208 v1033) a + S1x16384.size a ≤ S16384x16384.size a)
instance k1_chk104.dec : ∀ (v1033 : BitVec 32), Decidable (k1_chk104 v1033) := fun v1033 => decidable_of_iff' _ (Iff.of_eq (k1_chk104.eq_1 v1033))
theorem k1_off208_inb : ∀ (v1033 : BitVec 32) (k1_hw104 : k1_chk104 v1033), ∀ a, (k1_off208 v1033) a + S1x16384.size a ≤ S16384x16384.size a := fun v1033 k1_hw104 => k1_hw104

def k1_off209 (i : grid1.Coords) : Fin 1 → Nat :=
  let arg0 : BitVec 32 := BitVec.ofNat 32 (i 0).val
  let c128_i32_311 : BitVec 32 := 128#32
  let v1040 : BitVec 32 := Scalar.muli arg0 c128_i32_311
  let c104_i32 : BitVec 32 := 104#32
  let v1041 : BitVec 32 := Scalar.addi v1040 c104_i32
  let v1042 : Index := Scalar.indexCast v1041
  ![v1042.toNat]
def k1_off210 (v1043 : BitVec 32) : Fin 2 → Nat :=
  let c0_i32_313 : BitVec 32 := 0#32
  ![v1043.toNat, 0]

def k1_chk105 (v1043 : BitVec 32) : Prop :=
  (∀ a, (k1_off210 v1043) a + S1x16384.size a ≤ S16384x16384.size a)
instance k1_chk105.dec : ∀ (v1043 : BitVec 32), Decidable (k1_chk105 v1043) := fun v1043 => decidable_of_iff' _ (Iff.of_eq (k1_chk105.eq_1 v1043))
theorem k1_off210_inb : ∀ (v1043 : BitVec 32) (k1_hw105 : k1_chk105 v1043), ∀ a, (k1_off210 v1043) a + S1x16384.size a ≤ S16384x16384.size a := fun v1043 k1_hw105 => k1_hw105

def k1_off211 (i : grid1.Coords) : Fin 1 → Nat :=
  let arg0 : BitVec 32 := BitVec.ofNat 32 (i 0).val
  let c128_i32_314 : BitVec 32 := 128#32
  let v1050 : BitVec 32 := Scalar.muli arg0 c128_i32_314
  let c105_i32 : BitVec 32 := 105#32
  let v1051 : BitVec 32 := Scalar.addi v1050 c105_i32
  let v1052 : Index := Scalar.indexCast v1051
  ![v1052.toNat]
def k1_off212 (v1053 : BitVec 32) : Fin 2 → Nat :=
  let c0_i32_316 : BitVec 32 := 0#32
  ![v1053.toNat, 0]

def k1_chk106 (v1053 : BitVec 32) : Prop :=
  (∀ a, (k1_off212 v1053) a + S1x16384.size a ≤ S16384x16384.size a)
instance k1_chk106.dec : ∀ (v1053 : BitVec 32), Decidable (k1_chk106 v1053) := fun v1053 => decidable_of_iff' _ (Iff.of_eq (k1_chk106.eq_1 v1053))
theorem k1_off212_inb : ∀ (v1053 : BitVec 32) (k1_hw106 : k1_chk106 v1053), ∀ a, (k1_off212 v1053) a + S1x16384.size a ≤ S16384x16384.size a := fun v1053 k1_hw106 => k1_hw106

def k1_off213 (i : grid1.Coords) : Fin 1 → Nat :=
  let arg0 : BitVec 32 := BitVec.ofNat 32 (i 0).val
  let c128_i32_317 : BitVec 32 := 128#32
  let v1060 : BitVec 32 := Scalar.muli arg0 c128_i32_317
  let c106_i32 : BitVec 32 := 106#32
  let v1061 : BitVec 32 := Scalar.addi v1060 c106_i32
  let v1062 : Index := Scalar.indexCast v1061
  ![v1062.toNat]
def k1_off214 (v1063 : BitVec 32) : Fin 2 → Nat :=
  let c0_i32_319 : BitVec 32 := 0#32
  ![v1063.toNat, 0]

def k1_chk107 (v1063 : BitVec 32) : Prop :=
  (∀ a, (k1_off214 v1063) a + S1x16384.size a ≤ S16384x16384.size a)
instance k1_chk107.dec : ∀ (v1063 : BitVec 32), Decidable (k1_chk107 v1063) := fun v1063 => decidable_of_iff' _ (Iff.of_eq (k1_chk107.eq_1 v1063))
theorem k1_off214_inb : ∀ (v1063 : BitVec 32) (k1_hw107 : k1_chk107 v1063), ∀ a, (k1_off214 v1063) a + S1x16384.size a ≤ S16384x16384.size a := fun v1063 k1_hw107 => k1_hw107

def k1_off215 (i : grid1.Coords) : Fin 1 → Nat :=
  let arg0 : BitVec 32 := BitVec.ofNat 32 (i 0).val
  let c128_i32_320 : BitVec 32 := 128#32
  let v1070 : BitVec 32 := Scalar.muli arg0 c128_i32_320
  let c107_i32 : BitVec 32 := 107#32
  let v1071 : BitVec 32 := Scalar.addi v1070 c107_i32
  let v1072 : Index := Scalar.indexCast v1071
  ![v1072.toNat]
def k1_off216 (v1073 : BitVec 32) : Fin 2 → Nat :=
  let c0_i32_322 : BitVec 32 := 0#32
  ![v1073.toNat, 0]

def k1_chk108 (v1073 : BitVec 32) : Prop :=
  (∀ a, (k1_off216 v1073) a + S1x16384.size a ≤ S16384x16384.size a)
instance k1_chk108.dec : ∀ (v1073 : BitVec 32), Decidable (k1_chk108 v1073) := fun v1073 => decidable_of_iff' _ (Iff.of_eq (k1_chk108.eq_1 v1073))
theorem k1_off216_inb : ∀ (v1073 : BitVec 32) (k1_hw108 : k1_chk108 v1073), ∀ a, (k1_off216 v1073) a + S1x16384.size a ≤ S16384x16384.size a := fun v1073 k1_hw108 => k1_hw108

def k1_off217 (i : grid1.Coords) : Fin 1 → Nat :=
  let arg0 : BitVec 32 := BitVec.ofNat 32 (i 0).val
  let c128_i32_323 : BitVec 32 := 128#32
  let v1080 : BitVec 32 := Scalar.muli arg0 c128_i32_323
  let c108_i32 : BitVec 32 := 108#32
  let v1081 : BitVec 32 := Scalar.addi v1080 c108_i32
  let v1082 : Index := Scalar.indexCast v1081
  ![v1082.toNat]
def k1_off218 (v1083 : BitVec 32) : Fin 2 → Nat :=
  let c0_i32_325 : BitVec 32 := 0#32
  ![v1083.toNat, 0]

def k1_chk109 (v1083 : BitVec 32) : Prop :=
  (∀ a, (k1_off218 v1083) a + S1x16384.size a ≤ S16384x16384.size a)
instance k1_chk109.dec : ∀ (v1083 : BitVec 32), Decidable (k1_chk109 v1083) := fun v1083 => decidable_of_iff' _ (Iff.of_eq (k1_chk109.eq_1 v1083))
theorem k1_off218_inb : ∀ (v1083 : BitVec 32) (k1_hw109 : k1_chk109 v1083), ∀ a, (k1_off218 v1083) a + S1x16384.size a ≤ S16384x16384.size a := fun v1083 k1_hw109 => k1_hw109

def k1_off219 (i : grid1.Coords) : Fin 1 → Nat :=
  let arg0 : BitVec 32 := BitVec.ofNat 32 (i 0).val
  let c128_i32_326 : BitVec 32 := 128#32
  let v1090 : BitVec 32 := Scalar.muli arg0 c128_i32_326
  let c109_i32 : BitVec 32 := 109#32
  let v1091 : BitVec 32 := Scalar.addi v1090 c109_i32
  let v1092 : Index := Scalar.indexCast v1091
  ![v1092.toNat]
def k1_off220 (v1093 : BitVec 32) : Fin 2 → Nat :=
  let c0_i32_328 : BitVec 32 := 0#32
  ![v1093.toNat, 0]

def k1_chk110 (v1093 : BitVec 32) : Prop :=
  (∀ a, (k1_off220 v1093) a + S1x16384.size a ≤ S16384x16384.size a)
instance k1_chk110.dec : ∀ (v1093 : BitVec 32), Decidable (k1_chk110 v1093) := fun v1093 => decidable_of_iff' _ (Iff.of_eq (k1_chk110.eq_1 v1093))
theorem k1_off220_inb : ∀ (v1093 : BitVec 32) (k1_hw110 : k1_chk110 v1093), ∀ a, (k1_off220 v1093) a + S1x16384.size a ≤ S16384x16384.size a := fun v1093 k1_hw110 => k1_hw110

def k1_off221 (i : grid1.Coords) : Fin 1 → Nat :=
  let arg0 : BitVec 32 := BitVec.ofNat 32 (i 0).val
  let c128_i32_329 : BitVec 32 := 128#32
  let v1100 : BitVec 32 := Scalar.muli arg0 c128_i32_329
  let c110_i32 : BitVec 32 := 110#32
  let v1101 : BitVec 32 := Scalar.addi v1100 c110_i32
  let v1102 : Index := Scalar.indexCast v1101
  ![v1102.toNat]
def k1_off222 (v1103 : BitVec 32) : Fin 2 → Nat :=
  let c0_i32_331 : BitVec 32 := 0#32
  ![v1103.toNat, 0]

def k1_chk111 (v1103 : BitVec 32) : Prop :=
  (∀ a, (k1_off222 v1103) a + S1x16384.size a ≤ S16384x16384.size a)
instance k1_chk111.dec : ∀ (v1103 : BitVec 32), Decidable (k1_chk111 v1103) := fun v1103 => decidable_of_iff' _ (Iff.of_eq (k1_chk111.eq_1 v1103))
theorem k1_off222_inb : ∀ (v1103 : BitVec 32) (k1_hw111 : k1_chk111 v1103), ∀ a, (k1_off222 v1103) a + S1x16384.size a ≤ S16384x16384.size a := fun v1103 k1_hw111 => k1_hw111

def k1_off223 (i : grid1.Coords) : Fin 1 → Nat :=
  let arg0 : BitVec 32 := BitVec.ofNat 32 (i 0).val
  let c128_i32_332 : BitVec 32 := 128#32
  let v1110 : BitVec 32 := Scalar.muli arg0 c128_i32_332
  let c111_i32 : BitVec 32 := 111#32
  let v1111 : BitVec 32 := Scalar.addi v1110 c111_i32
  let v1112 : Index := Scalar.indexCast v1111
  ![v1112.toNat]
def k1_off224 (v1113 : BitVec 32) : Fin 2 → Nat :=
  let c0_i32_334 : BitVec 32 := 0#32
  ![v1113.toNat, 0]

def k1_chk112 (v1113 : BitVec 32) : Prop :=
  (∀ a, (k1_off224 v1113) a + S1x16384.size a ≤ S16384x16384.size a)
instance k1_chk112.dec : ∀ (v1113 : BitVec 32), Decidable (k1_chk112 v1113) := fun v1113 => decidable_of_iff' _ (Iff.of_eq (k1_chk112.eq_1 v1113))
theorem k1_off224_inb : ∀ (v1113 : BitVec 32) (k1_hw112 : k1_chk112 v1113), ∀ a, (k1_off224 v1113) a + S1x16384.size a ≤ S16384x16384.size a := fun v1113 k1_hw112 => k1_hw112

def k1_off225 (i : grid1.Coords) : Fin 1 → Nat :=
  let arg0 : BitVec 32 := BitVec.ofNat 32 (i 0).val
  let c128_i32_335 : BitVec 32 := 128#32
  let v1120 : BitVec 32 := Scalar.muli arg0 c128_i32_335
  let c112_i32 : BitVec 32 := 112#32
  let v1121 : BitVec 32 := Scalar.addi v1120 c112_i32
  let v1122 : Index := Scalar.indexCast v1121
  ![v1122.toNat]
def k1_off226 (v1123 : BitVec 32) : Fin 2 → Nat :=
  let c0_i32_337 : BitVec 32 := 0#32
  ![v1123.toNat, 0]

def k1_chk113 (v1123 : BitVec 32) : Prop :=
  (∀ a, (k1_off226 v1123) a + S1x16384.size a ≤ S16384x16384.size a)
instance k1_chk113.dec : ∀ (v1123 : BitVec 32), Decidable (k1_chk113 v1123) := fun v1123 => decidable_of_iff' _ (Iff.of_eq (k1_chk113.eq_1 v1123))
theorem k1_off226_inb : ∀ (v1123 : BitVec 32) (k1_hw113 : k1_chk113 v1123), ∀ a, (k1_off226 v1123) a + S1x16384.size a ≤ S16384x16384.size a := fun v1123 k1_hw113 => k1_hw113

def k1_off227 (i : grid1.Coords) : Fin 1 → Nat :=
  let arg0 : BitVec 32 := BitVec.ofNat 32 (i 0).val
  let c128_i32_338 : BitVec 32 := 128#32
  let v1130 : BitVec 32 := Scalar.muli arg0 c128_i32_338
  let c113_i32 : BitVec 32 := 113#32
  let v1131 : BitVec 32 := Scalar.addi v1130 c113_i32
  let v1132 : Index := Scalar.indexCast v1131
  ![v1132.toNat]
def k1_off228 (v1133 : BitVec 32) : Fin 2 → Nat :=
  let c0_i32_340 : BitVec 32 := 0#32
  ![v1133.toNat, 0]

def k1_chk114 (v1133 : BitVec 32) : Prop :=
  (∀ a, (k1_off228 v1133) a + S1x16384.size a ≤ S16384x16384.size a)
instance k1_chk114.dec : ∀ (v1133 : BitVec 32), Decidable (k1_chk114 v1133) := fun v1133 => decidable_of_iff' _ (Iff.of_eq (k1_chk114.eq_1 v1133))
theorem k1_off228_inb : ∀ (v1133 : BitVec 32) (k1_hw114 : k1_chk114 v1133), ∀ a, (k1_off228 v1133) a + S1x16384.size a ≤ S16384x16384.size a := fun v1133 k1_hw114 => k1_hw114

def k1_off229 (i : grid1.Coords) : Fin 1 → Nat :=
  let arg0 : BitVec 32 := BitVec.ofNat 32 (i 0).val
  let c128_i32_341 : BitVec 32 := 128#32
  let v1140 : BitVec 32 := Scalar.muli arg0 c128_i32_341
  let c114_i32 : BitVec 32 := 114#32
  let v1141 : BitVec 32 := Scalar.addi v1140 c114_i32
  let v1142 : Index := Scalar.indexCast v1141
  ![v1142.toNat]
def k1_off230 (v1143 : BitVec 32) : Fin 2 → Nat :=
  let c0_i32_343 : BitVec 32 := 0#32
  ![v1143.toNat, 0]

def k1_chk115 (v1143 : BitVec 32) : Prop :=
  (∀ a, (k1_off230 v1143) a + S1x16384.size a ≤ S16384x16384.size a)
instance k1_chk115.dec : ∀ (v1143 : BitVec 32), Decidable (k1_chk115 v1143) := fun v1143 => decidable_of_iff' _ (Iff.of_eq (k1_chk115.eq_1 v1143))
theorem k1_off230_inb : ∀ (v1143 : BitVec 32) (k1_hw115 : k1_chk115 v1143), ∀ a, (k1_off230 v1143) a + S1x16384.size a ≤ S16384x16384.size a := fun v1143 k1_hw115 => k1_hw115

def k1_off231 (i : grid1.Coords) : Fin 1 → Nat :=
  let arg0 : BitVec 32 := BitVec.ofNat 32 (i 0).val
  let c128_i32_344 : BitVec 32 := 128#32
  let v1150 : BitVec 32 := Scalar.muli arg0 c128_i32_344
  let c115_i32 : BitVec 32 := 115#32
  let v1151 : BitVec 32 := Scalar.addi v1150 c115_i32
  let v1152 : Index := Scalar.indexCast v1151
  ![v1152.toNat]
def k1_off232 (v1153 : BitVec 32) : Fin 2 → Nat :=
  let c0_i32_346 : BitVec 32 := 0#32
  ![v1153.toNat, 0]

def k1_chk116 (v1153 : BitVec 32) : Prop :=
  (∀ a, (k1_off232 v1153) a + S1x16384.size a ≤ S16384x16384.size a)
instance k1_chk116.dec : ∀ (v1153 : BitVec 32), Decidable (k1_chk116 v1153) := fun v1153 => decidable_of_iff' _ (Iff.of_eq (k1_chk116.eq_1 v1153))
theorem k1_off232_inb : ∀ (v1153 : BitVec 32) (k1_hw116 : k1_chk116 v1153), ∀ a, (k1_off232 v1153) a + S1x16384.size a ≤ S16384x16384.size a := fun v1153 k1_hw116 => k1_hw116

def k1_off233 (i : grid1.Coords) : Fin 1 → Nat :=
  let arg0 : BitVec 32 := BitVec.ofNat 32 (i 0).val
  let c128_i32_347 : BitVec 32 := 128#32
  let v1160 : BitVec 32 := Scalar.muli arg0 c128_i32_347
  let c116_i32 : BitVec 32 := 116#32
  let v1161 : BitVec 32 := Scalar.addi v1160 c116_i32
  let v1162 : Index := Scalar.indexCast v1161
  ![v1162.toNat]
def k1_off234 (v1163 : BitVec 32) : Fin 2 → Nat :=
  let c0_i32_349 : BitVec 32 := 0#32
  ![v1163.toNat, 0]

def k1_chk117 (v1163 : BitVec 32) : Prop :=
  (∀ a, (k1_off234 v1163) a + S1x16384.size a ≤ S16384x16384.size a)
instance k1_chk117.dec : ∀ (v1163 : BitVec 32), Decidable (k1_chk117 v1163) := fun v1163 => decidable_of_iff' _ (Iff.of_eq (k1_chk117.eq_1 v1163))
theorem k1_off234_inb : ∀ (v1163 : BitVec 32) (k1_hw117 : k1_chk117 v1163), ∀ a, (k1_off234 v1163) a + S1x16384.size a ≤ S16384x16384.size a := fun v1163 k1_hw117 => k1_hw117

def k1_off235 (i : grid1.Coords) : Fin 1 → Nat :=
  let arg0 : BitVec 32 := BitVec.ofNat 32 (i 0).val
  let c128_i32_350 : BitVec 32 := 128#32
  let v1170 : BitVec 32 := Scalar.muli arg0 c128_i32_350
  let c117_i32 : BitVec 32 := 117#32
  let v1171 : BitVec 32 := Scalar.addi v1170 c117_i32
  let v1172 : Index := Scalar.indexCast v1171
  ![v1172.toNat]
def k1_off236 (v1173 : BitVec 32) : Fin 2 → Nat :=
  let c0_i32_352 : BitVec 32 := 0#32
  ![v1173.toNat, 0]

def k1_chk118 (v1173 : BitVec 32) : Prop :=
  (∀ a, (k1_off236 v1173) a + S1x16384.size a ≤ S16384x16384.size a)
instance k1_chk118.dec : ∀ (v1173 : BitVec 32), Decidable (k1_chk118 v1173) := fun v1173 => decidable_of_iff' _ (Iff.of_eq (k1_chk118.eq_1 v1173))
theorem k1_off236_inb : ∀ (v1173 : BitVec 32) (k1_hw118 : k1_chk118 v1173), ∀ a, (k1_off236 v1173) a + S1x16384.size a ≤ S16384x16384.size a := fun v1173 k1_hw118 => k1_hw118

def k1_off237 (i : grid1.Coords) : Fin 1 → Nat :=
  let arg0 : BitVec 32 := BitVec.ofNat 32 (i 0).val
  let c128_i32_353 : BitVec 32 := 128#32
  let v1180 : BitVec 32 := Scalar.muli arg0 c128_i32_353
  let c118_i32 : BitVec 32 := 118#32
  let v1181 : BitVec 32 := Scalar.addi v1180 c118_i32
  let v1182 : Index := Scalar.indexCast v1181
  ![v1182.toNat]
def k1_off238 (v1183 : BitVec 32) : Fin 2 → Nat :=
  let c0_i32_355 : BitVec 32 := 0#32
  ![v1183.toNat, 0]

def k1_chk119 (v1183 : BitVec 32) : Prop :=
  (∀ a, (k1_off238 v1183) a + S1x16384.size a ≤ S16384x16384.size a)
instance k1_chk119.dec : ∀ (v1183 : BitVec 32), Decidable (k1_chk119 v1183) := fun v1183 => decidable_of_iff' _ (Iff.of_eq (k1_chk119.eq_1 v1183))
theorem k1_off238_inb : ∀ (v1183 : BitVec 32) (k1_hw119 : k1_chk119 v1183), ∀ a, (k1_off238 v1183) a + S1x16384.size a ≤ S16384x16384.size a := fun v1183 k1_hw119 => k1_hw119

def k1_off239 (i : grid1.Coords) : Fin 1 → Nat :=
  let arg0 : BitVec 32 := BitVec.ofNat 32 (i 0).val
  let c128_i32_356 : BitVec 32 := 128#32
  let v1190 : BitVec 32 := Scalar.muli arg0 c128_i32_356
  let c119_i32 : BitVec 32 := 119#32
  let v1191 : BitVec 32 := Scalar.addi v1190 c119_i32
  let v1192 : Index := Scalar.indexCast v1191
  ![v1192.toNat]
def k1_off240 (v1193 : BitVec 32) : Fin 2 → Nat :=
  let c0_i32_358 : BitVec 32 := 0#32
  ![v1193.toNat, 0]

def k1_chk120 (v1193 : BitVec 32) : Prop :=
  (∀ a, (k1_off240 v1193) a + S1x16384.size a ≤ S16384x16384.size a)
instance k1_chk120.dec : ∀ (v1193 : BitVec 32), Decidable (k1_chk120 v1193) := fun v1193 => decidable_of_iff' _ (Iff.of_eq (k1_chk120.eq_1 v1193))
theorem k1_off240_inb : ∀ (v1193 : BitVec 32) (k1_hw120 : k1_chk120 v1193), ∀ a, (k1_off240 v1193) a + S1x16384.size a ≤ S16384x16384.size a := fun v1193 k1_hw120 => k1_hw120

def k1_off241 (i : grid1.Coords) : Fin 1 → Nat :=
  let arg0 : BitVec 32 := BitVec.ofNat 32 (i 0).val
  let c128_i32_359 : BitVec 32 := 128#32
  let v1200 : BitVec 32 := Scalar.muli arg0 c128_i32_359
  let c120_i32 : BitVec 32 := 120#32
  let v1201 : BitVec 32 := Scalar.addi v1200 c120_i32
  let v1202 : Index := Scalar.indexCast v1201
  ![v1202.toNat]
def k1_off242 (v1203 : BitVec 32) : Fin 2 → Nat :=
  let c0_i32_361 : BitVec 32 := 0#32
  ![v1203.toNat, 0]

def k1_chk121 (v1203 : BitVec 32) : Prop :=
  (∀ a, (k1_off242 v1203) a + S1x16384.size a ≤ S16384x16384.size a)
instance k1_chk121.dec : ∀ (v1203 : BitVec 32), Decidable (k1_chk121 v1203) := fun v1203 => decidable_of_iff' _ (Iff.of_eq (k1_chk121.eq_1 v1203))
theorem k1_off242_inb : ∀ (v1203 : BitVec 32) (k1_hw121 : k1_chk121 v1203), ∀ a, (k1_off242 v1203) a + S1x16384.size a ≤ S16384x16384.size a := fun v1203 k1_hw121 => k1_hw121

def k1_off243 (i : grid1.Coords) : Fin 1 → Nat :=
  let arg0 : BitVec 32 := BitVec.ofNat 32 (i 0).val
  let c128_i32_362 : BitVec 32 := 128#32
  let v1210 : BitVec 32 := Scalar.muli arg0 c128_i32_362
  let c121_i32 : BitVec 32 := 121#32
  let v1211 : BitVec 32 := Scalar.addi v1210 c121_i32
  let v1212 : Index := Scalar.indexCast v1211
  ![v1212.toNat]
def k1_off244 (v1213 : BitVec 32) : Fin 2 → Nat :=
  let c0_i32_364 : BitVec 32 := 0#32
  ![v1213.toNat, 0]

def k1_chk122 (v1213 : BitVec 32) : Prop :=
  (∀ a, (k1_off244 v1213) a + S1x16384.size a ≤ S16384x16384.size a)
instance k1_chk122.dec : ∀ (v1213 : BitVec 32), Decidable (k1_chk122 v1213) := fun v1213 => decidable_of_iff' _ (Iff.of_eq (k1_chk122.eq_1 v1213))
theorem k1_off244_inb : ∀ (v1213 : BitVec 32) (k1_hw122 : k1_chk122 v1213), ∀ a, (k1_off244 v1213) a + S1x16384.size a ≤ S16384x16384.size a := fun v1213 k1_hw122 => k1_hw122

def k1_off245 (i : grid1.Coords) : Fin 1 → Nat :=
  let arg0 : BitVec 32 := BitVec.ofNat 32 (i 0).val
  let c128_i32_365 : BitVec 32 := 128#32
  let v1220 : BitVec 32 := Scalar.muli arg0 c128_i32_365
  let c122_i32 : BitVec 32 := 122#32
  let v1221 : BitVec 32 := Scalar.addi v1220 c122_i32
  let v1222 : Index := Scalar.indexCast v1221
  ![v1222.toNat]
def k1_off246 (v1223 : BitVec 32) : Fin 2 → Nat :=
  let c0_i32_367 : BitVec 32 := 0#32
  ![v1223.toNat, 0]

def k1_chk123 (v1223 : BitVec 32) : Prop :=
  (∀ a, (k1_off246 v1223) a + S1x16384.size a ≤ S16384x16384.size a)
instance k1_chk123.dec : ∀ (v1223 : BitVec 32), Decidable (k1_chk123 v1223) := fun v1223 => decidable_of_iff' _ (Iff.of_eq (k1_chk123.eq_1 v1223))
theorem k1_off246_inb : ∀ (v1223 : BitVec 32) (k1_hw123 : k1_chk123 v1223), ∀ a, (k1_off246 v1223) a + S1x16384.size a ≤ S16384x16384.size a := fun v1223 k1_hw123 => k1_hw123

def k1_off247 (i : grid1.Coords) : Fin 1 → Nat :=
  let arg0 : BitVec 32 := BitVec.ofNat 32 (i 0).val
  let c128_i32_368 : BitVec 32 := 128#32
  let v1230 : BitVec 32 := Scalar.muli arg0 c128_i32_368
  let c123_i32 : BitVec 32 := 123#32
  let v1231 : BitVec 32 := Scalar.addi v1230 c123_i32
  let v1232 : Index := Scalar.indexCast v1231
  ![v1232.toNat]
def k1_off248 (v1233 : BitVec 32) : Fin 2 → Nat :=
  let c0_i32_370 : BitVec 32 := 0#32
  ![v1233.toNat, 0]

def k1_chk124 (v1233 : BitVec 32) : Prop :=
  (∀ a, (k1_off248 v1233) a + S1x16384.size a ≤ S16384x16384.size a)
instance k1_chk124.dec : ∀ (v1233 : BitVec 32), Decidable (k1_chk124 v1233) := fun v1233 => decidable_of_iff' _ (Iff.of_eq (k1_chk124.eq_1 v1233))
theorem k1_off248_inb : ∀ (v1233 : BitVec 32) (k1_hw124 : k1_chk124 v1233), ∀ a, (k1_off248 v1233) a + S1x16384.size a ≤ S16384x16384.size a := fun v1233 k1_hw124 => k1_hw124

def k1_off249 (i : grid1.Coords) : Fin 1 → Nat :=
  let arg0 : BitVec 32 := BitVec.ofNat 32 (i 0).val
  let c128_i32_371 : BitVec 32 := 128#32
  let v1240 : BitVec 32 := Scalar.muli arg0 c128_i32_371
  let c124_i32 : BitVec 32 := 124#32
  let v1241 : BitVec 32 := Scalar.addi v1240 c124_i32
  let v1242 : Index := Scalar.indexCast v1241
  ![v1242.toNat]
def k1_off250 (v1243 : BitVec 32) : Fin 2 → Nat :=
  let c0_i32_373 : BitVec 32 := 0#32
  ![v1243.toNat, 0]

def k1_chk125 (v1243 : BitVec 32) : Prop :=
  (∀ a, (k1_off250 v1243) a + S1x16384.size a ≤ S16384x16384.size a)
instance k1_chk125.dec : ∀ (v1243 : BitVec 32), Decidable (k1_chk125 v1243) := fun v1243 => decidable_of_iff' _ (Iff.of_eq (k1_chk125.eq_1 v1243))
theorem k1_off250_inb : ∀ (v1243 : BitVec 32) (k1_hw125 : k1_chk125 v1243), ∀ a, (k1_off250 v1243) a + S1x16384.size a ≤ S16384x16384.size a := fun v1243 k1_hw125 => k1_hw125

def k1_off251 (i : grid1.Coords) : Fin 1 → Nat :=
  let arg0 : BitVec 32 := BitVec.ofNat 32 (i 0).val
  let c128_i32_374 : BitVec 32 := 128#32
  let v1250 : BitVec 32 := Scalar.muli arg0 c128_i32_374
  let c125_i32 : BitVec 32 := 125#32
  let v1251 : BitVec 32 := Scalar.addi v1250 c125_i32
  let v1252 : Index := Scalar.indexCast v1251
  ![v1252.toNat]
def k1_off252 (v1253 : BitVec 32) : Fin 2 → Nat :=
  let c0_i32_376 : BitVec 32 := 0#32
  ![v1253.toNat, 0]

def k1_chk126 (v1253 : BitVec 32) : Prop :=
  (∀ a, (k1_off252 v1253) a + S1x16384.size a ≤ S16384x16384.size a)
instance k1_chk126.dec : ∀ (v1253 : BitVec 32), Decidable (k1_chk126 v1253) := fun v1253 => decidable_of_iff' _ (Iff.of_eq (k1_chk126.eq_1 v1253))
theorem k1_off252_inb : ∀ (v1253 : BitVec 32) (k1_hw126 : k1_chk126 v1253), ∀ a, (k1_off252 v1253) a + S1x16384.size a ≤ S16384x16384.size a := fun v1253 k1_hw126 => k1_hw126

def k1_off253 (i : grid1.Coords) : Fin 1 → Nat :=
  let arg0 : BitVec 32 := BitVec.ofNat 32 (i 0).val
  let c128_i32_377 : BitVec 32 := 128#32
  let v1260 : BitVec 32 := Scalar.muli arg0 c128_i32_377
  let c126_i32 : BitVec 32 := 126#32
  let v1261 : BitVec 32 := Scalar.addi v1260 c126_i32
  let v1262 : Index := Scalar.indexCast v1261
  ![v1262.toNat]
def k1_off254 (v1263 : BitVec 32) : Fin 2 → Nat :=
  let c0_i32_379 : BitVec 32 := 0#32
  ![v1263.toNat, 0]

def k1_chk127 (v1263 : BitVec 32) : Prop :=
  (∀ a, (k1_off254 v1263) a + S1x16384.size a ≤ S16384x16384.size a)
instance k1_chk127.dec : ∀ (v1263 : BitVec 32), Decidable (k1_chk127 v1263) := fun v1263 => decidable_of_iff' _ (Iff.of_eq (k1_chk127.eq_1 v1263))
theorem k1_off254_inb : ∀ (v1263 : BitVec 32) (k1_hw127 : k1_chk127 v1263), ∀ a, (k1_off254 v1263) a + S1x16384.size a ≤ S16384x16384.size a := fun v1263 k1_hw127 => k1_hw127

def k1_off255 (i : grid1.Coords) : Fin 1 → Nat :=
  let arg0 : BitVec 32 := BitVec.ofNat 32 (i 0).val
  let c128_i32_380 : BitVec 32 := 128#32
  let v1270 : BitVec 32 := Scalar.muli arg0 c128_i32_380
  let c127_i32 : BitVec 32 := 127#32
  let v1271 : BitVec 32 := Scalar.addi v1270 c127_i32
  let v1272 : Index := Scalar.indexCast v1271
  ![v1272.toNat]
def k1_off256 (v1273 : BitVec 32) : Fin 2 → Nat :=
  let c0_i32_382 : BitVec 32 := 0#32
  ![v1273.toNat, 0]

def k1_chk128 (v1273 : BitVec 32) : Prop :=
  (∀ a, (k1_off256 v1273) a + S1x16384.size a ≤ S16384x16384.size a)
instance k1_chk128.dec : ∀ (v1273 : BitVec 32), Decidable (k1_chk128 v1273) := fun v1273 => decidable_of_iff' _ (Iff.of_eq (k1_chk128.eq_1 v1273))
theorem k1_off256_inb : ∀ (v1273 : BitVec 32) (k1_hw128 : k1_chk128 v1273), ∀ a, (k1_off256 v1273) a + S1x16384.size a ≤ S16384x16384.size a := fun v1273 k1_hw128 => k1_hw128

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S16384x64 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S128x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  packedbf16_S2048x64_S2048x64_0_0 : (Rect.unit (s := S2048x64) ![0, 0] S2048x64.size inb_S2048x64_S2048x64_0_0).PackedRows (EltTy.packing .bf16)
  numel1_S1 : S1.numel = 1
  inb_S128_S1_0 : ∀ a, (![0] : Fin 1 → Nat) a + S1.size a ≤ S128.size a
  squeezes_S1_S_ : S1.Squeezes S_
  inb_S128x16384_S1x16384_0_0 : ∀ a, (![0, 0] : Fin 2 → Nat) a + S1x16384.size a ≤ S128x16384.size a
  squeezes_S1x16384_S16384 : S1x16384.Squeezes S16384
  inb_S128_S1_1 : ∀ a, (![1] : Fin 1 → Nat) a + S1.size a ≤ S128.size a
  inb_S128x16384_S1x16384_1_0 : ∀ a, (![1, 0] : Fin 2 → Nat) a + S1x16384.size a ≤ S128x16384.size a
  inb_S128_S1_2 : ∀ a, (![2] : Fin 1 → Nat) a + S1.size a ≤ S128.size a
  inb_S128x16384_S1x16384_2_0 : ∀ a, (![2, 0] : Fin 2 → Nat) a + S1x16384.size a ≤ S128x16384.size a
  inb_S128_S1_3 : ∀ a, (![3] : Fin 1 → Nat) a + S1.size a ≤ S128.size a
  inb_S128x16384_S1x16384_3_0 : ∀ a, (![3, 0] : Fin 2 → Nat) a + S1x16384.size a ≤ S128x16384.size a
  inb_S128_S1_4 : ∀ a, (![4] : Fin 1 → Nat) a + S1.size a ≤ S128.size a
  inb_S128x16384_S1x16384_4_0 : ∀ a, (![4, 0] : Fin 2 → Nat) a + S1x16384.size a ≤ S128x16384.size a
  inb_S128_S1_5 : ∀ a, (![5] : Fin 1 → Nat) a + S1.size a ≤ S128.size a
  inb_S128x16384_S1x16384_5_0 : ∀ a, (![5, 0] : Fin 2 → Nat) a + S1x16384.size a ≤ S128x16384.size a
  inb_S128_S1_6 : ∀ a, (![6] : Fin 1 → Nat) a + S1.size a ≤ S128.size a
  inb_S128x16384_S1x16384_6_0 : ∀ a, (![6, 0] : Fin 2 → Nat) a + S1x16384.size a ≤ S128x16384.size a
  inb_S128_S1_7 : ∀ a, (![7] : Fin 1 → Nat) a + S1.size a ≤ S128.size a
  inb_S128x16384_S1x16384_7_0 : ∀ a, (![7, 0] : Fin 2 → Nat) a + S1x16384.size a ≤ S128x16384.size a
  inb_S128_S1_8 : ∀ a, (![8] : Fin 1 → Nat) a + S1.size a ≤ S128.size a
  inb_S128x16384_S1x16384_8_0 : ∀ a, (![8, 0] : Fin 2 → Nat) a + S1x16384.size a ≤ S128x16384.size a
  inb_S128_S1_9 : ∀ a, (![9] : Fin 1 → Nat) a + S1.size a ≤ S128.size a
  inb_S128x16384_S1x16384_9_0 : ∀ a, (![9, 0] : Fin 2 → Nat) a + S1x16384.size a ≤ S128x16384.size a
  inb_S128_S1_10 : ∀ a, (![10] : Fin 1 → Nat) a + S1.size a ≤ S128.size a
  inb_S128x16384_S1x16384_10_0 : ∀ a, (![10, 0] : Fin 2 → Nat) a + S1x16384.size a ≤ S128x16384.size a
  inb_S128_S1_11 : ∀ a, (![11] : Fin 1 → Nat) a + S1.size a ≤ S128.size a
  inb_S128x16384_S1x16384_11_0 : ∀ a, (![11, 0] : Fin 2 → Nat) a + S1x16384.size a ≤ S128x16384.size a
  inb_S128_S1_12 : ∀ a, (![12] : Fin 1 → Nat) a + S1.size a ≤ S128.size a
  inb_S128x16384_S1x16384_12_0 : ∀ a, (![12, 0] : Fin 2 → Nat) a + S1x16384.size a ≤ S128x16384.size a
  inb_S128_S1_13 : ∀ a, (![13] : Fin 1 → Nat) a + S1.size a ≤ S128.size a
  inb_S128x16384_S1x16384_13_0 : ∀ a, (![13, 0] : Fin 2 → Nat) a + S1x16384.size a ≤ S128x16384.size a
  inb_S128_S1_14 : ∀ a, (![14] : Fin 1 → Nat) a + S1.size a ≤ S128.size a
  inb_S128x16384_S1x16384_14_0 : ∀ a, (![14, 0] : Fin 2 → Nat) a + S1x16384.size a ≤ S128x16384.size a
  inb_S128_S1_15 : ∀ a, (![15] : Fin 1 → Nat) a + S1.size a ≤ S128.size a
  inb_S128x16384_S1x16384_15_0 : ∀ a, (![15, 0] : Fin 2 → Nat) a + S1x16384.size a ≤ S128x16384.size a
  inb_S128_S1_16 : ∀ a, (![16] : Fin 1 → Nat) a + S1.size a ≤ S128.size a
  inb_S128x16384_S1x16384_16_0 : ∀ a, (![16, 0] : Fin 2 → Nat) a + S1x16384.size a ≤ S128x16384.size a
  inb_S128_S1_17 : ∀ a, (![17] : Fin 1 → Nat) a + S1.size a ≤ S128.size a
  inb_S128x16384_S1x16384_17_0 : ∀ a, (![17, 0] : Fin 2 → Nat) a + S1x16384.size a ≤ S128x16384.size a
  inb_S128_S1_18 : ∀ a, (![18] : Fin 1 → Nat) a + S1.size a ≤ S128.size a
  inb_S128x16384_S1x16384_18_0 : ∀ a, (![18, 0] : Fin 2 → Nat) a + S1x16384.size a ≤ S128x16384.size a
  inb_S128_S1_19 : ∀ a, (![19] : Fin 1 → Nat) a + S1.size a ≤ S128.size a
  inb_S128x16384_S1x16384_19_0 : ∀ a, (![19, 0] : Fin 2 → Nat) a + S1x16384.size a ≤ S128x16384.size a
  inb_S128_S1_20 : ∀ a, (![20] : Fin 1 → Nat) a + S1.size a ≤ S128.size a
  inb_S128x16384_S1x16384_20_0 : ∀ a, (![20, 0] : Fin 2 → Nat) a + S1x16384.size a ≤ S128x16384.size a
  inb_S128_S1_21 : ∀ a, (![21] : Fin 1 → Nat) a + S1.size a ≤ S128.size a
  inb_S128x16384_S1x16384_21_0 : ∀ a, (![21, 0] : Fin 2 → Nat) a + S1x16384.size a ≤ S128x16384.size a
  inb_S128_S1_22 : ∀ a, (![22] : Fin 1 → Nat) a + S1.size a ≤ S128.size a
  inb_S128x16384_S1x16384_22_0 : ∀ a, (![22, 0] : Fin 2 → Nat) a + S1x16384.size a ≤ S128x16384.size a
  inb_S128_S1_23 : ∀ a, (![23] : Fin 1 → Nat) a + S1.size a ≤ S128.size a
  inb_S128x16384_S1x16384_23_0 : ∀ a, (![23, 0] : Fin 2 → Nat) a + S1x16384.size a ≤ S128x16384.size a
  inb_S128_S1_24 : ∀ a, (![24] : Fin 1 → Nat) a + S1.size a ≤ S128.size a
  inb_S128x16384_S1x16384_24_0 : ∀ a, (![24, 0] : Fin 2 → Nat) a + S1x16384.size a ≤ S128x16384.size a
  inb_S128_S1_25 : ∀ a, (![25] : Fin 1 → Nat) a + S1.size a ≤ S128.size a
  inb_S128x16384_S1x16384_25_0 : ∀ a, (![25, 0] : Fin 2 → Nat) a + S1x16384.size a ≤ S128x16384.size a
  inb_S128_S1_26 : ∀ a, (![26] : Fin 1 → Nat) a + S1.size a ≤ S128.size a
  inb_S128x16384_S1x16384_26_0 : ∀ a, (![26, 0] : Fin 2 → Nat) a + S1x16384.size a ≤ S128x16384.size a
  inb_S128_S1_27 : ∀ a, (![27] : Fin 1 → Nat) a + S1.size a ≤ S128.size a
  inb_S128x16384_S1x16384_27_0 : ∀ a, (![27, 0] : Fin 2 → Nat) a + S1x16384.size a ≤ S128x16384.size a
  inb_S128_S1_28 : ∀ a, (![28] : Fin 1 → Nat) a + S1.size a ≤ S128.size a
  inb_S128x16384_S1x16384_28_0 : ∀ a, (![28, 0] : Fin 2 → Nat) a + S1x16384.size a ≤ S128x16384.size a
  inb_S128_S1_29 : ∀ a, (![29] : Fin 1 → Nat) a + S1.size a ≤ S128.size a
  inb_S128x16384_S1x16384_29_0 : ∀ a, (![29, 0] : Fin 2 → Nat) a + S1x16384.size a ≤ S128x16384.size a
  inb_S128_S1_30 : ∀ a, (![30] : Fin 1 → Nat) a + S1.size a ≤ S128.size a
  inb_S128x16384_S1x16384_30_0 : ∀ a, (![30, 0] : Fin 2 → Nat) a + S1x16384.size a ≤ S128x16384.size a
  inb_S128_S1_31 : ∀ a, (![31] : Fin 1 → Nat) a + S1.size a ≤ S128.size a
  inb_S128x16384_S1x16384_31_0 : ∀ a, (![31, 0] : Fin 2 → Nat) a + S1x16384.size a ≤ S128x16384.size a
  inb_S128_S1_32 : ∀ a, (![32] : Fin 1 → Nat) a + S1.size a ≤ S128.size a
  inb_S128x16384_S1x16384_32_0 : ∀ a, (![32, 0] : Fin 2 → Nat) a + S1x16384.size a ≤ S128x16384.size a
  inb_S128_S1_33 : ∀ a, (![33] : Fin 1 → Nat) a + S1.size a ≤ S128.size a
  inb_S128x16384_S1x16384_33_0 : ∀ a, (![33, 0] : Fin 2 → Nat) a + S1x16384.size a ≤ S128x16384.size a
  inb_S128_S1_34 : ∀ a, (![34] : Fin 1 → Nat) a + S1.size a ≤ S128.size a
  inb_S128x16384_S1x16384_34_0 : ∀ a, (![34, 0] : Fin 2 → Nat) a + S1x16384.size a ≤ S128x16384.size a
  inb_S128_S1_35 : ∀ a, (![35] : Fin 1 → Nat) a + S1.size a ≤ S128.size a
  inb_S128x16384_S1x16384_35_0 : ∀ a, (![35, 0] : Fin 2 → Nat) a + S1x16384.size a ≤ S128x16384.size a
  inb_S128_S1_36 : ∀ a, (![36] : Fin 1 → Nat) a + S1.size a ≤ S128.size a
  inb_S128x16384_S1x16384_36_0 : ∀ a, (![36, 0] : Fin 2 → Nat) a + S1x16384.size a ≤ S128x16384.size a
  inb_S128_S1_37 : ∀ a, (![37] : Fin 1 → Nat) a + S1.size a ≤ S128.size a
  inb_S128x16384_S1x16384_37_0 : ∀ a, (![37, 0] : Fin 2 → Nat) a + S1x16384.size a ≤ S128x16384.size a
  inb_S128_S1_38 : ∀ a, (![38] : Fin 1 → Nat) a + S1.size a ≤ S128.size a
  inb_S128x16384_S1x16384_38_0 : ∀ a, (![38, 0] : Fin 2 → Nat) a + S1x16384.size a ≤ S128x16384.size a
  inb_S128_S1_39 : ∀ a, (![39] : Fin 1 → Nat) a + S1.size a ≤ S128.size a
  inb_S128x16384_S1x16384_39_0 : ∀ a, (![39, 0] : Fin 2 → Nat) a + S1x16384.size a ≤ S128x16384.size a
  inb_S128_S1_40 : ∀ a, (![40] : Fin 1 → Nat) a + S1.size a ≤ S128.size a
  inb_S128x16384_S1x16384_40_0 : ∀ a, (![40, 0] : Fin 2 → Nat) a + S1x16384.size a ≤ S128x16384.size a
  inb_S128_S1_41 : ∀ a, (![41] : Fin 1 → Nat) a + S1.size a ≤ S128.size a
  inb_S128x16384_S1x16384_41_0 : ∀ a, (![41, 0] : Fin 2 → Nat) a + S1x16384.size a ≤ S128x16384.size a
  inb_S128_S1_42 : ∀ a, (![42] : Fin 1 → Nat) a + S1.size a ≤ S128.size a
  inb_S128x16384_S1x16384_42_0 : ∀ a, (![42, 0] : Fin 2 → Nat) a + S1x16384.size a ≤ S128x16384.size a
  inb_S128_S1_43 : ∀ a, (![43] : Fin 1 → Nat) a + S1.size a ≤ S128.size a
  inb_S128x16384_S1x16384_43_0 : ∀ a, (![43, 0] : Fin 2 → Nat) a + S1x16384.size a ≤ S128x16384.size a
  inb_S128_S1_44 : ∀ a, (![44] : Fin 1 → Nat) a + S1.size a ≤ S128.size a
  inb_S128x16384_S1x16384_44_0 : ∀ a, (![44, 0] : Fin 2 → Nat) a + S1x16384.size a ≤ S128x16384.size a
  inb_S128_S1_45 : ∀ a, (![45] : Fin 1 → Nat) a + S1.size a ≤ S128.size a
  inb_S128x16384_S1x16384_45_0 : ∀ a, (![45, 0] : Fin 2 → Nat) a + S1x16384.size a ≤ S128x16384.size a
  inb_S128_S1_46 : ∀ a, (![46] : Fin 1 → Nat) a + S1.size a ≤ S128.size a
  inb_S128x16384_S1x16384_46_0 : ∀ a, (![46, 0] : Fin 2 → Nat) a + S1x16384.size a ≤ S128x16384.size a
  inb_S128_S1_47 : ∀ a, (![47] : Fin 1 → Nat) a + S1.size a ≤ S128.size a
  inb_S128x16384_S1x16384_47_0 : ∀ a, (![47, 0] : Fin 2 → Nat) a + S1x16384.size a ≤ S128x16384.size a
  inb_S128_S1_48 : ∀ a, (![48] : Fin 1 → Nat) a + S1.size a ≤ S128.size a
  inb_S128x16384_S1x16384_48_0 : ∀ a, (![48, 0] : Fin 2 → Nat) a + S1x16384.size a ≤ S128x16384.size a
  inb_S128_S1_49 : ∀ a, (![49] : Fin 1 → Nat) a + S1.size a ≤ S128.size a
  inb_S128x16384_S1x16384_49_0 : ∀ a, (![49, 0] : Fin 2 → Nat) a + S1x16384.size a ≤ S128x16384.size a
  inb_S128_S1_50 : ∀ a, (![50] : Fin 1 → Nat) a + S1.size a ≤ S128.size a
  inb_S128x16384_S1x16384_50_0 : ∀ a, (![50, 0] : Fin 2 → Nat) a + S1x16384.size a ≤ S128x16384.size a
  inb_S128_S1_51 : ∀ a, (![51] : Fin 1 → Nat) a + S1.size a ≤ S128.size a
  inb_S128x16384_S1x16384_51_0 : ∀ a, (![51, 0] : Fin 2 → Nat) a + S1x16384.size a ≤ S128x16384.size a
  inb_S128_S1_52 : ∀ a, (![52] : Fin 1 → Nat) a + S1.size a ≤ S128.size a
  inb_S128x16384_S1x16384_52_0 : ∀ a, (![52, 0] : Fin 2 → Nat) a + S1x16384.size a ≤ S128x16384.size a
  inb_S128_S1_53 : ∀ a, (![53] : Fin 1 → Nat) a + S1.size a ≤ S128.size a
  inb_S128x16384_S1x16384_53_0 : ∀ a, (![53, 0] : Fin 2 → Nat) a + S1x16384.size a ≤ S128x16384.size a
  inb_S128_S1_54 : ∀ a, (![54] : Fin 1 → Nat) a + S1.size a ≤ S128.size a
  inb_S128x16384_S1x16384_54_0 : ∀ a, (![54, 0] : Fin 2 → Nat) a + S1x16384.size a ≤ S128x16384.size a
  inb_S128_S1_55 : ∀ a, (![55] : Fin 1 → Nat) a + S1.size a ≤ S128.size a
  inb_S128x16384_S1x16384_55_0 : ∀ a, (![55, 0] : Fin 2 → Nat) a + S1x16384.size a ≤ S128x16384.size a
  inb_S128_S1_56 : ∀ a, (![56] : Fin 1 → Nat) a + S1.size a ≤ S128.size a
  inb_S128x16384_S1x16384_56_0 : ∀ a, (![56, 0] : Fin 2 → Nat) a + S1x16384.size a ≤ S128x16384.size a
  inb_S128_S1_57 : ∀ a, (![57] : Fin 1 → Nat) a + S1.size a ≤ S128.size a
  inb_S128x16384_S1x16384_57_0 : ∀ a, (![57, 0] : Fin 2 → Nat) a + S1x16384.size a ≤ S128x16384.size a
  inb_S128_S1_58 : ∀ a, (![58] : Fin 1 → Nat) a + S1.size a ≤ S128.size a
  inb_S128x16384_S1x16384_58_0 : ∀ a, (![58, 0] : Fin 2 → Nat) a + S1x16384.size a ≤ S128x16384.size a
  inb_S128_S1_59 : ∀ a, (![59] : Fin 1 → Nat) a + S1.size a ≤ S128.size a
  inb_S128x16384_S1x16384_59_0 : ∀ a, (![59, 0] : Fin 2 → Nat) a + S1x16384.size a ≤ S128x16384.size a
  inb_S128_S1_60 : ∀ a, (![60] : Fin 1 → Nat) a + S1.size a ≤ S128.size a
  inb_S128x16384_S1x16384_60_0 : ∀ a, (![60, 0] : Fin 2 → Nat) a + S1x16384.size a ≤ S128x16384.size a
  inb_S128_S1_61 : ∀ a, (![61] : Fin 1 → Nat) a + S1.size a ≤ S128.size a
  inb_S128x16384_S1x16384_61_0 : ∀ a, (![61, 0] : Fin 2 → Nat) a + S1x16384.size a ≤ S128x16384.size a
  inb_S128_S1_62 : ∀ a, (![62] : Fin 1 → Nat) a + S1.size a ≤ S128.size a
  inb_S128x16384_S1x16384_62_0 : ∀ a, (![62, 0] : Fin 2 → Nat) a + S1x16384.size a ≤ S128x16384.size a
  inb_S128_S1_63 : ∀ a, (![63] : Fin 1 → Nat) a + S1.size a ≤ S128.size a
  inb_S128x16384_S1x16384_63_0 : ∀ a, (![63, 0] : Fin 2 → Nat) a + S1x16384.size a ≤ S128x16384.size a
  inb_S128_S1_64 : ∀ a, (![64] : Fin 1 → Nat) a + S1.size a ≤ S128.size a
  inb_S128x16384_S1x16384_64_0 : ∀ a, (![64, 0] : Fin 2 → Nat) a + S1x16384.size a ≤ S128x16384.size a
  inb_S128_S1_65 : ∀ a, (![65] : Fin 1 → Nat) a + S1.size a ≤ S128.size a
  inb_S128x16384_S1x16384_65_0 : ∀ a, (![65, 0] : Fin 2 → Nat) a + S1x16384.size a ≤ S128x16384.size a
  inb_S128_S1_66 : ∀ a, (![66] : Fin 1 → Nat) a + S1.size a ≤ S128.size a
  inb_S128x16384_S1x16384_66_0 : ∀ a, (![66, 0] : Fin 2 → Nat) a + S1x16384.size a ≤ S128x16384.size a
  inb_S128_S1_67 : ∀ a, (![67] : Fin 1 → Nat) a + S1.size a ≤ S128.size a
  inb_S128x16384_S1x16384_67_0 : ∀ a, (![67, 0] : Fin 2 → Nat) a + S1x16384.size a ≤ S128x16384.size a
  inb_S128_S1_68 : ∀ a, (![68] : Fin 1 → Nat) a + S1.size a ≤ S128.size a
  inb_S128x16384_S1x16384_68_0 : ∀ a, (![68, 0] : Fin 2 → Nat) a + S1x16384.size a ≤ S128x16384.size a
  inb_S128_S1_69 : ∀ a, (![69] : Fin 1 → Nat) a + S1.size a ≤ S128.size a
  inb_S128x16384_S1x16384_69_0 : ∀ a, (![69, 0] : Fin 2 → Nat) a + S1x16384.size a ≤ S128x16384.size a
  inb_S128_S1_70 : ∀ a, (![70] : Fin 1 → Nat) a + S1.size a ≤ S128.size a
  inb_S128x16384_S1x16384_70_0 : ∀ a, (![70, 0] : Fin 2 → Nat) a + S1x16384.size a ≤ S128x16384.size a
  inb_S128_S1_71 : ∀ a, (![71] : Fin 1 → Nat) a + S1.size a ≤ S128.size a
  inb_S128x16384_S1x16384_71_0 : ∀ a, (![71, 0] : Fin 2 → Nat) a + S1x16384.size a ≤ S128x16384.size a
  inb_S128_S1_72 : ∀ a, (![72] : Fin 1 → Nat) a + S1.size a ≤ S128.size a
  inb_S128x16384_S1x16384_72_0 : ∀ a, (![72, 0] : Fin 2 → Nat) a + S1x16384.size a ≤ S128x16384.size a
  inb_S128_S1_73 : ∀ a, (![73] : Fin 1 → Nat) a + S1.size a ≤ S128.size a
  inb_S128x16384_S1x16384_73_0 : ∀ a, (![73, 0] : Fin 2 → Nat) a + S1x16384.size a ≤ S128x16384.size a
  inb_S128_S1_74 : ∀ a, (![74] : Fin 1 → Nat) a + S1.size a ≤ S128.size a
  inb_S128x16384_S1x16384_74_0 : ∀ a, (![74, 0] : Fin 2 → Nat) a + S1x16384.size a ≤ S128x16384.size a
  inb_S128_S1_75 : ∀ a, (![75] : Fin 1 → Nat) a + S1.size a ≤ S128.size a
  inb_S128x16384_S1x16384_75_0 : ∀ a, (![75, 0] : Fin 2 → Nat) a + S1x16384.size a ≤ S128x16384.size a
  inb_S128_S1_76 : ∀ a, (![76] : Fin 1 → Nat) a + S1.size a ≤ S128.size a
  inb_S128x16384_S1x16384_76_0 : ∀ a, (![76, 0] : Fin 2 → Nat) a + S1x16384.size a ≤ S128x16384.size a
  inb_S128_S1_77 : ∀ a, (![77] : Fin 1 → Nat) a + S1.size a ≤ S128.size a
  inb_S128x16384_S1x16384_77_0 : ∀ a, (![77, 0] : Fin 2 → Nat) a + S1x16384.size a ≤ S128x16384.size a
  inb_S128_S1_78 : ∀ a, (![78] : Fin 1 → Nat) a + S1.size a ≤ S128.size a
  inb_S128x16384_S1x16384_78_0 : ∀ a, (![78, 0] : Fin 2 → Nat) a + S1x16384.size a ≤ S128x16384.size a
  inb_S128_S1_79 : ∀ a, (![79] : Fin 1 → Nat) a + S1.size a ≤ S128.size a
  inb_S128x16384_S1x16384_79_0 : ∀ a, (![79, 0] : Fin 2 → Nat) a + S1x16384.size a ≤ S128x16384.size a
  inb_S128_S1_80 : ∀ a, (![80] : Fin 1 → Nat) a + S1.size a ≤ S128.size a
  inb_S128x16384_S1x16384_80_0 : ∀ a, (![80, 0] : Fin 2 → Nat) a + S1x16384.size a ≤ S128x16384.size a
  inb_S128_S1_81 : ∀ a, (![81] : Fin 1 → Nat) a + S1.size a ≤ S128.size a
  inb_S128x16384_S1x16384_81_0 : ∀ a, (![81, 0] : Fin 2 → Nat) a + S1x16384.size a ≤ S128x16384.size a
  inb_S128_S1_82 : ∀ a, (![82] : Fin 1 → Nat) a + S1.size a ≤ S128.size a
  inb_S128x16384_S1x16384_82_0 : ∀ a, (![82, 0] : Fin 2 → Nat) a + S1x16384.size a ≤ S128x16384.size a
  inb_S128_S1_83 : ∀ a, (![83] : Fin 1 → Nat) a + S1.size a ≤ S128.size a
  inb_S128x16384_S1x16384_83_0 : ∀ a, (![83, 0] : Fin 2 → Nat) a + S1x16384.size a ≤ S128x16384.size a
  inb_S128_S1_84 : ∀ a, (![84] : Fin 1 → Nat) a + S1.size a ≤ S128.size a
  inb_S128x16384_S1x16384_84_0 : ∀ a, (![84, 0] : Fin 2 → Nat) a + S1x16384.size a ≤ S128x16384.size a
  inb_S128_S1_85 : ∀ a, (![85] : Fin 1 → Nat) a + S1.size a ≤ S128.size a
  inb_S128x16384_S1x16384_85_0 : ∀ a, (![85, 0] : Fin 2 → Nat) a + S1x16384.size a ≤ S128x16384.size a
  inb_S128_S1_86 : ∀ a, (![86] : Fin 1 → Nat) a + S1.size a ≤ S128.size a
  inb_S128x16384_S1x16384_86_0 : ∀ a, (![86, 0] : Fin 2 → Nat) a + S1x16384.size a ≤ S128x16384.size a
  inb_S128_S1_87 : ∀ a, (![87] : Fin 1 → Nat) a + S1.size a ≤ S128.size a
  inb_S128x16384_S1x16384_87_0 : ∀ a, (![87, 0] : Fin 2 → Nat) a + S1x16384.size a ≤ S128x16384.size a
  inb_S128_S1_88 : ∀ a, (![88] : Fin 1 → Nat) a + S1.size a ≤ S128.size a
  inb_S128x16384_S1x16384_88_0 : ∀ a, (![88, 0] : Fin 2 → Nat) a + S1x16384.size a ≤ S128x16384.size a
  inb_S128_S1_89 : ∀ a, (![89] : Fin 1 → Nat) a + S1.size a ≤ S128.size a
  inb_S128x16384_S1x16384_89_0 : ∀ a, (![89, 0] : Fin 2 → Nat) a + S1x16384.size a ≤ S128x16384.size a
  inb_S128_S1_90 : ∀ a, (![90] : Fin 1 → Nat) a + S1.size a ≤ S128.size a
  inb_S128x16384_S1x16384_90_0 : ∀ a, (![90, 0] : Fin 2 → Nat) a + S1x16384.size a ≤ S128x16384.size a
  inb_S128_S1_91 : ∀ a, (![91] : Fin 1 → Nat) a + S1.size a ≤ S128.size a
  inb_S128x16384_S1x16384_91_0 : ∀ a, (![91, 0] : Fin 2 → Nat) a + S1x16384.size a ≤ S128x16384.size a
  inb_S128_S1_92 : ∀ a, (![92] : Fin 1 → Nat) a + S1.size a ≤ S128.size a
  inb_S128x16384_S1x16384_92_0 : ∀ a, (![92, 0] : Fin 2 → Nat) a + S1x16384.size a ≤ S128x16384.size a
  inb_S128_S1_93 : ∀ a, (![93] : Fin 1 → Nat) a + S1.size a ≤ S128.size a
  inb_S128x16384_S1x16384_93_0 : ∀ a, (![93, 0] : Fin 2 → Nat) a + S1x16384.size a ≤ S128x16384.size a
  inb_S128_S1_94 : ∀ a, (![94] : Fin 1 → Nat) a + S1.size a ≤ S128.size a
  inb_S128x16384_S1x16384_94_0 : ∀ a, (![94, 0] : Fin 2 → Nat) a + S1x16384.size a ≤ S128x16384.size a
  inb_S128_S1_95 : ∀ a, (![95] : Fin 1 → Nat) a + S1.size a ≤ S128.size a
  inb_S128x16384_S1x16384_95_0 : ∀ a, (![95, 0] : Fin 2 → Nat) a + S1x16384.size a ≤ S128x16384.size a
  inb_S128_S1_96 : ∀ a, (![96] : Fin 1 → Nat) a + S1.size a ≤ S128.size a
  inb_S128x16384_S1x16384_96_0 : ∀ a, (![96, 0] : Fin 2 → Nat) a + S1x16384.size a ≤ S128x16384.size a
  inb_S128_S1_97 : ∀ a, (![97] : Fin 1 → Nat) a + S1.size a ≤ S128.size a
  inb_S128x16384_S1x16384_97_0 : ∀ a, (![97, 0] : Fin 2 → Nat) a + S1x16384.size a ≤ S128x16384.size a
  inb_S128_S1_98 : ∀ a, (![98] : Fin 1 → Nat) a + S1.size a ≤ S128.size a
  inb_S128x16384_S1x16384_98_0 : ∀ a, (![98, 0] : Fin 2 → Nat) a + S1x16384.size a ≤ S128x16384.size a
  inb_S128_S1_99 : ∀ a, (![99] : Fin 1 → Nat) a + S1.size a ≤ S128.size a
  inb_S128x16384_S1x16384_99_0 : ∀ a, (![99, 0] : Fin 2 → Nat) a + S1x16384.size a ≤ S128x16384.size a
  inb_S128_S1_100 : ∀ a, (![100] : Fin 1 → Nat) a + S1.size a ≤ S128.size a
  inb_S128x16384_S1x16384_100_0 : ∀ a, (![100, 0] : Fin 2 → Nat) a + S1x16384.size a ≤ S128x16384.size a
  inb_S128_S1_101 : ∀ a, (![101] : Fin 1 → Nat) a + S1.size a ≤ S128.size a
  inb_S128x16384_S1x16384_101_0 : ∀ a, (![101, 0] : Fin 2 → Nat) a + S1x16384.size a ≤ S128x16384.size a
  inb_S128_S1_102 : ∀ a, (![102] : Fin 1 → Nat) a + S1.size a ≤ S128.size a
  inb_S128x16384_S1x16384_102_0 : ∀ a, (![102, 0] : Fin 2 → Nat) a + S1x16384.size a ≤ S128x16384.size a
  inb_S128_S1_103 : ∀ a, (![103] : Fin 1 → Nat) a + S1.size a ≤ S128.size a
  inb_S128x16384_S1x16384_103_0 : ∀ a, (![103, 0] : Fin 2 → Nat) a + S1x16384.size a ≤ S128x16384.size a
  inb_S128_S1_104 : ∀ a, (![104] : Fin 1 → Nat) a + S1.size a ≤ S128.size a
  inb_S128x16384_S1x16384_104_0 : ∀ a, (![104, 0] : Fin 2 → Nat) a + S1x16384.size a ≤ S128x16384.size a
  inb_S128_S1_105 : ∀ a, (![105] : Fin 1 → Nat) a + S1.size a ≤ S128.size a
  inb_S128x16384_S1x16384_105_0 : ∀ a, (![105, 0] : Fin 2 → Nat) a + S1x16384.size a ≤ S128x16384.size a
  inb_S128_S1_106 : ∀ a, (![106] : Fin 1 → Nat) a + S1.size a ≤ S128.size a
  inb_S128x16384_S1x16384_106_0 : ∀ a, (![106, 0] : Fin 2 → Nat) a + S1x16384.size a ≤ S128x16384.size a
  inb_S128_S1_107 : ∀ a, (![107] : Fin 1 → Nat) a + S1.size a ≤ S128.size a
  inb_S128x16384_S1x16384_107_0 : ∀ a, (![107, 0] : Fin 2 → Nat) a + S1x16384.size a ≤ S128x16384.size a
  inb_S128_S1_108 : ∀ a, (![108] : Fin 1 → Nat) a + S1.size a ≤ S128.size a
  inb_S128x16384_S1x16384_108_0 : ∀ a, (![108, 0] : Fin 2 → Nat) a + S1x16384.size a ≤ S128x16384.size a
  inb_S128_S1_109 : ∀ a, (![109] : Fin 1 → Nat) a + S1.size a ≤ S128.size a
  inb_S128x16384_S1x16384_109_0 : ∀ a, (![109, 0] : Fin 2 → Nat) a + S1x16384.size a ≤ S128x16384.size a
  inb_S128_S1_110 : ∀ a, (![110] : Fin 1 → Nat) a + S1.size a ≤ S128.size a
  inb_S128x16384_S1x16384_110_0 : ∀ a, (![110, 0] : Fin 2 → Nat) a + S1x16384.size a ≤ S128x16384.size a
  inb_S128_S1_111 : ∀ a, (![111] : Fin 1 → Nat) a + S1.size a ≤ S128.size a
  inb_S128x16384_S1x16384_111_0 : ∀ a, (![111, 0] : Fin 2 → Nat) a + S1x16384.size a ≤ S128x16384.size a
  inb_S128_S1_112 : ∀ a, (![112] : Fin 1 → Nat) a + S1.size a ≤ S128.size a
  inb_S128x16384_S1x16384_112_0 : ∀ a, (![112, 0] : Fin 2 → Nat) a + S1x16384.size a ≤ S128x16384.size a
  inb_S128_S1_113 : ∀ a, (![113] : Fin 1 → Nat) a + S1.size a ≤ S128.size a
  inb_S128x16384_S1x16384_113_0 : ∀ a, (![113, 0] : Fin 2 → Nat) a + S1x16384.size a ≤ S128x16384.size a
  inb_S128_S1_114 : ∀ a, (![114] : Fin 1 → Nat) a + S1.size a ≤ S128.size a
  inb_S128x16384_S1x16384_114_0 : ∀ a, (![114, 0] : Fin 2 → Nat) a + S1x16384.size a ≤ S128x16384.size a
  inb_S128_S1_115 : ∀ a, (![115] : Fin 1 → Nat) a + S1.size a ≤ S128.size a
  inb_S128x16384_S1x16384_115_0 : ∀ a, (![115, 0] : Fin 2 → Nat) a + S1x16384.size a ≤ S128x16384.size a
  inb_S128_S1_116 : ∀ a, (![116] : Fin 1 → Nat) a + S1.size a ≤ S128.size a
  inb_S128x16384_S1x16384_116_0 : ∀ a, (![116, 0] : Fin 2 → Nat) a + S1x16384.size a ≤ S128x16384.size a
  inb_S128_S1_117 : ∀ a, (![117] : Fin 1 → Nat) a + S1.size a ≤ S128.size a
  inb_S128x16384_S1x16384_117_0 : ∀ a, (![117, 0] : Fin 2 → Nat) a + S1x16384.size a ≤ S128x16384.size a
  inb_S128_S1_118 : ∀ a, (![118] : Fin 1 → Nat) a + S1.size a ≤ S128.size a
  inb_S128x16384_S1x16384_118_0 : ∀ a, (![118, 0] : Fin 2 → Nat) a + S1x16384.size a ≤ S128x16384.size a
  inb_S128_S1_119 : ∀ a, (![119] : Fin 1 → Nat) a + S1.size a ≤ S128.size a
  inb_S128x16384_S1x16384_119_0 : ∀ a, (![119, 0] : Fin 2 → Nat) a + S1x16384.size a ≤ S128x16384.size a
  inb_S128_S1_120 : ∀ a, (![120] : Fin 1 → Nat) a + S1.size a ≤ S128.size a
  inb_S128x16384_S1x16384_120_0 : ∀ a, (![120, 0] : Fin 2 → Nat) a + S1x16384.size a ≤ S128x16384.size a
  inb_S128_S1_121 : ∀ a, (![121] : Fin 1 → Nat) a + S1.size a ≤ S128.size a
  inb_S128x16384_S1x16384_121_0 : ∀ a, (![121, 0] : Fin 2 → Nat) a + S1x16384.size a ≤ S128x16384.size a
  inb_S128_S1_122 : ∀ a, (![122] : Fin 1 → Nat) a + S1.size a ≤ S128.size a
  inb_S128x16384_S1x16384_122_0 : ∀ a, (![122, 0] : Fin 2 → Nat) a + S1x16384.size a ≤ S128x16384.size a
  inb_S128_S1_123 : ∀ a, (![123] : Fin 1 → Nat) a + S1.size a ≤ S128.size a
  inb_S128x16384_S1x16384_123_0 : ∀ a, (![123, 0] : Fin 2 → Nat) a + S1x16384.size a ≤ S128x16384.size a
  inb_S128_S1_124 : ∀ a, (![124] : Fin 1 → Nat) a + S1.size a ≤ S128.size a
  inb_S128x16384_S1x16384_124_0 : ∀ a, (![124, 0] : Fin 2 → Nat) a + S1x16384.size a ≤ S128x16384.size a
  inb_S128_S1_125 : ∀ a, (![125] : Fin 1 → Nat) a + S1.size a ≤ S128.size a
  inb_S128x16384_S1x16384_125_0 : ∀ a, (![125, 0] : Fin 2 → Nat) a + S1x16384.size a ≤ S128x16384.size a
  inb_S128_S1_126 : ∀ a, (![126] : Fin 1 → Nat) a + S1.size a ≤ S128.size a
  inb_S128x16384_S1x16384_126_0 : ∀ a, (![126, 0] : Fin 2 → Nat) a + S1x16384.size a ≤ S128x16384.size a
  inb_S128_S1_127 : ∀ a, (![127] : Fin 1 → Nat) a + S1.size a ≤ S128.size a
  inb_S128x16384_S1x16384_127_0 : ∀ a, (![127, 0] : Fin 2 → Nat) a + S1x16384.size a ≤ S128x16384.size a
  inb_S16384x16384_S1x16384_0_0 : ∀ a, (![0, 0] : Fin 2 → Nat) a + S1x16384.size a ≤ S16384x16384.size a
  inb_S128x16384_S128x16384_0_0 : ∀ a, (![0, 0] : Fin 2 → Nat) a + S128x16384.size a ≤ S128x16384.size a
  h_S128x16384 : 0 < S128x16384.numel
  inb_S16384x64_S16384x64_0_0 : ∀ a, (![0, 0] : Fin 2 → Nat) a + S16384x64.size a ≤ S16384x64.size a
  h_S16384x64 : 0 < S16384x64.numel
  shapeCasts_S16384x64_S16384x64 : S16384x64.ShapeCasts S16384x64
  dot_S2048x128_S128x64_S2048x64_1_0_0_1_n_n_wf : DotDims.WF S2048x128 S128x64 S2048x64 [1] [0] [0] [1] [] []
  dot_S128x16384_S16384x64_S128x64_1_0_0_1_n_n_wf : DotDims.WF S128x16384 S16384x64 S128x64 [1] [0] [0] [1] [] []
  hcc1_scratch1 : 9 + S128.numel ≤ 137
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .f32 = 32 ∨ (Rect.block (s := S16384x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S16384x64.size a
  hwx0_3 : ∀ i : grid0.Coords, EltTy.bits .bf16 = 32 ∨ (Rect.block (s := S16384x64) S2048x64.size (cc0_transform_3 i) (hinb0_3 i)).WholeWords (EltTy.packing .bf16)
  hrank1 : 0 < grid1.rank
  k1_off1_inb : ∀ i : grid1.Coords, ∀ a, (k1_off1 i) a + S1.size a ≤ S4096.size a
  k1_off3_inb : ∀ i : grid1.Coords, ∀ a, (k1_off3 i) a + S1.size a ≤ S4096.size a
  k1_off5_inb : ∀ i : grid1.Coords, ∀ a, (k1_off5 i) a + S1.size a ≤ S4096.size a
  k1_off7_inb : ∀ i : grid1.Coords, ∀ a, (k1_off7 i) a + S1.size a ≤ S4096.size a
  k1_off9_inb : ∀ i : grid1.Coords, ∀ a, (k1_off9 i) a + S1.size a ≤ S4096.size a
  k1_off11_inb : ∀ i : grid1.Coords, ∀ a, (k1_off11 i) a + S1.size a ≤ S4096.size a
  k1_off13_inb : ∀ i : grid1.Coords, ∀ a, (k1_off13 i) a + S1.size a ≤ S4096.size a
  k1_off15_inb : ∀ i : grid1.Coords, ∀ a, (k1_off15 i) a + S1.size a ≤ S4096.size a
  k1_off17_inb : ∀ i : grid1.Coords, ∀ a, (k1_off17 i) a + S1.size a ≤ S4096.size a
  k1_off19_inb : ∀ i : grid1.Coords, ∀ a, (k1_off19 i) a + S1.size a ≤ S4096.size a
  k1_off21_inb : ∀ i : grid1.Coords, ∀ a, (k1_off21 i) a + S1.size a ≤ S4096.size a
  k1_off23_inb : ∀ i : grid1.Coords, ∀ a, (k1_off23 i) a + S1.size a ≤ S4096.size a
  k1_off25_inb : ∀ i : grid1.Coords, ∀ a, (k1_off25 i) a + S1.size a ≤ S4096.size a
  k1_off27_inb : ∀ i : grid1.Coords, ∀ a, (k1_off27 i) a + S1.size a ≤ S4096.size a
  k1_off29_inb : ∀ i : grid1.Coords, ∀ a, (k1_off29 i) a + S1.size a ≤ S4096.size a
  k1_off31_inb : ∀ i : grid1.Coords, ∀ a, (k1_off31 i) a + S1.size a ≤ S4096.size a
  k1_off33_inb : ∀ i : grid1.Coords, ∀ a, (k1_off33 i) a + S1.size a ≤ S4096.size a
  k1_off35_inb : ∀ i : grid1.Coords, ∀ a, (k1_off35 i) a + S1.size a ≤ S4096.size a
  k1_off37_inb : ∀ i : grid1.Coords, ∀ a, (k1_off37 i) a + S1.size a ≤ S4096.size a
  k1_off39_inb : ∀ i : grid1.Coords, ∀ a, (k1_off39 i) a + S1.size a ≤ S4096.size a
  k1_off41_inb : ∀ i : grid1.Coords, ∀ a, (k1_off41 i) a + S1.size a ≤ S4096.size a
  k1_off43_inb : ∀ i : grid1.Coords, ∀ a, (k1_off43 i) a + S1.size a ≤ S4096.size a
  k1_off45_inb : ∀ i : grid1.Coords, ∀ a, (k1_off45 i) a + S1.size a ≤ S4096.size a
  k1_off47_inb : ∀ i : grid1.Coords, ∀ a, (k1_off47 i) a + S1.size a ≤ S4096.size a
  k1_off49_inb : ∀ i : grid1.Coords, ∀ a, (k1_off49 i) a + S1.size a ≤ S4096.size a
  k1_off51_inb : ∀ i : grid1.Coords, ∀ a, (k1_off51 i) a + S1.size a ≤ S4096.size a
  k1_off53_inb : ∀ i : grid1.Coords, ∀ a, (k1_off53 i) a + S1.size a ≤ S4096.size a
  k1_off55_inb : ∀ i : grid1.Coords, ∀ a, (k1_off55 i) a + S1.size a ≤ S4096.size a
  k1_off57_inb : ∀ i : grid1.Coords, ∀ a, (k1_off57 i) a + S1.size a ≤ S4096.size a
  k1_off59_inb : ∀ i : grid1.Coords, ∀ a, (k1_off59 i) a + S1.size a ≤ S4096.size a
  k1_off61_inb : ∀ i : grid1.Coords, ∀ a, (k1_off61 i) a + S1.size a ≤ S4096.size a
  k1_off63_inb : ∀ i : grid1.Coords, ∀ a, (k1_off63 i) a + S1.size a ≤ S4096.size a
  k1_off65_inb : ∀ i : grid1.Coords, ∀ a, (k1_off65 i) a + S1.size a ≤ S4096.size a
  k1_off67_inb : ∀ i : grid1.Coords, ∀ a, (k1_off67 i) a + S1.size a ≤ S4096.size a
  k1_off69_inb : ∀ i : grid1.Coords, ∀ a, (k1_off69 i) a + S1.size a ≤ S4096.size a
  k1_off71_inb : ∀ i : grid1.Coords, ∀ a, (k1_off71 i) a + S1.size a ≤ S4096.size a
  k1_off73_inb : ∀ i : grid1.Coords, ∀ a, (k1_off73 i) a + S1.size a ≤ S4096.size a
  k1_off75_inb : ∀ i : grid1.Coords, ∀ a, (k1_off75 i) a + S1.size a ≤ S4096.size a
  k1_off77_inb : ∀ i : grid1.Coords, ∀ a, (k1_off77 i) a + S1.size a ≤ S4096.size a
  k1_off79_inb : ∀ i : grid1.Coords, ∀ a, (k1_off79 i) a + S1.size a ≤ S4096.size a
  k1_off81_inb : ∀ i : grid1.Coords, ∀ a, (k1_off81 i) a + S1.size a ≤ S4096.size a
  k1_off83_inb : ∀ i : grid1.Coords, ∀ a, (k1_off83 i) a + S1.size a ≤ S4096.size a
  k1_off85_inb : ∀ i : grid1.Coords, ∀ a, (k1_off85 i) a + S1.size a ≤ S4096.size a
  k1_off87_inb : ∀ i : grid1.Coords, ∀ a, (k1_off87 i) a + S1.size a ≤ S4096.size a
  k1_off89_inb : ∀ i : grid1.Coords, ∀ a, (k1_off89 i) a + S1.size a ≤ S4096.size a
  k1_off91_inb : ∀ i : grid1.Coords, ∀ a, (k1_off91 i) a + S1.size a ≤ S4096.size a
  k1_off93_inb : ∀ i : grid1.Coords, ∀ a, (k1_off93 i) a + S1.size a ≤ S4096.size a
  k1_off95_inb : ∀ i : grid1.Coords, ∀ a, (k1_off95 i) a + S1.size a ≤ S4096.size a
  k1_off97_inb : ∀ i : grid1.Coords, ∀ a, (k1_off97 i) a + S1.size a ≤ S4096.size a
  k1_off99_inb : ∀ i : grid1.Coords, ∀ a, (k1_off99 i) a + S1.size a ≤ S4096.size a
  k1_off101_inb : ∀ i : grid1.Coords, ∀ a, (k1_off101 i) a + S1.size a ≤ S4096.size a
  k1_off103_inb : ∀ i : grid1.Coords, ∀ a, (k1_off103 i) a + S1.size a ≤ S4096.size a
  k1_off105_inb : ∀ i : grid1.Coords, ∀ a, (k1_off105 i) a + S1.size a ≤ S4096.size a
  k1_off107_inb : ∀ i : grid1.Coords, ∀ a, (k1_off107 i) a + S1.size a ≤ S4096.size a
  k1_off109_inb : ∀ i : grid1.Coords, ∀ a, (k1_off109 i) a + S1.size a ≤ S4096.size a
  k1_off111_inb : ∀ i : grid1.Coords, ∀ a, (k1_off111 i) a + S1.size a ≤ S4096.size a
  k1_off113_inb : ∀ i : grid1.Coords, ∀ a, (k1_off113 i) a + S1.size a ≤ S4096.size a
  k1_off115_inb : ∀ i : grid1.Coords, ∀ a, (k1_off115 i) a + S1.size a ≤ S4096.size a
  k1_off117_inb : ∀ i : grid1.Coords, ∀ a, (k1_off117 i) a + S1.size a ≤ S4096.size a
  k1_off119_inb : ∀ i : grid1.Coords, ∀ a, (k1_off119 i) a + S1.size a ≤ S4096.size a
  k1_off121_inb : ∀ i : grid1.Coords, ∀ a, (k1_off121 i) a + S1.size a ≤ S4096.size a
  k1_off123_inb : ∀ i : grid1.Coords, ∀ a, (k1_off123 i) a + S1.size a ≤ S4096.size a
  k1_off125_inb : ∀ i : grid1.Coords, ∀ a, (k1_off125 i) a + S1.size a ≤ S4096.size a
  k1_off127_inb : ∀ i : grid1.Coords, ∀ a, (k1_off127 i) a + S1.size a ≤ S4096.size a
  k1_off129_inb : ∀ i : grid1.Coords, ∀ a, (k1_off129 i) a + S1.size a ≤ S4096.size a
  k1_off131_inb : ∀ i : grid1.Coords, ∀ a, (k1_off131 i) a + S1.size a ≤ S4096.size a
  k1_off133_inb : ∀ i : grid1.Coords, ∀ a, (k1_off133 i) a + S1.size a ≤ S4096.size a
  k1_off135_inb : ∀ i : grid1.Coords, ∀ a, (k1_off135 i) a + S1.size a ≤ S4096.size a
  k1_off137_inb : ∀ i : grid1.Coords, ∀ a, (k1_off137 i) a + S1.size a ≤ S4096.size a
  k1_off139_inb : ∀ i : grid1.Coords, ∀ a, (k1_off139 i) a + S1.size a ≤ S4096.size a
  k1_off141_inb : ∀ i : grid1.Coords, ∀ a, (k1_off141 i) a + S1.size a ≤ S4096.size a
  k1_off143_inb : ∀ i : grid1.Coords, ∀ a, (k1_off143 i) a + S1.size a ≤ S4096.size a
  k1_off145_inb : ∀ i : grid1.Coords, ∀ a, (k1_off145 i) a + S1.size a ≤ S4096.size a
  k1_off147_inb : ∀ i : grid1.Coords, ∀ a, (k1_off147 i) a + S1.size a ≤ S4096.size a
  k1_off149_inb : ∀ i : grid1.Coords, ∀ a, (k1_off149 i) a + S1.size a ≤ S4096.size a
  k1_off151_inb : ∀ i : grid1.Coords, ∀ a, (k1_off151 i) a + S1.size a ≤ S4096.size a
  k1_off153_inb : ∀ i : grid1.Coords, ∀ a, (k1_off153 i) a + S1.size a ≤ S4096.size a
  k1_off155_inb : ∀ i : grid1.Coords, ∀ a, (k1_off155 i) a + S1.size a ≤ S4096.size a
  k1_off157_inb : ∀ i : grid1.Coords, ∀ a, (k1_off157 i) a + S1.size a ≤ S4096.size a
  k1_off159_inb : ∀ i : grid1.Coords, ∀ a, (k1_off159 i) a + S1.size a ≤ S4096.size a
  k1_off161_inb : ∀ i : grid1.Coords, ∀ a, (k1_off161 i) a + S1.size a ≤ S4096.size a
  k1_off163_inb : ∀ i : grid1.Coords, ∀ a, (k1_off163 i) a + S1.size a ≤ S4096.size a
  k1_off165_inb : ∀ i : grid1.Coords, ∀ a, (k1_off165 i) a + S1.size a ≤ S4096.size a
  k1_off167_inb : ∀ i : grid1.Coords, ∀ a, (k1_off167 i) a + S1.size a ≤ S4096.size a
  k1_off169_inb : ∀ i : grid1.Coords, ∀ a, (k1_off169 i) a + S1.size a ≤ S4096.size a
  k1_off171_inb : ∀ i : grid1.Coords, ∀ a, (k1_off171 i) a + S1.size a ≤ S4096.size a
  k1_off173_inb : ∀ i : grid1.Coords, ∀ a, (k1_off173 i) a + S1.size a ≤ S4096.size a
  k1_off175_inb : ∀ i : grid1.Coords, ∀ a, (k1_off175 i) a + S1.size a ≤ S4096.size a
  k1_off177_inb : ∀ i : grid1.Coords, ∀ a, (k1_off177 i) a + S1.size a ≤ S4096.size a
  k1_off179_inb : ∀ i : grid1.Coords, ∀ a, (k1_off179 i) a + S1.size a ≤ S4096.size a
  k1_off181_inb : ∀ i : grid1.Coords, ∀ a, (k1_off181 i) a + S1.size a ≤ S4096.size a
  k1_off183_inb : ∀ i : grid1.Coords, ∀ a, (k1_off183 i) a + S1.size a ≤ S4096.size a
  k1_off185_inb : ∀ i : grid1.Coords, ∀ a, (k1_off185 i) a + S1.size a ≤ S4096.size a
  k1_off187_inb : ∀ i : grid1.Coords, ∀ a, (k1_off187 i) a + S1.size a ≤ S4096.size a
  k1_off189_inb : ∀ i : grid1.Coords, ∀ a, (k1_off189 i) a + S1.size a ≤ S4096.size a
  k1_off191_inb : ∀ i : grid1.Coords, ∀ a, (k1_off191 i) a + S1.size a ≤ S4096.size a
  k1_off193_inb : ∀ i : grid1.Coords, ∀ a, (k1_off193 i) a + S1.size a ≤ S4096.size a
  k1_off195_inb : ∀ i : grid1.Coords, ∀ a, (k1_off195 i) a + S1.size a ≤ S4096.size a
  k1_off197_inb : ∀ i : grid1.Coords, ∀ a, (k1_off197 i) a + S1.size a ≤ S4096.size a
  k1_off199_inb : ∀ i : grid1.Coords, ∀ a, (k1_off199 i) a + S1.size a ≤ S4096.size a
  k1_off201_inb : ∀ i : grid1.Coords, ∀ a, (k1_off201 i) a + S1.size a ≤ S4096.size a
  k1_off203_inb : ∀ i : grid1.Coords, ∀ a, (k1_off203 i) a + S1.size a ≤ S4096.size a
  k1_off205_inb : ∀ i : grid1.Coords, ∀ a, (k1_off205 i) a + S1.size a ≤ S4096.size a
  k1_off207_inb : ∀ i : grid1.Coords, ∀ a, (k1_off207 i) a + S1.size a ≤ S4096.size a
  k1_off209_inb : ∀ i : grid1.Coords, ∀ a, (k1_off209 i) a + S1.size a ≤ S4096.size a
  k1_off211_inb : ∀ i : grid1.Coords, ∀ a, (k1_off211 i) a + S1.size a ≤ S4096.size a
  k1_off213_inb : ∀ i : grid1.Coords, ∀ a, (k1_off213 i) a + S1.size a ≤ S4096.size a
  k1_off215_inb : ∀ i : grid1.Coords, ∀ a, (k1_off215 i) a + S1.size a ≤ S4096.size a
  k1_off217_inb : ∀ i : grid1.Coords, ∀ a, (k1_off217 i) a + S1.size a ≤ S4096.size a
  k1_off219_inb : ∀ i : grid1.Coords, ∀ a, (k1_off219 i) a + S1.size a ≤ S4096.size a
  k1_off221_inb : ∀ i : grid1.Coords, ∀ a, (k1_off221 i) a + S1.size a ≤ S4096.size a
  k1_off223_inb : ∀ i : grid1.Coords, ∀ a, (k1_off223 i) a + S1.size a ≤ S4096.size a
  k1_off225_inb : ∀ i : grid1.Coords, ∀ a, (k1_off225 i) a + S1.size a ≤ S4096.size a
  k1_off227_inb : ∀ i : grid1.Coords, ∀ a, (k1_off227 i) a + S1.size a ≤ S4096.size a
  k1_off229_inb : ∀ i : grid1.Coords, ∀ a, (k1_off229 i) a + S1.size a ≤ S4096.size a
  k1_off231_inb : ∀ i : grid1.Coords, ∀ a, (k1_off231 i) a + S1.size a ≤ S4096.size a
  k1_off233_inb : ∀ i : grid1.Coords, ∀ a, (k1_off233 i) a + S1.size a ≤ S4096.size a
  k1_off235_inb : ∀ i : grid1.Coords, ∀ a, (k1_off235 i) a + S1.size a ≤ S4096.size a
  k1_off237_inb : ∀ i : grid1.Coords, ∀ a, (k1_off237 i) a + S1.size a ≤ S4096.size a
  k1_off239_inb : ∀ i : grid1.Coords, ∀ a, (k1_off239 i) a + S1.size a ≤ S4096.size a
  k1_off241_inb : ∀ i : grid1.Coords, ∀ a, (k1_off241 i) a + S1.size a ≤ S4096.size a
  k1_off243_inb : ∀ i : grid1.Coords, ∀ a, (k1_off243 i) a + S1.size a ≤ S4096.size a
  k1_off245_inb : ∀ i : grid1.Coords, ∀ a, (k1_off245 i) a + S1.size a ≤ S4096.size a
  k1_off247_inb : ∀ i : grid1.Coords, ∀ a, (k1_off247 i) a + S1.size a ≤ S4096.size a
  k1_off249_inb : ∀ i : grid1.Coords, ∀ a, (k1_off249 i) a + S1.size a ≤ S4096.size a
  k1_off251_inb : ∀ i : grid1.Coords, ∀ a, (k1_off251 i) a + S1.size a ≤ S4096.size a
  k1_off253_inb : ∀ i : grid1.Coords, ∀ a, (k1_off253 i) a + S1.size a ≤ S4096.size a
  k1_off255_inb : ∀ i : grid1.Coords, ∀ a, (k1_off255 i) a + S1.size a ≤ S4096.size a
  hstage1_0 : ∀ j, (stage1_0 j).IsWhole
  nbuf1_0 : grid1.bufCount reads1_0 true = 1
  hreads1_0 : ∀ i i' : grid1.Coords, (∀ a, reads1_0 a = true → i a = i' a) → cc1_transform_1 i = cc1_transform_1 i'
  hinb1_0 : ∀ (i : grid1.Coords) a, (cc1_transform_1 i a + 1) * S16384x64.size a ≤ S16384x64.size a
  hwx1_0 : ∀ i : grid1.Coords, EltTy.bits .bf16 = 32 ∨ (Rect.block (s := S16384x64) S16384x64.size (cc1_transform_1 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_2 i = cc1_transform_2 i'
  hinb1_1 : ∀ (i : grid1.Coords) a, (cc1_transform_2 i a + 1) * S128x64.size a ≤ S4096x64.size a
  hwx1_1 : ∀ i : grid1.Coords, EltTy.bits .f32 = 32 ∨ (Rect.block (s := S4096x64) S128x64.size (cc1_transform_2 i) (hinb1_1 i)).WholeWords (EltTy.packing .f32)

variable [Facts₀]

abbrev cc1_scratch1 : DmaSems sig S128 := SemArray.consecutive 9 S128 hcc1_scratch1
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S128x16384_S16384x64_S128x64_1_0_0_1_n_n : DotDims S128x16384 S16384x64 S128x64 where
  lhsContracting := [1]
  rhsContracting := [0]
  lhsNonContracting := [0]
  rhsNonContracting := [1]
  lhsBatch := []
  rhsBatch := []
  wf := dot_S128x16384_S16384x64_S128x64_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev spec1_0 : Pipeline.WinSpec sig grid1.rank :=
  Pipeline.WinSpec.ofSpec (Memref.whole main_v0) S16384x64.size reads1_0 false true 1 stage1_0 sem1_0 nbuf1_0 hstage1_0

abbrev spec1_1 : Pipeline.WinSpec sig grid1.rank :=
  Pipeline.WinSpec.ofSpec (Memref.whole main_v1) S128x64.size reads1_1 true false 2 stage1_1 sem1_1 nbuf1_1 hstage1_1

abbrev spec1 : Fin 2 → Pipeline.WinSpec sig grid1.rank := fun | 0 => spec1_0 | 1 => spec1_1 | ⟨_ + 2, h⟩ => absurd h (Nat.not_lt.2 (Nat.le_add_left _ _))
theorem hcount1 : ∀ w, grid1.bufCount (spec1 w).reads (spec1 w).sync = (spec1 w).nbuf := fun | 0 => nbuf1_0 | 1 => nbuf1_1 | ⟨_ + 2, h⟩ => absurd h (Nat.not_lt.2 (Nat.le_add_left _ _))
abbrev ix1 (pf : pre1.Contents (Elt F)) : (w : Fin 2) → grid1.Coords → Fin (spec1 w).shape.rank → Nat := fun | 0 => cc1_transform_1 | 1 => cc1_transform_2 | ⟨_ + 2, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | ⟨_ + 2, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | ⟨_ + 2, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | ⟨_ + 2, h⟩ => absurd h (Nat.not_lt.2 (Nat.le_add_left _ _))

class Facts : Prop extends Facts₀ where
  harr1 : ∀ w, (spec1 w).arr.IsWhole

variable [Facts]
-- ==== ReferenceIdeal.lean ====
abbrev S16384x128 : Shape := ⟨2, ![16384, 128]⟩
abbrev S16384x16384 : Shape := ⟨2, ![16384, 16384]⟩
abbrev S128x64 : Shape := ⟨2, ![128, 64]⟩
abbrev S64 : Shape := ⟨1, ![64]⟩
abbrev S4096 : Shape := ⟨1, ![4096]⟩
abbrev S16384x64 : Shape := ⟨2, ![16384, 64]⟩
abbrev S1x64 : Shape := ⟨2, ![1, 64]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x16384 : Shape := ⟨2, ![4096, 16384]⟩
abbrev S4096x64 : Shape := ⟨2, ![4096, 64]⟩

abbrev nBuf : Space → Nat
  | .hbm => 33
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x64, .f32⟩
  | .hbm, ⟨3, _⟩ => ⟨S64, .f32⟩
  | .hbm, ⟨4, _⟩ => ⟨S4096, .i32⟩
  | .hbm, ⟨5, _⟩ => ⟨S16384x64, .f32⟩
  | .hbm, ⟨6, _⟩ => ⟨S1x64, .f32⟩
  | .hbm, ⟨7, _⟩ => ⟨S16384x64, .f32⟩
  | .hbm, ⟨8, _⟩ => ⟨S16384x64, .f32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S4096, .i32⟩
  | .hbm, ⟨16, _⟩ => ⟨S4096x1, .i32⟩
  | .hbm, ⟨17, _⟩ => ⟨S1, .i32⟩
  | .hbm, ⟨18, _⟩ => ⟨S_, .i32⟩
  | .hbm, ⟨19, _⟩ => ⟨S4096x1, .i32⟩
  | .hbm, ⟨20, _⟩ => ⟨S4096x1, .i1⟩
  | .hbm, ⟨21, _⟩ => ⟨S1x1, .i32⟩
  | .hbm, ⟨22, _⟩ => ⟨S4096x1, .i32⟩
  | .hbm, ⟨23, _⟩ => ⟨S4096x1, .i1⟩
  | .hbm, ⟨24, _⟩ => ⟨S4096x1, .i1⟩
  | .hbm, ⟨25, _⟩ => ⟨S_, .i1⟩
  | .hbm, ⟨26, _⟩ => ⟨S4096, .i1⟩
  | .hbm, ⟨27, _⟩ => ⟨S4096x16384, .f32⟩
  | .hbm, ⟨28, _⟩ => ⟨S4096x16384, .i1⟩
  | .hbm, ⟨29, _⟩ => ⟨S_, .f32⟩
  | .hbm, ⟨30, _⟩ => ⟨S4096x16384, .f32⟩
  | .hbm, ⟨31, _⟩ => ⟨S4096x16384, .f32⟩
  | .hbm, ⟨32, _⟩ => ⟨S4096x64, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v4 : Ref sig .tc := ⟨.hbm, 31, rfl⟩
abbrev main_v5 : Ref sig .tc := ⟨.hbm, 32, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x16384_0 : S4096.BroadcastsInDim S4096x16384 (![0] : Fin 1 → Fin S4096x16384.rank)
  bcast_S_S4096x16384 : S_.BroadcastsInDim S4096x16384 (![] : Fin 0 → Fin S4096x16384.rank)
  dot_S16384x128_S128x64_S16384x64_1_0_0_1_n_n_wf : DotDims.WF S16384x128 S128x64 S16384x64 [1] [0] [0] [1] [] []
  gather_S16384x16384_S4096x1_S4096x16384_1_0_n_n_0_1_116384_wf : GatherDims.WF S16384x16384 S4096x1 S4096x16384 [1] [0] [] [0] [] 1 ![1, 16384]
  dot_S4096x16384_S16384x64_S4096x64_1_0_0_1_n_n_wf : DotDims.WF S4096x16384 S16384x64 S4096x64 [1] [0] [0] [1] [] []

variable [Facts₀]

def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def gather_S16384x16384_S4096x1_S4096x16384_1_0_n_n_0_1_116384 : GatherDims S16384x16384 S4096x1 S4096x16384 where
  offsetDims := [1]
  collapsedSliceDims := [0]
  operandBatchingDims := []
  startIndicesBatchingDims := []
  startIndexMap := [0]
  indexVectorDim := 1
  sliceSizes := ![1, 16384]
  wf := gather_S16384x16384_S4096x1_S4096x16384_1_0_n_n_0_1_116384_wf
def dot_S4096x16384_S16384x64_S4096x64_1_0_0_1_n_n : DotDims S4096x16384 S16384x64 S4096x64 where
  lhsContracting := [1]
  rhsContracting := [0]
  lhsNonContracting := [0]
  rhsNonContracting := [1]
  lhsBatch := []
  rhsBatch := []
  wf := dot_S4096x16384_S16384x64_S4096x64_1_0_0_1_n_n_wf

class Facts : Prop extends Facts₀ where

variable [Facts]
-- ==== Proof.EncI.lean ====
import proofs.«406446_j60224031424549_1_alg».proof.Proof.Gen.KernelIdeal.Launch
import proofs.«406446_j60224031424549_1_alg».proof.Proof.Gen.KernelIdeal.Skeleton
import proofs.«406446_j60224031424549_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The encoder region: `enc = X · W + b`, eight blocks of 2048 rows

The first kernel of the program reads, at each of its eight grid points, one block of 2048 feature rows, the whole
weight matrix and the whole bias, and writes the block's 2048 encoded rows. This module states, for any float
instance, what each window's staging buffer holds before and after the body at a point, and proves the body's
obligation: the body run on those buffers leaves the inputs in place and the output buffer at the body's arithmetic
applied to the three input blocks.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is not
    fetched the block index has not moved, so the block fetched earlier is this point's. For any proof data whose
    array is the entry contents and whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is not
    fetched the block index has not moved, so the block fetched earlier is this point's. For any proof data whose
    array is the entry contents and whose body leaves the block in place. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: where it is not
    fetched the block index has not moved, so the block fetched earlier is this point's. For any proof data whose
    array is the entry contents and whose body leaves the block in place. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S2048x128 := Rect.unit (s := S2048x128) ![0, 0] S2048x128.size inb_S2048x128_S2048x128_0_0
abbrev r0_1 : Rect S128x64 := Rect.unit (s := S128x64) ![0, 0] S128x64.size inb_S128x64_S128x64_0_0
abbrev r0_2 : Rect S64 := Rect.unit (s := S64) ![0] S64.size inb_S64_S64_0
abbrev r0_3 : Rect S2048x64 := Rect.unit (s := S2048x64) ![0, 0] S2048x64.size inb_S2048x64_S2048x64_0_0

/-! ## What the body leaves in the output window's buffer -/

/-- Window 3's staging buffer after the body, from the input windows' blocks: its one whole store, the body's
    arithmetic of the three whole loads. -/
def out0_3 (x0 : Vec F S2048x128 .f32) (x1 : Vec F S128x64 .f32) (x2 : Vec F S64 .f32) : Vec F S2048x64 .bf16 :=
  View.canon [⟨r0_3, k0_pay1 (View.ld x0 r0_0) (View.ld x1 r0_1) (View.ld x2 r0_2)⟩]

/-- The one store is of the whole buffer, so it covers it. -/
theorem cover0_3 (p0 : Vec F S2048x64 .bf16) (y : S2048x64.Idx) :
    ∃ pc ∈ ([⟨r0_3, p0⟩] : List (View.Piece (Elt F) S2048x64 .bf16)), y ∈ pc.1.set :=
  View.cover_of_tiled [⟨r0_3, p0⟩] S2048x64.size (by rfl) y

/-! ## The body's triple -/

set_option maxHeartbeats 1000000 in
/-- The kernel body on whole staging memrefs, the inputs' at contents `x0 x1 x2` and the output's at anything, runs
    to the continuation holding the inputs' as they were and the output's at `out0_3` of the inputs'. -/
theorem sound_kernel0 (c : Dev nD) (E : Set ℕ) (i : grid0.Coords)
    (arg1 : Memref sig .tc .vmem S2048x128 .f32) (harg1 : arg1.IsWhole) (arg2 : Memref sig .tc .vmem S128x64 .f32) (harg2 : arg2.IsWhole)
    (arg3 : Memref sig .tc .vmem S64 .f32) (harg3 : arg3.IsWhole) (arg4 : Memref sig .tc .vmem S2048x64 .bf16) (harg4 : arg4.IsWhole)
    (x0 : Vec F S2048x128 .f32) (x1 : Vec F S128x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__encoder_kernel i arg1 harg1 arg2 harg2 arg3 harg3 arg4 harg4) K := by
  simp only [cc0__encoder_kernel_eq_skeleton]; unfold cc0__encoder_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the encoder's pipeline on core `c`: the arrays as the region finds them; after the body at
    point `t` each input's buffer at its block and the output's at the body's arithmetic of the three input blocks;
    the invariant the scoped rest and the generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Spec.lean ====
import Idealize.ShloMosaic.PureOps.Ideal
import Idealize.ShloMosaic.Lib.ValueIdx

/-!
# What both programs compute

Nodes carry feature rows `X k`; the encoder maps them to `enc k = X k · W + b` (a row of 64 numbers). A seed
`r` of the minibatch names, by the word `idx r`, one row of the dense diffusion matrix `P`; the result's row `r` is
that row of `P` applied to the encoded nodes: `out r j = Σₖ P (idx r) k · enc k j`. The words are row numbers, so
they are taken below the number of rows (`InRange`).
-/

namespace Cert.Spec

open Idealize.ShloMosaic Idealize.ShloMosaic.ValueIdx

abbrev SX : Shape := ⟨2, ![16384, 128]⟩
abbrev SP : Shape := ⟨2, ![16384, 16384]⟩
abbrev SW : Shape := ⟨2, ![128, 64]⟩
abbrev Sb : Shape := ⟨1, ![64]⟩
abbrev SI : Shape := ⟨1, ![4096]⟩
abbrev SE : Shape := ⟨2, ![16384, 64]⟩
abbrev SO : Shape := ⟨2, ![4096, 64]⟩

/-- Every word of the index table names a row of the diffusion matrix. -/
def InRange (idx : SI.Idx → BitVec 32) : Prop := ∀ r : Fin 4096, (idx (ix1 r)).toNat < 16384

/-- The row a seed's word names. -/
def rowOf (idx : SI.Idx → BitVec 32) (h : InRange idx) (r : Fin 4096) : Fin 16384 := ⟨(idx (ix1 r)).toNat, h r⟩

/-- The encoder at node `k`, output feature `j`: the node's feature row against column `j` of the weights, plus
    the bias. -/
noncomputable def enc (X : SX.Idx → EReal) (W : SW.Idx → EReal) (b : Sb.Idx → EReal) (k : Fin 16384) (j : Fin 64) : EReal :=
  (∑ d : Fin 128, X (ix2 k d) * W (ix2 d j)) + b (ix1 j)

/-- Row `row r` of the diffusion matrix against column `j` of the encoded nodes. -/
noncomputable def out (P : SP.Idx → EReal) (E : Fin 16384 → Fin 64 → EReal) (row : Fin 4096 → Fin 16384) (r : Fin 4096) (j : Fin 64) : EReal :=
  ∑ k : Fin 16384, P (ix2 (row r) k) * E k j

/-- The encoded nodes as an array. -/
noncomputable def encArr (X : SX.Idx → EReal) (W : SW.Idx → EReal) (b : Sb.Idx → EReal) : SE.Idx → EReal :=
  fun i => enc X W b (i 0) (i 1)

/-- The result as an array. -/
noncomputable def result (X : SX.Idx → EReal) (P : SP.Idx → EReal) (W : SW.Idx → EReal) (b : Sb.Idx → EReal)
    (idx : SI.Idx → BitVec 32) (h : InRange idx) : SO.Idx → EReal :=
  fun i => out P (enc X W b) (rowOf idx h) (i 0) (i 1)

theorem encArr_ix2 (X : SX.Idx → EReal) (W : SW.Idx → EReal) (b : Sb.Idx → EReal) (k : Fin 16384) (j : Fin 64) :
    encArr X W b (ix2 k j) = enc X W b k j := rfl

theorem result_ix2 (X : SX.Idx → EReal) (P : SP.Idx → EReal) (W : SW.Idx → EReal) (b : Sb.Idx → EReal)
    (idx : SI.Idx → BitVec 32) (h : InRange idx) (r : Fin 4096) (j : Fin 64) :
    result X P W b idx h (ix2 r j) = out P (enc X W b) (rowOf idx h) r j := rfl

end Cert.Spec
-- ==== Proof.GatherI.lean ====
import proofs.«406446_j60224031424549_1_alg».proof.Proof.Gen.KernelIdeal.Launch
import proofs.«406446_j60224031424549_1_alg».proof.Proof.Gen.KernelIdeal.Skeleton
import proofs.«406446_j60224031424549_1_alg».proof.Proof.Gen.KernelIdeal.Points
import proofs.«406446_j60224031424549_1_alg».proof.Proof.Spec
import Idealize.ShloMosaic.Lib.ValueIdx
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

open Idealize.ShloMosaic.ValueIdx

variable (V : (c : Dev nD) → (b : Ref sig .tc) → Buf (Elt F) ((c : Thread nD τ).loc b))

/-- The gather kernel's own DMA semaphores: one per gathered row. -/
abbrev osem1 : Fin 128 → SemLoc sig := fun j => SemLoc.dma (Fin.natAdd 9 j)
theorem ownSemFacts1 : Pipeline.OwnSemFacts spec1 osem1 := by decide
/-- The diffusion matrix stays in HBM and is read by the kernel's own copies. -/
def H1 : Finset (Ref sig .tc) := {main_arg1}
theorem H1_sub : H1 ⊆ Pipeline.restRefsP sig pre1 spec1 := by decide

/-- The table's words are row numbers of the diffusion matrix. -/
def TblOk (a : (pcfg1 (F := F)).Adm) : Prop := Cert.Spec.InRange (a.1 0)

/-- The word the table holds for row `r` of the tile gathered at grid point `t`: entry `128 t + r`. -/
def wordAt (xt : S4096.Idx → BitVec 32) (t : Fin 32) (r : Fin 128) : BitVec 32 :=
  xt (ValueIdx.ix1 (⟨128 * t.val + r.val, by omega⟩ : Fin 4096))

/-- The tile gathered at grid point `t`: row `r` is the row of the diffusion matrix that word `128 t + r` names. -/
def tile (P : S16384x16384.Idx → Elt F .f32) (xt : S4096.Idx → BitVec 32) (hx : Cert.Spec.InRange xt) (t : Fin 32) : Vec F S128x16384 .f32 :=
  fun y => P (ValueIdx.ix2 (⟨(wordAt xt t (y 0)).toNat, by unfold wordAt; exact hx _⟩ : Fin 16384) (y 1))

/-- What the gather kernel's body is handed at every point and hands back. -/
def Φ1 (a : (pcfg1 (F := F)).Adm) (c : Dev nD) : sProp 𝕄 :=
  iprop((∃ r, prngReg c r) ∗ Pipeline.ownSems0 osem1 c ∗ (bigSep H1 fun b => ((c.tc : Thread nD τ).loc b) ↦{fullShare} V c b)
    ∗ Pipeline.prefHeld pre1 c (fun _ => fullShare) a.1 ∗ Pipeline.scopedRest spec1 c)

def iblk1 (a : (pcfg1 (F := F)).Adm) (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- The output block at grid point `t`: the gathered tile against the encoded nodes. -/
def outsAt1 (a : (pcfg1 (F := F)).Adm) (ha : TblOk a) (c : Dev nD) (t : Fin (cfg1 a).N) : Vec F S128x64 .f32 :=
  k1_pay1 (tile (V c main_arg1) (a.1 0) ha t) (iblk1 V a c 0 t)

def dat1 (a : (pcfg1 (F := F)).Adm) (ha : TblOk a) (c : Dev nD) : Dat τ (Elt F) Unit ℕ (Pipeline.UD sig nD τ) ℕ (cfg1 a) c where
  A w := V c (Pipeline.arrRef spec1 w)
  after w t := match w with
    | ⟨0, _⟩ => iblk1 V a c 0 t
    | ⟨1, _⟩ => outsAt1 V a ha c t
  Φ _ := Φ1 V a c
  q _ := fullShare
  owed _ := 0

theorem A_eq1 (a : (pcfg1 (F := F)).Adm) (ha : TblOk a) (c : Dev nD) (w : Fin (cfg1 a).W) : (dat1 V a ha c).A w = V c (Pipeline.arrRef spec1 w) := by
  dsimp only [dat1]
theorem after1_0 (a : (pcfg1 (F := F)).Adm) (ha : TblOk a) (c : Dev nD) (t : Fin (cfg1 a).N) : (dat1 V a ha c).after 0 t = iblk1 V a c 0 t := rfl
theorem after1_1 (a : (pcfg1 (F := F)).Adm) (ha : TblOk a) (c : Dev nD) (t : Fin (cfg1 a).N) : (dat1 V a ha c).after 1 t = outsAt1 V a ha c t := rfl

end Cert.KernelIdeal.Hand

end
-- ==== Proof.GatherWords.lean ====
import proofs.«406446_j60224031424549_1_alg».proof.Proof.GatherI

/-!
# The words and rows the gather kernel's body reads

At grid point `t` the body loads, for `k = 0 … 127`, word `128 t + k` of the index table and copies the row of the
diffusion matrix that the word names. Here: the offset arithmetic (no overflow: `128 · 31 + 127 < 2³²`), the load of a
one-element rectangle of the table as the table's entry at the rectangle's offset, the copied row — the matrix read
through a one-row slice with the row axis squeezed away — as the matrix's row, and the two together: the copy's payload
is row `k` of the tile gathered at `t`.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

/-- The index table, whole, in scalar memory. -/
abbrev tbM : Memref sig .tc .smem S4096 .i32 := Memref.whole main_arg4
/-- The diffusion matrix, whole, in HBM. -/
abbrev hbM : Memref sig .tc .hbm S16384x16384 .f32 := Memref.whole main_arg1

/-- The offset of word `k` of the tile at grid point `v`: `128 v + k`, computed in 32-bit words without overflow. -/
theorem off_word (v : ℕ) (hv : v < 32) (k : ℕ) (hk : k < 128) :
    (Scalar.indexCast (Scalar.addi (Scalar.muli (BitVec.ofNat 32 v) 128#32) (BitVec.ofNat 32 k))).toNat = 128 * v + k := by
  simp only [Scalar.indexCast, Scalar.addi, Scalar.muli, IntOp.addi, IntOp.muli, BitVec.toNat_add, BitVec.toNat_mul,
    BitVec.toNat_ofNat, Nat.reducePow, Nat.reduceMod]
  omega

/-- A load of the one-element rectangle at offset `n` of the table reads the table's entry `n`. -/
theorem tbl_readAt (c : Dev nD) (xt : Buf (Elt F) (tbM.view.loc (c : Thread nD τ))) (off : Fin 1 → ℕ)
    (h : ∀ a, off a + S1.size a ≤ S4096.size a) (y : (Rect.unit (s := S4096) off S1.size h).toLoadRect.shape.Idx)
    (n : ℕ) (hn : n < 4096) (ho : off 0 = n) :
    tbM.view.readAt (Elt F) (Rect.unit (s := S4096) off S1.size h).toLoadRect xt y
      = tbM.view.read (Elt F) xt (ValueIdx.ix1 ⟨n, hn⟩) := by
  rw [View.readAt_apply]
  congr 1
  funext a
  apply Fin.ext
  match a with
  | ⟨0, _⟩ =>
    show off 0 + 1 * (y 0).val = n
    have hy : (y 0).val < 1 := (y 0).isLt
    omega

/-- The same load, named as the tile's word: at offset `128 t + k` it reads word `k` of the tile at grid point `t`. -/
theorem tbl_wordAt (c : Dev nD) (xt : Buf (Elt F) (tbM.view.loc (c : Thread nD τ))) (off : Fin 1 → ℕ)
    (h : ∀ a, off a + S1.size a ≤ S4096.size a) (y : (Rect.unit (s := S4096) off S1.size h).toLoadRect.shape.Idx)
    (t : Fin 32) (k : Fin 128) (ho : off 0 = 128 * t.val + k.val) :
    tbM.view.readAt (Elt F) (Rect.unit (s := S4096) off S1.size h).toLoadRect xt y = wordAt (tbM.view.read (Elt F) xt) t k :=
  tbl_readAt c xt off h y (128 * t.val + k.val) (by omega) ho

/-- The matrix read through the one-row slice at row `v`, the row axis squeezed away, is the matrix's row `v`. -/
theorem src_row_read (c : Dev nD) (fh : Buf (Elt F) (hbM.view.loc (c : Thread nD τ))) (v : BitVec 32) (hv : v.toNat < 16384)
    (h1 : ∀ a, (k1_off2 v) a + S1x16384.size a ≤ S16384x16384.size a)
    (h2 : ∀ a, (Rect.unit (s := S16384x16384) (k1_off2 v) S1x16384.size h1).stride a = 1) (j : S16384.Idx) :
    ReadAs.same.apply (View.read (Elt F) ((hbM.slice (Rect.unit (s := S16384x16384) (k1_off2 v) S1x16384.size h1) h2).squeeze S16384 squeezes_S1x16384_S16384).view fh) j
      = hbM.view.read (Elt F) fh (ValueIdx.ix2 ⟨v.toNat, hv⟩ (j 0)) := by
  -- the squeezed slice's index `j` sits in the matrix at row `v`, column `j 0`
  have e : ((hbM.slice (Rect.unit (s := S16384x16384) (k1_off2 v) S1x16384.size h1) h2).squeeze S16384 squeezes_S1x16384_S16384).view.emb j
      = hbM.view.emb (ValueIdx.ix2 ⟨v.toNat, hv⟩ (j 0)) := by
    show (Rect.unit (s := S16384x16384) (k1_off2 v) S1x16384.size h1).emb (Shape.reshapeEquiv squeezes_S1x16384_S16384.numel_eq j) = _
    rw [Shape.reshapeEquiv_cons_one (n := 1) (d := ![16384]) squeezes_S1x16384_S16384.numel_eq j]
    funext a
    apply Fin.ext
    match a with
    | ⟨0, _⟩ => show v.toNat + 1 * 0 = v.toNat; omega
    | ⟨1, _⟩ => show 0 + 1 * (j 0).val = (j 0).val; omega
  rw [ReadAs.apply_same, View.read_apply, View.read_apply, e]

/-- The copy's payload for word `k` of the tile at grid point `t`: row `k` of the gathered tile. -/
theorem row_payload (c : Dev nD) (xt : Buf (Elt F) (tbM.view.loc (c : Thread nD τ))) (fh : Buf (Elt F) (hbM.view.loc (c : Thread nD τ)))
    (t : Fin 32) (k : Fin 128) (hx : Cert.Spec.InRange (tbM.view.read (Elt F) xt)) (v : BitVec 32)
    (hv : v = wordAt (tbM.view.read (Elt F) xt) t k)
    (h1 : ∀ a, (k1_off2 v) a + S1x16384.size a ≤ S16384x16384.size a)
    (h2 : ∀ a, (Rect.unit (s := S16384x16384) (k1_off2 v) S1x16384.size h1).stride a = 1) :
    (fun j : S16384.Idx => ReadAs.same.apply (View.read (Elt F) ((hbM.slice (Rect.unit (s := S16384x16384) (k1_off2 v) S1x16384.size h1) h2).squeeze S16384 squeezes_S1x16384_S16384).view fh) j)
      = fun j => tile (hbM.view.read (Elt F) fh) (tbM.view.read (Elt F) xt) hx t (ValueIdx.ix2 k (j 0)) := by
  subst hv
  funext j
  have hb : (wordAt (tbM.view.read (Elt F) xt) t k).toNat < 16384 := by unfold wordAt; exact hx _
  rw [src_row_read c fh _ hb h1 h2 j]
  rfl

end Cert.KernelIdeal.Hand

end
-- ==== Proof.ScratchRows.lean ====
import proofs.«406446_j60224031424549_1_alg».proof.Proof.Gen.KernelIdeal
import Idealize.ShloMosaic.Lib.Memref
import Idealize.ShloMosaic.Lib.Pipeline.Frame
import Idealize.ShloMosaic.Lib.Pipeline.FrameBody
import Idealize.ShloMosaic.Lib.Exec.Geometry
import Idealize.ShloMosaic.Lib.ValueIdx

/-!
# The gather buffer as its 128 rows

The second kernel gathers 128 rows of the diffusion matrix into a [128, 16384] buffer, row k through the memref
that names row k alone (the slice of one row, its unit axis dropped). Owning the buffer at contents X is owning
each row at X's row: the rows are unit-stride rectangles, pairwise disjoint (they differ in the row coordinate)
and together all of the buffer; dropping the unit axis re-indexes a row without changing its elements. A piece
written through a whole row reads back as the piece. A separating conjunction over Fin n is the nested binary
conjunction of its n terms.
-/

noncomputable section

namespace Cert.KernelIdeal.Hand

open Cert.KernelIdeal Cert.KernelIdeal.Facts₀ Idealize.ShloMosaic Idealize.ShloMosaic.TcCoe Idealize.SL Idealize.SL.Sem
open Idealize.SL.BI (sProp)
open scoped Idealize.SL.BI
open Idealize.SL.BI.BIBase Idealize.SL.BI.Laws Idealize.SL.ProofMode
open Idealize.SL.RA

variable {F : FTy → Type} [FloatOps F]

local notation "𝕄" => MT nD τ sig Unit (Elt F) ℕ (Pipeline.UD sig nD τ) ℕ

/-! ## The buffer and its rows -/

/-- The gather buffer, whole. -/
abbrev scM : Memref sig .tc .vmem S128x16384 .f32 := Memref.whole cc1_scratch0

/-- Row k lies inside the buffer. -/
theorem row_inb (k : ℕ) (hk : k < 128) : ∀ a, (![k, 0] : Fin 2 → ℕ) a + S1x16384.size a ≤ S128x16384.size a := by
  intro a
  match a with
  | ⟨0, _⟩ => show k + 1 ≤ 128; omega
  | ⟨1, _⟩ => show 0 + 16384 ≤ 16384; omega

/-- Row k of the buffer as a vector of 16384 entries: the one-row slice with its unit axis dropped. -/
abbrev rowM (k : ℕ) (hk : k < 128) : Memref sig .tc .vmem S16384 .f32 := (scM.slice (Rect.unit (s := S128x16384) ![k, 0] S1x16384.size (row_inb k hk)) (fun _ => rfl)).squeeze S16384 squeezes_S1x16384_S16384

/-! ## The rows as rectangles -/

/-- The one-row rectangle of row k. -/
abbrev rowRect (k : Fin 128) : Rect S128x16384 :=
  Rect.unit (s := S128x16384) ![k.val, 0] S1x16384.size (row_inb k.val k.isLt)

/-- Two different rows share no element: they differ in the row coordinate. -/
theorem rowRect_disjoint (t t' : Fin 128) (h : t ≠ t') : Disjoint (rowRect t).set (rowRect t').set :=
  Rect.unit_disjoint (0 : Fin 2) (by
    show t.val + 1 ≤ t'.val ∨ t'.val + 1 ≤ t.val
    have := Fin.val_ne_of_ne h
    omega)

/-- Every element of the buffer lies in the row its row coordinate names. -/
theorem rowRect_cover : (Finset.univ : Finset (Fin 128)).biUnion (fun t => (rowRect t).set) = Finset.univ := by
  ext i
  simp only [Finset.mem_biUnion, Finset.mem_univ, true_and, iff_true]
  have h0 : (i 0).val < 128 := (i 0).isLt
  have h1 : (i 1).val < 16384 := (i 1).isLt
  refine ⟨⟨(i 0).val, h0⟩, Rect.mem_set_unit.mpr fun a => ?_⟩
  match a with
  | ⟨0, _⟩ => exact ⟨le_rfl, by show (i 0).val < (i 0).val + 1; omega⟩
  | ⟨1, _⟩ => exact ⟨Nat.zero_le _, by show (i 1).val < 0 + 16384; omega⟩

/-- Entry j of row k, found through the row with its unit axis dropped, is the buffer's entry (k, j). -/
theorem row_emb (k : Fin 128) (j : S16384.Idx) :
    (rowRect k).emb (Shape.reshapeEquiv squeezes_S1x16384_S16384.numel_eq j) = ValueIdx.ix2 k (j 0) := by
  have e : Shape.reshapeEquiv squeezes_S1x16384_S16384.numel_eq j = Fin.cons ⟨0, Nat.one_pos⟩ j :=
    Shape.reshapeEquiv_cons_one (n := 1) (d := ![16384]) _ j
  funext a
  refine Fin.ext ?_
  show (rowRect k).off a + (rowRect k).stride a * ((Shape.reshapeEquiv squeezes_S1x16384_S16384.numel_eq j) a).val = _
  rw [e]
  match a with
  | ⟨0, _⟩ => show k.val + 1 * 0 = k.val; omega
  | ⟨1, _⟩ => show 0 + 1 * (j 0).val = (j 0).val; omega

/-! ## Dropping unit axes keeps what is owned -/

/-- Owning a memref with unit axes dropped, at contents re-indexed the same way, is owning the memref: the
    elements are the same, and the two indexings correspond one to one. -/
theorem owns_squeeze (c : Thread nD τ) {sp : Space} {s s' : Shape} {e : EltTy} (m : Memref sig c.2.kind sp s e)
    (h : s.Squeezes s') (q : PosShare TreeShare) (Y : s.Idx → Elt F e) :
    (owns c (m.squeeze s' h) q (fun j => Y (Shape.reshapeEquiv h.numel_eq j)) : sProp 𝕄) = owns c m q Y := by
  unfold owns
  have hset : (m.squeeze s' h).view.set = m.view.set := View.set_reshape _ _
  have h₁ : iprop(∃ f, ⌜(m.squeeze s' h).view.read (Elt F) f = fun j => Y (Shape.reshapeEquiv h.numel_eq j)⌝
        ∗ ((m.squeeze s' h).view.loc c ↦[(m.squeeze s' h).view.set]{q} f))
      ⊢ (iprop(∃ f, ⌜m.view.read (Elt F) f = Y⌝ ∗ (m.view.loc c ↦[m.view.set]{q} f)) : sProp 𝕄) := by
    iintro ⟨%g, %hg, H⟩
    iexists g
    isplitr
    · ipureintro
      funext i
      have e1 : m.view.read (Elt F) g (Shape.reshapeEquiv h.numel_eq ((Shape.reshapeEquiv h.numel_eq).symm i))
          = Y (Shape.reshapeEquiv h.numel_eq ((Shape.reshapeEquiv h.numel_eq).symm i)) :=
        congrFun hg ((Shape.reshapeEquiv h.numel_eq).symm i)
      rwa [Equiv.apply_symm_apply] at e1
    · rw [← hset]; iexact H
  have h₂ : (iprop(∃ f, ⌜m.view.read (Elt F) f = Y⌝ ∗ (m.view.loc c ↦[m.view.set]{q} f)) : sProp 𝕄)
      ⊢ iprop(∃ f, ⌜(m.squeeze s' h).view.read (Elt F) f = fun j => Y (Shape.reshapeEquiv h.numel_eq j)⌝
        ∗ ((m.squeeze s' h).view.loc c ↦[(m.squeeze s' h).view.set]{q} f)) := by
    iintro ⟨%g, %hg, H⟩
    iexists g
    isplitr
    · ipureintro
      funext j
      exact congrFun hg (Shape.reshapeEquiv h.numel_eq j)
    · rw [hset]; iexact H
  exact BI.equiv_iff.mp ⟨h₁, h₂⟩

/-- Owning row k as a vector, at row k of X, is owning the one-row slice at X's part there. -/
theorem owns_row_eq (c : Dev nD) (k : Fin 128) (X : Vec F S128x16384 .f32) :
    (owns (c : Thread nD τ) (rowM k.val k.isLt) fullShare (fun j : S16384.Idx => X (ValueIdx.ix2 k (j 0))) : sProp 𝕄)
      = owns (c : Thread nD τ) (scM.slice (rowRect k) (fun _ => rfl)) fullShare (fun j => X ((rowRect k).emb j)) :=
  (congrArg (fun Y => (owns (c : Thread nD τ) (rowM k.val k.isLt) fullShare Y : sProp 𝕄))
      (funext fun j => congrArg X (row_emb k j).symm)).trans
    (owns_squeeze (c : Thread nD τ) (scM.slice (rowRect k) (fun _ => rfl)) squeezes_S1x16384_S16384 fullShare
      (fun j => X ((rowRect k).emb j)))

/-! ## The buffer split into its rows, and joined again -/

/-- The buffer owned at X is each of its rows owned at that row of X. -/
theorem rows_split (c : Dev nD) (X : Vec F S128x16384 .f32) :
    (owns (c : Thread nD τ) scM fullShare X : sProp 𝕄)
      ⊢ BI.bigSep Finset.univ fun k : Fin 128 =>
          owns (c : Thread nD τ) (rowM k.val k.isLt) fullShare (fun j : S16384.Idx => X (ValueIdx.ix2 k (j 0))) := by
  rw [BI.bigSep_congr (fun k _ => owns_row_eq c k X)]
  exact owns_rects (c : Thread nD τ) scM fullShare rowRect (fun _ _ => rfl) rowRect_disjoint rowRect_cover X

/-- Each row owned at that row of X is the buffer owned at X. -/
theorem rows_join [∀ e, Nonempty (Elt F e)] (c : Dev nD) (X : Vec F S128x16384 .f32) :
    (BI.bigSep Finset.univ fun k : Fin 128 =>
          owns (c : Thread nD τ) (rowM k.val k.isLt) fullShare (fun j : S16384.Idx => X (ValueIdx.ix2 k (j 0))) : sProp 𝕄)
      ⊢ owns (c : Thread nD τ) scM fullShare X := by
  rw [BI.bigSep_congr (fun k _ => owns_row_eq c k X)]
  exact owns_of_rects (c : Thread nD τ) scM fullShare rowRect (fun _ _ => rfl) rowRect_disjoint rowRect_cover X

/-! ## A piece written through a whole row -/

/-- A piece covering the whole row, written through the row, reads back as the piece. -/
theorem row_read_piece (k : ℕ) (hk : k < 128) (f : (rowM k hk).view.ty.Contents (Elt F)) (p : Vec F S16384 .f32) :
    (rowM k hk).view.read (Elt F) ((rowM k hk).view.writes (Elt F) f [⟨Rect.whole S16384, p⟩]) = p :=
  View.read_writes_whole (rowM k hk).view f p

/-! ## A separating conjunction over Fin n, term by term -/

/-- The first n terms of a sequence of assertions, conjoined from the left. -/
def sepUpTo (Φ : ℕ → sProp 𝕄) : ℕ → sProp 𝕄
  | 0 => emp
  | n + 1 => iprop(sepUpTo Φ n ∗ Φ n)

/-- The separating conjunction over Fin n is the nested conjunction of its n terms. -/
theorem bigSep_fin_eq (n : ℕ) (Φ : Fin n → sProp 𝕄) :
    BI.bigSep Finset.univ Φ = sepUpTo (fun k => if h : k < n then Φ ⟨k, h⟩ else emp) n := by
  induction n with
  | zero => rfl
  | succ n ih =>
    rw [Fin.univ_castSuccEmb, Finset.cons_eq_insert, BI.bigSep_insert (by simp), BI.bigSep_map, ih]
    show iprop(Φ (Fin.last n) ∗ sepUpTo (fun k => if h : k < n then Φ (Fin.castSuccEmb ⟨k, h⟩) else emp) n)
      = iprop(sepUpTo (fun k => if h : k < n + 1 then Φ ⟨k, h⟩ else emp) n ∗ (if h : n < n + 1 then Φ ⟨n, h⟩ else emp))
    rw [dif_pos (Nat.lt_succ_self n)]
    have hpre : ∀ m, m ≤ n → sepUpTo (fun k => if h : k < n then Φ (Fin.castSuccEmb ⟨k, h⟩) else emp) m
        = sepUpTo (fun k => if h : k < n + 1 then Φ ⟨k, h⟩ else emp) m := by
      intro m hm
      induction m with
      | zero => rfl
      | succ m ihm =>
        show iprop(_ ∗ _) = iprop(_ ∗ _)
        rw [ihm (Nat.le_of_succ_le hm)]
        beta_reduce
        rw [dif_pos (show m < n from hm), dif_pos (show m < n + 1 by omega)]
        rfl
    rw [hpre n le_rfl]
    exact BI.equiv_iff.mp ⟨Idealize.SL.BI.sep_comm, Idealize.SL.BI.sep_comm⟩

end Cert.KernelIdeal.Hand

end
-- ==== Proof.GatherTables.lean ====
import Idealize.ShloMosaic.Lib.Tactic

/-!
# Naming and walking the gather kernel's 128 rows, cells and read shares

Tactic tables only: each names 128 (or 137) hypotheses of a nested separating conjunction in order, or hands them back
in order. The conjunctions, the lemmas they cite and the argument are in the module that calls them.
-/

open Idealize.SL Idealize.SL.BI Idealize.SL.ProofMode

set_option hygiene false

/-- The rows: `HRows` is `((emp ∗ row 0) ∗ row 1) ∗ … ∗ row 127`, each row held at some buffer contents. -/
macro "gather_icases_rows" : tactic => `(tactic| icases HRows with ⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨-, ⟨%fr0, %hfr0, HR0⟩⟩, ⟨%fr1, %hfr1, HR1⟩⟩, ⟨%fr2, %hfr2, HR2⟩⟩, ⟨%fr3, %hfr3, HR3⟩⟩, ⟨%fr4, %hfr4, HR4⟩⟩, ⟨%fr5, %hfr5, HR5⟩⟩, ⟨%fr6, %hfr6, HR6⟩⟩, ⟨%fr7, %hfr7, HR7⟩⟩, ⟨%fr8, %hfr8, HR8⟩⟩, ⟨%fr9, %hfr9, HR9⟩⟩, ⟨%fr10, %hfr10, HR10⟩⟩, ⟨%fr11, %hfr11, HR11⟩⟩, ⟨%fr12, %hfr12, HR12⟩⟩, ⟨%fr13, %hfr13, HR13⟩⟩, ⟨%fr14, %hfr14, HR14⟩⟩, ⟨%fr15, %hfr15, HR15⟩⟩, ⟨%fr16, %hfr16, HR16⟩⟩, ⟨%fr17, %hfr17, HR17⟩⟩, ⟨%fr18, %hfr18, HR18⟩⟩, ⟨%fr19, %hfr19, HR19⟩⟩, ⟨%fr20, %hfr20, HR20⟩⟩, ⟨%fr21, %hfr21, HR21⟩⟩, ⟨%fr22, %hfr22, HR22⟩⟩, ⟨%fr23, %hfr23, HR23⟩⟩, ⟨%fr24, %hfr24, HR24⟩⟩, ⟨%fr25, %hfr25, HR25⟩⟩, ⟨%fr26, %hfr26, HR26⟩⟩, ⟨%fr27, %hfr27, HR27⟩⟩, ⟨%fr28, %hfr28, HR28⟩⟩, ⟨%fr29, %hfr29, HR29⟩⟩, ⟨%fr30, %hfr30, HR30⟩⟩, ⟨%fr31, %hfr31, HR31⟩⟩, ⟨%fr32, %hfr32, HR32⟩⟩, ⟨%fr33, %hfr33, HR33⟩⟩, ⟨%fr34, %hfr34, HR34⟩⟩, ⟨%fr35, %hfr35, HR35⟩⟩, ⟨%fr36, %hfr36, HR36⟩⟩, ⟨%fr37, %hfr37, HR37⟩⟩, ⟨%fr38, %hfr38, HR38⟩⟩, ⟨%fr39, %hfr39, HR39⟩⟩, ⟨%fr40, %hfr40, HR40⟩⟩, ⟨%fr41, %hfr41, HR41⟩⟩, ⟨%fr42, %hfr42, HR42⟩⟩, ⟨%fr43, %hfr43, HR43⟩⟩, ⟨%fr44, %hfr44, HR44⟩⟩, ⟨%fr45, %hfr45, HR45⟩⟩, ⟨%fr46, %hfr46, HR46⟩⟩, ⟨%fr47, %hfr47, HR47⟩⟩, ⟨%fr48, %hfr48, HR48⟩⟩, ⟨%fr49, %hfr49, HR49⟩⟩, ⟨%fr50, %hfr50, HR50⟩⟩, ⟨%fr51, %hfr51, HR51⟩⟩, ⟨%fr52, %hfr52, HR52⟩⟩, ⟨%fr53, %hfr53, HR53⟩⟩, ⟨%fr54, %hfr54, HR54⟩⟩, ⟨%fr55, %hfr55, HR55⟩⟩, ⟨%fr56, %hfr56, HR56⟩⟩, ⟨%fr57, %hfr57, HR57⟩⟩, ⟨%fr58, %hfr58, HR58⟩⟩, ⟨%fr59, %hfr59, HR59⟩⟩, ⟨%fr60, %hfr60, HR60⟩⟩, ⟨%fr61, %hfr61, HR61⟩⟩, ⟨%fr62, %hfr62, HR62⟩⟩, ⟨%fr63, %hfr63, HR63⟩⟩, ⟨%fr64, %hfr64, HR64⟩⟩, ⟨%fr65, %hfr65, HR65⟩⟩, ⟨%fr66, %hfr66, HR66⟩⟩, ⟨%fr67, %hfr67, HR67⟩⟩, ⟨%fr68, %hfr68, HR68⟩⟩, ⟨%fr69, %hfr69, HR69⟩⟩, ⟨%fr70, %hfr70, HR70⟩⟩, ⟨%fr71, %hfr71, HR71⟩⟩, ⟨%fr72, %hfr72, HR72⟩⟩, ⟨%fr73, %hfr73, HR73⟩⟩, ⟨%fr74, %hfr74, HR74⟩⟩, ⟨%fr75, %hfr75, HR75⟩⟩, ⟨%fr76, %hfr76, HR76⟩⟩, ⟨%fr77, %hfr77, HR77⟩⟩, ⟨%fr78, %hfr78, HR78⟩⟩, ⟨%fr79, %hfr79, HR79⟩⟩, ⟨%fr80, %hfr80, HR80⟩⟩, ⟨%fr81, %hfr81, HR81⟩⟩, ⟨%fr82, %hfr82, HR82⟩⟩, ⟨%fr83, %hfr83, HR83⟩⟩, ⟨%fr84, %hfr84, HR84⟩⟩, ⟨%fr85, %hfr85, HR85⟩⟩, ⟨%fr86, %hfr86, HR86⟩⟩, ⟨%fr87, %hfr87, HR87⟩⟩, ⟨%fr88, %hfr88, HR88⟩⟩, ⟨%fr89, %hfr89, HR89⟩⟩, ⟨%fr90, %hfr90, HR90⟩⟩, ⟨%fr91, %hfr91, HR91⟩⟩, ⟨%fr92, %hfr92, HR92⟩⟩, ⟨%fr93, %hfr93, HR93⟩⟩, ⟨%fr94, %hfr94, HR94⟩⟩, ⟨%fr95, %hfr95, HR95⟩⟩, ⟨%fr96, %hfr96, HR96⟩⟩, ⟨%fr97, %hfr97, HR97⟩⟩, ⟨%fr98, %hfr98, HR98⟩⟩, ⟨%fr99, %hfr99, HR99⟩⟩, ⟨%fr100, %hfr100, HR100⟩⟩, ⟨%fr101, %hfr101, HR101⟩⟩, ⟨%fr102, %hfr102, HR102⟩⟩, ⟨%fr103, %hfr103, HR103⟩⟩, ⟨%fr104, %hfr104, HR104⟩⟩, ⟨%fr105, %hfr105, HR105⟩⟩, ⟨%fr106, %hfr106, HR106⟩⟩, ⟨%fr107, %hfr107, HR107⟩⟩, ⟨%fr108, %hfr108, HR108⟩⟩, ⟨%fr109, %hfr109, HR109⟩⟩, ⟨%fr110, %hfr110, HR110⟩⟩, ⟨%fr111, %hfr111, HR111⟩⟩, ⟨%fr112, %hfr112, HR112⟩⟩, ⟨%fr113, %hfr113, HR113⟩⟩, ⟨%fr114, %hfr114, HR114⟩⟩, ⟨%fr115, %hfr115, HR115⟩⟩, ⟨%fr116, %hfr116, HR116⟩⟩, ⟨%fr117, %hfr117, HR117⟩⟩, ⟨%fr118, %hfr118, HR118⟩⟩, ⟨%fr119, %hfr119, HR119⟩⟩, ⟨%fr120, %hfr120, HR120⟩⟩, ⟨%fr121, %hfr121, HR121⟩⟩, ⟨%fr122, %hfr122, HR122⟩⟩, ⟨%fr123, %hfr123, HR123⟩⟩, ⟨%fr124, %hfr124, HR124⟩⟩, ⟨%fr125, %hfr125, HR125⟩⟩, ⟨%fr126, %hfr126, HR126⟩⟩, ⟨%fr127, %hfr127, HR127⟩⟩)

/-- The read shares: `HToks` is `((emp ∗ share 0) ∗ …) ∗ share 136`; shares 9 … 136 are the copies' (cell numbers). -/
macro "gather_icases_toks" : tactic => `(tactic| icases HToks with ⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨-, Hlo0⟩, Hlo1⟩, Hlo2⟩, Hlo3⟩, Hlo4⟩, Hlo5⟩, Hlo6⟩, Hlo7⟩, Hlo8⟩, Ht0⟩, Ht1⟩, Ht2⟩, Ht3⟩, Ht4⟩, Ht5⟩, Ht6⟩, Ht7⟩, Ht8⟩, Ht9⟩, Ht10⟩, Ht11⟩, Ht12⟩, Ht13⟩, Ht14⟩, Ht15⟩, Ht16⟩, Ht17⟩, Ht18⟩, Ht19⟩, Ht20⟩, Ht21⟩, Ht22⟩, Ht23⟩, Ht24⟩, Ht25⟩, Ht26⟩, Ht27⟩, Ht28⟩, Ht29⟩, Ht30⟩, Ht31⟩, Ht32⟩, Ht33⟩, Ht34⟩, Ht35⟩, Ht36⟩, Ht37⟩, Ht38⟩, Ht39⟩, Ht40⟩, Ht41⟩, Ht42⟩, Ht43⟩, Ht44⟩, Ht45⟩, Ht46⟩, Ht47⟩, Ht48⟩, Ht49⟩, Ht50⟩, Ht51⟩, Ht52⟩, Ht53⟩, Ht54⟩, Ht55⟩, Ht56⟩, Ht57⟩, Ht58⟩, Ht59⟩, Ht60⟩, Ht61⟩, Ht62⟩, Ht63⟩, Ht64⟩, Ht65⟩, Ht66⟩, Ht67⟩, Ht68⟩, Ht69⟩, Ht70⟩, Ht71⟩, Ht72⟩, Ht73⟩, Ht74⟩, Ht75⟩, Ht76⟩, Ht77⟩, Ht78⟩, Ht79⟩, Ht80⟩, Ht81⟩, Ht82⟩, Ht83⟩, Ht84⟩, Ht85⟩, Ht86⟩, Ht87⟩, Ht88⟩, Ht89⟩, Ht90⟩, Ht91⟩, Ht92⟩, Ht93⟩, Ht94⟩, Ht95⟩, Ht96⟩, Ht97⟩, Ht98⟩, Ht99⟩, Ht100⟩, Ht101⟩, Ht102⟩, Ht103⟩, Ht104⟩, Ht105⟩, Ht106⟩, Ht107⟩, Ht108⟩, Ht109⟩, Ht110⟩, Ht111⟩, Ht112⟩, Ht113⟩, Ht114⟩, Ht115⟩, Ht116⟩, Ht117⟩, Ht118⟩, Ht119⟩, Ht120⟩, Ht121⟩, Ht122⟩, Ht123⟩, Ht124⟩, Ht125⟩, Ht126⟩, Ht127⟩)

/-- The cells: `HSems` is `((emp ∗ cell 0) ∗ …) ∗ cell 127`. -/
macro "gather_icases_sems" : tactic => `(tactic| icases HSems with ⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨-, Hq0⟩, Hq1⟩, Hq2⟩, Hq3⟩, Hq4⟩, Hq5⟩, Hq6⟩, Hq7⟩, Hq8⟩, Hq9⟩, Hq10⟩, Hq11⟩, Hq12⟩, Hq13⟩, Hq14⟩, Hq15⟩, Hq16⟩, Hq17⟩, Hq18⟩, Hq19⟩, Hq20⟩, Hq21⟩, Hq22⟩, Hq23⟩, Hq24⟩, Hq25⟩, Hq26⟩, Hq27⟩, Hq28⟩, Hq29⟩, Hq30⟩, Hq31⟩, Hq32⟩, Hq33⟩, Hq34⟩, Hq35⟩, Hq36⟩, Hq37⟩, Hq38⟩, Hq39⟩, Hq40⟩, Hq41⟩, Hq42⟩, Hq43⟩, Hq44⟩, Hq45⟩, Hq46⟩, Hq47⟩, Hq48⟩, Hq49⟩, Hq50⟩, Hq51⟩, Hq52⟩, Hq53⟩, Hq54⟩, Hq55⟩, Hq56⟩, Hq57⟩, Hq58⟩, Hq59⟩, Hq60⟩, Hq61⟩, Hq62⟩, Hq63⟩, Hq64⟩, Hq65⟩, Hq66⟩, Hq67⟩, Hq68⟩, Hq69⟩, Hq70⟩, Hq71⟩, Hq72⟩, Hq73⟩, Hq74⟩, Hq75⟩, Hq76⟩, Hq77⟩, Hq78⟩, Hq79⟩, Hq80⟩, Hq81⟩, Hq82⟩, Hq83⟩, Hq84⟩, Hq85⟩, Hq86⟩, Hq87⟩, Hq88⟩, Hq89⟩, Hq90⟩, Hq91⟩, Hq92⟩, Hq93⟩, Hq94⟩, Hq95⟩, Hq96⟩, Hq97⟩, Hq98⟩, Hq99⟩, Hq100⟩, Hq101⟩, Hq102⟩, Hq103⟩, Hq104⟩, Hq105⟩, Hq106⟩, Hq107⟩, Hq108⟩, Hq109⟩, Hq110⟩, Hq111⟩, Hq112⟩, Hq113⟩, Hq114⟩, Hq115⟩, Hq116⟩, Hq117⟩, Hq118⟩, Hq119⟩, Hq120⟩, Hq121⟩, Hq122⟩, Hq123⟩, Hq124⟩, Hq125⟩, Hq126⟩, Hq127⟩)

/-- The rows put together: row `k`, left by its copy at the row of the matrix that word `k` of the tile names, is held
    at that row of the tile (`row_done` over `row_payload`). -/
macro "gather_join_rows" : tactic => `(tactic| (
  isplitr [HR127]; rotate_left; iapply (row_done c 127 (of_decide_eq_true rfl) _ _ _ (row_payload c xt fh (ptOf i) ⟨127, of_decide_eq_true rfl⟩ hxs _ (tbl_wordAt c xt (k1_off255 i) (k1_off255_inb i) _ (ptOf i) ⟨127, of_decide_eq_true rfl⟩ (off_word (i 0).val (i 0).isLt 127 (of_decide_eq_true rfl))) (chk_of (word_lt c xt hxs _ _)) (fun _ => rfl))); iexact HR127
  isplitr [HR126]; rotate_left; iapply (row_done c 126 (of_decide_eq_true rfl) _ _ _ (row_payload c xt fh (ptOf i) ⟨126, of_decide_eq_true rfl⟩ hxs _ (tbl_wordAt c xt (k1_off253 i) (k1_off253_inb i) _ (ptOf i) ⟨126, of_decide_eq_true rfl⟩ (off_word (i 0).val (i 0).isLt 126 (of_decide_eq_true rfl))) (chk_of (word_lt c xt hxs _ _)) (fun _ => rfl))); iexact HR126
  isplitr [HR125]; rotate_left; iapply (row_done c 125 (of_decide_eq_true rfl) _ _ _ (row_payload c xt fh (ptOf i) ⟨125, of_decide_eq_true rfl⟩ hxs _ (tbl_wordAt c xt (k1_off251 i) (k1_off251_inb i) _ (ptOf i) ⟨125, of_decide_eq_true rfl⟩ (off_word (i 0).val (i 0).isLt 125 (of_decide_eq_true rfl))) (chk_of (word_lt c xt hxs _ _)) (fun _ => rfl))); iexact HR125
  isplitr [HR124]; rotate_left; iapply (row_done c 124 (of_decide_eq_true rfl) _ _ _ (row_payload c xt fh (ptOf i) ⟨124, of_decide_eq_true rfl⟩ hxs _ (tbl_wordAt c xt (k1_off249 i) (k1_off249_inb i) _ (ptOf i) ⟨124, of_decide_eq_true rfl⟩ (off_word (i 0).val (i 0).isLt 124 (of_decide_eq_true rfl))) (chk_of (word_lt c xt hxs _ _)) (fun _ => rfl))); iexact HR124
  isplitr [HR123]; rotate_left; iapply (row_done c 123 (of_decide_eq_true rfl) _ _ _ (row_payload c xt fh (ptOf i) ⟨123, of_decide_eq_true rfl⟩ hxs _ (tbl_wordAt c xt (k1_off247 i) (k1_off247_inb i) _ (ptOf i) ⟨123, of_decide_eq_true rfl⟩ (off_word (i 0).val (i 0).isLt 123 (of_decide_eq_true rfl))) (chk_of (word_lt c xt hxs _ _)) (fun _ => rfl))); iexact HR123
  isplitr [HR122]; rotate_left; iapply (row_done c 122 (of_decide_eq_true rfl) _ _ _ (row_payload c xt fh (ptOf i) ⟨122, of_decide_eq_true rfl⟩ hxs _ (tbl_wordAt c xt (k1_off245 i) (k1_off245_inb i) _ (ptOf i) ⟨122, of_decide_eq_true rfl⟩ (off_word (i 0).val (i 0).isLt 122 (of_decide_eq_true rfl))) (chk_of (word_lt c xt hxs _ _)) (fun _ => rfl))); iexact HR122
  isplitr [HR121]; rotate_left; iapply (row_done c 121 (of_decide_eq_true rfl) _ _ _ (row_payload c xt fh (ptOf i) ⟨121, of_decide_eq_true rfl⟩ hxs _ (tbl_wordAt c xt (k1_off243 i) (k1_off243_inb i) _ (ptOf i) ⟨121, of_decide_eq_true rfl⟩ (off_word (i 0).val (i 0).isLt 121 (of_decide_eq_true rfl))) (chk_of (word_lt c xt hxs _ _)) (fun _ => rfl))); iexact HR121
  isplitr [HR120]; rotate_left; iapply (row_done c 120 (of_decide_eq_true rfl) _ _ _ (row_payload c xt fh (ptOf i) ⟨120, of_decide_eq_true rfl⟩ hxs _ (tbl_wordAt c xt (k1_off241 i) (k1_off241_inb i) _ (ptOf i) ⟨120, of_decide_eq_true rfl⟩ (off_word (i 0).val (i 0).isLt 120 (of_decide_eq_true rfl))) (chk_of (word_lt c xt hxs _ _)) (fun _ => rfl))); iexact HR120
  isplitr [HR119]; rotate_left; iapply (row_done c 119 (of_decide_eq_true rfl) _ _ _ (row_payload c xt fh (ptOf i) ⟨119, of_decide_eq_true rfl⟩ hxs _ (tbl_wordAt c xt (k1_off239 i) (k1_off239_inb i) _ (ptOf i) ⟨119, of_decide_eq_true rfl⟩ (off_word (i 0).val (i 0).isLt 119 (of_decide_eq_true rfl))) (chk_of (word_lt c xt hxs _ _)) (fun _ => rfl))); iexact HR119
  isplitr [HR118]; rotate_left; iapply (row_done c 118 (of_decide_eq_true rfl) _ _ _ (row_payload c xt fh (ptOf i) ⟨118, of_decide_eq_true rfl⟩ hxs _ (tbl_wordAt c xt (k1_off237 i) (k1_off237_inb i) _ (ptOf i) ⟨118, of_decide_eq_true rfl⟩ (off_word (i 0).val (i 0).isLt 118 (of_decide_eq_true rfl))) (chk_of (word_lt c xt hxs _ _)) (fun _ => rfl))); iexact HR118
  isplitr [HR117]; rotate_left; iapply (row_done c 117 (of_decide_eq_true rfl) _ _ _ (row_payload c xt fh (ptOf i) ⟨117, of_decide_eq_true rfl⟩ hxs _ (tbl_wordAt c xt (k1_off235 i) (k1_off235_inb i) _ (ptOf i) ⟨117, of_decide_eq_true rfl⟩ (off_word (i 0).val (i 0).isLt 117 (of_decide_eq_true rfl))) (chk_of (word_lt c xt hxs _ _)) (fun _ => rfl))); iexact HR117
  isplitr [HR116]; rotate_left; iapply (row_done c 116 (of_decide_eq_true rfl) _ _ _ (row_payload c xt fh (ptOf i) ⟨116, of_decide_eq_true rfl⟩ hxs _ (tbl_wordAt c xt (k1_off233 i) (k1_off233_inb i) _ (ptOf i) ⟨116, of_decide_eq_true rfl⟩ (off_word (i 0).val (i 0).isLt 116 (of_decide_eq_true rfl))) (chk_of (word_lt c xt hxs _ _)) (fun _ => rfl))); iexact HR116
  isplitr [HR115]; rotate_left; iapply (row_done c 115 (of_decide_eq_true rfl) _ _ _ (row_payload c xt fh (ptOf i) ⟨115, of_decide_eq_true rfl⟩ hxs _ (tbl_wordAt c xt (k1_off231 i) (k1_off231_inb i) _ (ptOf i) ⟨115, of_decide_eq_true rfl⟩ (off_word (i 0).val (i 0).isLt 115 (of_decide_eq_true rfl))) (chk_of (word_lt c xt hxs _ _)) (fun _ => rfl))); iexact HR115
  isplitr [HR114]; rotate_left; iapply (row_done c 114 (of_decide_eq_true rfl) _ _ _ (row_payload c xt fh (ptOf i) ⟨114, of_decide_eq_true rfl⟩ hxs _ (tbl_wordAt c xt (k1_off229 i) (k1_off229_inb i) _ (ptOf i) ⟨114, of_decide_eq_true rfl⟩ (off_word (i 0).val (i 0).isLt 114 (of_decide_eq_true rfl))) (chk_of (word_lt c xt hxs _ _)) (fun _ => rfl))); iexact HR114
  isplitr [HR113]; rotate_left; iapply (row_done c 113 (of_decide_eq_true rfl) _ _ _ (row_payload c xt fh (ptOf i) ⟨113, of_decide_eq_true rfl⟩ hxs _ (tbl_wordAt c xt (k1_off227 i) (k1_off227_inb i) _ (ptOf i) ⟨113, of_decide_eq_true rfl⟩ (off_word (i 0).val (i 0).isLt 113 (of_decide_eq_true rfl))) (chk_of (word_lt c xt hxs _ _)) (fun _ => rfl))); iexact HR113
  isplitr [HR112]; rotate_left; iapply (row_done c 112 (of_decide_eq_true rfl) _ _ _ (row_payload c xt fh (ptOf i) ⟨112, of_decide_eq_true rfl⟩ hxs _ (tbl_wordAt c xt (k1_off225 i) (k1_off225_inb i) _ (ptOf i) ⟨112, of_decide_eq_true rfl⟩ (off_word (i 0).val (i 0).isLt 112 (of_decide_eq_true rfl))) (chk_of (word_lt c xt hxs _ _)) (fun _ => rfl))); iexact HR112
  isplitr [HR111]; rotate_left; iapply (row_done c 111 (of_decide_eq_true rfl) _ _ _ (row_payload c xt fh (ptOf i) ⟨111, of_decide_eq_true rfl⟩ hxs _ (tbl_wordAt c xt (k1_off223 i) (k1_off223_inb i) _ (ptOf i) ⟨111, of_decide_eq_true rfl⟩ (off_word (i 0).val (i 0).isLt 111 (of_decide_eq_true rfl))) (chk_of (word_lt c xt hxs _ _)) (fun _ => rfl))); iexact HR111
  isplitr [HR110]; rotate_left; iapply (row_done c 110 (of_decide_eq_true rfl) _ _ _ (row_payload c xt fh (ptOf i) ⟨110, of_decide_eq_true rfl⟩ hxs _ (tbl_wordAt c xt (k1_off221 i) (k1_off221_inb i) _ (ptOf i) ⟨110, of_decide_eq_true rfl⟩ (off_word (i 0).val (i 0).isLt 110 (of_decide_eq_true rfl))) (chk_of (word_lt c xt hxs _ _)) (fun _ => rfl))); iexact HR110
  isplitr [HR109]; rotate_left; iapply (row_done c 109 (of_decide_eq_true rfl) _ _ _ (row_payload c xt fh (ptOf i) ⟨109, of_decide_eq_true rfl⟩ hxs _ (tbl_wordAt c xt (k1_off219 i) (k1_off219_inb i) _ (ptOf i) ⟨109, of_decide_eq_true rfl⟩ (off_word (i 0).val (i 0).isLt 109 (of_decide_eq_true rfl))) (chk_of (word_lt c xt hxs _ _)) (fun _ => rfl))); iexact HR109
  isplitr [HR108]; rotate_left; iapply (row_done c 108 (of_decide_eq_true rfl) _ _ _ (row_payload c xt fh (ptOf i) ⟨108, of_decide_eq_true rfl⟩ hxs _ (tbl_wordAt c xt (k1_off217 i) (k1_off217_inb i) _ (ptOf i) ⟨108, of_decide_eq_true rfl⟩ (off_word (i 0).val (i 0).isLt 108 (of_decide_eq_true rfl))) (chk_of (word_lt c xt hxs _ _)) (fun _ => rfl))); iexact HR108
  isplitr [HR107]; rotate_left; iapply (row_done c 107 (of_decide_eq_true rfl) _ _ _ (row_payload c xt fh (ptOf i) ⟨107, of_decide_eq_true rfl⟩ hxs _ (tbl_wordAt c xt (k1_off215 i) (k1_off215_inb i) _ (ptOf i) ⟨107, of_decide_eq_true rfl⟩ (off_word (i 0).val (i 0).isLt 107 (of_decide_eq_true rfl))) (chk_of (word_lt c xt hxs _ _)) (fun _ => rfl))); iexact HR107
  isplitr [HR106]; rotate_left; iapply (row_done c 106 (of_decide_eq_true rfl) _ _ _ (row_payload c xt fh (ptOf i) ⟨106, of_decide_eq_true rfl⟩ hxs _ (tbl_wordAt c xt (k1_off213 i) (k1_off213_inb i) _ (ptOf i) ⟨106, of_decide_eq_true rfl⟩ (off_word (i 0).val (i 0).isLt 106 (of_decide_eq_true rfl))) (chk_of (word_lt c xt hxs _ _)) (fun _ => rfl))); iexact HR106
  isplitr [HR105]; rotate_left; iapply (row_done c 105 (of_decide_eq_true rfl) _ _ _ (row_payload c xt fh (ptOf i) ⟨105, of_decide_eq_true rfl⟩ hxs _ (tbl_wordAt c xt (k1_off211 i) (k1_off211_inb i) _ (ptOf i) ⟨105, of_decide_eq_true rfl⟩ (off_word (i 0).val (i 0).isLt 105 (of_decide_eq_true rfl))) (chk_of (word_lt c xt hxs _ _)) (fun _ => rfl))); iexact HR105
  isplitr [HR104]; rotate_left; iapply (row_done c 104 (of_decide_eq_true rfl) _ _ _ (row_payload c xt fh (ptOf i) ⟨104, of_decide_eq_true rfl⟩ hxs _ (tbl_wordAt c xt (k1_off209 i) (k1_off209_inb i) _ (ptOf i) ⟨104, of_decide_eq_true rfl⟩ (off_word (i 0).val (i 0).isLt 104 (of_decide_eq_true rfl))) (chk_of (word_lt c xt hxs _ _)) (fun _ => rfl))); iexact HR104
  isplitr [HR103]; rotate_left; iapply (row_done c 103 (of_decide_eq_true rfl) _ _ _ (row_payload c xt fh (ptOf i) ⟨103, of_decide_eq_true rfl⟩ hxs _ (tbl_wordAt c xt (k1_off207 i) (k1_off207_inb i) _ (ptOf i) ⟨103, of_decide_eq_true rfl⟩ (off_word (i 0).val (i 0).isLt 103 (of_decide_eq_true rfl))) (chk_of (word_lt c xt hxs _ _)) (fun _ => rfl))); iexact HR103
  isplitr [HR102]; rotate_left; iapply (row_done c 102 (of_decide_eq_true rfl) _ _ _ (row_payload c xt fh (ptOf i) ⟨102, of_decide_eq_true rfl⟩ hxs _ (tbl_wordAt c xt (k1_off205 i) (k1_off205_inb i) _ (ptOf i) ⟨102, of_decide_eq_true rfl⟩ (off_word (i 0).val (i 0).isLt 102 (of_decide_eq_true rfl))) (chk_of (word_lt c xt hxs _ _)) (fun _ => rfl))); iexact HR102
  isplitr [HR101]; rotate_left; iapply (row_done c 101 (of_decide_eq_true rfl) _ _ _ (row_payload c xt fh (ptOf i) ⟨101, of_decide_eq_true rfl⟩ hxs _ (tbl_wordAt c xt (k1_off203 i) (k1_off203_inb i) _ (ptOf i) ⟨101, of_decide_eq_true rfl⟩ (off_word (i 0).val (i 0).isLt 101 (of_decide_eq_true rfl))) (chk_of (word_lt c xt hxs _ _)) (fun _ => rfl))); iexact HR101
  isplitr [HR100]; rotate_left; iapply (row_done c 100 (of_decide_eq_true rfl) _ _ _ (row_payload c xt fh (ptOf i) ⟨100, of_decide_eq_true rfl⟩ hxs _ (tbl_wordAt c xt (k1_off201 i) (k1_off201_inb i) _ (ptOf i) ⟨100, of_decide_eq_true rfl⟩ (off_word (i 0).val (i 0).isLt 100 (of_decide_eq_true rfl))) (chk_of (word_lt c xt hxs _ _)) (fun _ => rfl))); iexact HR100
  isplitr [HR99]; rotate_left; iapply (row_done c 99 (of_decide_eq_true rfl) _ _ _ (row_payload c xt fh (ptOf i) ⟨99, of_decide_eq_true rfl⟩ hxs _ (tbl_wordAt c xt (k1_off199 i) (k1_off199_inb i) _ (ptOf i) ⟨99, of_decide_eq_true rfl⟩ (off_word (i 0).val (i 0).isLt 99 (of_decide_eq_true rfl))) (chk_of (word_lt c xt hxs _ _)) (fun _ => rfl))); iexact HR99
  isplitr [HR98]; rotate_left; iapply (row_done c 98 (of_decide_eq_true rfl) _ _ _ (row_payload c xt fh (ptOf i) ⟨98, of_decide_eq_true rfl⟩ hxs _ (tbl_wordAt c xt (k1_off197 i) (k1_off197_inb i) _ (ptOf i) ⟨98, of_decide_eq_true rfl⟩ (off_word (i 0).val (i 0).isLt 98 (of_decide_eq_true rfl))) (chk_of (word_lt c xt hxs _ _)) (fun _ => rfl))); iexact HR98
  isplitr [HR97]; rotate_left; iapply (row_done c 97 (of_decide_eq_true rfl) _ _ _ (row_payload c xt fh (ptOf i) ⟨97, of_decide_eq_true rfl⟩ hxs _ (tbl_wordAt c xt (k1_off195 i) (k1_off195_inb i) _ (ptOf i) ⟨97, of_decide_eq_true rfl⟩ (off_word (i 0).val (i 0).isLt 97 (of_decide_eq_true rfl))) (chk_of (word_lt c xt hxs _ _)) (fun _ => rfl))); iexact HR97
  isplitr [HR96]; rotate_left; iapply (row_done c 96 (of_decide_eq_true rfl) _ _ _ (row_payload c xt fh (ptOf i) ⟨96, of_decide_eq_true rfl⟩ hxs _ (tbl_wordAt c xt (k1_off193 i) (k1_off193_inb i) _ (ptOf i) ⟨96, of_decide_eq_true rfl⟩ (off_word (i 0).val (i 0).isLt 96 (of_decide_eq_true rfl))) (chk_of (word_lt c xt hxs _ _)) (fun _ => rfl))); iexact HR96
  isplitr [HR95]; rotate_left; iapply (row_done c 95 (of_decide_eq_true rfl) _ _ _ (row_payload c xt fh (ptOf i) ⟨95, of_decide_eq_true rfl⟩ hxs _ (tbl_wordAt c xt (k1_off191 i) (k1_off191_inb i) _ (ptOf i) ⟨95, of_decide_eq_true rfl⟩ (off_word (i 0).val (i 0).isLt 95 (of_decide_eq_true rfl))) (chk_of (word_lt c xt hxs _ _)) (fun _ => rfl))); iexact HR95
  isplitr [HR94]; rotate_left; iapply (row_done c 94 (of_decide_eq_true rfl) _ _ _ (row_payload c xt fh (ptOf i) ⟨94, of_decide_eq_true rfl⟩ hxs _ (tbl_wordAt c xt (k1_off189 i) (k1_off189_inb i) _ (ptOf i) ⟨94, of_decide_eq_true rfl⟩ (off_word (i 0).val (i 0).isLt 94 (of_decide_eq_true rfl))) (chk_of (word_lt c xt hxs _ _)) (fun _ => rfl))); iexact HR94
  isplitr [HR93]; rotate_left; iapply (row_done c 93 (of_decide_eq_true rfl) _ _ _ (row_payload c xt fh (ptOf i) ⟨93, of_decide_eq_true rfl⟩ hxs _ (tbl_wordAt c xt (k1_off187 i) (k1_off187_inb i) _ (ptOf i) ⟨93, of_decide_eq_true rfl⟩ (off_word (i 0).val (i 0).isLt 93 (of_decide_eq_true rfl))) (chk_of (word_lt c xt hxs _ _)) (fun _ => rfl))); iexact HR93
  isplitr [HR92]; rotate_left; iapply (row_done c 92 (of_decide_eq_true rfl) _ _ _ (row_payload c xt fh (ptOf i) ⟨92, of_decide_eq_true rfl⟩ hxs _ (tbl_wordAt c xt (k1_off185 i) (k1_off185_inb i) _ (ptOf i) ⟨92, of_decide_eq_true rfl⟩ (off_word (i 0).val (i 0).isLt 92 (of_decide_eq_true rfl))) (chk_of (word_lt c xt hxs _ _)) (fun _ => rfl))); iexact HR92
  isplitr [HR91]; rotate_left; iapply (row_done c 91 (of_decide_eq_true rfl) _ _ _ (row_payload c xt fh (ptOf i) ⟨91, of_decide_eq_true rfl⟩ hxs _ (tbl_wordAt c xt (k1_off183 i) (k1_off183_inb i) _ (ptOf i) ⟨91, of_decide_eq_true rfl⟩ (off_word (i 0).val (i 0).isLt 91 (of_decide_eq_true rfl))) (chk_of (word_lt c xt hxs _ _)) (fun _ => rfl))); iexact HR91
  isplitr [HR90]; rotate_left; iapply (row_done c 90 (of_decide_eq_true rfl) _ _ _ (row_payload c xt fh (ptOf i) ⟨90, of_decide_eq_true rfl⟩ hxs _ (tbl_wordAt c xt (k1_off181 i) (k1_off181_inb i) _ (ptOf i) ⟨90, of_decide_eq_true rfl⟩ (off_word (i 0).val (i 0).isLt 90 (of_decide_eq_true rfl))) (chk_of (word_lt c xt hxs _ _)) (fun _ => rfl))); iexact HR90
  isplitr [HR89]; rotate_left; iapply (row_done c 89 (of_decide_eq_true rfl) _ _ _ (row_payload c xt fh (ptOf i) ⟨89, of_decide_eq_true rfl⟩ hxs _ (tbl_wordAt c xt (k1_off179 i) (k1_off179_inb i) _ (ptOf i) ⟨89, of_decide_eq_true rfl⟩ (off_word (i 0).val (i 0).isLt 89 (of_decide_eq_true rfl))) (chk_of (word_lt c xt hxs _ _)) (fun _ => rfl))); iexact HR89
  isplitr [HR88]; rotate_left; iapply (row_done c 88 (of_decide_eq_true rfl) _ _ _ (row_payload c xt fh (ptOf i) ⟨88, of_decide_eq_true rfl⟩ hxs _ (tbl_wordAt c xt (k1_off177 i) (k1_off177_inb i) _ (ptOf i) ⟨88, of_decide_eq_true rfl⟩ (off_word (i 0).val (i 0).isLt 88 (of_decide_eq_true rfl))) (chk_of (word_lt c xt hxs _ _)) (fun _ => rfl))); iexact HR88
  isplitr [HR87]; rotate_left; iapply (row_done c 87 (of_decide_eq_true rfl) _ _ _ (row_payload c xt fh (ptOf i) ⟨87, of_decide_eq_true rfl⟩ hxs _ (tbl_wordAt c xt (k1_off175 i) (k1_off175_inb i) _ (ptOf i) ⟨87, of_decide_eq_true rfl⟩ (off_word (i 0).val (i 0).isLt 87 (of_decide_eq_true rfl))) (chk_of (word_lt c xt hxs _ _)) (fun _ => rfl))); iexact HR87
  isplitr [HR86]; rotate_left; iapply (row_done c 86 (of_decide_eq_true rfl) _ _ _ (row_payload c xt fh (ptOf i) ⟨86, of_decide_eq_true rfl⟩ hxs _ (tbl_wordAt c xt (k1_off173 i) (k1_off173_inb i) _ (ptOf i) ⟨86, of_decide_eq_true rfl⟩ (off_word (i 0).val (i 0).isLt 86 (of_decide_eq_true rfl))) (chk_of (word_lt c xt hxs _ _)) (fun _ => rfl))); iexact HR86
  isplitr [HR85]; rotate_left; iapply (row_done c 85 (of_decide_eq_true rfl) _ _ _ (row_payload c xt fh (ptOf i) ⟨85, of_decide_eq_true rfl⟩ hxs _ (tbl_wordAt c xt (k1_off171 i) (k1_off171_inb i) _ (ptOf i) ⟨85, of_decide_eq_true rfl⟩ (off_word (i 0).val (i 0).isLt 85 (of_decide_eq_true rfl))) (chk_of (word_lt c xt hxs _ _)) (fun _ => rfl))); iexact HR85
  isplitr [HR84]; rotate_left; iapply (row_done c 84 (of_decide_eq_true rfl) _ _ _ (row_payload c xt fh (ptOf i) ⟨84, of_decide_eq_true rfl⟩ hxs _ (tbl_wordAt c xt (k1_off169 i) (k1_off169_inb i) _ (ptOf i) ⟨84, of_decide_eq_true rfl⟩ (off_word (i 0).val (i 0).isLt 84 (of_decide_eq_true rfl))) (chk_of (word_lt c xt hxs _ _)) (fun _ => rfl))); iexact HR84
  isplitr [HR83]; rotate_left; iapply (row_done c 83 (of_decide_eq_true rfl) _ _ _ (row_payload c xt fh (ptOf i) ⟨83, of_decide_eq_true rfl⟩ hxs _ (tbl_wordAt c xt (k1_off167 i) (k1_off167_inb i) _ (ptOf i) ⟨83, of_decide_eq_true rfl⟩ (off_word (i 0).val (i 0).isLt 83 (of_decide_eq_true rfl))) (chk_of (word_lt c xt hxs _ _)) (fun _ => rfl))); iexact HR83
  isplitr [HR82]; rotate_left; iapply (row_done c 82 (of_decide_eq_true rfl) _ _ _ (row_payload c xt fh (ptOf i) ⟨82, of_decide_eq_true rfl⟩ hxs _ (tbl_wordAt c xt (k1_off165 i) (k1_off165_inb i) _ (ptOf i) ⟨82, of_decide_eq_true rfl⟩ (off_word (i 0).val (i 0).isLt 82 (of_decide_eq_true rfl))) (chk_of (word_lt c xt hxs _ _)) (fun _ => rfl))); iexact HR82
  isplitr [HR81]; rotate_left; iapply (row_done c 81 (of_decide_eq_true rfl) _ _ _ (row_payload c xt fh (ptOf i) ⟨81, of_decide_eq_true rfl⟩ hxs _ (tbl_wordAt c xt (k1_off163 i) (k1_off163_inb i) _ (ptOf i) ⟨81, of_decide_eq_true rfl⟩ (off_word (i 0).val (i 0).isLt 81 (of_decide_eq_true rfl))) (chk_of (word_lt c xt hxs _ _)) (fun _ => rfl))); iexact HR81
  isplitr [HR80]; rotate_left; iapply (row_done c 80 (of_decide_eq_true rfl) _ _ _ (row_payload c xt fh (ptOf i) ⟨80, of_decide_eq_true rfl⟩ hxs _ (tbl_wordAt c xt (k1_off161 i) (k1_off161_inb i) _ (ptOf i) ⟨80, of_decide_eq_true rfl⟩ (off_word (i 0).val (i 0).isLt 80 (of_decide_eq_true rfl))) (chk_of (word_lt c xt hxs _ _)) (fun _ => rfl))); iexact HR80
  isplitr [HR79]; rotate_left; iapply (row_done c 79 (of_decide_eq_true rfl) _ _ _ (row_payload c xt fh (ptOf i) ⟨79, of_decide_eq_true rfl⟩ hxs _ (tbl_wordAt c xt (k1_off159 i) (k1_off159_inb i) _ (ptOf i) ⟨79, of_decide_eq_true rfl⟩ (off_word (i 0).val (i 0).isLt 79 (of_decide_eq_true rfl))) (chk_of (word_lt c xt hxs _ _)) (fun _ => rfl))); iexact HR79
  isplitr [HR78]; rotate_left; iapply (row_done c 78 (of_decide_eq_true rfl) _ _ _ (row_payload c xt fh (ptOf i) ⟨78, of_decide_eq_true rfl⟩ hxs _ (tbl_wordAt c xt (k1_off157 i) (k1_off157_inb i) _ (ptOf i) ⟨78, of_decide_eq_true rfl⟩ (off_word (i 0).val (i 0).isLt 78 (of_decide_eq_true rfl))) (chk_of (word_lt c xt hxs _ _)) (fun _ => rfl))); iexact HR78
  isplitr [HR77]; rotate_left; iapply (row_done c 77 (of_decide_eq_true rfl) _ _ _ (row_payload c xt fh (ptOf i) ⟨77, of_decide_eq_true rfl⟩ hxs _ (tbl_wordAt c xt (k1_off155 i) (k1_off155_inb i) _ (ptOf i) ⟨77, of_decide_eq_true rfl⟩ (off_word (i 0).val (i 0).isLt 77 (of_decide_eq_true rfl))) (chk_of (word_lt c xt hxs _ _)) (fun _ => rfl))); iexact HR77
  isplitr [HR76]; rotate_left; iapply (row_done c 76 (of_decide_eq_true rfl) _ _ _ (row_payload c xt fh (ptOf i) ⟨76, of_decide_eq_true rfl⟩ hxs _ (tbl_wordAt c xt (k1_off153 i) (k1_off153_inb i) _ (ptOf i) ⟨76, of_decide_eq_true rfl⟩ (off_word (i 0).val (i 0).isLt 76 (of_decide_eq_true rfl))) (chk_of (word_lt c xt hxs _ _)) (fun _ => rfl))); iexact HR76
  isplitr [HR75]; rotate_left; iapply (row_done c 75 (of_decide_eq_true rfl) _ _ _ (row_payload c xt fh (ptOf i) ⟨75, of_decide_eq_true rfl⟩ hxs _ (tbl_wordAt c xt (k1_off151 i) (k1_off151_inb i) _ (ptOf i) ⟨75, of_decide_eq_true rfl⟩ (off_word (i 0).val (i 0).isLt 75 (of_decide_eq_true rfl))) (chk_of (word_lt c xt hxs _ _)) (fun _ => rfl))); iexact HR75
  isplitr [HR74]; rotate_left; iapply (row_done c 74 (of_decide_eq_true rfl) _ _ _ (row_payload c xt fh (ptOf i) ⟨74, of_decide_eq_true rfl⟩ hxs _ (tbl_wordAt c xt (k1_off149 i) (k1_off149_inb i) _ (ptOf i) ⟨74, of_decide_eq_true rfl⟩ (off_word (i 0).val (i 0).isLt 74 (of_decide_eq_true rfl))) (chk_of (word_lt c xt hxs _ _)) (fun _ => rfl))); iexact HR74
  isplitr [HR73]; rotate_left; iapply (row_done c 73 (of_decide_eq_true rfl) _ _ _ (row_payload c xt fh (ptOf i) ⟨73, of_decide_eq_true rfl⟩ hxs _ (tbl_wordAt c xt (k1_off147 i) (k1_off147_inb i) _ (ptOf i) ⟨73, of_decide_eq_true rfl⟩ (off_word (i 0).val (i 0).isLt 73 (of_decide_eq_true rfl))) (chk_of (word_lt c xt hxs _ _)) (fun _ => rfl))); iexact HR73
  isplitr [HR72]; rotate_left; iapply (row_done c 72 (of_decide_eq_true rfl) _ _ _ (row_payload c xt fh (ptOf i) ⟨72, of_decide_eq_true rfl⟩ hxs _ (tbl_wordAt c xt (k1_off145 i) (k1_off145_inb i) _ (ptOf i) ⟨72, of_decide_eq_true rfl⟩ (off_word (i 0).val (i 0).isLt 72 (of_decide_eq_true rfl))) (chk_of (word_lt c xt hxs _ _)) (fun _ => rfl))); iexact HR72
  isplitr [HR71]; rotate_left; iapply (row_done c 71 (of_decide_eq_true rfl) _ _ _ (row_payload c xt fh (ptOf i) ⟨71, of_decide_eq_true rfl⟩ hxs _ (tbl_wordAt c xt (k1_off143 i) (k1_off143_inb i) _ (ptOf i) ⟨71, of_decide_eq_true rfl⟩ (off_word (i 0).val (i 0).isLt 71 (of_decide_eq_true rfl))) (chk_of (word_lt c xt hxs _ _)) (fun _ => rfl))); iexact HR71
  isplitr [HR70]; rotate_left; iapply (row_done c 70 (of_decide_eq_true rfl) _ _ _ (row_payload c xt fh (ptOf i) ⟨70, of_decide_eq_true rfl⟩ hxs _ (tbl_wordAt c xt (k1_off141 i) (k1_off141_inb i) _ (ptOf i) ⟨70, of_decide_eq_true rfl⟩ (off_word (i 0).val (i 0).isLt 70 (of_decide_eq_true rfl))) (chk_of (word_lt c xt hxs _ _)) (fun _ => rfl))); iexact HR70
  isplitr [HR69]; rotate_left; iapply (row_done c 69 (of_decide_eq_true rfl) _ _ _ (row_payload c xt fh (ptOf i) ⟨69, of_decide_eq_true rfl⟩ hxs _ (tbl_wordAt c xt (k1_off139 i) (k1_off139_inb i) _ (ptOf i) ⟨69, of_decide_eq_true rfl⟩ (off_word (i 0).val (i 0).isLt 69 (of_decide_eq_true rfl))) (chk_of (word_lt c xt hxs _ _)) (fun _ => rfl))); iexact HR69
  isplitr [HR68]; rotate_left; iapply (row_done c 68 (of_decide_eq_true rfl) _ _ _ (row_payload c xt fh (ptOf i) ⟨68, of_decide_eq_true rfl⟩ hxs _ (tbl_wordAt c xt (k1_off137 i) (k1_off137_inb i) _ (ptOf i) ⟨68, of_decide_eq_true rfl⟩ (off_word (i 0).val (i 0).isLt 68 (of_decide_eq_true rfl))) (chk_of (word_lt c xt hxs _ _)) (fun _ => rfl))); iexact HR68
  isplitr [HR67]; rotate_left; iapply (row_done c 67 (of_decide_eq_true rfl) _ _ _ (row_payload c xt fh (ptOf i) ⟨67, of_decide_eq_true rfl⟩ hxs _ (tbl_wordAt c xt (k1_off135 i) (k1_off135_inb i) _ (ptOf i) ⟨67, of_decide_eq_true rfl⟩ (off_word (i 0).val (i 0).isLt 67 (of_decide_eq_true rfl))) (chk_of (word_lt c xt hxs _ _)) (fun _ => rfl))); iexact HR67
  isplitr [HR66]; rotate_left; iapply (row_done c 66 (of_decide_eq_true rfl) _ _ _ (row_payload c xt fh (ptOf i) ⟨66, of_decide_eq_true rfl⟩ hxs _ (tbl_wordAt c xt (k1_off133 i) (k1_off133_inb i) _ (ptOf i) ⟨66, of_decide_eq_true rfl⟩ (off_word (i 0).val (i 0).isLt 66 (of_decide_eq_true rfl))) (chk_of (word_lt c xt hxs _ _)) (fun _ => rfl))); iexact HR66
  isplitr [HR65]; rotate_left; iapply (row_done c 65 (of_decide_eq_true rfl) _ _ _ (row_payload c xt fh (ptOf i) ⟨65, of_decide_eq_true rfl⟩ hxs _ (tbl_wordAt c xt (k1_off131 i) (k1_off131_inb i) _ (ptOf i) ⟨65, of_decide_eq_true rfl⟩ (off_word (i 0).val (i 0).isLt 65 (of_decide_eq_true rfl))) (chk_of (word_lt c xt hxs _ _)) (fun _ => rfl))); iexact HR65
  isplitr [HR64]; rotate_left; iapply (row_done c 64 (of_decide_eq_true rfl) _ _ _ (row_payload c xt fh (ptOf i) ⟨64, of_decide_eq_true rfl⟩ hxs _ (tbl_wordAt c xt (k1_off129 i) (k1_off129_inb i) _ (ptOf i) ⟨64, of_decide_eq_true rfl⟩ (off_word (i 0).val (i 0).isLt 64 (of_decide_eq_true rfl))) (chk_of (word_lt c xt hxs _ _)) (fun _ => rfl))); iexact HR64
  isplitr [HR63]; rotate_left; iapply (row_done c 63 (of_decide_eq_true rfl) _ _ _ (row_payload c xt fh (ptOf i) ⟨63, of_decide_eq_true rfl⟩ hxs _ (tbl_wordAt c xt (k1_off127 i) (k1_off127_inb i) _ (ptOf i) ⟨63, of_decide_eq_true rfl⟩ (off_word (i 0).val (i 0).isLt 63 (of_decide_eq_true rfl))) (chk_of (word_lt c xt hxs _ _)) (fun _ => rfl))); iexact HR63
  isplitr [HR62]; rotate_left; iapply (row_done c 62 (of_decide_eq_true rfl) _ _ _ (row_payload c xt fh (ptOf i) ⟨62, of_decide_eq_true rfl⟩ hxs _ (tbl_wordAt c xt (k1_off125 i) (k1_off125_inb i) _ (ptOf i) ⟨62, of_decide_eq_true rfl⟩ (off_word (i 0).val (i 0).isLt 62 (of_decide_eq_true rfl))) (chk_of (word_lt c xt hxs _ _)) (fun _ => rfl))); iexact HR62
  isplitr [HR61]; rotate_left; iapply (row_done c 61 (of_decide_eq_true rfl) _ _ _ (row_payload c xt fh (ptOf i) ⟨61, of_decide_eq_true rfl⟩ hxs _ (tbl_wordAt c xt (k1_off123 i) (k1_off123_inb i) _ (ptOf i) ⟨61, of_decide_eq_true rfl⟩ (off_word (i 0).val (i 0).isLt 61 (of_decide_eq_true rfl))) (chk_of (word_lt c xt hxs _ _)) (fun _ => rfl))); iexact HR61
  isplitr [HR60]; rotate_left; iapply (row_done c 60 (of_decide_eq_true rfl) _ _ _ (row_payload c xt fh (ptOf i) ⟨60, of_decide_eq_true rfl⟩ hxs _ (tbl_wordAt c xt (k1_off121 i) (k1_off121_inb i) _ (ptOf i) ⟨60, of_decide_eq_true rfl⟩ (off_word (i 0).val (i 0).isLt 60 (of_decide_eq_true rfl))) (chk_of (word_lt c xt hxs _ _)) (fun _ => rfl))); iexact HR60
  isplitr [HR59]; rotate_left; iapply (row_done c 59 (of_decide_eq_true rfl) _ _ _ (row_payload c xt fh (ptOf i) ⟨59, of_decide_eq_true rfl⟩ hxs _ (tbl_wordAt c xt (k1_off119 i) (k1_off119_inb i) _ (ptOf i) ⟨59, of_decide_eq_true rfl⟩ (off_word (i 0).val (i 0).isLt 59 (of_decide_eq_true rfl))) (chk_of (word_lt c xt hxs _ _)) (fun _ => rfl))); iexact HR59
  isplitr [HR58]; rotate_left; iapply (row_done c 58 (of_decide_eq_true rfl) _ _ _ (row_payload c xt fh (ptOf i) ⟨58, of_decide_eq_true rfl⟩ hxs _ (tbl_wordAt c xt (k1_off117 i) (k1_off117_inb i) _ (ptOf i) ⟨58, of_decide_eq_true rfl⟩ (off_word (i 0).val (i 0).isLt 58 (of_decide_eq_true rfl))) (chk_of (word_lt c xt hxs _ _)) (fun _ => rfl))); iexact HR58
  isplitr [HR57]; rotate_left; iapply (row_done c 57 (of_decide_eq_true rfl) _ _ _ (row_payload c xt fh (ptOf i) ⟨57, of_decide_eq_true rfl⟩ hxs _ (tbl_wordAt c xt (k1_off115 i) (k1_off115_inb i) _ (ptOf i) ⟨57, of_decide_eq_true rfl⟩ (off_word (i 0).val (i 0).isLt 57 (of_decide_eq_true rfl))) (chk_of (word_lt c xt hxs _ _)) (fun _ => rfl))); iexact HR57
  isplitr [HR56]; rotate_left; iapply (row_done c 56 (of_decide_eq_true rfl) _ _ _ (row_payload c xt fh (ptOf i) ⟨56, of_decide_eq_true rfl⟩ hxs _ (tbl_wordAt c xt (k1_off113 i) (k1_off113_inb i) _ (ptOf i) ⟨56, of_decide_eq_true rfl⟩ (off_word (i 0).val (i 0).isLt 56 (of_decide_eq_true rfl))) (chk_of (word_lt c xt hxs _ _)) (fun _ => rfl))); iexact HR56
  isplitr [HR55]; rotate_left; iapply (row_done c 55 (of_decide_eq_true rfl) _ _ _ (row_payload c xt fh (ptOf i) ⟨55, of_decide_eq_true rfl⟩ hxs _ (tbl_wordAt c xt (k1_off111 i) (k1_off111_inb i) _ (ptOf i) ⟨55, of_decide_eq_true rfl⟩ (off_word (i 0).val (i 0).isLt 55 (of_decide_eq_true rfl))) (chk_of (word_lt c xt hxs _ _)) (fun _ => rfl))); iexact HR55
  isplitr [HR54]; rotate_left; iapply (row_done c 54 (of_decide_eq_true rfl) _ _ _ (row_payload c xt fh (ptOf i) ⟨54, of_decide_eq_true rfl⟩ hxs _ (tbl_wordAt c xt (k1_off109 i) (k1_off109_inb i) _ (ptOf i) ⟨54, of_decide_eq_true rfl⟩ (off_word (i 0).val (i 0).isLt 54 (of_decide_eq_true rfl))) (chk_of (word_lt c xt hxs _ _)) (fun _ => rfl))); iexact HR54
  isplitr [HR53]; rotate_left; iapply (row_done c 53 (of_decide_eq_true rfl) _ _ _ (row_payload c xt fh (ptOf i) ⟨53, of_decide_eq_true rfl⟩ hxs _ (tbl_wordAt c xt (k1_off107 i) (k1_off107_inb i) _ (ptOf i) ⟨53, of_decide_eq_true rfl⟩ (off_word (i 0).val (i 0).isLt 53 (of_decide_eq_true rfl))) (chk_of (word_lt c xt hxs _ _)) (fun _ => rfl))); iexact HR53
  isplitr [HR52]; rotate_left; iapply (row_done c 52 (of_decide_eq_true rfl) _ _ _ (row_payload c xt fh (ptOf i) ⟨52, of_decide_eq_true rfl⟩ hxs _ (tbl_wordAt c xt (k1_off105 i) (k1_off105_inb i) _ (ptOf i) ⟨52, of_decide_eq_true rfl⟩ (off_word (i 0).val (i 0).isLt 52 (of_decide_eq_true rfl))) (chk_of (word_lt c xt hxs _ _)) (fun _ => rfl))); iexact HR52
  isplitr [HR51]; rotate_left; iapply (row_done c 51 (of_decide_eq_true rfl) _ _ _ (row_payload c xt fh (ptOf i) ⟨51, of_decide_eq_true rfl⟩ hxs _ (tbl_wordAt c xt (k1_off103 i) (k1_off103_inb i) _ (ptOf i) ⟨51, of_decide_eq_true rfl⟩ (off_word (i 0).val (i 0).isLt 51 (of_decide_eq_true rfl))) (chk_of (word_lt c xt hxs _ _)) (fun _ => rfl))); iexact HR51
  isplitr [HR50]; rotate_left; iapply (row_done c 50 (of_decide_eq_true rfl) _ _ _ (row_payload c xt fh (ptOf i) ⟨50, of_decide_eq_true rfl⟩ hxs _ (tbl_wordAt c xt (k1_off101 i) (k1_off101_inb i) _ (ptOf i) ⟨50, of_decide_eq_true rfl⟩ (off_word (i 0).val (i 0).isLt 50 (of_decide_eq_true rfl))) (chk_of (word_lt c xt hxs _ _)) (fun _ => rfl))); iexact HR50
  isplitr [HR49]; rotate_left; iapply (row_done c 49 (of_decide_eq_true rfl) _ _ _ (row_payload c xt fh (ptOf i) ⟨49, of_decide_eq_true rfl⟩ hxs _ (tbl_wordAt c xt (k1_off99 i) (k1_off99_inb i) _ (ptOf i) ⟨49, of_decide_eq_true rfl⟩ (off_word (i 0).val (i 0).isLt 49 (of_decide_eq_true rfl))) (chk_of (word_lt c xt hxs _ _)) (fun _ => rfl))); iexact HR49
  isplitr [HR48]; rotate_left; iapply (row_done c 48 (of_decide_eq_true rfl) _ _ _ (row_payload c xt fh (ptOf i) ⟨48, of_decide_eq_true rfl⟩ hxs _ (tbl_wordAt c xt (k1_off97 i) (k1_off97_inb i) _ (ptOf i) ⟨48, of_decide_eq_true rfl⟩ (off_word (i 0).val (i 0).isLt 48 (of_decide_eq_true rfl))) (chk_of (word_lt c xt hxs _ _)) (fun _ => rfl))); iexact HR48
  isplitr [HR47]; rotate_left; iapply (row_done c 47 (of_decide_eq_true rfl) _ _ _ (row_payload c xt fh (ptOf i) ⟨47, of_decide_eq_true rfl⟩ hxs _ (tbl_wordAt c xt (k1_off95 i) (k1_off95_inb i) _ (ptOf i) ⟨47, of_decide_eq_true rfl⟩ (off_word (i 0).val (i 0).isLt 47 (of_decide_eq_true rfl))) (chk_of (word_lt c xt hxs _ _)) (fun _ => rfl))); iexact HR47
  isplitr [HR46]; rotate_left; iapply (row_done c 46 (of_decide_eq_true rfl) _ _ _ (row_payload c xt fh (ptOf i) ⟨46, of_decide_eq_true rfl⟩ hxs _ (tbl_wordAt c xt (k1_off93 i) (k1_off93_inb i) _ (ptOf i) ⟨46, of_decide_eq_true rfl⟩ (off_word (i 0).val (i 0).isLt 46 (of_decide_eq_true rfl))) (chk_of (word_lt c xt hxs _ _)) (fun _ => rfl))); iexact HR46
  isplitr [HR45]; rotate_left; iapply (row_done c 45 (of_decide_eq_true rfl) _ _ _ (row_payload c xt fh (ptOf i) ⟨45, of_decide_eq_true rfl⟩ hxs _ (tbl_wordAt c xt (k1_off91 i) (k1_off91_inb i) _ (ptOf i) ⟨45, of_decide_eq_true rfl⟩ (off_word (i 0).val (i 0).isLt 45 (of_decide_eq_true rfl))) (chk_of (word_lt c xt hxs _ _)) (fun _ => rfl))); iexact HR45
  isplitr [HR44]; rotate_left; iapply (row_done c 44 (of_decide_eq_true rfl) _ _ _ (row_payload c xt fh (ptOf i) ⟨44, of_decide_eq_true rfl⟩ hxs _ (tbl_wordAt c xt (k1_off89 i) (k1_off89_inb i) _ (ptOf i) ⟨44, of_decide_eq_true rfl⟩ (off_word (i 0).val (i 0).isLt 44 (of_decide_eq_true rfl))) (chk_of (word_lt c xt hxs _ _)) (fun _ => rfl))); iexact HR44
  isplitr [HR43]; rotate_left; iapply (row_done c 43 (of_decide_eq_true rfl) _ _ _ (row_payload c xt fh (ptOf i) ⟨43, of_decide_eq_true rfl⟩ hxs _ (tbl_wordAt c xt (k1_off87 i) (k1_off87_inb i) _ (ptOf i) ⟨43, of_decide_eq_true rfl⟩ (off_word (i 0).val (i 0).isLt 43 (of_decide_eq_true rfl))) (chk_of (word_lt c xt hxs _ _)) (fun _ => rfl))); iexact HR43
  isplitr [HR42]; rotate_left; iapply (row_done c 42 (of_decide_eq_true rfl) _ _ _ (row_payload c xt fh (ptOf i) ⟨42, of_decide_eq_true rfl⟩ hxs _ (tbl_wordAt c xt (k1_off85 i) (k1_off85_inb i) _ (ptOf i) ⟨42, of_decide_eq_true rfl⟩ (off_word (i 0).val (i 0).isLt 42 (of_decide_eq_true rfl))) (chk_of (word_lt c xt hxs _ _)) (fun _ => rfl))); iexact HR42
  isplitr [HR41]; rotate_left; iapply (row_done c 41 (of_decide_eq_true rfl) _ _ _ (row_payload c xt fh (ptOf i) ⟨41, of_decide_eq_true rfl⟩ hxs _ (tbl_wordAt c xt (k1_off83 i) (k1_off83_inb i) _ (ptOf i) ⟨41, of_decide_eq_true rfl⟩ (off_word (i 0).val (i 0).isLt 41 (of_decide_eq_true rfl))) (chk_of (word_lt c xt hxs _ _)) (fun _ => rfl))); iexact HR41
  isplitr [HR40]; rotate_left; iapply (row_done c 40 (of_decide_eq_true rfl) _ _ _ (row_payload c xt fh (ptOf i) ⟨40, of_decide_eq_true rfl⟩ hxs _ (tbl_wordAt c xt (k1_off81 i) (k1_off81_inb i) _ (ptOf i) ⟨40, of_decide_eq_true rfl⟩ (off_word (i 0).val (i 0).isLt 40 (of_decide_eq_true rfl))) (chk_of (word_lt c xt hxs _ _)) (fun _ => rfl))); iexact HR40
  isplitr [HR39]; rotate_left; iapply (row_done c 39 (of_decide_eq_true rfl) _ _ _ (row_payload c xt fh (ptOf i) ⟨39, of_decide_eq_true rfl⟩ hxs _ (tbl_wordAt c xt (k1_off79 i) (k1_off79_inb i) _ (ptOf i) ⟨39, of_decide_eq_true rfl⟩ (off_word (i 0).val (i 0).isLt 39 (of_decide_eq_true rfl))) (chk_of (word_lt c xt hxs _ _)) (fun _ => rfl))); iexact HR39
  isplitr [HR38]; rotate_left; iapply (row_done c 38 (of_decide_eq_true rfl) _ _ _ (row_payload c xt fh (ptOf i) ⟨38, of_decide_eq_true rfl⟩ hxs _ (tbl_wordAt c xt (k1_off77 i) (k1_off77_inb i) _ (ptOf i) ⟨38, of_decide_eq_true rfl⟩ (off_word (i 0).val (i 0).isLt 38 (of_decide_eq_true rfl))) (chk_of (word_lt c xt hxs _ _)) (fun _ => rfl))); iexact HR38
  isplitr [HR37]; rotate_left; iapply (row_done c 37 (of_decide_eq_true rfl) _ _ _ (row_payload c xt fh (ptOf i) ⟨37, of_decide_eq_true rfl⟩ hxs _ (tbl_wordAt c xt (k1_off75 i) (k1_off75_inb i) _ (ptOf i) ⟨37, of_decide_eq_true rfl⟩ (off_word (i 0).val (i 0).isLt 37 (of_decide_eq_true rfl))) (chk_of (word_lt c xt hxs _ _)) (fun _ => rfl))); iexact HR37
  isplitr [HR36]; rotate_left; iapply (row_done c 36 (of_decide_eq_true rfl) _ _ _ (row_payload c xt fh (ptOf i) ⟨36, of_decide_eq_true rfl⟩ hxs _ (tbl_wordAt c xt (k1_off73 i) (k1_off73_inb i) _ (ptOf i) ⟨36, of_decide_eq_true rfl⟩ (off_word (i 0).val (i 0).isLt 36 (of_decide_eq_true rfl))) (chk_of (word_lt c xt hxs _ _)) (fun _ => rfl))); iexact HR36
  isplitr [HR35]; rotate_left; iapply (row_done c 35 (of_decide_eq_true rfl) _ _ _ (row_payload c xt fh (ptOf i) ⟨35, of_decide_eq_true rfl⟩ hxs _ (tbl_wordAt c xt (k1_off71 i) (k1_off71_inb i) _ (ptOf i) ⟨35, of_decide_eq_true rfl⟩ (off_word (i 0).val (i 0).isLt 35 (of_decide_eq_true rfl))) (chk_of (word_lt c xt hxs _ _)) (fun _ => rfl))); iexact HR35
  isplitr [HR34]; rotate_left; iapply (row_done c 34 (of_decide_eq_true rfl) _ _ _ (row_payload c xt fh (ptOf i) ⟨34, of_decide_eq_true rfl⟩ hxs _ (tbl_wordAt c xt (k1_off69 i) (k1_off69_inb i) _ (ptOf i) ⟨34, of_decide_eq_true rfl⟩ (off_word (i 0).val (i 0).isLt 34 (of_decide_eq_true rfl))) (chk_of (word_lt c xt hxs _ _)) (fun _ => rfl))); iexact HR34
  isplitr [HR33]; rotate_left; iapply (row_done c 33 (of_decide_eq_true rfl) _ _ _ (row_payload c xt fh (ptOf i) ⟨33, of_decide_eq_true rfl⟩ hxs _ (tbl_wordAt c xt (k1_off67 i) (k1_off67_inb i) _ (ptOf i) ⟨33, of_decide_eq_true rfl⟩ (off_word (i 0).val (i 0).isLt 33 (of_decide_eq_true rfl))) (chk_of (word_lt c xt hxs _ _)) (fun _ => rfl))); iexact HR33
  isplitr [HR32]; rotate_left; iapply (row_done c 32 (of_decide_eq_true rfl) _ _ _ (row_payload c xt fh (ptOf i) ⟨32, of_decide_eq_true rfl⟩ hxs _ (tbl_wordAt c xt (k1_off65 i) (k1_off65_inb i) _ (ptOf i) ⟨32, of_decide_eq_true rfl⟩ (off_word (i 0).val (i 0).isLt 32 (of_decide_eq_true rfl))) (chk_of (word_lt c xt hxs _ _)) (fun _ => rfl))); iexact HR32
  isplitr [HR31]; rotate_left; iapply (row_done c 31 (of_decide_eq_true rfl) _ _ _ (row_payload c xt fh (ptOf i) ⟨31, of_decide_eq_true rfl⟩ hxs _ (tbl_wordAt c xt (k1_off63 i) (k1_off63_inb i) _ (ptOf i) ⟨31, of_decide_eq_true rfl⟩ (off_word (i 0).val (i 0).isLt 31 (of_decide_eq_true rfl))) (chk_of (word_lt c xt hxs _ _)) (fun _ => rfl))); iexact HR31
  isplitr [HR30]; rotate_left; iapply (row_done c 30 (of_decide_eq_true rfl) _ _ _ (row_payload c xt fh (ptOf i) ⟨30, of_decide_eq_true rfl⟩ hxs _ (tbl_wordAt c xt (k1_off61 i) (k1_off61_inb i) _ (ptOf i) ⟨30, of_decide_eq_true rfl⟩ (off_word (i 0).val (i 0).isLt 30 (of_decide_eq_true rfl))) (chk_of (word_lt c xt hxs _ _)) (fun _ => rfl))); iexact HR30
  isplitr [HR29]; rotate_left; iapply (row_done c 29 (of_decide_eq_true rfl) _ _ _ (row_payload c xt fh (ptOf i) ⟨29, of_decide_eq_true rfl⟩ hxs _ (tbl_wordAt c xt (k1_off59 i) (k1_off59_inb i) _ (ptOf i) ⟨29, of_decide_eq_true rfl⟩ (off_word (i 0).val (i 0).isLt 29 (of_decide_eq_true rfl))) (chk_of (word_lt c xt hxs _ _)) (fun _ => rfl))); iexact HR29
  isplitr [HR28]; rotate_left; iapply (row_done c 28 (of_decide_eq_true rfl) _ _ _ (row_payload c xt fh (ptOf i) ⟨28, of_decide_eq_true rfl⟩ hxs _ (tbl_wordAt c xt (k1_off57 i) (k1_off57_inb i) _ (ptOf i) ⟨28, of_decide_eq_true rfl⟩ (off_word (i 0).val (i 0).isLt 28 (of_decide_eq_true rfl))) (chk_of (word_lt c xt hxs _ _)) (fun _ => rfl))); iexact HR28
  isplitr [HR27]; rotate_left; iapply (row_done c 27 (of_decide_eq_true rfl) _ _ _ (row_payload c xt fh (ptOf i) ⟨27, of_decide_eq_true rfl⟩ hxs _ (tbl_wordAt c xt (k1_off55 i) (k1_off55_inb i) _ (ptOf i) ⟨27, of_decide_eq_true rfl⟩ (off_word (i 0).val (i 0).isLt 27 (of_decide_eq_true rfl))) (chk_of (word_lt c xt hxs _ _)) (fun _ => rfl))); iexact HR27
  isplitr [HR26]; rotate_left; iapply (row_done c 26 (of_decide_eq_true rfl) _ _ _ (row_payload c xt fh (ptOf i) ⟨26, of_decide_eq_true rfl⟩ hxs _ (tbl_wordAt c xt (k1_off53 i) (k1_off53_inb i) _ (ptOf i) ⟨26, of_decide_eq_true rfl⟩ (off_word (i 0).val (i 0).isLt 26 (of_decide_eq_true rfl))) (chk_of (word_lt c xt hxs _ _)) (fun _ => rfl))); iexact HR26
  isplitr [HR25]; rotate_left; iapply (row_done c 25 (of_decide_eq_true rfl) _ _ _ (row_payload c xt fh (ptOf i) ⟨25, of_decide_eq_true rfl⟩ hxs _ (tbl_wordAt c xt (k1_off51 i) (k1_off51_inb i) _ (ptOf i) ⟨25, of_decide_eq_true rfl⟩ (off_word (i 0).val (i 0).isLt 25 (of_decide_eq_true rfl))) (chk_of (word_lt c xt hxs _ _)) (fun _ => rfl))); iexact HR25
  isplitr [HR24]; rotate_left; iapply (row_done c 24 (of_decide_eq_true rfl) _ _ _ (row_payload c xt fh (ptOf i) ⟨24, of_decide_eq_true rfl⟩ hxs _ (tbl_wordAt c xt (k1_off49 i) (k1_off49_inb i) _ (ptOf i) ⟨24, of_decide_eq_true rfl⟩ (off_word (i 0).val (i 0).isLt 24 (of_decide_eq_true rfl))) (chk_of (word_lt c xt hxs _ _)) (fun _ => rfl))); iexact HR24
  isplitr [HR23]; rotate_left; iapply (row_done c 23 (of_decide_eq_true rfl) _ _ _ (row_payload c xt fh (ptOf i) ⟨23, of_decide_eq_true rfl⟩ hxs _ (tbl_wordAt c xt (k1_off47 i) (k1_off47_inb i) _ (ptOf i) ⟨23, of_decide_eq_true rfl⟩ (off_word (i 0).val (i 0).isLt 23 (of_decide_eq_true rfl))) (chk_of (word_lt c xt hxs _ _)) (fun _ => rfl))); iexact HR23
  isplitr [HR22]; rotate_left; iapply (row_done c 22 (of_decide_eq_true rfl) _ _ _ (row_payload c xt fh (ptOf i) ⟨22, of_decide_eq_true rfl⟩ hxs _ (tbl_wordAt c xt (k1_off45 i) (k1_off45_inb i) _ (ptOf i) ⟨22, of_decide_eq_true rfl⟩ (off_word (i 0).val (i 0).isLt 22 (of_decide_eq_true rfl))) (chk_of (word_lt c xt hxs _ _)) (fun _ => rfl))); iexact HR22
  isplitr [HR21]; rotate_left; iapply (row_done c 21 (of_decide_eq_true rfl) _ _ _ (row_payload c xt fh (ptOf i) ⟨21, of_decide_eq_true rfl⟩ hxs _ (tbl_wordAt c xt (k1_off43 i) (k1_off43_inb i) _ (ptOf i) ⟨21, of_decide_eq_true rfl⟩ (off_word (i 0).val (i 0).isLt 21 (of_decide_eq_true rfl))) (chk_of (word_lt c xt hxs _ _)) (fun _ => rfl))); iexact HR21
  isplitr [HR20]; rotate_left; iapply (row_done c 20 (of_decide_eq_true rfl) _ _ _ (row_payload c xt fh (ptOf i) ⟨20, of_decide_eq_true rfl⟩ hxs _ (tbl_wordAt c xt (k1_off41 i) (k1_off41_inb i) _ (ptOf i) ⟨20, of_decide_eq_true rfl⟩ (off_word (i 0).val (i 0).isLt 20 (of_decide_eq_true rfl))) (chk_of (word_lt c xt hxs _ _)) (fun _ => rfl))); iexact HR20
  isplitr [HR19]; rotate_left; iapply (row_done c 19 (of_decide_eq_true rfl) _ _ _ (row_payload c xt fh (ptOf i) ⟨19, of_decide_eq_true rfl⟩ hxs _ (tbl_wordAt c xt (k1_off39 i) (k1_off39_inb i) _ (ptOf i) ⟨19, of_decide_eq_true rfl⟩ (off_word (i 0).val (i 0).isLt 19 (of_decide_eq_true rfl))) (chk_of (word_lt c xt hxs _ _)) (fun _ => rfl))); iexact HR19
  isplitr [HR18]; rotate_left; iapply (row_done c 18 (of_decide_eq_true rfl) _ _ _ (row_payload c xt fh (ptOf i) ⟨18, of_decide_eq_true rfl⟩ hxs _ (tbl_wordAt c xt (k1_off37 i) (k1_off37_inb i) _ (ptOf i) ⟨18, of_decide_eq_true rfl⟩ (off_word (i 0).val (i 0).isLt 18 (of_decide_eq_true rfl))) (chk_of (word_lt c xt hxs _ _)) (fun _ => rfl))); iexact HR18
  isplitr [HR17]; rotate_left; iapply (row_done c 17 (of_decide_eq_true rfl) _ _ _ (row_payload c xt fh (ptOf i) ⟨17, of_decide_eq_true rfl⟩ hxs _ (tbl_wordAt c xt (k1_off35 i) (k1_off35_inb i) _ (ptOf i) ⟨17, of_decide_eq_true rfl⟩ (off_word (i 0).val (i 0).isLt 17 (of_decide_eq_true rfl))) (chk_of (word_lt c xt hxs _ _)) (fun _ => rfl))); iexact HR17
  isplitr [HR16]; rotate_left; iapply (row_done c 16 (of_decide_eq_true rfl) _ _ _ (row_payload c xt fh (ptOf i) ⟨16, of_decide_eq_true rfl⟩ hxs _ (tbl_wordAt c xt (k1_off33 i) (k1_off33_inb i) _ (ptOf i) ⟨16, of_decide_eq_true rfl⟩ (off_word (i 0).val (i 0).isLt 16 (of_decide_eq_true rfl))) (chk_of (word_lt c xt hxs _ _)) (fun _ => rfl))); iexact HR16
  isplitr [HR15]; rotate_left; iapply (row_done c 15 (of_decide_eq_true rfl) _ _ _ (row_payload c xt fh (ptOf i) ⟨15, of_decide_eq_true rfl⟩ hxs _ (tbl_wordAt c xt (k1_off31 i) (k1_off31_inb i) _ (ptOf i) ⟨15, of_decide_eq_true rfl⟩ (off_word (i 0).val (i 0).isLt 15 (of_decide_eq_true rfl))) (chk_of (word_lt c xt hxs _ _)) (fun _ => rfl))); iexact HR15
  isplitr [HR14]; rotate_left; iapply (row_done c 14 (of_decide_eq_true rfl) _ _ _ (row_payload c xt fh (ptOf i) ⟨14, of_decide_eq_true rfl⟩ hxs _ (tbl_wordAt c xt (k1_off29 i) (k1_off29_inb i) _ (ptOf i) ⟨14, of_decide_eq_true rfl⟩ (off_word (i 0).val (i 0).isLt 14 (of_decide_eq_true rfl))) (chk_of (word_lt c xt hxs _ _)) (fun _ => rfl))); iexact HR14
  isplitr [HR13]; rotate_left; iapply (row_done c 13 (of_decide_eq_true rfl) _ _ _ (row_payload c xt fh (ptOf i) ⟨13, of_decide_eq_true rfl⟩ hxs _ (tbl_wordAt c xt (k1_off27 i) (k1_off27_inb i) _ (ptOf i) ⟨13, of_decide_eq_true rfl⟩ (off_word (i 0).val (i 0).isLt 13 (of_decide_eq_true rfl))) (chk_of (word_lt c xt hxs _ _)) (fun _ => rfl))); iexact HR13
  isplitr [HR12]; rotate_left; iapply (row_done c 12 (of_decide_eq_true rfl) _ _ _ (row_payload c xt fh (ptOf i) ⟨12, of_decide_eq_true rfl⟩ hxs _ (tbl_wordAt c xt (k1_off25 i) (k1_off25_inb i) _ (ptOf i) ⟨12, of_decide_eq_true rfl⟩ (off_word (i 0).val (i 0).isLt 12 (of_decide_eq_true rfl))) (chk_of (word_lt c xt hxs _ _)) (fun _ => rfl))); iexact HR12
  isplitr [HR11]; rotate_left; iapply (row_done c 11 (of_decide_eq_true rfl) _ _ _ (row_payload c xt fh (ptOf i) ⟨11, of_decide_eq_true rfl⟩ hxs _ (tbl_wordAt c xt (k1_off23 i) (k1_off23_inb i) _ (ptOf i) ⟨11, of_decide_eq_true rfl⟩ (off_word (i 0).val (i 0).isLt 11 (of_decide_eq_true rfl))) (chk_of (word_lt c xt hxs _ _)) (fun _ => rfl))); iexact HR11
  isplitr [HR10]; rotate_left; iapply (row_done c 10 (of_decide_eq_true rfl) _ _ _ (row_payload c xt fh (ptOf i) ⟨10, of_decide_eq_true rfl⟩ hxs _ (tbl_wordAt c xt (k1_off21 i) (k1_off21_inb i) _ (ptOf i) ⟨10, of_decide_eq_true rfl⟩ (off_word (i 0).val (i 0).isLt 10 (of_decide_eq_true rfl))) (chk_of (word_lt c xt hxs _ _)) (fun _ => rfl))); iexact HR10
  isplitr [HR9]; rotate_left; iapply (row_done c 9 (of_decide_eq_true rfl) _ _ _ (row_payload c xt fh (ptOf i) ⟨9, of_decide_eq_true rfl⟩ hxs _ (tbl_wordAt c xt (k1_off19 i) (k1_off19_inb i) _ (ptOf i) ⟨9, of_decide_eq_true rfl⟩ (off_word (i 0).val (i 0).isLt 9 (of_decide_eq_true rfl))) (chk_of (word_lt c xt hxs _ _)) (fun _ => rfl))); iexact HR9
  isplitr [HR8]; rotate_left; iapply (row_done c 8 (of_decide_eq_true rfl) _ _ _ (row_payload c xt fh (ptOf i) ⟨8, of_decide_eq_true rfl⟩ hxs _ (tbl_wordAt c xt (k1_off17 i) (k1_off17_inb i) _ (ptOf i) ⟨8, of_decide_eq_true rfl⟩ (off_word (i 0).val (i 0).isLt 8 (of_decide_eq_true rfl))) (chk_of (word_lt c xt hxs _ _)) (fun _ => rfl))); iexact HR8
  isplitr [HR7]; rotate_left; iapply (row_done c 7 (of_decide_eq_true rfl) _ _ _ (row_payload c xt fh (ptOf i) ⟨7, of_decide_eq_true rfl⟩ hxs _ (tbl_wordAt c xt (k1_off15 i) (k1_off15_inb i) _ (ptOf i) ⟨7, of_decide_eq_true rfl⟩ (off_word (i 0).val (i 0).isLt 7 (of_decide_eq_true rfl))) (chk_of (word_lt c xt hxs _ _)) (fun _ => rfl))); iexact HR7
  isplitr [HR6]; rotate_left; iapply (row_done c 6 (of_decide_eq_true rfl) _ _ _ (row_payload c xt fh (ptOf i) ⟨6, of_decide_eq_true rfl⟩ hxs _ (tbl_wordAt c xt (k1_off13 i) (k1_off13_inb i) _ (ptOf i) ⟨6, of_decide_eq_true rfl⟩ (off_word (i 0).val (i 0).isLt 6 (of_decide_eq_true rfl))) (chk_of (word_lt c xt hxs _ _)) (fun _ => rfl))); iexact HR6
  isplitr [HR5]; rotate_left; iapply (row_done c 5 (of_decide_eq_true rfl) _ _ _ (row_payload c xt fh (ptOf i) ⟨5, of_decide_eq_true rfl⟩ hxs _ (tbl_wordAt c xt (k1_off11 i) (k1_off11_inb i) _ (ptOf i) ⟨5, of_decide_eq_true rfl⟩ (off_word (i 0).val (i 0).isLt 5 (of_decide_eq_true rfl))) (chk_of (word_lt c xt hxs _ _)) (fun _ => rfl))); iexact HR5
  isplitr [HR4]; rotate_left; iapply (row_done c 4 (of_decide_eq_true rfl) _ _ _ (row_payload c xt fh (ptOf i) ⟨4, of_decide_eq_true rfl⟩ hxs _ (tbl_wordAt c xt (k1_off9 i) (k1_off9_inb i) _ (ptOf i) ⟨4, of_decide_eq_true rfl⟩ (off_word (i 0).val (i 0).isLt 4 (of_decide_eq_true rfl))) (chk_of (word_lt c xt hxs _ _)) (fun _ => rfl))); iexact HR4
  isplitr [HR3]; rotate_left; iapply (row_done c 3 (of_decide_eq_true rfl) _ _ _ (row_payload c xt fh (ptOf i) ⟨3, of_decide_eq_true rfl⟩ hxs _ (tbl_wordAt c xt (k1_off7 i) (k1_off7_inb i) _ (ptOf i) ⟨3, of_decide_eq_true rfl⟩ (off_word (i 0).val (i 0).isLt 3 (of_decide_eq_true rfl))) (chk_of (word_lt c xt hxs _ _)) (fun _ => rfl))); iexact HR3
  isplitr [HR2]; rotate_left; iapply (row_done c 2 (of_decide_eq_true rfl) _ _ _ (row_payload c xt fh (ptOf i) ⟨2, of_decide_eq_true rfl⟩ hxs _ (tbl_wordAt c xt (k1_off5 i) (k1_off5_inb i) _ (ptOf i) ⟨2, of_decide_eq_true rfl⟩ (off_word (i 0).val (i 0).isLt 2 (of_decide_eq_true rfl))) (chk_of (word_lt c xt hxs _ _)) (fun _ => rfl))); iexact HR2
  isplitr [HR1]; rotate_left; iapply (row_done c 1 (of_decide_eq_true rfl) _ _ _ (row_payload c xt fh (ptOf i) ⟨1, of_decide_eq_true rfl⟩ hxs _ (tbl_wordAt c xt (k1_off3 i) (k1_off3_inb i) _ (ptOf i) ⟨1, of_decide_eq_true rfl⟩ (off_word (i 0).val (i 0).isLt 1 (of_decide_eq_true rfl))) (chk_of (word_lt c xt hxs _ _)) (fun _ => rfl))); iexact HR1
  isplitr [HR0]; rotate_left; iapply (row_done c 0 (of_decide_eq_true rfl) _ _ _ (row_payload c xt fh (ptOf i) ⟨0, of_decide_eq_true rfl⟩ hxs _ (tbl_wordAt c xt (k1_off1 i) (k1_off1_inb i) _ (ptOf i) ⟨0, of_decide_eq_true rfl⟩ (off_word (i 0).val (i 0).isLt 0 (of_decide_eq_true rfl))) (chk_of (word_lt c xt hxs _ _)) (fun _ => rfl))); iexact HR0
  iempintro))

/-- The rows named as the premise of the join. -/
macro "gather_have_join" : tactic => `(tactic| ihave HS := hj $$ [HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31 HR32 HR33 HR34 HR35 HR36 HR37 HR38 HR39 HR40 HR41 HR42 HR43 HR44 HR45 HR46 HR47 HR48 HR49 HR50 HR51 HR52 HR53 HR54 HR55 HR56 HR57 HR58 HR59 HR60 HR61 HR62 HR63 HR64 HR65 HR66 HR67 HR68 HR69 HR70 HR71 HR72 HR73 HR74 HR75 HR76 HR77 HR78 HR79 HR80 HR81 HR82 HR83 HR84 HR85 HR86 HR87 HR88 HR89 HR90 HR91 HR92 HR93 HR94 HR95 HR96 HR97 HR98 HR99 HR100 HR101 HR102 HR103 HR104 HR105 HR106 HR107 HR108 HR109 HR110 HR111 HR112 HR113 HR114 HR115 HR116 HR117 HR118 HR119 HR120 HR121 HR122 HR123 HR124 HR125 HR126 HR127])

/-- The read shares handed back in order. -/
macro "gather_split_toks" : tactic => `(tactic| (
  isplitr [Ht127]; rotate_left; iexact Ht127
  isplitr [Ht126]; rotate_left; iexact Ht126
  isplitr [Ht125]; rotate_left; iexact Ht125
  isplitr [Ht124]; rotate_left; iexact Ht124
  isplitr [Ht123]; rotate_left; iexact Ht123
  isplitr [Ht122]; rotate_left; iexact Ht122
  isplitr [Ht121]; rotate_left; iexact Ht121
  isplitr [Ht120]; rotate_left; iexact Ht120
  isplitr [Ht119]; rotate_left; iexact Ht119
  isplitr [Ht118]; rotate_left; iexact Ht118
  isplitr [Ht117]; rotate_left; iexact Ht117
  isplitr [Ht116]; rotate_left; iexact Ht116
  isplitr [Ht115]; rotate_left; iexact Ht115
  isplitr [Ht114]; rotate_left; iexact Ht114
  isplitr [Ht113]; rotate_left; iexact Ht113
  isplitr [Ht112]; rotate_left; iexact Ht112
  isplitr [Ht111]; rotate_left; iexact Ht111
  isplitr [Ht110]; rotate_left; iexact Ht110
  isplitr [Ht109]; rotate_left; iexact Ht109
  isplitr [Ht108]; rotate_left; iexact Ht108
  isplitr [Ht107]; rotate_left; iexact Ht107
  isplitr [Ht106]; rotate_left; iexact Ht106
  isplitr [Ht105]; rotate_left; iexact Ht105
  isplitr [Ht104]; rotate_left; iexact Ht104
  isplitr [Ht103]; rotate_left; iexact Ht103
  isplitr [Ht102]; rotate_left; iexact Ht102
  isplitr [Ht101]; rotate_left; iexact Ht101
  isplitr [Ht100]; rotate_left; iexact Ht100
  isplitr [Ht99]; rotate_left; iexact Ht99
  isplitr [Ht98]; rotate_left; iexact Ht98
  isplitr [Ht97]; rotate_left; iexact Ht97
  isplitr [Ht96]; rotate_left; iexact Ht96
  isplitr [Ht95]; rotate_left; iexact Ht95
  isplitr [Ht94]; rotate_left; iexact Ht94
  isplitr [Ht93]; rotate_left; iexact Ht93
  isplitr [Ht92]; rotate_left; iexact Ht92
  isplitr [Ht91]; rotate_left; iexact Ht91
  isplitr [Ht90]; rotate_left; iexact Ht90
  isplitr [Ht89]; rotate_left; iexact Ht89
  isplitr [Ht88]; rotate_left; iexact Ht88
  isplitr [Ht87]; rotate_left; iexact Ht87
  isplitr [Ht86]; rotate_left; iexact Ht86
  isplitr [Ht85]; rotate_left; iexact Ht85
  isplitr [Ht84]; rotate_left; iexact Ht84
  isplitr [Ht83]; rotate_left; iexact Ht83
  isplitr [Ht82]; rotate_left; iexact Ht82
  isplitr [Ht81]; rotate_left; iexact Ht81
  isplitr [Ht80]; rotate_left; iexact Ht80
  isplitr [Ht79]; rotate_left; iexact Ht79
  isplitr [Ht78]; rotate_left; iexact Ht78
  isplitr [Ht77]; rotate_left; iexact Ht77
  isplitr [Ht76]; rotate_left; iexact Ht76
  isplitr [Ht75]; rotate_left; iexact Ht75
  isplitr [Ht74]; rotate_left; iexact Ht74
  isplitr [Ht73]; rotate_left; iexact Ht73
  isplitr [Ht72]; rotate_left; iexact Ht72
  isplitr [Ht71]; rotate_left; iexact Ht71
  isplitr [Ht70]; rotate_left; iexact Ht70
  isplitr [Ht69]; rotate_left; iexact Ht69
  isplitr [Ht68]; rotate_left; iexact Ht68
  isplitr [Ht67]; rotate_left; iexact Ht67
  isplitr [Ht66]; rotate_left; iexact Ht66
  isplitr [Ht65]; rotate_left; iexact Ht65
  isplitr [Ht64]; rotate_left; iexact Ht64
  isplitr [Ht63]; rotate_left; iexact Ht63
  isplitr [Ht62]; rotate_left; iexact Ht62
  isplitr [Ht61]; rotate_left; iexact Ht61
  isplitr [Ht60]; rotate_left; iexact Ht60
  isplitr [Ht59]; rotate_left; iexact Ht59
  isplitr [Ht58]; rotate_left; iexact Ht58
  isplitr [Ht57]; rotate_left; iexact Ht57
  isplitr [Ht56]; rotate_left; iexact Ht56
  isplitr [Ht55]; rotate_left; iexact Ht55
  isplitr [Ht54]; rotate_left; iexact Ht54
  isplitr [Ht53]; rotate_left; iexact Ht53
  isplitr [Ht52]; rotate_left; iexact Ht52
  isplitr [Ht51]; rotate_left; iexact Ht51
  isplitr [Ht50]; rotate_left; iexact Ht50
  isplitr [Ht49]; rotate_left; iexact Ht49
  isplitr [Ht48]; rotate_left; iexact Ht48
  isplitr [Ht47]; rotate_left; iexact Ht47
  isplitr [Ht46]; rotate_left; iexact Ht46
  isplitr [Ht45]; rotate_left; iexact Ht45
  isplitr [Ht44]; rotate_left; iexact Ht44
  isplitr [Ht43]; rotate_left; iexact Ht43
  isplitr [Ht42]; rotate_left; iexact Ht42
  isplitr [Ht41]; rotate_left; iexact Ht41
  isplitr [Ht40]; rotate_left; iexact Ht40
  isplitr [Ht39]; rotate_left; iexact Ht39
  isplitr [Ht38]; rotate_left; iexact Ht38
  isplitr [Ht37]; rotate_left; iexact Ht37
  isplitr [Ht36]; rotate_left; iexact Ht36
  isplitr [Ht35]; rotate_left; iexact Ht35
  isplitr [Ht34]; rotate_left; iexact Ht34
  isplitr [Ht33]; rotate_left; iexact Ht33
  isplitr [Ht32]; rotate_left; iexact Ht32
  isplitr [Ht31]; rotate_left; iexact Ht31
  isplitr [Ht30]; rotate_left; iexact Ht30
  isplitr [Ht29]; rotate_left; iexact Ht29
  isplitr [Ht28]; rotate_left; iexact Ht28
  isplitr [Ht27]; rotate_left; iexact Ht27
  isplitr [Ht26]; rotate_left; iexact Ht26
  isplitr [Ht25]; rotate_left; iexact Ht25
  isplitr [Ht24]; rotate_left; iexact Ht24
  isplitr [Ht23]; rotate_left; iexact Ht23
  isplitr [Ht22]; rotate_left; iexact Ht22
  isplitr [Ht21]; rotate_left; iexact Ht21
  isplitr [Ht20]; rotate_left; iexact Ht20
  isplitr [Ht19]; rotate_left; iexact Ht19
  isplitr [Ht18]; rotate_left; iexact Ht18
  isplitr [Ht17]; rotate_left; iexact Ht17
  isplitr [Ht16]; rotate_left; iexact Ht16
  isplitr [Ht15]; rotate_left; iexact Ht15
  isplitr [Ht14]; rotate_left; iexact Ht14
  isplitr [Ht13]; rotate_left; iexact Ht13
  isplitr [Ht12]; rotate_left; iexact Ht12
  isplitr [Ht11]; rotate_left; iexact Ht11
  isplitr [Ht10]; rotate_left; iexact Ht10
  isplitr [Ht9]; rotate_left; iexact Ht9
  isplitr [Ht8]; rotate_left; iexact Ht8
  isplitr [Ht7]; rotate_left; iexact Ht7
  isplitr [Ht6]; rotate_left; iexact Ht6
  isplitr [Ht5]; rotate_left; iexact Ht5
  isplitr [Ht4]; rotate_left; iexact Ht4
  isplitr [Ht3]; rotate_left; iexact Ht3
  isplitr [Ht2]; rotate_left; iexact Ht2
  isplitr [Ht1]; rotate_left; iexact Ht1
  isplitr [Ht0]; rotate_left; iexact Ht0
  isplitr [Hlo8]; rotate_left; iexact Hlo8
  isplitr [Hlo7]; rotate_left; iexact Hlo7
  isplitr [Hlo6]; rotate_left; iexact Hlo6
  isplitr [Hlo5]; rotate_left; iexact Hlo5
  isplitr [Hlo4]; rotate_left; iexact Hlo4
  isplitr [Hlo3]; rotate_left; iexact Hlo3
  isplitr [Hlo2]; rotate_left; iexact Hlo2
  isplitr [Hlo1]; rotate_left; iexact Hlo1
  isplitr [Hlo0]; rotate_left; iexact Hlo0
  iempintro))

/-- The read shares named as the premise of their join. -/
macro "gather_have_toks" : tactic => `(tactic| ihave Hh := htj $$ [Hdrop Hlo0 Hlo1 Hlo2 Hlo3 Hlo4 Hlo5 Hlo6 Hlo7 Hlo8 Ht0 Ht1 Ht2 Ht3 Ht4 Ht5 Ht6 Ht7 Ht8 Ht9 Ht10 Ht11 Ht12 Ht13 Ht14 Ht15 Ht16 Ht17 Ht18 Ht19 Ht20 Ht21 Ht22 Ht23 Ht24 Ht25 Ht26 Ht27 Ht28 Ht29 Ht30 Ht31 Ht32 Ht33 Ht34 Ht35 Ht36 Ht37 Ht38 Ht39 Ht40 Ht41 Ht42 Ht43 Ht44 Ht45 Ht46 Ht47 Ht48 Ht49 Ht50 Ht51 Ht52 Ht53 Ht54 Ht55 Ht56 Ht57 Ht58 Ht59 Ht60 Ht61 Ht62 Ht63 Ht64 Ht65 Ht66 Ht67 Ht68 Ht69 Ht70 Ht71 Ht72 Ht73 Ht74 Ht75 Ht76 Ht77 Ht78 Ht79 Ht80 Ht81 Ht82 Ht83 Ht84 Ht85 Ht86 Ht87 Ht88 Ht89 Ht90 Ht91 Ht92 Ht93 Ht94 Ht95 Ht96 Ht97 Ht98 Ht99 Ht100 Ht101 Ht102 Ht103 Ht104 Ht105 Ht106 Ht107 Ht108 Ht109 Ht110 Ht111 Ht112 Ht113 Ht114 Ht115 Ht116 Ht117 Ht118 Ht119 Ht120 Ht121 Ht122 Ht123 Ht124 Ht125 Ht126 Ht127])

/-- The cells handed back in order. -/
macro "gather_split_sems" : tactic => `(tactic| (
  isplitr [Hq127]; rotate_left; iexact Hq127
  isplitr [Hq126]; rotate_left; iexact Hq126
  isplitr [Hq125]; rotate_left; iexact Hq125
  isplitr [Hq124]; rotate_left; iexact Hq124
  isplitr [Hq123]; rotate_left; iexact Hq123
  isplitr [Hq122]; rotate_left; iexact Hq122
  isplitr [Hq121]; rotate_left; iexact Hq121
  isplitr [Hq120]; rotate_left; iexact Hq120
  isplitr [Hq119]; rotate_left; iexact Hq119
  isplitr [Hq118]; rotate_left; iexact Hq118
  isplitr [Hq117]; rotate_left; iexact Hq117
  isplitr [Hq116]; rotate_left; iexact Hq116
  isplitr [Hq115]; rotate_left; iexact Hq115
  isplitr [Hq114]; rotate_left; iexact Hq114
  isplitr [Hq113]; rotate_left; iexact Hq113
  isplitr [Hq112]; rotate_left; iexact Hq112
  isplitr [Hq111]; rotate_left; iexact Hq111
  isplitr [Hq110]; rotate_left; iexact Hq110
  isplitr [Hq109]; rotate_left; iexact Hq109
  isplitr [Hq108]; rotate_left; iexact Hq108
  isplitr [Hq107]; rotate_left; iexact Hq107
  isplitr [Hq106]; rotate_left; iexact Hq106
  isplitr [Hq105]; rotate_left; iexact Hq105
  isplitr [Hq104]; rotate_left; iexact Hq104
  isplitr [Hq103]; rotate_left; iexact Hq103
  isplitr [Hq102]; rotate_left; iexact Hq102
  isplitr [Hq101]; rotate_left; iexact Hq101
  isplitr [Hq100]; rotate_left; iexact Hq100
  isplitr [Hq99]; rotate_left; iexact Hq99
  isplitr [Hq98]; rotate_left; iexact Hq98
  isplitr [Hq97]; rotate_left; iexact Hq97
  isplitr [Hq96]; rotate_left; iexact Hq96
  isplitr [Hq95]; rotate_left; iexact Hq95
  isplitr [Hq94]; rotate_left; iexact Hq94
  isplitr [Hq93]; rotate_left; iexact Hq93
  isplitr [Hq92]; rotate_left; iexact Hq92
  isplitr [Hq91]; rotate_left; iexact Hq91
  isplitr [Hq90]; rotate_left; iexact Hq90
  isplitr [Hq89]; rotate_left; iexact Hq89
  isplitr [Hq88]; rotate_left; iexact Hq88
  isplitr [Hq87]; rotate_left; iexact Hq87
  isplitr [Hq86]; rotate_left; iexact Hq86
  isplitr [Hq85]; rotate_left; iexact Hq85
  isplitr [Hq84]; rotate_left; iexact Hq84
  isplitr [Hq83]; rotate_left; iexact Hq83
  isplitr [Hq82]; rotate_left; iexact Hq82
  isplitr [Hq81]; rotate_left; iexact Hq81
  isplitr [Hq80]; rotate_left; iexact Hq80
  isplitr [Hq79]; rotate_left; iexact Hq79
  isplitr [Hq78]; rotate_left; iexact Hq78
  isplitr [Hq77]; rotate_left; iexact Hq77
  isplitr [Hq76]; rotate_left; iexact Hq76
  isplitr [Hq75]; rotate_left; iexact Hq75
  isplitr [Hq74]; rotate_left; iexact Hq74
  isplitr [Hq73]; rotate_left; iexact Hq73
  isplitr [Hq72]; rotate_left; iexact Hq72
  isplitr [Hq71]; rotate_left; iexact Hq71
  isplitr [Hq70]; rotate_left; iexact Hq70
  isplitr [Hq69]; rotate_left; iexact Hq69
  isplitr [Hq68]; rotate_left; iexact Hq68
  isplitr [Hq67]; rotate_left; iexact Hq67
  isplitr [Hq66]; rotate_left; iexact Hq66
  isplitr [Hq65]; rotate_left; iexact Hq65
  isplitr [Hq64]; rotate_left; iexact Hq64
  isplitr [Hq63]; rotate_left; iexact Hq63
  isplitr [Hq62]; rotate_left; iexact Hq62
  isplitr [Hq61]; rotate_left; iexact Hq61
  isplitr [Hq60]; rotate_left; iexact Hq60
  isplitr [Hq59]; rotate_left; iexact Hq59
  isplitr [Hq58]; rotate_left; iexact Hq58
  isplitr [Hq57]; rotate_left; iexact Hq57
  isplitr [Hq56]; rotate_left; iexact Hq56
  isplitr [Hq55]; rotate_left; iexact Hq55
  isplitr [Hq54]; rotate_left; iexact Hq54
  isplitr [Hq53]; rotate_left; iexact Hq53
  isplitr [Hq52]; rotate_left; iexact Hq52
  isplitr [Hq51]; rotate_left; iexact Hq51
  isplitr [Hq50]; rotate_left; iexact Hq50
  isplitr [Hq49]; rotate_left; iexact Hq49
  isplitr [Hq48]; rotate_left; iexact Hq48
  isplitr [Hq47]; rotate_left; iexact Hq47
  isplitr [Hq46]; rotate_left; iexact Hq46
  isplitr [Hq45]; rotate_left; iexact Hq45
  isplitr [Hq44]; rotate_left; iexact Hq44
  isplitr [Hq43]; rotate_left; iexact Hq43
  isplitr [Hq42]; rotate_left; iexact Hq42
  isplitr [Hq41]; rotate_left; iexact Hq41
  isplitr [Hq40]; rotate_left; iexact Hq40
  isplitr [Hq39]; rotate_left; iexact Hq39
  isplitr [Hq38]; rotate_left; iexact Hq38
  isplitr [Hq37]; rotate_left; iexact Hq37
  isplitr [Hq36]; rotate_left; iexact Hq36
  isplitr [Hq35]; rotate_left; iexact Hq35
  isplitr [Hq34]; rotate_left; iexact Hq34
  isplitr [Hq33]; rotate_left; iexact Hq33
  isplitr [Hq32]; rotate_left; iexact Hq32
  isplitr [Hq31]; rotate_left; iexact Hq31
  isplitr [Hq30]; rotate_left; iexact Hq30
  isplitr [Hq29]; rotate_left; iexact Hq29
  isplitr [Hq28]; rotate_left; iexact Hq28
  isplitr [Hq27]; rotate_left; iexact Hq27
  isplitr [Hq26]; rotate_left; iexact Hq26
  isplitr [Hq25]; rotate_left; iexact Hq25
  isplitr [Hq24]; rotate_left; iexact Hq24
  isplitr [Hq23]; rotate_left; iexact Hq23
  isplitr [Hq22]; rotate_left; iexact Hq22
  isplitr [Hq21]; rotate_left; iexact Hq21
  isplitr [Hq20]; rotate_left; iexact Hq20
  isplitr [Hq19]; rotate_left; iexact Hq19
  isplitr [Hq18]; rotate_left; iexact Hq18
  isplitr [Hq17]; rotate_left; iexact Hq17
  isplitr [Hq16]; rotate_left; iexact Hq16
  isplitr [Hq15]; rotate_left; iexact Hq15
  isplitr [Hq14]; rotate_left; iexact Hq14
  isplitr [Hq13]; rotate_left; iexact Hq13
  isplitr [Hq12]; rotate_left; iexact Hq12
  isplitr [Hq11]; rotate_left; iexact Hq11
  isplitr [Hq10]; rotate_left; iexact Hq10
  isplitr [Hq9]; rotate_left; iexact Hq9
  isplitr [Hq8]; rotate_left; iexact Hq8
  isplitr [Hq7]; rotate_left; iexact Hq7
  isplitr [Hq6]; rotate_left; iexact Hq6
  isplitr [Hq5]; rotate_left; iexact Hq5
  isplitr [Hq4]; rotate_left; iexact Hq4
  isplitr [Hq3]; rotate_left; iexact Hq3
  isplitr [Hq2]; rotate_left; iexact Hq2
  isplitr [Hq1]; rotate_left; iexact Hq1
  isplitr [Hq0]; rotate_left; iexact Hq0
  iempintro))

/-- Everything but the gather buffer — the table, the core's tally, the read shares and the cells — kept for the conjuncts
    that follow. -/
macro "gather_keep_rest" : tactic => `(tactic| isplitr [HT HW Hdrop Hlo0 Hlo1 Hlo2 Hlo3 Hlo4 Hlo5 Hlo6 Hlo7 Hlo8 Ht0 Ht1 Ht2 Ht3 Ht4 Ht5 Ht6 Ht7 Ht8 Ht9 Ht10 Ht11 Ht12 Ht13 Ht14 Ht15 Ht16 Ht17 Ht18 Ht19 Ht20 Ht21 Ht22 Ht23 Ht24 Ht25 Ht26 Ht27 Ht28 Ht29 Ht30 Ht31 Ht32 Ht33 Ht34 Ht35 Ht36 Ht37 Ht38 Ht39 Ht40 Ht41 Ht42 Ht43 Ht44 Ht45 Ht46 Ht47 Ht48 Ht49 Ht50 Ht51 Ht52 Ht53 Ht54 Ht55 Ht56 Ht57 Ht58 Ht59 Ht60 Ht61 Ht62 Ht63 Ht64 Ht65 Ht66 Ht67 Ht68 Ht69 Ht70 Ht71 Ht72 Ht73 Ht74 Ht75 Ht76 Ht77 Ht78 Ht79 Ht80 Ht81 Ht82 Ht83 Ht84 Ht85 Ht86 Ht87 Ht88 Ht89 Ht90 Ht91 Ht92 Ht93 Ht94 Ht95 Ht96 Ht97 Ht98 Ht99 Ht100 Ht101 Ht102 Ht103 Ht104 Ht105 Ht106 Ht107 Ht108 Ht109 Ht110 Ht111 Ht112 Ht113 Ht114 Ht115 Ht116 Ht117 Ht118 Ht119 Ht120 Ht121 Ht122 Ht123 Ht124 Ht125 Ht126 Ht127 Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38 Hq39 Hq40 Hq41 Hq42 Hq43 Hq44 Hq45 Hq46 Hq47 Hq48 Hq49 Hq50 Hq51 Hq52 Hq53 Hq54 Hq55 Hq56 Hq57 Hq58 Hq59 Hq60 Hq61 Hq62 Hq63 Hq64 Hq65 Hq66 Hq67 Hq68 Hq69 Hq70 Hq71 Hq72 Hq73 Hq74 Hq75 Hq76 Hq77 Hq78 Hq79 Hq80 Hq81 Hq82 Hq83 Hq84 Hq85 Hq86 Hq87 Hq88 Hq89 Hq90 Hq91 Hq92 Hq93 Hq94 Hq95 Hq96 Hq97 Hq98 Hq99 Hq100 Hq101 Hq102 Hq103 Hq104 Hq105 Hq106 Hq107 Hq108 Hq109 Hq110 Hq111 Hq112 Hq113 Hq114 Hq115 Hq116 Hq117 Hq118 Hq119 Hq120 Hq121 Hq122 Hq123 Hq124 Hq125 Hq126 Hq127])
-- ==== Proof.GatherBody.lean ====
import proofs.«406446_j60224031424549_1_alg».proof.Proof.Gen.KernelIdeal.Launch
import proofs.«406446_j60224031424549_1_alg».proof.Proof.Gen.KernelIdeal.Skeleton
import proofs.«406446_j60224031424549_1_alg».proof.Proof.Gen.KernelIdeal.Points
import proofs.«406446_j60224031424549_1_alg».proof.Proof.Spec
import proofs.«406446_j60224031424549_1_alg».proof.Proof.GatherI
import proofs.«406446_j60224031424549_1_alg».proof.Proof.GatherWords
import proofs.«406446_j60224031424549_1_alg».proof.Proof.ScratchRows
import proofs.«406446_j60224031424549_1_alg».proof.Proof.GatherTables
import Idealize.ShloMosaic.Lib.Transfers
import Idealize.ShloMosaic.Lib.Pipeline.Value
import Idealize.ShloMosaic.Lib.ValueIdx
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

open Idealize.ShloMosaic.ValueIdx (eq_ix1)

/-! # The gather kernel's body

At a grid point the body reads 128 words of the index table, starts one copy per word — the named row of the diffusion
matrix, left in HBM, into the matching row of its gather buffer, each copy on a semaphore of its own — waits for all of
them, and multiplies the gathered tile with the encoded nodes. While the copies fly the gather buffer is held row by
row (each copy then takes exactly its row and gives it back at the row it copied), and the matrix under one read share
per copy (two words may name the same row). Before the tile is loaded the rows are put together again: row `r` of the
buffer is the row of the matrix that word `128 t + r` names, which is the tile of the specification. -/

abbrev htbM : tbM.IsWhole := Memref.isWhole_whole _
abbrev hhbM : hbM.IsWhole := Memref.isWhole_whole _
abbrev hscM : scM.IsWhole := Memref.isWhole_whole _

/-- A memref's buffer on core `c`, and it held whole at `f` (behind an abbreviation: the run reads a held buffer
    through `Memref.view`). -/
abbrev MBuf (c : Dev nD) {sp : Space} {S : Shape} {e : EltTy} (M : Memref sig .tc sp S e) : Type := Buf (Elt F) (M.view.loc (c : Thread nD τ))
abbrev mPt (c : Dev nD) {sp : Space} {S : Shape} {e : EltTy} (M : Memref sig .tc sp S e) (f : MBuf (F := F) c M) : sProp 𝕄 :=
  M.view.loc (c : Thread nD τ) ↦{fullShare} f
/-- Read share number `k` of a buffer held whole. -/
abbrev tokPt (c : Dev nD) {sp : Space} {S : Shape} {e : EltTy} (M : Memref sig .tc sp S e) (k : ℕ) (f : MBuf (F := F) c M) : sProp 𝕄 :=
  M.view.loc (c : Thread nD τ) ↦{Transfers.shareTokN fullShare k} f
abbrev restPt (c : Dev nD) {sp : Space} {S : Shape} {e : EltTy} (M : Memref sig .tc sp S e) (n : ℕ) (f : MBuf (F := F) c M) : sProp 𝕄 :=
  M.view.loc (c : Thread nD τ) ↦{Transfers.shareDrop fullShare n} f
/-- Row `k` of the gather buffer held by its own elements at buffer contents `f`. -/
abbrev rowPt (c : Dev nD) (k : ℕ) (hk : k < 128) (f : MBuf (F := F) c (rowM k hk)) : sProp 𝕄 :=
  (rowM k hk).view.loc (c : Thread nD τ) ↦[(rowM k hk).view.set]{fullShare} f
/-- Row `k` held at what it reads as. -/
abbrev rowOwn (c : Dev nD) (k : ℕ) (hk : k < 128) (X : Vec F S16384 .f32) : sProp 𝕄 :=
  iprop(∃ f, ⌜(rowM k hk).view.read (Elt F) f = X⌝ ∗ rowPt c k hk f)

theorem rowOwn_eq (c : Dev nD) (k : ℕ) (hk : k < 128) (X : Vec F S16384 .f32) :
    (owns (c : Thread nD τ) (rowM k hk) fullShare X : sProp 𝕄) = rowOwn c k hk X := rfl

/-- The gather buffer held whole is its 128 rows, each held at its part. -/
theorem rows_split_raw (c : Dev nD) (f : MBuf (F := F) c scM) :
    (mPt c scM f : sProp 𝕄)
      ⊢ sepUpTo (fun k => if h : k < 128 then rowOwn c k h (fun j => scM.view.read (Elt F) f (ValueIdx.ix2 (⟨k, h⟩ : Fin 128) (j 0))) else BI.emp) 128 := by
  refine BIBase.Entails.trans ?_ (Entails.of_eq (bigSep_fin_eq 128 (fun k : Fin 128 => rowOwn (F := F) c k.val k.isLt (fun j => scM.view.read (Elt F) f (ValueIdx.ix2 k (j 0))))))
  refine BIBase.Entails.trans ?_ (rows_split (F := F) c (scM.view.read (Elt F) f))
  unfold owns
  iintro H
  iexists f
  isplitr
  · ipureintro; rfl
  rw [hscM.set_eq_univ]
  iexact H

/-- The 128 rows, each held at its part of `T`, are the gather buffer held at `T`. -/
theorem rows_join_raw [∀ e, Nonempty (Elt F e)] (c : Dev nD) (T : Vec F S128x16384 .f32) :
    sepUpTo (fun k => if h : k < 128 then rowOwn (F := F) c k h (fun j => T (ValueIdx.ix2 (⟨k, h⟩ : Fin 128) (j 0))) else BI.emp) 128
      ⊢ (owns (c : Thread nD τ) scM fullShare T : sProp 𝕄) := by
  refine BIBase.Entails.trans (Entails.of_eq (bigSep_fin_eq 128 (fun k : Fin 128 => rowOwn (F := F) c k.val k.isLt (fun j => T (ValueIdx.ix2 k (j 0))))).symm) ?_
  exact rows_join (F := F) c T

/-- A row that a copy left at a whole piece `p` is held at `p`. -/
theorem row_done (c : Dev nD) (k : ℕ) (hk : k < 128) (fs : MBuf (F := F) c (rowM k hk)) (p q : Vec F S16384 .f32) (hpq : p = q) :
    (rowPt c k hk ((rowM k hk).view.writes (Elt F) fs [⟨Rect.whole S16384, p⟩]) : sProp 𝕄) ⊢ rowOwn c k hk q := by
  subst hpq
  iintro H
  iexists _
  isplitr
  · ipureintro; exact row_read_piece k hk fs p
  iexact H

/-- A big sep over the first `n` numbers, nested. -/
theorem bigSep_range_eq (n : ℕ) (Φ : ℕ → sProp 𝕄) : BI.bigSep (Finset.range n) Φ = sepUpTo Φ n := by
  induction n with
  | zero => rw [Finset.range_zero, BI.bigSep_empty]; rfl
  | succ n ih =>
    rw [Finset.range_add_one, BI.bigSep_insert Finset.notMem_range_self, ih]
    show iprop(Φ n ∗ sepUpTo Φ n) = iprop(sepUpTo Φ n ∗ Φ n)
    exact Idealize.SL.BI.Entails.antisymm Idealize.SL.BI.sep_comm Idealize.SL.BI.sep_comm

/-- The matrix held whole is what is left after 137 read shares, and the shares. -/
theorem toks_split (c : Dev nD) (fh : MBuf (F := F) c hbM) :
    (mPt c hbM fh : sProp 𝕄) ⊢ iprop(restPt c hbM 137 fh ∗ sepUpTo (fun k => tokPt c hbM k fh) 137) := by
  rw [← bigSep_range_eq]
  exact (Transfers.pointsTo_toks_range fullShare 137).1
theorem toks_join (c : Dev nD) (fh : MBuf (F := F) c hbM) :
    iprop(restPt c hbM 137 fh ∗ sepUpTo (fun k => tokPt c hbM k fh) 137) ⊢ (mPt c hbM fh : sProp 𝕄) := by
  rw [← bigSep_range_eq]
  exact (Transfers.pointsTo_toks_range fullShare 137).2

/-- Every word the body loads from the table names a row, given that every word of the table does. -/
theorem word_lt (c : Dev nD) (xt : MBuf (F := F) c tbM) (hxs : Cert.Spec.InRange (tbM.view.read (Elt F) xt))
    (R : LoadRect S4096) (y : R.shape.Idx) : (show BitVec 32 from tbM.view.readAt (Elt F) R xt y).toNat < 16384 := by
  rw [View.readAt_apply]
  generalize R.idx y = z
  rw [eq_ix1 z]
  exact hxs _

theorem chk_of {v : BitVec 32} (h : v.toNat < 16384) : ∀ a, (k1_off2 v) a + S1x16384.size a ≤ S16384x16384.size a := by
  intro a
  match a with
  | ⟨0, _⟩ => show v.toNat + 1 ≤ 16384; omega
  | ⟨1, _⟩ => show 0 + 16384 ≤ 16384; omega

/-- Cell number `9 + k` of the DMA semaphores (the gather kernel's own are 9 … 136). -/
def osem1Nat (k : ℕ) : SemLoc sig := if h : k < 128 then osem1 ⟨k, h⟩ else SemLoc.dma 0
/-- The gather kernel's own cells, each at zero. -/
def semsAll (c : Dev nD) : sProp 𝕄 := sepUpTo (fun k => semVal ((c : Thread nD τ), osem1Nat k) 0) 128

/-- The gather buffer held by its own elements is the buffer held whole. -/
theorem sc_whole (c : Dev nD) (g : MBuf (F := F) c scM) :
    (scM.view.loc (c : Thread nD τ) ↦[scM.view.set]{fullShare} g : sProp 𝕄) ⊢ mPt c scM g := by
  rw [hscM.set_eq_univ]

/-! ## The body's triple -/

/-- The grid point as the number the words are counted from. -/
abbrev ptOf (i : grid1.Coords) : Fin 32 := ⟨(i 0).val, (i 0).isLt⟩

abbrev r1_sc : Rect S128x16384 := Rect.unit (s := S128x16384) ![0, 0] S128x16384.size inb_S128x16384_S128x16384_0_0
abbrev r1_enc : Rect S16384x64 := Rect.unit (s := S16384x64) ![0, 0] S16384x64.size inb_S16384x64_S16384x64_0_0
abbrev r1_out : Rect S128x64 := Rect.unit (s := S128x64) ![0, 0] S128x64.size inb_S128x64_S128x64_0_0

/-- The output window's staging buffer after the body: its one whole store, the tile against the encoded nodes. -/
def out1 (T : Vec F S128x16384 .f32) (x1 : Vec F S16384x64 .bf16) : Vec F S128x64 .f32 :=
  View.canon [⟨r1_out, k1_pay1 (View.ld T r1_sc) (View.ld x1 r1_enc)⟩]

/-- The one store is of the whole buffer, so it covers it. -/
theorem cover1 (p0 : Vec F S128x64 .f32) (y : S128x64.Idx) :
    ∃ pc ∈ ([⟨r1_out, p0⟩] : List (View.Piece (Elt F) S128x64 .f32)), y ∈ pc.1.set :=
  View.cover_of_tiled [⟨r1_out, p0⟩] S128x64.size (by rfl) y

set_option maxHeartbeats 0 in
/-- The body on whole staging memrefs — the encoded nodes at `x1`, the output's and the gather buffer at anything, the
    table at contents whose words all name rows, the matrix whole, its cells at zero —, runs to the continuation holding
    everything as it was and the output at the gathered tile against the encoded nodes. -/
theorem run1 [∀ e, Nonempty (Elt F e)] (c : Dev nD) (i : grid1.Coords)
    (arg3 : Memref sig .tc .vmem S16384x64 .bf16) (harg3 : arg3.IsWhole) (arg4 : Memref sig .tc .vmem S128x64 .f32) (harg4 : arg4.IsWhole)
    (x1 : Vec F S16384x64 .bf16) (xt : MBuf (F := F) c tbM) (fh : MBuf (F := F) c hbM)
    (hxs : Cert.Spec.InRange (tbM.view.read (Elt F) xt)) (W : Waits sig Unit) (K : PUnit → sProp 𝕄) :
    iprop(owns (c : Thread nD τ) arg3 fullShare x1 ∗ (∃ d, owns (c : Thread nD τ) arg4 fullShare d) ∗ (∃ f, mPt c scM f)
        ∗ mPt c tbM xt ∗ mPt c hbM fh ∗ owes (c : Thread nD τ) 0 W ∗ semsAll c
        ∗ (iprop(owns (c : Thread nD τ) arg3 fullShare x1
              ∗ owns (c : Thread nD τ) arg4 fullShare (out1 (tile (hbM.view.read (Elt F) fh) (tbM.view.read (Elt F) xt) hxs (ptOf i)) x1)
              ∗ (∃ f, mPt c scM f) ∗ mPt c tbM xt ∗ mPt c hbM fh ∗ (∃ W', owes (c : Thread nD τ) 0 W') ∗ semsAll c) -∗ K ⟨⟩))
      ⊢ wp frame (wpE (defs₀ (F := F)) Variants.none c none) Set.univ
          (cc1__gather_matmul_kernel i tbM htbM hbM hhbM arg3 harg3 arg4 harg4 scM hscM cc1_scratch1) K := by
  have hs := rows_split_raw (F := F) c
  have hj := rows_join_raw (F := F) c (tile (hbM.view.read (Elt F) fh) (tbM.view.read (Elt F) xt) hxs (ptOf i))
  have ht := toks_split (F := F) c fh
  have htj := toks_join (F := F) c fh
  simp only [sepUpTo, Nat.reduceLT, ↓reduceDIte] at hs hj ht htj
  simp only [cc1__gather_matmul_kernel_eq_skeleton]; unfold cc1__gather_matmul_kernel_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton]
  unfold owns semsAll
  simp only [sepUpTo]
  iintro ⟨⟨%f0, %hf0, H0⟩, ⟨%d1, %f1, -, H1⟩, ⟨%fs0, HS0⟩, HT, Hh, HW, HSems, Hk⟩
  obtain rfl := harg3.eq_unread hf0
  gather_icases_sems
  ihave HRows := hs fs0 $$ HS0
  gather_icases_rows
  ihave HTk := ht $$ Hh
  icases HTk with ⟨Hdrop, HToks⟩
  gather_icases_toks
  -- the 128 copies, each from its read share into its row on its cell, and the 128 waits
  sl_exec (disch := first | exact chk_of (word_lt c xt hxs _ _))
  -- the rows, each at the row of the matrix its word names, are the buffer at the tile
  gather_have_join
  · gather_join_rows
  unfold owns
  icases HS with ⟨%g, %hg, HS⟩
  obtain rfl := hscM.eq_unread hg
  -- the tile and the encoded nodes loaded whole, their product stored whole
  sl_exec
  sl_step
  iapply Hk
  isplitl [H0]
  · iexists _; isplitr; · ipureintro; exact harg3.read_unread _
    iexact H0
  isplitl [H1]
  · iexists _; isplitr
    swap; · iexact H1
    ipureintro
    refine (View.read_writes_eq_canon _ _ _ (cover1 _)).trans ?_
    unfold out1
    sl_unfold_run_names
    simp only [View.readAt_eq_ld, hscM.read_unread, harg3.read_unread]
  first
    | ihave HS := (sc_whole c _) $$ HS
    | skip
  first
    | (isplitl [HS]; (iexists _; iexact HS))
    | (gather_keep_rest; (iexists _; first | (iapply (sc_whole c _); iassumption) | iassumption))
  isplitl [HT]; · iexact HT
  gather_have_toks
  · isplitl [Hdrop]; · iexact Hdrop
    gather_split_toks
  isplitl [Hh]; · iexact Hh
  isplitl [HW]; · iexists _; iexact HW
  gather_split_sems

/-! ## The body obligation -/

variable (V : (c : Dev nD) → (b : Ref sig .tc) → Buf (Elt F) ((c : Thread nD τ).loc b))

/-- The encoded nodes' window holds the whole array at every point: it is fetched once and its index never moves. -/
theorem before1_0_of (a : (pcfg1 (F := F)).Adm) {c : Dev nD} (dat : Dat τ (Elt F) Unit ℕ (Pipeline.UD sig nD τ) ℕ (cfg1 a) c)
    (hA : dat.A 0 = V c (Pipeline.arrRef spec1 0)) (hafter : ∀ t, dat.after 0 t = iblk1 V a c 0 t) (t : Fin (cfg1 a).N) (d) :
    dat.before 0 t d = iblk1 V a c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_0 (a : (pcfg1 (F := F)).Adm) (ha : TblOk a) (c : Dev nD) (t : Fin (cfg1 a).N) (d) :
    (dat1 V a ha c).before 0 t d = iblk1 V a c 0 t :=
  before1_0_of V a (dat1 V a ha c) (A_eq1 V a ha c 0) (after1_0 V a ha c) t d

/-- Each window's current staging memref at point `t`, as the pipeline passes it, and its wholeness. -/
abbrev ms1_0 (a : (pcfg1 (F := F)).Adm) (t : Fin (cfg1 a).N) : Memref sig .tc .vmem S16384x64 .bf16 := spec1_0.stage ((cfg1 a).slots t 0)
abbrev hs1_0 (a : (pcfg1 (F := F)).Adm) (t : Fin (cfg1 a).N) : (ms1_0 a t).IsWhole := hstage1_0 (((cfg1 a).slots t 0).cast nbuf1_0)
abbrev ms1_1 (a : (pcfg1 (F := F)).Adm) (t : Fin (cfg1 a).N) : Memref sig .tc .vmem S128x64 .f32 := spec1_1.stage ((cfg1 a).slots t 1)
abbrev hs1_1 (a : (pcfg1 (F := F)).Adm) (t : Fin (cfg1 a).N) : (ms1_1 a t).IsWhole := hstage1_1 (((cfg1 a).slots t 1).cast nbuf1_1)
/-- The kernel body at point `t`, on what the pipeline calls it with. -/
abbrev bodyAt1 (a : (pcfg1 (F := F)).Adm) (t : Fin (cfg1 a).N) : Prog (TpuEff nD τ sig (Elt F) Λ₀ .tc) PUnit :=
  cc1__gather_matmul_kernel (grid1.coords t) tbM htbM hbM hhbM (ms1_0 a t) (hs1_0 a t) (ms1_1 a t) (hs1_1 a t) scM hscM cc1_scratch1

/-- The one table, held whole. -/
theorem prefHeld1_eq (c : Dev nD) (pf : pre1.Contents (Elt F)) :
    (Pipeline.prefHeld pre1 c (fun _ => fullShare) pf : sProp 𝕄) = mPt c tbM (pf 0) := by
  unfold Pipeline.prefHeld
  rw [show (Finset.univ : Finset (Fin 1)) = {(0 : Fin 1)} from by decide, bigSep_singleton]
  rfl
/-- The one operand left in HBM, held whole. -/
theorem hbmPts1_eq (c : Dev nD) :
    (bigSep H1 (fun b => ((c : Thread nD τ).loc b) ↦{fullShare} V c b) : sProp 𝕄) = mPt c hbM (V c main_arg1) := by
  rw [BI.bigSep_eq_bigSepL_of_eq [main_arg1] (by decide) (by decide)]; rfl

theorem sepUpTo_congr (Φ Ψ : ℕ → sProp 𝕄) : ∀ n, (∀ k, k < n → Φ k = Ψ k) → sepUpTo Φ n = sepUpTo Ψ n
  | 0, _ => rfl
  | n + 1, h => by
    show iprop(sepUpTo Φ n ∗ Φ n) = iprop(sepUpTo Ψ n ∗ Ψ n)
    rw [sepUpTo_congr Φ Ψ n (fun k hk => h k (Nat.lt_succ_of_lt hk)), h n (Nat.lt_succ_self n)]

/-- The kernel's own cells at zero, listed. -/
theorem ownSems1_eq (c : Dev nD) :
    (Pipeline.ownSems0 (Ix := Unit) (Name := ℕ) (U := Pipeline.UD sig nD τ) (Lvl := ℕ) (Val := Elt F) (τ := τ) osem1 c : sProp 𝕄) = semsAll c := by
  unfold Pipeline.ownSems0 semsAll
  rw [bigSep_fin_eq]
  exact sepUpTo_congr _ _ 128 fun k hk => by simp only [osem1Nat, dif_pos hk]

/-- A whole unscoped buffer reads as itself. -/
theorem hbM_read (c : Dev nD) (f : MBuf (F := F) c hbM) : hbM.view.read (Elt F) f = f := rfl
theorem tbM_read (c : Dev nD) (f : MBuf (F := F) c tbM) : tbM.view.read (Elt F) f = f := rfl

/-- On the one-axis grid a point's coordinate is its number. -/
theorem coord_val : ∀ t : Fin grid1.N, ((grid1.coords t) 0).val = t.val := by decide +kernel

/-- The whole store of the payload over whole loads is the payload of the buffers. -/
theorem out1_eq (T : Vec F S128x16384 .f32) (x1 : Vec F S16384x64 .bf16) : out1 T x1 = k1_pay1 T x1 := by
  unfold out1
  have hz : (![0, 0] : Fin 2 → ℕ) = fun _ => 0 := by funext a; fin_cases a <;> rfl
  rw [View.canon_unit_zero hz]
  simp only [View.ld_unit_zero (S := S128x16384) hz, View.ld_unit_zero (S := S16384x64) hz]

theorem sound_body1 [∀ e, Nonempty (Elt F e)] (a : (pcfg1 (F := F)).Adm) (ha : TblOk a) (c : Dev nD) (t : Fin (cfg1 a).N) :
    iprop((dat1 V a ha c).Φ t.castSucc ∗ (dat1 V a ha c).owesAt () t.castSucc
        ∗ (∃ d, owns (c : Thread nD τ) (ms1_0 a t) fullShare ((dat1 V a ha c).before 0 t d))
        ∗ (∃ d, owns (c : Thread nD τ) (ms1_1 a t) fullShare ((dat1 V a ha c).before 1 t d)))
      ⊢ wp frame (wpE (defs₀ (F := F)) Variants.none c none) Set.univ (bodyAt1 a t) (fun _ =>
          iprop((dat1 V a ha c).Φ t.succ ∗ (dat1 V a ha c).owesAt () t.succ
            ∗ owns (c : Thread nD τ) (ms1_0 a t) fullShare ((dat1 V a ha c).after 0 t)
            ∗ owns (c : Thread nD τ) (ms1_1 a t) fullShare ((dat1 V a ha c).after 1 t))) := by
  unfold bodyAt1
  simp only [before1_0]
  rw [show (dat1 V a ha c).Φ t.succ = Φ1 V a c from rfl, show (dat1 V a ha c).Φ t.castSucc = Φ1 V a c from rfl, after1_0, after1_1]
  unfold Φ1
  rw [scopedRest1_eq, prefHeld1_eq, hbmPts1_eq, ownSems1_eq]
  unfold Dat.owesAt Pipeline.owesWithin
  rw [show (dat1 V a ha c).owed t.castSucc = 0 from rfl, show (dat1 V a ha c).owed t.succ = 0 from rfl]
  iintro ⟨⟨Hg, Hsems, Hh, HT, ⟨HR0, HR1, HR2, HR3, HR4, HR5, HS0⟩⟩, ⟨%W, -, HW⟩, ⟨%d0, H0⟩, ⟨%d1, H1⟩⟩
  iapply (run1 c (grid1.coords t) (ms1_0 a t) (hs1_0 a t) (ms1_1 a t) (hs1_1 a t) (iblk1 V a c 0 t) (a.1 0) (V c main_arg1) ha W _)
  isplitl [H0]; · iexact H0
  isplitl [H1]; · iexists _; iexact H1
  isplitl [HS0]; · iexact HS0
  isplitl [HT]; · iexact HT
  isplitl [Hh]; · iexact Hh
  isplitl [HW]; · iexact HW
  isplitl [Hsems]; · iexact Hsems
  iintro ⟨H0, H1, HS0, HT, Hh, ⟨%W', HW'⟩, Hsems⟩
  isplitl [Hg Hsems Hh HT HR0 HR1 HR2 HR3 HR4 HR5 HS0]
  · isplitl [Hg]; · iexact Hg
    isplitl [Hsems]; · iexact Hsems
    isplitl [Hh]; · iexact Hh
    isplitl [HT]; · iexact HT
    isplitl [HR0]; · iexact HR0
    isplitl [HR1]; · iexact HR1
    isplitl [HR2]; · iexact HR2
    isplitl [HR3]; · iexact HR3
    isplitl [HR4]; · iexact HR4
    isplitl [HR5]; · iexact HR5
    iexact HS0
  isplitl [HW']
  · iexists W'; isplitr; · ipureintro; exact fun _ _ => Or.inl trivial
    iexact HW'
  isplitl [H0]; · iexact H0
  have e : outsAt1 V a ha c t = out1 (tile (hbM.view.read (Elt F) (V c main_arg1)) (tbM.view.read (Elt F) (a.1 0)) ha (ptOf (grid1.coords t))) (iblk1 V a c 0 t) :=
    (show outsAt1 V a ha c t = k1_pay1 (tile (V c main_arg1) (a.1 0) ha (ptOf (grid1.coords t))) (iblk1 V a c 0 t) from
      congrArg (fun p => k1_pay1 (tile (V c main_arg1) (a.1 0) ha p) (iblk1 V a c 0 t)) (Fin.ext (coord_val t).symm)).trans (out1_eq _ _).symm
  rw [e]
  iexact H1

set_option maxRecDepth 65536 in
/-- The library's body obligation, at every point. -/
theorem body_obligation1 [∀ e, Nonempty (Elt F e)] (a : (pcfg1 (F := F)).Adm) (ha : TblOk a) (c : Dev nD) :
    BodyObligation (dat1 (F := F) V a ha c) (defs₀ (F := F)) Variants.none () Set.univ := fun t => by
  rw [bigSep_W1, bigSep_W1]
  exact sound_body1 V a ha c t

end Cert.KernelIdeal.Hand

end
-- ==== Proof.LibRegion.lean ====
import Idealize.ShloMosaic.Lib.Pipeline.FrameBody
import Idealize.ShloMosaic.Lib.Pipeline.Regions
import Idealize.ShloMosaic.Lib.Pipeline.RegionsLoop
import Idealize.ShloMosaic.Lib.Tactic

/-!
# A kernel region over the thread state "every unscoped buffer at a valuation", for windows that may share an array

`regionSegHeld` builds the segment record of a kernel region whose thread state before and after is every unscoped
buffer of the core held whole at a valuation, beside the generator register and the core owing nothing. The
buffers behind the windows' arrays are cut out of the unscoped buffers as a set (so two windows on one array cut
out one buffer), and how that set of whole buffers is dealt among the windows is a hypothesis (`hsplit` / `hjoin`).

`arrays_eq_arrBufs_shared` discharges that hypothesis where exactly two input windows read one array, one at the
left half of the full share and one at the right half; `arrays_eq_arrBufs_distinct` where all arrays are distinct.
-/

noncomputable section

namespace Cert.LibRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg PCfg Window BodyObligationLoose WinFacts WinFacts₀ arrRef arrBufs unscopedRest pin)

variable {nD : Nat} {τ : Topo} {sig : RefSig} {Val : EltTy → Type}
variable {U : Type} [URA U]

local notation "𝕄" => MT nD τ sig Unit Val ℕ U ℕ

/-- What rides beside the buffers through every segment: the core's generator register at some state and the core
    owing nothing, at some recorded set. -/
abbrev R (c : Dev nD) : sProp 𝕄 :=
  iprop((∃ r, prngReg c r) ∗ ∃ W, owes (c : Thread nD τ) (0 : CellTallies nD τ sig Unit) W)

/-! ## Dealing the buffers behind the arrays among the windows -/

section Share

variable {Λ₀ : Idealize.SL.Sem.Labels} (cfg : Cfg sig Λ₀) (c : Dev nD) (dat : Dat τ Val Unit ℕ U ℕ cfg c)

/-- The buffer behind window `w`'s array, whole at share `q`, at the contents the valuation `V` names for it. -/
abbrev winBuf (V : (b : Ref sig .tc) → Buf Val ((c.tc : Thread nD τ).loc b)) (w : Fin cfg.W) (q : PosShare TreeShare) : sProp 𝕄 :=
  ((c.tc : Thread nD τ).loc (arrRef cfg.spec w)) ↦{q} V (arrRef cfg.spec w)

/-- The pipeline's arrays, each a whole buffer, at contents read off `V`: each window's buffer at the window's share. -/
theorem arrays_eq_winBufs (harr : ∀ w, (cfg.spec w).arr.IsWhole) (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    dat.arrays F = bigSep Finset.univ fun w => (winBuf cfg c V w (dat.share w) : sProp 𝕄) := by
  unfold Dat.arrays
  exact bigSep_congr fun w _ => by rw [(harr w).set_eq_univ, hF]

/-- All arrays distinct whole buffers, every window at the full share: the pipeline's arrays at contents read off a
    valuation `V` are the buffers behind them whole at `V`. -/
theorem arrays_eq_arrBufs_distinct (hinj : Function.Injective (arrRef cfg.spec)) (harr : ∀ w, (cfg.spec w).arr.IsWhole)
    (hshare : ∀ w, dat.share w = fullShare) (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    dat.arrays F = (arrBufs cfg.spec c V : sProp 𝕄) := by
  classical
  rw [arrays_eq_winBufs cfg c dat harr V F hF]
  unfold arrBufs
  rw [show Finset.univ.image (arrRef cfg.spec) = Finset.univ.map ⟨arrRef cfg.spec, hinj⟩ from
    (Finset.map_eq_image ⟨arrRef cfg.spec, hinj⟩ Finset.univ).symm, bigSep_map]
  exact bigSep_congr fun w _ => by rw [hshare]; rfl

/-- Two windows `w₀ ≠ w₁` read ONE array, `w₀` at the left half of the full share and `w₁` at the right half; the
    arrays are otherwise distinct (distinct off `w₁`) and every other window holds its array at the full share; every
    array is a whole buffer. Then the pipeline's arrays at contents read off a valuation `V` are the DISTINCT buffers
    behind them whole at `V`: the shared buffer's full share is the two halves (the share law of the points-to). -/
theorem arrays_eq_arrBufs_shared (w₀ w₁ : Fin cfg.W) (hne : w₀ ≠ w₁) (h01 : arrRef cfg.spec w₀ = arrRef cfg.spec w₁)
    (hinj : ∀ w w', w ≠ w₁ → w' ≠ w₁ → arrRef cfg.spec w = arrRef cfg.spec w' → w = w')
    (harr : ∀ w, (cfg.spec w).arr.IsWhole)
    (hshare : ∀ w, dat.share w = if w = w₀ then fullShare.left else if w = w₁ then fullShare.right else fullShare)
    (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    dat.arrays F = (arrBufs cfg.spec c V : sProp 𝕄) := by
  classical
  have hw₀ : w₀ ∈ (Finset.univ : Finset (Fin cfg.W)).erase w₁ := Finset.mem_erase.mpr ⟨hne, Finset.mem_univ _⟩
  -- the distinct buffers are those of the windows other than w₁, on which the arrays are distinct
  have himg : Finset.univ.image (arrRef cfg.spec) = (Finset.univ.erase w₁).image (arrRef cfg.spec) := by
    ext b
    simp only [Finset.mem_image, Finset.mem_univ, true_and, Finset.mem_erase, and_true]
    constructor
    · rintro ⟨w, rfl⟩
      by_cases hw : w = w₁
      · exact ⟨w₀, hne, by rw [hw, h01]⟩
      · exact ⟨w, hw, rfl⟩
    · rintro ⟨w, _, rfl⟩; exact ⟨w, rfl⟩
  have hbufs : (arrBufs cfg.spec c V : sProp 𝕄) = bigSep (Finset.univ.erase w₁) fun w => (winBuf cfg c V w fullShare : sProp 𝕄) := by
    unfold arrBufs bigSep
    rw [himg]
    exact Finset.fold_image fun x hx y hy h => hinj x y (Finset.ne_of_mem_erase hx) (Finset.ne_of_mem_erase hy) h
  -- window w₀'s buffer out of them, its full share the two halves
  have h2 : bigSep (Finset.univ.erase w₁) (fun w => (winBuf cfg c V w fullShare : sProp 𝕄))
      = iprop(winBuf cfg c V w₀ fullShare ∗ bigSep ((Finset.univ.erase w₁).erase w₀) fun w => (winBuf cfg c V w fullShare : sProp 𝕄)) :=
    bigSep_erase hw₀
  have h3 : (winBuf cfg c V w₀ fullShare : sProp 𝕄) = iprop(winBuf cfg c V w₀ fullShare.left ∗ winBuf cfg c V w₀ fullShare.right) := by
    have hs : (winBuf cfg c V w₀ fullShare : sProp 𝕄) ⊣⊢ iprop(winBuf cfg c V w₀ fullShare.left ∗ winBuf cfg c V w₀ fullShare.right) :=
      pointsTo_share (PosShare.mem_left_op_right fullShare)
    exact BI.equiv_iff.mp ⟨hs.1, hs.2⟩
  -- the windows' arrays: w₁'s at the right half, w₀'s at the left half, the others' whole
  have e1 : dat.share w₁ = fullShare.right := by rw [hshare, if_neg (Ne.symm hne), if_pos rfl]
  have e0 : dat.share w₀ = fullShare.left := by rw [hshare, if_pos rfl]
  have h1 : bigSep Finset.univ (fun w => (winBuf cfg c V w (dat.share w) : sProp 𝕄))
      = iprop(winBuf cfg c V w₁ fullShare.right ∗ winBuf cfg c V w₀ fullShare.left
          ∗ bigSep ((Finset.univ.erase w₁).erase w₀) fun w => (winBuf cfg c V w fullShare : sProp 𝕄)) := by
    rw [bigSep_erase (Finset.mem_univ w₁), bigSep_erase hw₀, e1, e0]
    congr 2
    exact bigSep_congr fun w hw => by
      rw [hshare, if_neg (Finset.ne_of_mem_erase hw), if_neg (Finset.ne_of_mem_erase (Finset.mem_of_mem_erase hw))]
  -- w₁'s buffer is w₀'s
  have h4 : (winBuf cfg c V w₁ fullShare.right : sProp 𝕄) = winBuf cfg c V w₀ fullShare.right := by
    unfold winBuf; rw [h01]
  rw [arrays_eq_winBufs cfg c dat harr V F hF, hbufs, h1, h2, h3, h4]
  refine BI.equiv_iff.mp ⟨?_, ?_⟩
  · show (_ : sProp 𝕄) ⊢ _
    iintro ⟨Hr, Hl, Hs⟩
    isplitl [Hl Hr]
    · isplitl [Hl] <;> iassumption
    iexact Hs
  · show (_ : sProp 𝕄) ⊢ _
    iintro ⟨⟨Hl, Hr⟩, Hs⟩
    isplitl [Hr]; · iexact Hr
    isplitl [Hl] <;> iassumption

/-- ENTRY, shared array: the distinct buffers behind the arrays, whole at `V`, deal the pipeline its arrays at the
    contents read off `V` (`arrays_eq_arrBufs_shared`, right to left). -/
theorem arrBufs_split_shared (w₀ w₁ : Fin cfg.W) (hne : w₀ ≠ w₁) (h01 : arrRef cfg.spec w₀ = arrRef cfg.spec w₁)
    (hinj : ∀ w w', w ≠ w₁ → w' ≠ w₁ → arrRef cfg.spec w = arrRef cfg.spec w' → w = w')
    (harr : ∀ w, (cfg.spec w).arr.IsWhole)
    (hshare : ∀ w, dat.share w = if w = w₀ then fullShare.left else if w = w₁ then fullShare.right else fullShare)
    (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    (arrBufs cfg.spec c V : sProp 𝕄) ⊢ dat.arrays F :=
  Entails.of_eq (arrays_eq_arrBufs_shared cfg c dat w₀ w₁ hne h01 hinj harr hshare V F hF).symm

/-- EXIT, shared array: the pipeline's arrays at contents read off `V` are collected into the distinct buffers behind
    them, whole at `V` (`arrays_eq_arrBufs_shared`, left to right). -/
theorem arrBufs_join_shared (w₀ w₁ : Fin cfg.W) (hne : w₀ ≠ w₁) (h01 : arrRef cfg.spec w₀ = arrRef cfg.spec w₁)
    (hinj : ∀ w w', w ≠ w₁ → w' ≠ w₁ → arrRef cfg.spec w = arrRef cfg.spec w' → w = w')
    (harr : ∀ w, (cfg.spec w).arr.IsWhole)
    (hshare : ∀ w, dat.share w = if w = w₀ then fullShare.left else if w = w₁ then fullShare.right else fullShare)
    (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    dat.arrays F ⊢ (arrBufs cfg.spec c V : sProp 𝕄) :=
  Entails.of_eq (arrays_eq_arrBufs_shared cfg c dat w₀ w₁ hne h01 hinj harr hshare V F hF)

/-- ENTRY, distinct arrays (`arrays_eq_arrBufs_distinct`, right to left). -/
theorem arrBufs_split_distinct (hinj : Function.Injective (arrRef cfg.spec)) (harr : ∀ w, (cfg.spec w).arr.IsWhole)
    (hshare : ∀ w, dat.share w = fullShare) (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    (arrBufs cfg.spec c V : sProp 𝕄) ⊢ dat.arrays F :=
  Entails.of_eq (arrays_eq_arrBufs_distinct cfg c dat hinj harr hshare V F hF).symm

/-- EXIT, distinct arrays (`arrays_eq_arrBufs_distinct`, left to right). -/
theorem arrBufs_join_distinct (hinj : Function.Injective (arrRef cfg.spec)) (harr : ∀ w, (cfg.spec w).arr.IsWhole)
    (hshare : ∀ w, dat.share w = fullShare) (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    dat.arrays F ⊢ (arrBufs cfg.spec c V : sProp 𝕄) :=
  Entails.of_eq (arrays_eq_arrBufs_distinct cfg c dat hinj harr hshare V F hF)

end Share

/-! ## The region's segment record -/

section Region

variable {Λ₀ : Idealize.SL.Sem.Labels} {P : Type} [Fintype P]
variable (pcs : P → PCfg sig Λ₀ Val) (a : (p : P) → (pcs p).Adm)
  (pdats : (p : P) → (c : Dev nD) → Dat τ Val Unit ℕ U ℕ (pin pcs a p) c)
  (defs₀ : Defs nD τ sig Val Λ₀) (𝒱₀ : Variants)
  (L : GSem nD τ sig → Finset Unit) (lv : GSem nD τ sig → Unit → ℕ)

/-- A kernel region entered from every unscoped buffer held whole at `Vin c` (beside `R c`) and left at `Vout c`:
    no prefetched table, no semaphore of the kernel's own, nothing owed. The body's invariant at the first point is
    made of the generator register and the scoped buffers that are no staging buffer (`hin`), and gives them back at
    the last point (`hout`). The buffers behind the arrays are dealt to the windows by `hsplit` at entry and
    collected by `hjoin` at exit; off those buffers the valuation is unchanged (`hrest`). -/
def regionSegHeld (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hin : ∀ c, (iprop((∃ r, prngReg c r) ∗ Pipeline.scopedRest (pin pcs a p).spec c) : sProp 𝕄) ⊢ (pdats p c).Φ 0)
    (hout : ∀ c, (pdats p c).Φ (Fin.last (pin pcs a p).N) ⊢ (iprop((∃ r, prngReg c r) ∗ Pipeline.scopedRest (pin pcs a p).spec c) : sProp 𝕄))
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) :
    Pipeline.RegionSeg pcs a pdats () defs₀ 𝒱₀ L lv p where
  win := win
  block_pos := block_pos
  stage_whole := stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := unscopedRest (Ix := Unit) (Name := ℕ) (U := U) (Lvl := ℕ) (pin pcs a p).spec c (fun b => Vin c b)
  hentry c := by
    -- the unscoped buffers at `Vin c` are the buffers behind the arrays and the rest; the former are dealt to the windows
    rw [Pipeline.ownSems0_none]
    have hub : (StableHlo.held (c : Thread nD τ) (Pipeline.ucRefs τ sig) (Vin c) : sProp 𝕄)
        = iprop(arrBufs (pin pcs a p).spec c (fun b => Vin c b) ∗ unscopedRest (pin pcs a p).spec c (fun b => Vin c b)) := by
      rw [← Pipeline.unscopedBufs_held, Pipeline.unscopedBufs_split₀ (pin pcs a) p win.arr_unscoped c]
    rw [hub]
    have hs := hsplit c
    iintro ⟨⟨⟨Hab, Hrest⟩, Hp, HO⟩, -, -⟩
    ihave Ha := hs $$ Hab
    imodintro
    isplitl [Ha]; · iexact Ha
    isplitr
    · -- no table is prefetched: nothing to hold
      unfold Pipeline.prefHeld
      rw [show (Finset.univ : Finset (Fin (pcs p).pre.K)) = ∅ from
        Finset.univ_eq_empty_iff.mpr ⟨fun k => by have := k.isLt; omega⟩, BI.bigSep_empty]
      iempintro
    isplitl [HO]
    · -- nothing owed; any recorded set lies within the first point's bound
      unfold Pipeline.Dat.owesAt Pipeline.owesWithin
      icases HO with ⟨%W, HO⟩; iexists W; isplitr
      · ipureintro; exact fun x _ => Or.inl (by rw [hrec c]; trivial)
      rw [howed c 0]; iexact HO
    isplitl [Hp]; · iexact Hp
    iexact Hrest
  hin c := by
    have h := hin c
    iintro ⟨Hp, -, Hr⟩
    iapply h
    isplitl [Hp] <;> iassumption
  hout c := by
    rw [Pipeline.ownSems0_none]
    refine (hout c).trans ?_
    iintro ⟨Hp, Hr⟩
    isplitl [Hp]; · iexact Hp
    isplitr; · iempintro
    iexact Hr
  hexit c := by
    -- the unscoped buffers at `Vout c` are the buffers behind the arrays at `Vout c` and the rest, unchanged since entry
    have hub : (StableHlo.held (c : Thread nD τ) (Pipeline.ucRefs τ sig) (Vout c) : sProp 𝕄)
        = iprop(arrBufs (pin pcs a p).spec c (fun b => Vout c b) ∗ unscopedRest (pin pcs a p).spec c (fun b => Vin c b)) := by
      rw [← Pipeline.unscopedBufs_held, Pipeline.unscopedBufs_split₀ (pin pcs a) p win.arr_unscoped c]
      congr 1
      unfold Pipeline.unscopedRest
      exact bigSep_congr fun b hb => by beta_reduce; rw [hrest c b (Finset.mem_sdiff.mp hb).2]
    rw [hub]
    have hj := hjoin c
    iintro ⟨Ha, HO, HY, Hrest⟩
    ihave Hab := hj $$ Ha
    imodintro
    isplitl [Hab Hrest]
    · isplitl [Hab] <;> iassumption
    isplitl [HY]; · iexact HY
    unfold Pipeline.Dat.owesAt Pipeline.owesWithin
    icases HO with ⟨%W, -, HO⟩; iexists W
    rw [howed c (Fin.last _)]; iexact HO

/-- The thread state `regionSegHeld` is entered from. -/
theorem regionSegHeld_pre (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hin : ∀ c, (iprop((∃ r, prngReg c r) ∗ Pipeline.scopedRest (pin pcs a p).spec c) : sProp 𝕄) ⊢ (pdats p c).Φ 0)
    (hout : ∀ c, (pdats p c).Φ (Fin.last (pin pcs a p).N) ⊢ (iprop((∃ r, prngReg c r) ∗ Pipeline.scopedRest (pin pcs a p).spec c) : sProp 𝕄))
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) (c : Dev nD) :
    (regionSegHeld pcs a pdats defs₀ 𝒱₀ L lv p win block_pos stage_whole hpre hbody hin hout howed hrec Vin Vout hsplit hjoin hrest).pre c
      = iprop(StableHlo.held (c : Thread nD τ) (Pipeline.ucRefs τ sig) (Vin c) ∗ R c) := rfl

/-- The thread state `regionSegHeld` leaves. -/
theorem regionSegHeld_post (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hin : ∀ c, (iprop((∃ r, prngReg c r) ∗ Pipeline.scopedRest (pin pcs a p).spec c) : sProp 𝕄) ⊢ (pdats p c).Φ 0)
    (hout : ∀ c, (pdats p c).Φ (Fin.last (pin pcs a p).N) ⊢ (iprop((∃ r, prngReg c r) ∗ Pipeline.scopedRest (pin pcs a p).spec c) : sProp 𝕄))
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) (c : Dev nD) :
    (regionSegHeld pcs a pdats defs₀ 𝒱₀ L lv p win block_pos stage_whole hpre hbody hin hout howed hrec Vin Vout hsplit hjoin hrest).post c
      = iprop(StableHlo.held (c : Thread nD τ) (Pipeline.ucRefs τ sig) (Vout c) ∗ R c) := rfl

/-- The class invariant (the scoped buffers that are no staging buffer, the generator register) is made of the
    generator register and those scoped buffers. -/
theorem ΦA_of (p : P) (c : Dev nD) :
    (iprop((∃ r, prngReg c r) ∗ Pipeline.scopedRest (pin pcs a p).spec c) : sProp 𝕄) ⊢ Pipeline.ΦA (pin pcs a p).spec c := by
  unfold Pipeline.ΦA
  iintro ⟨Hp, Hr⟩
  isplitl [Hr] <;> iassumption

/-- The class invariant gives back the generator register and the scoped buffers that are no staging buffer. -/
theorem of_ΦA (p : P) (c : Dev nD) :
    (Pipeline.ΦA (pin pcs a p).spec c : sProp 𝕄) ⊢ iprop((∃ r, prngReg c r) ∗ Pipeline.scopedRest (pin pcs a p).spec c) := by
  unfold Pipeline.ΦA
  iintro ⟨Hr, Hp⟩
  isplitl [Hp] <;> iassumption

/-- `regionSegHeld` for a body whose invariant at the first and at the last point IS the class invariant. -/
def regionSegHeldA (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hΦ0 : ∀ c, (pdats p c).Φ 0 = Pipeline.ΦA (pin pcs a p).spec c)
    (hΦN : ∀ c, (pdats p c).Φ (Fin.last (pin pcs a p).N) = Pipeline.ΦA (pin pcs a p).spec c)
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) :
    Pipeline.RegionSeg pcs a pdats () defs₀ 𝒱₀ L lv p :=
  regionSegHeld pcs a pdats defs₀ 𝒱₀ L lv p win block_pos stage_whole hpre hbody
    (fun c => by rw [hΦ0 c]; exact ΦA_of pcs a p c) (fun c => by rw [hΦN c]; exact of_ΦA pcs a p c)
    howed hrec Vin Vout hsplit hjoin hrest

/-- The thread state `regionSegHeldA` is entered from. -/
theorem regionSegHeldA_pre (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hΦ0 : ∀ c, (pdats p c).Φ 0 = Pipeline.ΦA (pin pcs a p).spec c)
    (hΦN : ∀ c, (pdats p c).Φ (Fin.last (pin pcs a p).N) = Pipeline.ΦA (pin pcs a p).spec c)
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) (c : Dev nD) :
    (regionSegHeldA pcs a pdats defs₀ 𝒱₀ L lv p win block_pos stage_whole hpre hbody hΦ0 hΦN howed hrec Vin Vout hsplit hjoin hrest).pre c
      = iprop(StableHlo.held (c : Thread nD τ) (Pipeline.ucRefs τ sig) (Vin c) ∗ R c) := rfl

/-- The thread state `regionSegHeldA` leaves. -/
theorem regionSegHeldA_post (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hΦ0 : ∀ c, (pdats p c).Φ 0 = Pipeline.ΦA (pin pcs a p).spec c)
    (hΦN : ∀ c, (pdats p c).Φ (Fin.last (pin pcs a p).N) = Pipeline.ΦA (pin pcs a p).spec c)
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) (c : Dev nD) :
    (regionSegHeldA pcs a pdats defs₀ 𝒱₀ L lv p win block_pos stage_whole hpre hbody hΦ0 hΦN howed hrec Vin Vout hsplit hjoin hrest).post c
      = iprop(StableHlo.held (c : Thread nD τ) (Pipeline.ucRefs τ sig) (Vout c) ∗ R c) := rfl

end Region

end Cert.LibRegion

end
-- ==== Proof.LibRegionPD.lean ====
import Idealize.ShloMosaic.Lib.Pipeline.Frame
import Idealize.ShloMosaic.Lib.Pipeline.FrameBody
import Idealize.ShloMosaic.Lib.Pipeline.Regions
import Idealize.ShloMosaic.Lib.Pipeline.RegionsLoop
import Idealize.ShloMosaic.Lib.Tactic

/-!
# A kernel region with prefetched tables, semaphores of its own and operands it reads by its own transfers

`regionSegHeldPD` builds the segment record of a kernel region whose thread state before and after is every unscoped
buffer of the core held whole at a valuation, beside the generator register and the core owing nothing, for a kernel
that reads prefetched tables, signals and waits on semaphores `osem` of its own, and reads by transfers of its own some
unscoped buffers `H` that are no window's array and no table.

The unscoped buffers are the distinct buffers behind the windows' arrays, the tables, the buffers `H`, and the rest.
The first are dealt to the windows (`hsplit` / `hjoin`). The tables are handed whole to the pipeline, carried by the
body's invariant from the first point to the last and put back. The buffers `H` enter the body's invariant whole at the
entry valuation, beside the generator register and the kernel's own cells, which the region receives at zero; the
invariant at the last point gives all of them back, the cells at zero again. The rest, less `H`, bypasses the region.
Off the arrays' buffers the valuation is unchanged, so the tables, the buffers `H` and the rest hold the same contents
after the region as before it.
-/

noncomputable section

namespace Cert.LibRegionPD

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg PCfg Window BodyObligationLoose WinFacts WinFacts₀ arrRef arrBufs unscopedRest unscopedRestP prefHeld pin)

variable {nD : Nat} {τ : Topo} {sig : RefSig} {Val : EltTy → Type}
variable {U : Type} [URA U]

local notation "𝕄" => MT nD τ sig Unit Val ℕ U ℕ

/-- What rides beside the buffers through every segment: the core's generator register at some state and the core
    owing nothing, at some recorded set. -/
abbrev R (c : Dev nD) : sProp 𝕄 :=
  iprop((∃ r, prngReg c r) ∗ ∃ W, owes (c : Thread nD τ) (0 : CellTallies nD τ sig Unit) W)

section Region

variable {Λ₀ : Idealize.SL.Sem.Labels} {P : Type} [Fintype P]
variable (pcs : P → PCfg sig Λ₀ Val) (a : (p : P) → (pcs p).Adm)
  (pdats : (p : P) → (c : Dev nD) → Dat τ Val Unit ℕ U ℕ (pin pcs a p) c)
  (defs₀ : Defs nD τ sig Val Λ₀) (𝒱₀ : Variants)
  (L : GSem nD τ sig → Finset Unit) (lv : GSem nD τ sig → Unit → ℕ)

/-- The unscoped buffers of a core held whole at a valuation `V` are the distinct buffers behind the windows' arrays
    at `V`, the prefetched tables at the contents `V` names for them, the buffers `H` at `V`, and the remaining
    unscoped buffers at `V`. -/
theorem held_split (p : P) (win : WinFacts₀ (pcs p).spec) (hp : Pipeline.PreFacts (pcs p).spec (pcs p).pre)
    (H : Finset (Ref sig .tc)) (hH : H ⊆ Pipeline.restRefsP sig (pcs p).pre (pin pcs a p).spec)
    (c : Dev nD) (V : Valuation τ sig Val) :
    (StableHlo.held (c : Thread nD τ) (Pipeline.ucRefs τ sig) V : sProp 𝕄)
      = iprop(arrBufs (pin pcs a p).spec c (fun b => V b)
          ∗ prefHeld (pcs p).pre c (fun _ => fullShare) (fun k => (fun b : Ref sig .tc => V b) ((pcs p).pre.ref k))
          ∗ (bigSep H fun b => ((c.tc : Thread nD τ).loc b) ↦{fullShare} (fun b : Ref sig .tc => V b) b)
          ∗ bigSep (Pipeline.restRefsP sig (pcs p).pre (pin pcs a p).spec \ H) fun b =>
              ((c.tc : Thread nD τ).loc b) ↦{fullShare} (fun b : Ref sig .tc => V b) b) := by
  classical
  rw [← Pipeline.unscopedBufs_held, Pipeline.unscopedBufs_split₀ (pin pcs a) p win.arr_unscoped c,
    Pipeline.unscopedRest_split (win := (pin pcs a p).spec) hp c]
  unfold Pipeline.unscopedRestP
  rw [BI.bigSep_sdiff_split hH]
  rfl

/-- A kernel region with prefetched tables, semaphores `osem` of its own and buffers `H` it reads by its own transfers,
    entered from every unscoped buffer held whole at `Vin c` (beside `R c`) and left at `Vout c`; nothing owed. The
    tables' buffers hold the admitted contents at entry (`htbl`); the buffers `H` are unscoped, no window's array and no
    table (`hH`). The body's invariant at the first point is made of the generator register, the kernel's own cells at
    zero, the buffers `H` whole at `Vin c`, the tables held whole at the admitted contents and the scoped buffers that
    are no staging buffer (`hin`), and gives them back at the last point, the cells at zero again (`hout`). The buffers
    behind the arrays are dealt to the windows by `hsplit` at entry and collected by `hjoin` at exit; off those buffers
    the valuation is unchanged (`hrest`), the tables and the buffers `H` included. -/
def regionSegHeldPD (p : P) (win : WinFacts₀ (pcs p).spec)
    (hp : Pipeline.PreFacts (pcs p).spec (pcs p).pre)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    {K : Type} [Fintype K] (osem : K → SemLoc sig) (ho : Pipeline.OwnSemFacts (pcs p).spec osem)
    (H : Finset (Ref sig .tc)) (hH : H ⊆ Pipeline.restRefsP sig (pcs p).pre (pin pcs a p).spec)
    (hbody : ∀ c, BodyObligationLoose (pdats p c) defs₀ 𝒱₀ () Set.univ)
    (Vin Vout : Dev nD → Valuation τ sig Val)
    (hin : ∀ c, (iprop((∃ r, prngReg c r) ∗ Pipeline.ownSems0 osem c ∗ (bigSep H fun b => ((c.tc : Thread nD τ).loc b) ↦{fullShare} (fun b : Ref sig .tc => Vin c b) b) ∗ Pipeline.prefHeld (pcs p).pre c (fun _ => fullShare) (a p).1 ∗ Pipeline.scopedRest (pin pcs a p).spec c) : sProp 𝕄) ⊢ (pdats p c).Φ 0)
    (hout : ∀ c, (pdats p c).Φ (Fin.last (pin pcs a p).N) ⊢ (iprop((∃ r, prngReg c r) ∗ Pipeline.ownSems0 osem c ∗ (bigSep H fun b => ((c.tc : Thread nD τ).loc b) ↦{fullShare} (fun b : Ref sig .tc => Vin c b) b) ∗ Pipeline.prefHeld (pcs p).pre c (fun _ => fullShare) (a p).1 ∗ Pipeline.scopedRest (pin pcs a p).spec c) : sProp 𝕄))
    (howed : ∀ c t, (pdats p c).owed t = 0)
    (hrec : ∀ c, (pdats p c).recorded 0 = Set.univ)
    (htbl : ∀ c k, (fun b : Ref sig .tc => Vin c b) ((pcs p).pre.ref k) = (a p).1 k)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) :
    Pipeline.RegionSeg pcs a pdats () defs₀ 𝒱₀ L lv p where
  win := win
  block_pos := block_pos
  stage_whole := stage_whole
  K := K
  osem := osem
  ho := ho
  hbody := hbody
  hwaits := Pipeline.hwaits_of_owed_zero _ _ _ _ L lv p howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop((∃ r, prngReg c r) ∗ Pipeline.ownSems0 (Ix := Unit) (Name := ℕ) (U := U) (Lvl := ℕ) (Val := Val) (τ := τ) osem c ∗ (bigSep H fun b => ((c.tc : Thread nD τ).loc b) ↦{fullShare} (fun b : Ref sig .tc => Vin c b) b))
  Y c := iprop((∃ r, prngReg c r) ∗ (bigSep H fun b => ((c.tc : Thread nD τ).loc b) ↦{fullShare} (fun b : Ref sig .tc => Vin c b) b)
    ∗ prefHeld (Ix := Unit) (Name := ℕ) (U := U) (Lvl := ℕ) (pcs p).pre c (fun _ => fullShare) (a p).1)
  Z c := bigSep (Pipeline.restRefsP sig (pcs p).pre (pin pcs a p).spec \ H) fun b =>
    ((c.tc : Thread nD τ).loc b) ↦{fullShare} (fun b : Ref sig .tc => Vin c b) b
  hentry c := by
    -- the unscoped buffers at `Vin c` are the arrays' buffers, the tables at the admitted contents, `H`, and the rest
    rw [held_split pcs a p win hp H hH c (Vin c),
      show (fun k => (fun b : Ref sig .tc => Vin c b) ((pcs p).pre.ref k)) = (a p).1 from funext fun k => htbl c k]
    have hs := hsplit c
    iintro ⟨⟨⟨Hab, Ht, HH, Hrest⟩, Hp, HO⟩, Hos, -⟩
    ihave Ha := hs $$ Hab
    imodintro
    isplitl [Ha]; · iexact Ha
    isplitl [Ht]; · iexact Ht
    isplitl [HO]
    · -- nothing owed; any recorded set lies within the first point's bound
      unfold Pipeline.Dat.owesAt Pipeline.owesWithin
      icases HO with ⟨%W, HO⟩; iexists W; isplitr
      · ipureintro; exact fun x _ => Or.inl (by rw [hrec c]; trivial)
      rw [howed c 0]; iexact HO
    isplitl [Hp Hos HH]
    · isplitl [Hp]; · iexact Hp
      isplitl [Hos]; · iexact Hos
      iexact HH
    iexact Hrest
  hin c := by
    refine BIBase.Entails.trans ?_ (hin c)
    iintro ⟨⟨Hp, Ho, HH⟩, Ht, Hr⟩
    isplitl [Hp]; · iexact Hp
    isplitl [Ho]; · iexact Ho
    isplitl [HH]; · iexact HH
    isplitl [Ht]; · iexact Ht
    iexact Hr
  hout c := by
    refine (hout c).trans ?_
    iintro ⟨Hp, Ho, HH, Ht, Hr⟩
    isplitl [Hp HH Ht]
    · isplitl [Hp]; · iexact Hp
      isplitl [HH]; · iexact HH
      iexact Ht
    isplitl [Ho]; · iexact Ho
    iexact Hr
  hexit c := by
    -- off the arrays' buffers `Vout c` is `Vin c`: the tables still hold the admitted contents, `H` and the rest are unchanged
    have htab : (fun k => (fun b : Ref sig .tc => Vout c b) ((pcs p).pre.ref k)) = (a p).1 := funext fun k => by
      have hk : (pcs p).pre.ref k ∉ Finset.univ.image (arrRef (pin pcs a p).spec) := fun h => by
        obtain ⟨w, -, hw⟩ := Finset.mem_image.mp h
        exact hp.disj k w hw.symm
      beta_reduce
      rw [hrest c _ hk]
      exact htbl c k
    have hHeq : ((bigSep H fun b => ((c.tc : Thread nD τ).loc b) ↦{fullShare} (fun b : Ref sig .tc => Vout c b) b) : sProp 𝕄)
        = (bigSep H fun b => ((c.tc : Thread nD τ).loc b) ↦{fullShare} (fun b : Ref sig .tc => Vin c b) b) :=
      bigSep_congr fun b hb => by
        beta_reduce; rw [hrest c b (Finset.mem_sdiff.mp (Finset.mem_sdiff.mp (hH hb)).1).2]
    have hZ : ((bigSep (Pipeline.restRefsP sig (pcs p).pre (pin pcs a p).spec \ H) fun b =>
          ((c.tc : Thread nD τ).loc b) ↦{fullShare} (fun b : Ref sig .tc => Vout c b) b) : sProp 𝕄)
        = bigSep (Pipeline.restRefsP sig (pcs p).pre (pin pcs a p).spec \ H) fun b =>
          ((c.tc : Thread nD τ).loc b) ↦{fullShare} (fun b : Ref sig .tc => Vin c b) b :=
      bigSep_congr fun b hb => by
        beta_reduce; rw [hrest c b (Finset.mem_sdiff.mp (Finset.mem_sdiff.mp (Finset.mem_sdiff.mp hb).1).1).2]
    rw [held_split pcs a p win hp H hH c (Vout c), htab, hHeq, hZ]
    have hj := hjoin c
    iintro ⟨Ha, HO, ⟨Hp, HH, Ht⟩, Hrest⟩
    ihave Hab := hj $$ Ha
    imodintro
    isplitl [Hab Ht HH Hrest]
    · isplitl [Hab]; · iexact Hab
      isplitl [Ht]; · iexact Ht
      isplitl [HH]; · iexact HH
      iexact Hrest
    isplitl [Hp]; · iexact Hp
    unfold Pipeline.Dat.owesAt Pipeline.owesWithin
    icases HO with ⟨%W, -, HO⟩; iexists W
    rw [howed c (Fin.last _)]; iexact HO

/-- The thread state `regionSegHeldPD` is entered from. -/
theorem regionSegHeldPD_pre (p : P) (win : WinFacts₀ (pcs p).spec)
    (hp : Pipeline.PreFacts (pcs p).spec (pcs p).pre)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    {K : Type} [Fintype K] (osem : K → SemLoc sig) (ho : Pipeline.OwnSemFacts (pcs p).spec osem)
    (H : Finset (Ref sig .tc)) (hH : H ⊆ Pipeline.restRefsP sig (pcs p).pre (pin pcs a p).spec)
    (hbody : ∀ c, BodyObligationLoose (pdats p c) defs₀ 𝒱₀ () Set.univ)
    (Vin Vout : Dev nD → Valuation τ sig Val)
    (hin : ∀ c, (iprop((∃ r, prngReg c r) ∗ Pipeline.ownSems0 osem c ∗ (bigSep H fun b => ((c.tc : Thread nD τ).loc b) ↦{fullShare} (fun b : Ref sig .tc => Vin c b) b) ∗ Pipeline.prefHeld (pcs p).pre c (fun _ => fullShare) (a p).1 ∗ Pipeline.scopedRest (pin pcs a p).spec c) : sProp 𝕄) ⊢ (pdats p c).Φ 0)
    (hout : ∀ c, (pdats p c).Φ (Fin.last (pin pcs a p).N) ⊢ (iprop((∃ r, prngReg c r) ∗ Pipeline.ownSems0 osem c ∗ (bigSep H fun b => ((c.tc : Thread nD τ).loc b) ↦{fullShare} (fun b : Ref sig .tc => Vin c b) b) ∗ Pipeline.prefHeld (pcs p).pre c (fun _ => fullShare) (a p).1 ∗ Pipeline.scopedRest (pin pcs a p).spec c) : sProp 𝕄))
    (howed : ∀ c t, (pdats p c).owed t = 0)
    (hrec : ∀ c, (pdats p c).recorded 0 = Set.univ)
    (htbl : ∀ c k, (fun b : Ref sig .tc => Vin c b) ((pcs p).pre.ref k) = (a p).1 k)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) (c : Dev nD) :
    (regionSegHeldPD pcs a pdats defs₀ 𝒱₀ L lv p win hp block_pos stage_whole osem ho H hH hbody Vin Vout hin hout howed hrec htbl hsplit hjoin hrest).pre c
      = iprop(StableHlo.held (c : Thread nD τ) (Pipeline.ucRefs τ sig) (Vin c) ∗ R c) := rfl

/-- The thread state `regionSegHeldPD` leaves. -/
theorem regionSegHeldPD_post (p : P) (win : WinFacts₀ (pcs p).spec)
    (hp : Pipeline.PreFacts (pcs p).spec (pcs p).pre)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    {K : Type} [Fintype K] (osem : K → SemLoc sig) (ho : Pipeline.OwnSemFacts (pcs p).spec osem)
    (H : Finset (Ref sig .tc)) (hH : H ⊆ Pipeline.restRefsP sig (pcs p).pre (pin pcs a p).spec)
    (hbody : ∀ c, BodyObligationLoose (pdats p c) defs₀ 𝒱₀ () Set.univ)
    (Vin Vout : Dev nD → Valuation τ sig Val)
    (hin : ∀ c, (iprop((∃ r, prngReg c r) ∗ Pipeline.ownSems0 osem c ∗ (bigSep H fun b => ((c.tc : Thread nD τ).loc b) ↦{fullShare} (fun b : Ref sig .tc => Vin c b) b) ∗ Pipeline.prefHeld (pcs p).pre c (fun _ => fullShare) (a p).1 ∗ Pipeline.scopedRest (pin pcs a p).spec c) : sProp 𝕄) ⊢ (pdats p c).Φ 0)
    (hout : ∀ c, (pdats p c).Φ (Fin.last (pin pcs a p).N) ⊢ (iprop((∃ r, prngReg c r) ∗ Pipeline.ownSems0 osem c ∗ (bigSep H fun b => ((c.tc : Thread nD τ).loc b) ↦{fullShare} (fun b : Ref sig .tc => Vin c b) b) ∗ Pipeline.prefHeld (pcs p).pre c (fun _ => fullShare) (a p).1 ∗ Pipeline.scopedRest (pin pcs a p).spec c) : sProp 𝕄))
    (howed : ∀ c t, (pdats p c).owed t = 0)
    (hrec : ∀ c, (pdats p c).recorded 0 = Set.univ)
    (htbl : ∀ c k, (fun b : Ref sig .tc => Vin c b) ((pcs p).pre.ref k) = (a p).1 k)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) (c : Dev nD) :
    (regionSegHeldPD pcs a pdats defs₀ 𝒱₀ L lv p win hp block_pos stage_whole osem ho H hH hbody Vin Vout hin hout howed hrec htbl hsplit hjoin hrest).post c
      = iprop(StableHlo.held (c : Thread nD τ) (Pipeline.ucRefs τ sig) (Vout c) ∗ R c) := rfl

end Region

end Cert.LibRegionPD

end
-- ==== Proof.AssembleI.lean ====
import proofs.«406446_j60224031424549_1_alg».proof.Proof.Gen.KernelIdeal.Launch
import proofs.«406446_j60224031424549_1_alg».proof.Proof.Gen.KernelIdeal.Regions
import proofs.«406446_j60224031424549_1_alg».proof.Proof.RegionsValueI
import proofs.«406446_j60224031424549_1_alg».proof.Proof.EncI
import proofs.«406446_j60224031424549_1_alg».proof.Proof.GatherI
import proofs.«406446_j60224031424549_1_alg».proof.Proof.GatherBody
import proofs.«406446_j60224031424549_1_alg».proof.Proof.LibRegion
import proofs.«406446_j60224031424549_1_alg».proof.Proof.LibRegionPD
import proofs.«406446_j60224031424549_1_alg».proof.Proof.Spec
import Idealize.ShloMosaic.Lib.Pipeline.Kit
import Idealize.ShloMosaic.Lib.Pipeline.Frame
import Idealize.ShloMosaic.Lib.Pipeline.Regions
import Idealize.ShloMosaic.Lib.Tactic

/-!
# The launch: both regions' records, and the run of the whole program

The program is two kernel regions in a row. The encoder reads the features, the weights and the bias and leaves the
encoded nodes in an intermediate array; the gather reads the index table, the diffusion matrix and that intermediate
array and leaves the result. Between the regions every unscoped buffer of the core is held whole at a valuation: the
launch memory, then the launch memory with the intermediate array at what the encoder's pipeline leaves, then that with
the result array at what the gather's pipeline leaves. This module fixes those valuations, the index table's contents
read off the launch memory, both pipelines' proof data, and builds each region's segment record from its body
obligation; the conditional frame then gives the run: every weakly fair execution terminates, the result array holds
what the gather's pipeline leaves, and every argument array holds its launch contents.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The index table, read off the launch memory -/

/-- The table's contents at launch (the program runs on one device: device 0's). -/
def tbl : pre1.Contents (Elt F) := fun j => m (((0 : Dev nD) : Thread nD τ).loc (pre1.ref j))

/-- Those contents as admissible contents of the gather's pipeline (its side condition is trivial). -/
def adm1 : (pcfg1 (F := F)).Adm := ⟨tbl m, trivial⟩

/-- Both pipelines' tables: the encoder has none. -/
abbrev adm : (p : Fin 2) → (pcfgs (F := F) p).Adm
  | ⟨0, _⟩ => cfg0.toPCfg_adm
  | ⟨1, _⟩ => adm1 m

/-- The table's words are row numbers exactly when the launch memory's index buffer holds row numbers. -/
theorem tbl_eq : TblOk (adm1 m) ↔ Cert.Spec.InRange (m (((0 : Dev nD) : Thread nD τ).loc main_arg4)) := Iff.rfl

/-! ## The buffers' contents between the regions -/

/-- The launch contents, at the TensorCore's references. -/
abbrev V0' (c : Dev nD) (b : Ref sig .tc) : Buf (Elt F) ((c : Thread nD τ).loc b) := Gen.V0 m c b

/-- What the encoder's pipeline leaves in the intermediate array. -/
def enc1 (c : Dev nD) : Buf (Elt F) ((c : Thread nD τ).loc main_v0) := (dat0 (V0' m) c).arrAt 3 cfg0.N

/-- The launch contents with the intermediate array at what the encoder leaves. -/
def W1 (c : Dev nD) : Valuation τ sig (Elt F) := Function.update (Gen.V0 m c) main_v0 (enc1 m c)
abbrev W1' (c : Dev nD) (b : Ref sig .tc) : Buf (Elt F) ((c : Thread nD τ).loc b) := W1 m c b

/-- What the gather's pipeline leaves in the result array. -/
def res1 (h : TblOk (adm1 m)) (c : Dev nD) : Buf (Elt F) ((c : Thread nD τ).loc main_v1) :=
  (dat1 (W1' m) (adm1 m) h c).arrAt 1 (cfg1 (adm1 m)).N

/-- The contents after the gather: the result array at what the gather leaves. -/
def W2 (h : TblOk (adm1 m)) (c : Dev nD) : Valuation τ sig (Elt F) := Function.update (W1 m c) main_v1 (res1 m h c)

/-- What the regions leave, as the conditional frame's unknowns: after the encoder the contents `W1`, after the gather
    `W2` (read only at the intermediate array after the first and at the result array after the second). -/
def outs (h : TblOk (adm1 m)) : Gen.Outs (F := F) := fun J r c =>
  (if J = 1 then W1 m c else W2 m h c) r

theorem outs_enc (h : TblOk (adm1 m)) (c : Dev nD) : outs m h 1 main_v0 c = enc1 m c := by
  unfold outs; rw [if_pos rfl]; exact Function.update_self _ _ _

theorem V1_eq (h : TblOk (adm1 m)) (c : Dev nD) : Gen.V1 m (outs m h) c = W1 m c := by
  unfold W1; rw [← outs_enc m h c]

/-- The contents the gather is entered from, at the TensorCore's references. -/
abbrev V1' (h : TblOk (adm1 m)) (c : Dev nD) (b : Ref sig .tc) : Buf (Elt F) ((c : Thread nD τ).loc b) := Gen.V1 m (outs m h) c b

theorem V1'_eq (h : TblOk (adm1 m)) : V1' m h = W1' m := by
  funext c b; exact congrFun (V1_eq m h c) _

theorem outs_res (h : TblOk (adm1 m)) (c : Dev nD) :
    outs m h 2 main_v1 c = (dat1 (V1' m h) (adm1 m) h c).arrAt 1 (cfg1 (adm1 m)).N := by
  rw [V1'_eq]; unfold outs; rw [if_neg (by decide)]; exact Function.update_self _ _ _

/-- The intermediate array the gather is entered from holds what the encoder's pipeline leaves. -/
theorem V1_enc (h : TblOk (adm1 m)) (c : Dev nD) : V1' m h c main_v0 = (dat0 (V0' m) c).arrAt 3 cfg0.N := by
  rw [V1'_eq]; exact Function.update_self _ _ _

/-- The diffusion matrix the gather is entered from is the launch memory's. -/
theorem V1_arg1 (h : TblOk (adm1 m)) (c : Dev nD) : V1' m h c main_arg1 = m ((c : Thread nD τ).loc main_arg1) :=
  Gen.V1_of m (outs m h) c main_arg1 (by decide)

/-! ## The proof data family and the launch's parameters -/

/-- Both pipelines' proof data, each at its region's entry contents. -/
def pdats (h : TblOk (adm1 m)) : (p : Fin 2) → (c : Dev nD) → Dat τ (Elt F) Unit ℕ (Pipeline.UD sig nD τ) ℕ (Pipeline.pin (pcfgs (F := F)) (adm m) p) c
  | ⟨0, _⟩ => fun c => dat0 (V0' m) c
  | ⟨1, _⟩ => fun c => dat1 (V1' m h) (adm1 m) h c

abbrev 𝒱₀ : Variants := Variants.none
/-- No core owes another anything: no level is assigned. -/
abbrev L : GSem nD τ sig → Finset Unit := fun _ => ∅
abbrev lv : GSem nD τ sig → Unit → ℕ := fun _ _ => 0

/-- A statement about each of four windows holds of every window. -/
theorem forall_fin4 {P : Fin 4 → Prop} (h0 : P 0) (h1 : P 1) (h2 : P 2) (h3 : P 3) : ∀ w, P w
  | ⟨0, _⟩ => h0 | ⟨1, _⟩ => h1 | ⟨2, _⟩ => h2 | ⟨3, _⟩ => h3

/-- A statement about each of two windows holds of every window. -/
theorem forall_fin2 {P : Fin 2 → Prop} (h0 : P 0) (h1 : P 1) : ∀ w, P w
  | ⟨0, _⟩ => h0 | ⟨1, _⟩ => h1

/-! ## The encoder's region -/

/-- At the encoder's exit each input array holds what it held at entry, which the exit valuation names for it. -/
theorem hF0_0 (h : TblOk (adm1 m)) (c : Dev nD) : (dat0 (V0' m) c).arrAt 0 cfg0.N = V1' m h c main_arg0 :=
  ((dat0 (V0' m) c).arrAt_in 0 rfl _).trans ((A_eq0 (V0' m) c 0).trans (Gen.V1_of m (outs m h) c main_arg0 (by decide)).symm)
theorem hF0_1 (h : TblOk (adm1 m)) (c : Dev nD) : (dat0 (V0' m) c).arrAt 1 cfg0.N = V1' m h c main_arg2 :=
  ((dat0 (V0' m) c).arrAt_in 1 rfl _).trans ((A_eq0 (V0' m) c 1).trans (Gen.V1_of m (outs m h) c main_arg2 (by decide)).symm)
theorem hF0_2 (h : TblOk (adm1 m)) (c : Dev nD) : (dat0 (V0' m) c).arrAt 2 cfg0.N = V1' m h c main_arg3 :=
  ((dat0 (V0' m) c).arrAt_in 2 rfl _).trans ((A_eq0 (V0' m) c 2).trans (Gen.V1_of m (outs m h) c main_arg3 (by decide)).symm)

set_option backward.isDefEq.respectTransparency.types false in
/-- The encoder's region: entered from the launch contents, left at the launch contents with the intermediate array at
    what the pipeline leaves. -/
def reg0 (h : TblOk (adm1 m)) : Pipeline.RegionSeg (pcfgs (F := F)) (adm m) (pdats m h) () defs₀ 𝒱₀ L lv 0 :=
  Cert.LibRegion.regionSegHeldA (pcfgs (F := F)) (adm m) (pdats m h) defs₀ 𝒱₀ L lv 0
    (launch0 (F := F)).win.to₀ (launch0 (F := F)).block_pos (launch0 (F := F)).stage_whole rfl
    (fun c => (body_obligation0 (V0' m) c).loose)
    (fun c => rfl) (fun c => rfl) (fun _ _ => rfl) (fun _ => rfl)
    (Gen.V0 m) (Gen.V1 m (outs m h))
    (fun c => Cert.LibRegion.arrBufs_split_distinct cfg0 c (dat0 (V0' m) c) (launch0 (F := F)).win.arr_inj (launch0 (F := F)).arr_whole
      ((dat0 (V0' m) c).share_full fun _ => rfl) (V0' m c) _ (fun w => A_eq0 (V0' m) c w))
    (fun c => Cert.LibRegion.arrBufs_join_distinct cfg0 c (dat0 (V0' m) c) (launch0 (F := F)).win.arr_inj (launch0 (F := F)).arr_whole
      ((dat0 (V0' m) c).share_full fun _ => rfl) (V1' m h c) _ (forall_fin4 (hF0_0 m h c) (hF0_1 m h c) (hF0_2 m h c) (V1_enc m h c).symm))
    (fun c b hb => Gen.V1_of m (outs m h) c b fun hmem => hb (by
      rw [List.mem_singleton.mp hmem]; exact Finset.mem_image.mpr ⟨3, Finset.mem_univ _, rfl⟩))

/-! ## The gather's region -/

/-- At the gather's exit the intermediate array holds what it held at entry. -/
theorem hF1_0 (h : TblOk (adm1 m)) (c : Dev nD) :
    (dat1 (V1' m h) (adm1 m) h c).arrAt 0 (cfg1 (adm1 m)).N = Gen.V2 m (outs m h) c main_v0 :=
  ((dat1 (V1' m h) (adm1 m) h c).arrAt_in 0 rfl _).trans
    ((A_eq1 (V1' m h) (adm1 m) h c 0).trans (Gen.V2_of m (outs m h) c main_v0 (by decide)).symm)
/-- At the gather's exit the result array holds what the pipeline leaves. -/
theorem hF1_1 (h : TblOk (adm1 m)) (c : Dev nD) :
    (dat1 (V1' m h) (adm1 m) h c).arrAt 1 (cfg1 (adm1 m)).N = Gen.V2 m (outs m h) c main_v1 :=
  ((Function.update_self _ _ _ : Gen.V2 m (outs m h) c main_v1 = outs m h 2 main_v1 c).trans (outs_res m h c)).symm

/-- On the one device the index table's buffer holds, when the gather is entered, the contents read off the launch
    memory: the encoder does not write it. -/
theorem htbl1 (h : TblOk (adm1 m)) (c : Dev nD) (k : Fin 1) :
    (fun b : Ref sig .tc => Gen.V1 m (outs m h) c b) (pre1.ref k) = (adm1 m).1 k := by
  obtain rfl : c = 0 := Subsingleton.elim _ _
  obtain rfl : k = 0 := Subsingleton.elim _ _
  exact Gen.V1_of m (outs m h) 0 main_arg4 (by decide)

set_option backward.isDefEq.respectTransparency.types false in
/-- The gather's region: entered from the contents the encoder left, left at those with the result array at what the
    pipeline leaves; the diffusion matrix enters the body's invariant whole and comes back, beside the kernel's own
    semaphores at zero and the index table. -/
def reg1 (h : TblOk (adm1 m)) : Pipeline.RegionSeg (pcfgs (F := F)) (adm m) (pdats m h) () defs₀ 𝒱₀ L lv 1 :=
  Cert.LibRegionPD.regionSegHeldPD (pcfgs (F := F)) (adm m) (pdats m h) defs₀ 𝒱₀ L lv 1
    (launch1 (F := F)).win.to₀ (launch1 (F := F)).pre (launch1 (F := F)).block_pos (launch1 (F := F)).stage_whole
    osem1 ownSemFacts1 H1 H1_sub
    (fun c => (body_obligation1 (V1' m h) (adm1 m) h c).loose)
    (Gen.V1 m (outs m h)) (Gen.V2 m (outs m h))
    (fun c => .rfl) (fun c => .rfl) (fun _ _ => rfl) (fun _ => rfl)
    (htbl1 m h)
    (fun c => Cert.LibRegion.arrBufs_split_distinct (cfg1 (adm1 m)) c (dat1 (V1' m h) (adm1 m) h c) (launch1 (F := F)).win.arr_inj (launch1 (F := F)).arr_whole
      ((dat1 (V1' m h) (adm1 m) h c).share_full fun _ => rfl) (V1' m h c) _ (fun w => A_eq1 (V1' m h) (adm1 m) h c w))
    (fun c => Cert.LibRegion.arrBufs_join_distinct (cfg1 (adm1 m)) c (dat1 (V1' m h) (adm1 m) h c) (launch1 (F := F)).win.arr_inj (launch1 (F := F)).arr_whole
      ((dat1 (V1' m h) (adm1 m) h c).share_full fun _ => rfl) (fun b => Gen.V2 m (outs m h) c b) _
      (forall_fin2 (hF1_0 m h c) (hF1_1 m h c)))
    (fun c b hb => Gen.V2_of m (outs m h) c b fun hmem => hb (by
      rw [List.mem_singleton.mp hmem]; exact Finset.mem_image.mpr ⟨1, Finset.mem_univ _, rfl⟩))

/-! ## The run -/

/-- What rides beside the buffers between the regions: the generator register at some state, the core owing nothing. -/
abbrev E (_ : Fin 3) (c : Dev nD) : sProp 𝕄 := Cert.LibRegion.R c

/-- The launch element: the pipelines' cells and launch tokens, beside the trivial counters. -/
abbrev u₀ : Pipeline.UD sig nD τ :=
  (initOf (Pipeline.cells (Pipeline.pin (pcfgs (F := F)) (adm m)) (cellOf_inj (adm m)))
    (Pipeline.launchToks (Pipeline.pin (pcfgs (F := F)) (adm m)) (cellOf_inj (adm m))), 1)

theorem hu₀ : (ownU (u₀ m) : sProp 𝕄) ⊢ |={Set.univ}=> iprop(BI.own ((embL : Emb _ 𝕄)
      (initOf (Pipeline.cells (Pipeline.pin (pcfgs (F := F)) (adm m)) (cellOf_inj (adm m)))
        (Pipeline.launchToks (Pipeline.pin (pcfgs (F := F)) (adm m)) (cellOf_inj (adm m)))))
    ∗ bigSep Finset.univ fun _ : Dev nD => (BI.emp : sProp 𝕄)) := by
  iintro Hu
  ihave H := (ownU_pair _ _) $$ Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

/-- The launch deals each core its generator register and its tallies at nothing. -/
theorem hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
    ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- THE FRAME: from any launch memory whose index table holds row numbers, every weakly fair execution of the program
    terminates and every final memory holds each argument array as launched. -/
theorem frame (h : TblOk (adm1 m)) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Gen.frame_cond m (embL) () 𝒱₀ L lv (fun _ _ => rfl) ρ (outs m h) (adm m) (pdats m h) 0 (fun _ => iprop(emp)) (u₀ m) (hu₀ m)
    E (hE0 ρ) (fun c => by iintro ⟨-, H⟩; iexact H)
    (reg0 m h) (fun c => .rfl) (fun c => .rfl) (reg1 m h) (fun c => .rfl) (fun c => .rfl)

set_option backward.isDefEq.respectTransparency.types false in
/-- THE RESULT beside the frame: every final memory also holds in the result array what the gather's pipeline leaves
    there. -/
theorem value (h : TblOk (adm1 m)) : θ_run defs (onTc (τ := τ) (main (F := F))) ⟨m, fun _ => 0, ρ⟩ (fun r => ∀ c : Dev nD,
      r.2.mem ((c.tc : Thread nD τ).loc main_v1) = (dat1 (V1' m h) (adm1 m) h c).arrAt 1 (cfg1 (adm1 m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r hr c => ⟨(hr c).1.trans (outs_res m h c), (hr c).2⟩)
    (GenV.value_cond m (embL) () 𝒱₀ L lv (fun _ _ => rfl) ρ (outs m h) (adm m) (pdats m h) 0 (fun _ => iprop(emp)) (u₀ m) (hu₀ m)
      E (hE0 ρ) (fun c => by iintro ⟨-, H⟩; iexact H)
      (reg0 m h) (fun c => .rfl) (fun c => .rfl) (reg1 m h) (fun c => .rfl) (fun c => .rfl))

end Cert.KernelIdeal.Hand

end
-- ==== Proof.EncB.lean ====
import proofs.«406446_j60224031424549_1_alg».proof.Proof.Gen.Kernel.Launch
import proofs.«406446_j60224031424549_1_alg».proof.Proof.Gen.Kernel.Skeleton
import proofs.«406446_j60224031424549_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The encoder region: `enc = X · W + b`, eight blocks of 2048 rows

The first kernel of the program reads, at each of its eight grid points, one block of 2048 feature rows, the whole
weight matrix and the whole bias, and writes the block's 2048 encoded rows. This module states, for any float
instance, what each window's staging buffer holds before and after the body at a point, and proves the body's
obligation: the body run on those buffers leaves the inputs in place and the output buffer at the body's arithmetic
applied to the three input blocks.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is not
    fetched the block index has not moved, so the block fetched earlier is this point's. For any proof data whose
    array is the entry contents and whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is not
    fetched the block index has not moved, so the block fetched earlier is this point's. For any proof data whose
    array is the entry contents and whose body leaves the block in place. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: where it is not
    fetched the block index has not moved, so the block fetched earlier is this point's. For any proof data whose
    array is the entry contents and whose body leaves the block in place. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S2048x128 := Rect.unit (s := S2048x128) ![0, 0] S2048x128.size inb_S2048x128_S2048x128_0_0
abbrev r0_1 : Rect S128x64 := Rect.unit (s := S128x64) ![0, 0] S128x64.size inb_S128x64_S128x64_0_0
abbrev r0_2 : Rect S64 := Rect.unit (s := S64) ![0] S64.size inb_S64_S64_0
abbrev r0_3 : Rect S2048x64 := Rect.unit (s := S2048x64) ![0, 0] S2048x64.size inb_S2048x64_S2048x64_0_0

/-! ## What the body leaves in the output window's buffer -/

/-- Window 3's staging buffer after the body, from the input windows' blocks: its one whole store, the body's
    arithmetic of the three whole loads. -/
def out0_3 (x0 : Vec F S2048x128 .f32) (x1 : Vec F S128x64 .f32) (x2 : Vec F S64 .f32) : Vec F S2048x64 .bf16 :=
  View.canon [⟨r0_3, k0_pay1 (View.ld x0 r0_0) (View.ld x1 r0_1) (View.ld x2 r0_2)⟩]

/-- The one store is of the whole buffer, so it covers it. -/
theorem cover0_3 (p0 : Vec F S2048x64 .bf16) (y : S2048x64.Idx) :
    ∃ pc ∈ ([⟨r0_3, p0⟩] : List (View.Piece (Elt F) S2048x64 .bf16)), y ∈ pc.1.set :=
  View.cover_of_tiled [⟨r0_3, p0⟩] S2048x64.size (by rfl) y

/-! ## The body's triple -/

set_option maxHeartbeats 1000000 in
/-- The kernel body on whole staging memrefs, the inputs' at contents `x0 x1 x2` and the output's at anything, runs
    to the continuation holding the inputs' as they were and the output's at `out0_3` of the inputs'. -/
theorem sound_kernel0 (c : Dev nD) (E : Set ℕ) (i : grid0.Coords)
    (arg1 : Memref sig .tc .vmem S2048x128 .f32) (harg1 : arg1.IsWhole) (arg2 : Memref sig .tc .vmem S128x64 .f32) (harg2 : arg2.IsWhole)
    (arg3 : Memref sig .tc .vmem S64 .f32) (harg3 : arg3.IsWhole) (arg4 : Memref sig .tc .vmem S2048x64 .bf16) (harg4 : arg4.IsWhole)
    (x0 : Vec F S2048x128 .f32) (x1 : Vec F S128x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__encoder_kernel i arg1 harg1 arg2 harg2 arg3 harg3 arg4 harg4) K := by
  simp only [cc0__encoder_kernel_eq_skeleton]; unfold cc0__encoder_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the encoder's pipeline on core `c`: the arrays as the region finds them; after the body at
    point `t` each input's buffer at its block and the output's at the body's arithmetic of the three input blocks;
    the invariant the scoped rest and the generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.GatherB.lean ====
import proofs.«406446_j60224031424549_1_alg».proof.Proof.Gen.Kernel.Launch
import proofs.«406446_j60224031424549_1_alg».proof.Proof.Gen.Kernel.Skeleton
import proofs.«406446_j60224031424549_1_alg».proof.Proof.Gen.Kernel.Points
import proofs.«406446_j60224031424549_1_alg».proof.Proof.Spec
import Idealize.ShloMosaic.Lib.ValueIdx
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

open Idealize.ShloMosaic.ValueIdx

variable (V : (c : Dev nD) → (b : Ref sig .tc) → Buf (Elt F) ((c : Thread nD τ).loc b))

/-- The gather kernel's own DMA semaphores: one per gathered row. -/
abbrev osem1 : Fin 128 → SemLoc sig := fun j => SemLoc.dma (Fin.natAdd 9 j)
theorem ownSemFacts1 : Pipeline.OwnSemFacts spec1 osem1 := by decide
/-- The diffusion matrix stays in HBM and is read by the kernel's own copies. -/
def H1 : Finset (Ref sig .tc) := {main_arg1}
theorem H1_sub : H1 ⊆ Pipeline.restRefsP sig pre1 spec1 := by decide

/-- The table's words are row numbers of the diffusion matrix. -/
def TblOk (a : (pcfg1 (F := F)).Adm) : Prop := Cert.Spec.InRange (a.1 0)

/-- The word the table holds for row `r` of the tile gathered at grid point `t`: entry `128 t + r`. -/
def wordAt (xt : S4096.Idx → BitVec 32) (t : Fin 32) (r : Fin 128) : BitVec 32 :=
  xt (ValueIdx.ix1 (⟨128 * t.val + r.val, by omega⟩ : Fin 4096))

/-- The tile gathered at grid point `t`: row `r` is the row of the diffusion matrix that word `128 t + r` names. -/
def tile (P : S16384x16384.Idx → Elt F .f32) (xt : S4096.Idx → BitVec 32) (hx : Cert.Spec.InRange xt) (t : Fin 32) : Vec F S128x16384 .f32 :=
  fun y => P (ValueIdx.ix2 (⟨(wordAt xt t (y 0)).toNat, by unfold wordAt; exact hx _⟩ : Fin 16384) (y 1))

/-- What the gather kernel's body is handed at every point and hands back. -/
def Φ1 (a : (pcfg1 (F := F)).Adm) (c : Dev nD) : sProp 𝕄 :=
  iprop((∃ r, prngReg c r) ∗ Pipeline.ownSems0 osem1 c ∗ (bigSep H1 fun b => ((c.tc : Thread nD τ).loc b) ↦{fullShare} V c b)
    ∗ Pipeline.prefHeld pre1 c (fun _ => fullShare) a.1 ∗ Pipeline.scopedRest spec1 c)

def iblk1 (a : (pcfg1 (F := F)).Adm) (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- The output block at grid point `t`: the gathered tile against the encoded nodes. -/
def outsAt1 (a : (pcfg1 (F := F)).Adm) (ha : TblOk a) (c : Dev nD) (t : Fin (cfg1 a).N) : Vec F S128x64 .f32 :=
  k1_pay1 (tile (V c main_arg1) (a.1 0) ha t) (iblk1 V a c 0 t)

def dat1 (a : (pcfg1 (F := F)).Adm) (ha : TblOk a) (c : Dev nD) : Dat τ (Elt F) Unit ℕ (Pipeline.UD sig nD τ) ℕ (cfg1 a) c where
  A w := V c (Pipeline.arrRef spec1 w)
  after w t := match w with
    | ⟨0, _⟩ => iblk1 V a c 0 t
    | ⟨1, _⟩ => outsAt1 V a ha c t
  Φ _ := Φ1 V a c
  q _ := fullShare
  owed _ := 0

theorem A_eq1 (a : (pcfg1 (F := F)).Adm) (ha : TblOk a) (c : Dev nD) (w : Fin (cfg1 a).W) : (dat1 V a ha c).A w = V c (Pipeline.arrRef spec1 w) := by
  dsimp only [dat1]
theorem after1_0 (a : (pcfg1 (F := F)).Adm) (ha : TblOk a) (c : Dev nD) (t : Fin (cfg1 a).N) : (dat1 V a ha c).after 0 t = iblk1 V a c 0 t := rfl
theorem after1_1 (a : (pcfg1 (F := F)).Adm) (ha : TblOk a) (c : Dev nD) (t : Fin (cfg1 a).N) : (dat1 V a ha c).after 1 t = outsAt1 V a ha c t := rfl

end Cert.Kernel.Hand

end
-- ==== Proof.GatherWordsB.lean ====
import proofs.«406446_j60224031424549_1_alg».proof.Proof.GatherB

/-!
# The words and rows the gather kernel's body reads

At grid point `t` the body loads, for `k = 0 … 127`, word `128 t + k` of the index table and copies the row of the
diffusion matrix that the word names. Here: the offset arithmetic (no overflow: `128 · 31 + 127 < 2³²`), the load of a
one-element rectangle of the table as the table's entry at the rectangle's offset, the copied row — the matrix read
through a one-row slice with the row axis squeezed away — as the matrix's row, and the two together: the copy's payload
is row `k` of the tile gathered at `t`.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

/-- The index table, whole, in scalar memory. -/
abbrev tbM : Memref sig .tc .smem S4096 .i32 := Memref.whole main_arg4
/-- The diffusion matrix, whole, in HBM. -/
abbrev hbM : Memref sig .tc .hbm S16384x16384 .f32 := Memref.whole main_arg1

/-- The offset of word `k` of the tile at grid point `v`: `128 v + k`, computed in 32-bit words without overflow. -/
theorem off_word (v : ℕ) (hv : v < 32) (k : ℕ) (hk : k < 128) :
    (Scalar.indexCast (Scalar.addi (Scalar.muli (BitVec.ofNat 32 v) 128#32) (BitVec.ofNat 32 k))).toNat = 128 * v + k := by
  simp only [Scalar.indexCast, Scalar.addi, Scalar.muli, IntOp.addi, IntOp.muli, BitVec.toNat_add, BitVec.toNat_mul,
    BitVec.toNat_ofNat, Nat.reducePow, Nat.reduceMod]
  omega

/-- A load of the one-element rectangle at offset `n` of the table reads the table's entry `n`. -/
theorem tbl_readAt (c : Dev nD) (xt : Buf (Elt F) (tbM.view.loc (c : Thread nD τ))) (off : Fin 1 → ℕ)
    (h : ∀ a, off a + S1.size a ≤ S4096.size a) (y : (Rect.unit (s := S4096) off S1.size h).toLoadRect.shape.Idx)
    (n : ℕ) (hn : n < 4096) (ho : off 0 = n) :
    tbM.view.readAt (Elt F) (Rect.unit (s := S4096) off S1.size h).toLoadRect xt y
      = tbM.view.read (Elt F) xt (ValueIdx.ix1 ⟨n, hn⟩) := by
  rw [View.readAt_apply]
  congr 1
  funext a
  apply Fin.ext
  match a with
  | ⟨0, _⟩ =>
    show off 0 + 1 * (y 0).val = n
    have hy : (y 0).val < 1 := (y 0).isLt
    omega

/-- The same load, named as the tile's word: at offset `128 t + k` it reads word `k` of the tile at grid point `t`. -/
theorem tbl_wordAt (c : Dev nD) (xt : Buf (Elt F) (tbM.view.loc (c : Thread nD τ))) (off : Fin 1 → ℕ)
    (h : ∀ a, off a + S1.size a ≤ S4096.size a) (y : (Rect.unit (s := S4096) off S1.size h).toLoadRect.shape.Idx)
    (t : Fin 32) (k : Fin 128) (ho : off 0 = 128 * t.val + k.val) :
    tbM.view.readAt (Elt F) (Rect.unit (s := S4096) off S1.size h).toLoadRect xt y = wordAt (tbM.view.read (Elt F) xt) t k :=
  tbl_readAt c xt off h y (128 * t.val + k.val) (by omega) ho

/-- The matrix read through the one-row slice at row `v`, the row axis squeezed away, is the matrix's row `v`. -/
theorem src_row_read (c : Dev nD) (fh : Buf (Elt F) (hbM.view.loc (c : Thread nD τ))) (v : BitVec 32) (hv : v.toNat < 16384)
    (h1 : ∀ a, (k1_off2 v) a + S1x16384.size a ≤ S16384x16384.size a)
    (h2 : ∀ a, (Rect.unit (s := S16384x16384) (k1_off2 v) S1x16384.size h1).stride a = 1) (j : S16384.Idx) :
    ReadAs.same.apply (View.read (Elt F) ((hbM.slice (Rect.unit (s := S16384x16384) (k1_off2 v) S1x16384.size h1) h2).squeeze S16384 squeezes_S1x16384_S16384).view fh) j
      = hbM.view.read (Elt F) fh (ValueIdx.ix2 ⟨v.toNat, hv⟩ (j 0)) := by
  -- the squeezed slice's index `j` sits in the matrix at row `v`, column `j 0`
  have e : ((hbM.slice (Rect.unit (s := S16384x16384) (k1_off2 v) S1x16384.size h1) h2).squeeze S16384 squeezes_S1x16384_S16384).view.emb j
      = hbM.view.emb (ValueIdx.ix2 ⟨v.toNat, hv⟩ (j 0)) := by
    show (Rect.unit (s := S16384x16384) (k1_off2 v) S1x16384.size h1).emb (Shape.reshapeEquiv squeezes_S1x16384_S16384.numel_eq j) = _
    rw [Shape.reshapeEquiv_cons_one (n := 1) (d := ![16384]) squeezes_S1x16384_S16384.numel_eq j]
    funext a
    apply Fin.ext
    match a with
    | ⟨0, _⟩ => show v.toNat + 1 * 0 = v.toNat; omega
    | ⟨1, _⟩ => show 0 + 1 * (j 0).val = (j 0).val; omega
  rw [ReadAs.apply_same, View.read_apply, View.read_apply, e]

/-- The copy's payload for word `k` of the tile at grid point `t`: row `k` of the gathered tile. -/
theorem row_payload (c : Dev nD) (xt : Buf (Elt F) (tbM.view.loc (c : Thread nD τ))) (fh : Buf (Elt F) (hbM.view.loc (c : Thread nD τ)))
    (t : Fin 32) (k : Fin 128) (hx : Cert.Spec.InRange (tbM.view.read (Elt F) xt)) (v : BitVec 32)
    (hv : v = wordAt (tbM.view.read (Elt F) xt) t k)
    (h1 : ∀ a, (k1_off2 v) a + S1x16384.size a ≤ S16384x16384.size a)
    (h2 : ∀ a, (Rect.unit (s := S16384x16384) (k1_off2 v) S1x16384.size h1).stride a = 1) :
    (fun j : S16384.Idx => ReadAs.same.apply (View.read (Elt F) ((hbM.slice (Rect.unit (s := S16384x16384) (k1_off2 v) S1x16384.size h1) h2).squeeze S16384 squeezes_S1x16384_S16384).view fh) j)
      = fun j => tile (hbM.view.read (Elt F) fh) (tbM.view.read (Elt F) xt) hx t (ValueIdx.ix2 k (j 0)) := by
  subst hv
  funext j
  have hb : (wordAt (tbM.view.read (Elt F) xt) t k).toNat < 16384 := by unfold wordAt; exact hx _
  rw [src_row_read c fh _ hb h1 h2 j]
  rfl

end Cert.Kernel.Hand

end
-- ==== Proof.ScratchRowsB.lean ====
import proofs.«406446_j60224031424549_1_alg».proof.Proof.Gen.Kernel
import Idealize.ShloMosaic.Lib.Memref
import Idealize.ShloMosaic.Lib.Pipeline.Frame
import Idealize.ShloMosaic.Lib.Pipeline.FrameBody
import Idealize.ShloMosaic.Lib.Exec.Geometry
import Idealize.ShloMosaic.Lib.ValueIdx

/-!
# The gather buffer as its 128 rows

The second kernel gathers 128 rows of the diffusion matrix into a [128, 16384] buffer, row k through the memref
that names row k alone (the slice of one row, its unit axis dropped). Owning the buffer at contents X is owning
each row at X's row: the rows are unit-stride rectangles, pairwise disjoint (they differ in the row coordinate)
and together all of the buffer; dropping the unit axis re-indexes a row without changing its elements. A piece
written through a whole row reads back as the piece. A separating conjunction over Fin n is the nested binary
conjunction of its n terms.
-/

noncomputable section

namespace Cert.Kernel.Hand

open Cert.Kernel Cert.Kernel.Facts₀ Idealize.ShloMosaic Idealize.ShloMosaic.TcCoe Idealize.SL Idealize.SL.Sem
open Idealize.SL.BI (sProp)
open scoped Idealize.SL.BI
open Idealize.SL.BI.BIBase Idealize.SL.BI.Laws Idealize.SL.ProofMode
open Idealize.SL.RA

variable {F : FTy → Type} [FloatOps F]

local notation "𝕄" => MT nD τ sig Unit (Elt F) ℕ (Pipeline.UD sig nD τ) ℕ

/-! ## The buffer and its rows -/

/-- The gather buffer, whole. -/
abbrev scM : Memref sig .tc .vmem S128x16384 .f32 := Memref.whole cc1_scratch0

/-- Row k lies inside the buffer. -/
theorem row_inb (k : ℕ) (hk : k < 128) : ∀ a, (![k, 0] : Fin 2 → ℕ) a + S1x16384.size a ≤ S128x16384.size a := by
  intro a
  match a with
  | ⟨0, _⟩ => show k + 1 ≤ 128; omega
  | ⟨1, _⟩ => show 0 + 16384 ≤ 16384; omega

/-- Row k of the buffer as a vector of 16384 entries: the one-row slice with its unit axis dropped. -/
abbrev rowM (k : ℕ) (hk : k < 128) : Memref sig .tc .vmem S16384 .f32 := (scM.slice (Rect.unit (s := S128x16384) ![k, 0] S1x16384.size (row_inb k hk)) (fun _ => rfl)).squeeze S16384 squeezes_S1x16384_S16384

/-! ## The rows as rectangles -/

/-- The one-row rectangle of row k. -/
abbrev rowRect (k : Fin 128) : Rect S128x16384 :=
  Rect.unit (s := S128x16384) ![k.val, 0] S1x16384.size (row_inb k.val k.isLt)

/-- Two different rows share no element: they differ in the row coordinate. -/
theorem rowRect_disjoint (t t' : Fin 128) (h : t ≠ t') : Disjoint (rowRect t).set (rowRect t').set :=
  Rect.unit_disjoint (0 : Fin 2) (by
    show t.val + 1 ≤ t'.val ∨ t'.val + 1 ≤ t.val
    have := Fin.val_ne_of_ne h
    omega)

/-- Every element of the buffer lies in the row its row coordinate names. -/
theorem rowRect_cover : (Finset.univ : Finset (Fin 128)).biUnion (fun t => (rowRect t).set) = Finset.univ := by
  ext i
  simp only [Finset.mem_biUnion, Finset.mem_univ, true_and, iff_true]
  have h0 : (i 0).val < 128 := (i 0).isLt
  have h1 : (i 1).val < 16384 := (i 1).isLt
  refine ⟨⟨(i 0).val, h0⟩, Rect.mem_set_unit.mpr fun a => ?_⟩
  match a with
  | ⟨0, _⟩ => exact ⟨le_rfl, by show (i 0).val < (i 0).val + 1; omega⟩
  | ⟨1, _⟩ => exact ⟨Nat.zero_le _, by show (i 1).val < 0 + 16384; omega⟩

/-- Entry j of row k, found through the row with its unit axis dropped, is the buffer's entry (k, j). -/
theorem row_emb (k : Fin 128) (j : S16384.Idx) :
    (rowRect k).emb (Shape.reshapeEquiv squeezes_S1x16384_S16384.numel_eq j) = ValueIdx.ix2 k (j 0) := by
  have e : Shape.reshapeEquiv squeezes_S1x16384_S16384.numel_eq j = Fin.cons ⟨0, Nat.one_pos⟩ j :=
    Shape.reshapeEquiv_cons_one (n := 1) (d := ![16384]) _ j
  funext a
  refine Fin.ext ?_
  show (rowRect k).off a + (rowRect k).stride a * ((Shape.reshapeEquiv squeezes_S1x16384_S16384.numel_eq j) a).val = _
  rw [e]
  match a with
  | ⟨0, _⟩ => show k.val + 1 * 0 = k.val; omega
  | ⟨1, _⟩ => show 0 + 1 * (j 0).val = (j 0).val; omega

/-! ## Dropping unit axes keeps what is owned -/

/-- Owning a memref with unit axes dropped, at contents re-indexed the same way, is owning the memref: the
    elements are the same, and the two indexings correspond one to one. -/
theorem owns_squeeze (c : Thread nD τ) {sp : Space} {s s' : Shape} {e : EltTy} (m : Memref sig c.2.kind sp s e)
    (h : s.Squeezes s') (q : PosShare TreeShare) (Y : s.Idx → Elt F e) :
    (owns c (m.squeeze s' h) q (fun j => Y (Shape.reshapeEquiv h.numel_eq j)) : sProp 𝕄) = owns c m q Y := by
  unfold owns
  have hset : (m.squeeze s' h).view.set = m.view.set := View.set_reshape _ _
  have h₁ : iprop(∃ f, ⌜(m.squeeze s' h).view.read (Elt F) f = fun j => Y (Shape.reshapeEquiv h.numel_eq j)⌝
        ∗ ((m.squeeze s' h).view.loc c ↦[(m.squeeze s' h).view.set]{q} f))
      ⊢ (iprop(∃ f, ⌜m.view.read (Elt F) f = Y⌝ ∗ (m.view.loc c ↦[m.view.set]{q} f)) : sProp 𝕄) := by
    iintro ⟨%g, %hg, H⟩
    iexists g
    isplitr
    · ipureintro
      funext i
      have e1 : m.view.read (Elt F) g (Shape.reshapeEquiv h.numel_eq ((Shape.reshapeEquiv h.numel_eq).symm i))
          = Y (Shape.reshapeEquiv h.numel_eq ((Shape.reshapeEquiv h.numel_eq).symm i)) :=
        congrFun hg ((Shape.reshapeEquiv h.numel_eq).symm i)
      rwa [Equiv.apply_symm_apply] at e1
    · rw [← hset]; iexact H
  have h₂ : (iprop(∃ f, ⌜m.view.read (Elt F) f = Y⌝ ∗ (m.view.loc c ↦[m.view.set]{q} f)) : sProp 𝕄)
      ⊢ iprop(∃ f, ⌜(m.squeeze s' h).view.read (Elt F) f = fun j => Y (Shape.reshapeEquiv h.numel_eq j)⌝
        ∗ ((m.squeeze s' h).view.loc c ↦[(m.squeeze s' h).view.set]{q} f)) := by
    iintro ⟨%g, %hg, H⟩
    iexists g
    isplitr
    · ipureintro
      funext j
      exact congrFun hg (Shape.reshapeEquiv h.numel_eq j)
    · rw [hset]; iexact H
  exact BI.equiv_iff.mp ⟨h₁, h₂⟩

/-- Owning row k as a vector, at row k of X, is owning the one-row slice at X's part there. -/
theorem owns_row_eq (c : Dev nD) (k : Fin 128) (X : Vec F S128x16384 .f32) :
    (owns (c : Thread nD τ) (rowM k.val k.isLt) fullShare (fun j : S16384.Idx => X (ValueIdx.ix2 k (j 0))) : sProp 𝕄)
      = owns (c : Thread nD τ) (scM.slice (rowRect k) (fun _ => rfl)) fullShare (fun j => X ((rowRect k).emb j)) :=
  (congrArg (fun Y => (owns (c : Thread nD τ) (rowM k.val k.isLt) fullShare Y : sProp 𝕄))
      (funext fun j => congrArg X (row_emb k j).symm)).trans
    (owns_squeeze (c : Thread nD τ) (scM.slice (rowRect k) (fun _ => rfl)) squeezes_S1x16384_S16384 fullShare
      (fun j => X ((rowRect k).emb j)))

/-! ## The buffer split into its rows, and joined again -/

/-- The buffer owned at X is each of its rows owned at that row of X. -/
theorem rows_split (c : Dev nD) (X : Vec F S128x16384 .f32) :
    (owns (c : Thread nD τ) scM fullShare X : sProp 𝕄)
      ⊢ BI.bigSep Finset.univ fun k : Fin 128 =>
          owns (c : Thread nD τ) (rowM k.val k.isLt) fullShare (fun j : S16384.Idx => X (ValueIdx.ix2 k (j 0))) := by
  rw [BI.bigSep_congr (fun k _ => owns_row_eq c k X)]
  exact owns_rects (c : Thread nD τ) scM fullShare rowRect (fun _ _ => rfl) rowRect_disjoint rowRect_cover X

/-- Each row owned at that row of X is the buffer owned at X. -/
theorem rows_join [∀ e, Nonempty (Elt F e)] (c : Dev nD) (X : Vec F S128x16384 .f32) :
    (BI.bigSep Finset.univ fun k : Fin 128 =>
          owns (c : Thread nD τ) (rowM k.val k.isLt) fullShare (fun j : S16384.Idx => X (ValueIdx.ix2 k (j 0))) : sProp 𝕄)
      ⊢ owns (c : Thread nD τ) scM fullShare X := by
  rw [BI.bigSep_congr (fun k _ => owns_row_eq c k X)]
  exact owns_of_rects (c : Thread nD τ) scM fullShare rowRect (fun _ _ => rfl) rowRect_disjoint rowRect_cover X

/-! ## A piece written through a whole row -/

/-- A piece covering the whole row, written through the row, reads back as the piece. -/
theorem row_read_piece (k : ℕ) (hk : k < 128) (f : (rowM k hk).view.ty.Contents (Elt F)) (p : Vec F S16384 .f32) :
    (rowM k hk).view.read (Elt F) ((rowM k hk).view.writes (Elt F) f [⟨Rect.whole S16384, p⟩]) = p :=
  View.read_writes_whole (rowM k hk).view f p

/-! ## A separating conjunction over Fin n, term by term -/

/-- The first n terms of a sequence of assertions, conjoined from the left. -/
def sepUpTo (Φ : ℕ → sProp 𝕄) : ℕ → sProp 𝕄
  | 0 => emp
  | n + 1 => iprop(sepUpTo Φ n ∗ Φ n)

/-- The separating conjunction over Fin n is the nested conjunction of its n terms. -/
theorem bigSep_fin_eq (n : ℕ) (Φ : Fin n → sProp 𝕄) :
    BI.bigSep Finset.univ Φ = sepUpTo (fun k => if h : k < n then Φ ⟨k, h⟩ else emp) n := by
  induction n with
  | zero => rfl
  | succ n ih =>
    rw [Fin.univ_castSuccEmb, Finset.cons_eq_insert, BI.bigSep_insert (by simp), BI.bigSep_map, ih]
    show iprop(Φ (Fin.last n) ∗ sepUpTo (fun k => if h : k < n then Φ (Fin.castSuccEmb ⟨k, h⟩) else emp) n)
      = iprop(sepUpTo (fun k => if h : k < n + 1 then Φ ⟨k, h⟩ else emp) n ∗ (if h : n < n + 1 then Φ ⟨n, h⟩ else emp))
    rw [dif_pos (Nat.lt_succ_self n)]
    have hpre : ∀ m, m ≤ n → sepUpTo (fun k => if h : k < n then Φ (Fin.castSuccEmb ⟨k, h⟩) else emp) m
        = sepUpTo (fun k => if h : k < n + 1 then Φ ⟨k, h⟩ else emp) m := by
      intro m hm
      induction m with
      | zero => rfl
      | succ m ihm =>
        show iprop(_ ∗ _) = iprop(_ ∗ _)
        rw [ihm (Nat.le_of_succ_le hm)]
        beta_reduce
        rw [dif_pos (show m < n from hm), dif_pos (show m < n + 1 by omega)]
        rfl
    rw [hpre n le_rfl]
    exact BI.equiv_iff.mp ⟨Idealize.SL.BI.sep_comm, Idealize.SL.BI.sep_comm⟩

end Cert.Kernel.Hand

end
-- ==== Proof.GatherBodyB.lean ====
import proofs.«406446_j60224031424549_1_alg».proof.Proof.Gen.Kernel.Launch
import proofs.«406446_j60224031424549_1_alg».proof.Proof.Gen.Kernel.Skeleton
import proofs.«406446_j60224031424549_1_alg».proof.Proof.Gen.Kernel.Points
import proofs.«406446_j60224031424549_1_alg».proof.Proof.Spec
import proofs.«406446_j60224031424549_1_alg».proof.Proof.GatherB
import proofs.«406446_j60224031424549_1_alg».proof.Proof.GatherWordsB
import proofs.«406446_j60224031424549_1_alg».proof.Proof.ScratchRowsB
import proofs.«406446_j60224031424549_1_alg».proof.Proof.GatherTables
import Idealize.ShloMosaic.Lib.Transfers
import Idealize.ShloMosaic.Lib.Pipeline.Value
import Idealize.ShloMosaic.Lib.ValueIdx
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

open Idealize.ShloMosaic.ValueIdx (eq_ix1)

/-! # The gather kernel's body

At a grid point the body reads 128 words of the index table, starts one copy per word — the named row of the diffusion
matrix, left in HBM, into the matching row of its gather buffer, each copy on a semaphore of its own — waits for all of
them, and multiplies the gathered tile with the encoded nodes. While the copies fly the gather buffer is held row by
row (each copy then takes exactly its row and gives it back at the row it copied), and the matrix under one read share
per copy (two words may name the same row). Before the tile is loaded the rows are put together again: row `r` of the
buffer is the row of the matrix that word `128 t + r` names, which is the tile of the specification. -/

abbrev htbM : tbM.IsWhole := Memref.isWhole_whole _
abbrev hhbM : hbM.IsWhole := Memref.isWhole_whole _
abbrev hscM : scM.IsWhole := Memref.isWhole_whole _

/-- A memref's buffer on core `c`, and it held whole at `f` (behind an abbreviation: the run reads a held buffer
    through `Memref.view`). -/
abbrev MBuf (c : Dev nD) {sp : Space} {S : Shape} {e : EltTy} (M : Memref sig .tc sp S e) : Type := Buf (Elt F) (M.view.loc (c : Thread nD τ))
abbrev mPt (c : Dev nD) {sp : Space} {S : Shape} {e : EltTy} (M : Memref sig .tc sp S e) (f : MBuf (F := F) c M) : sProp 𝕄 :=
  M.view.loc (c : Thread nD τ) ↦{fullShare} f
/-- Read share number `k` of a buffer held whole. -/
abbrev tokPt (c : Dev nD) {sp : Space} {S : Shape} {e : EltTy} (M : Memref sig .tc sp S e) (k : ℕ) (f : MBuf (F := F) c M) : sProp 𝕄 :=
  M.view.loc (c : Thread nD τ) ↦{Transfers.shareTokN fullShare k} f
abbrev restPt (c : Dev nD) {sp : Space} {S : Shape} {e : EltTy} (M : Memref sig .tc sp S e) (n : ℕ) (f : MBuf (F := F) c M) : sProp 𝕄 :=
  M.view.loc (c : Thread nD τ) ↦{Transfers.shareDrop fullShare n} f
/-- Row `k` of the gather buffer held by its own elements at buffer contents `f`. -/
abbrev rowPt (c : Dev nD) (k : ℕ) (hk : k < 128) (f : MBuf (F := F) c (rowM k hk)) : sProp 𝕄 :=
  (rowM k hk).view.loc (c : Thread nD τ) ↦[(rowM k hk).view.set]{fullShare} f
/-- Row `k` held at what it reads as. -/
abbrev rowOwn (c : Dev nD) (k : ℕ) (hk : k < 128) (X : Vec F S16384 .f32) : sProp 𝕄 :=
  iprop(∃ f, ⌜(rowM k hk).view.read (Elt F) f = X⌝ ∗ rowPt c k hk f)

theorem rowOwn_eq (c : Dev nD) (k : ℕ) (hk : k < 128) (X : Vec F S16384 .f32) :
    (owns (c : Thread nD τ) (rowM k hk) fullShare X : sProp 𝕄) = rowOwn c k hk X := rfl

/-- The gather buffer held whole is its 128 rows, each held at its part. -/
theorem rows_split_raw (c : Dev nD) (f : MBuf (F := F) c scM) :
    (mPt c scM f : sProp 𝕄)
      ⊢ sepUpTo (fun k => if h : k < 128 then rowOwn c k h (fun j => scM.view.read (Elt F) f (ValueIdx.ix2 (⟨k, h⟩ : Fin 128) (j 0))) else BI.emp) 128 := by
  refine BIBase.Entails.trans ?_ (Entails.of_eq (bigSep_fin_eq 128 (fun k : Fin 128 => rowOwn (F := F) c k.val k.isLt (fun j => scM.view.read (Elt F) f (ValueIdx.ix2 k (j 0))))))
  refine BIBase.Entails.trans ?_ (rows_split (F := F) c (scM.view.read (Elt F) f))
  unfold owns
  iintro H
  iexists f
  isplitr
  · ipureintro; rfl
  rw [hscM.set_eq_univ]
  iexact H

/-- The 128 rows, each held at its part of `T`, are the gather buffer held at `T`. -/
theorem rows_join_raw [∀ e, Nonempty (Elt F e)] (c : Dev nD) (T : Vec F S128x16384 .f32) :
    sepUpTo (fun k => if h : k < 128 then rowOwn (F := F) c k h (fun j => T (ValueIdx.ix2 (⟨k, h⟩ : Fin 128) (j 0))) else BI.emp) 128
      ⊢ (owns (c : Thread nD τ) scM fullShare T : sProp 𝕄) := by
  refine BIBase.Entails.trans (Entails.of_eq (bigSep_fin_eq 128 (fun k : Fin 128 => rowOwn (F := F) c k.val k.isLt (fun j => T (ValueIdx.ix2 k (j 0))))).symm) ?_
  exact rows_join (F := F) c T

/-- A row that a copy left at a whole piece `p` is held at `p`. -/
theorem row_done (c : Dev nD) (k : ℕ) (hk : k < 128) (fs : MBuf (F := F) c (rowM k hk)) (p q : Vec F S16384 .f32) (hpq : p = q) :
    (rowPt c k hk ((rowM k hk).view.writes (Elt F) fs [⟨Rect.whole S16384, p⟩]) : sProp 𝕄) ⊢ rowOwn c k hk q := by
  subst hpq
  iintro H
  iexists _
  isplitr
  · ipureintro; exact row_read_piece k hk fs p
  iexact H

/-- A big sep over the first `n` numbers, nested. -/
theorem bigSep_range_eq (n : ℕ) (Φ : ℕ → sProp 𝕄) : BI.bigSep (Finset.range n) Φ = sepUpTo Φ n := by
  induction n with
  | zero => rw [Finset.range_zero, BI.bigSep_empty]; rfl
  | succ n ih =>
    rw [Finset.range_add_one, BI.bigSep_insert Finset.notMem_range_self, ih]
    show iprop(Φ n ∗ sepUpTo Φ n) = iprop(sepUpTo Φ n ∗ Φ n)
    exact Idealize.SL.BI.Entails.antisymm Idealize.SL.BI.sep_comm Idealize.SL.BI.sep_comm

/-- The matrix held whole is what is left after 137 read shares, and the shares. -/
theorem toks_split (c : Dev nD) (fh : MBuf (F := F) c hbM) :
    (mPt c hbM fh : sProp 𝕄) ⊢ iprop(restPt c hbM 137 fh ∗ sepUpTo (fun k => tokPt c hbM k fh) 137) := by
  rw [← bigSep_range_eq]
  exact (Transfers.pointsTo_toks_range fullShare 137).1
theorem toks_join (c : Dev nD) (fh : MBuf (F := F) c hbM) :
    iprop(restPt c hbM 137 fh ∗ sepUpTo (fun k => tokPt c hbM k fh) 137) ⊢ (mPt c hbM fh : sProp 𝕄) := by
  rw [← bigSep_range_eq]
  exact (Transfers.pointsTo_toks_range fullShare 137).2

/-- Every word the body loads from the table names a row, given that every word of the table does. -/
theorem word_lt (c : Dev nD) (xt : MBuf (F := F) c tbM) (hxs : Cert.Spec.InRange (tbM.view.read (Elt F) xt))
    (R : LoadRect S4096) (y : R.shape.Idx) : (show BitVec 32 from tbM.view.readAt (Elt F) R xt y).toNat < 16384 := by
  rw [View.readAt_apply]
  generalize R.idx y = z
  rw [eq_ix1 z]
  exact hxs _

theorem chk_of {v : BitVec 32} (h : v.toNat < 16384) : ∀ a, (k1_off2 v) a + S1x16384.size a ≤ S16384x16384.size a := by
  intro a
  match a with
  | ⟨0, _⟩ => show v.toNat + 1 ≤ 16384; omega
  | ⟨1, _⟩ => show 0 + 16384 ≤ 16384; omega

/-- Cell number `9 + k` of the DMA semaphores (the gather kernel's own are 9 … 136). -/
def osem1Nat (k : ℕ) : SemLoc sig := if h : k < 128 then osem1 ⟨k, h⟩ else SemLoc.dma 0
/-- The gather kernel's own cells, each at zero. -/
def semsAll (c : Dev nD) : sProp 𝕄 := sepUpTo (fun k => semVal ((c : Thread nD τ), osem1Nat k) 0) 128

/-- The gather buffer held by its own elements is the buffer held whole. -/
theorem sc_whole (c : Dev nD) (g : MBuf (F := F) c scM) :
    (scM.view.loc (c : Thread nD τ) ↦[scM.view.set]{fullShare} g : sProp 𝕄) ⊢ mPt c scM g := by
  rw [hscM.set_eq_univ]

/-! ## The body's triple -/

/-- The grid point as the number the words are counted from. -/
abbrev ptOf (i : grid1.Coords) : Fin 32 := ⟨(i 0).val, (i 0).isLt⟩

abbrev r1_sc : Rect S128x16384 := Rect.unit (s := S128x16384) ![0, 0] S128x16384.size inb_S128x16384_S128x16384_0_0
abbrev r1_enc : Rect S16384x64 := Rect.unit (s := S16384x64) ![0, 0] S16384x64.size inb_S16384x64_S16384x64_0_0
abbrev r1_out : Rect S128x64 := Rect.unit (s := S128x64) ![0, 0] S128x64.size inb_S128x64_S128x64_0_0

/-- The output window's staging buffer after the body: its one whole store, the tile against the encoded nodes. -/
def out1 (T : Vec F S128x16384 .f32) (x1 : Vec F S16384x64 .bf16) : Vec F S128x64 .f32 :=
  View.canon [⟨r1_out, k1_pay1 (View.ld T r1_sc) (View.ld x1 r1_enc)⟩]

/-- The one store is of the whole buffer, so it covers it. -/
theorem cover1 (p0 : Vec F S128x64 .f32) (y : S128x64.Idx) :
    ∃ pc ∈ ([⟨r1_out, p0⟩] : List (View.Piece (Elt F) S128x64 .f32)), y ∈ pc.1.set :=
  View.cover_of_tiled [⟨r1_out, p0⟩] S128x64.size (by rfl) y

set_option maxHeartbeats 0 in
/-- The body on whole staging memrefs — the encoded nodes at `x1`, the output's and the gather buffer at anything, the
    table at contents whose words all name rows, the matrix whole, its cells at zero —, runs to the continuation holding
    everything as it was and the output at the gathered tile against the encoded nodes. -/
theorem run1 [∀ e, Nonempty (Elt F e)] (c : Dev nD) (i : grid1.Coords)
    (arg3 : Memref sig .tc .vmem S16384x64 .bf16) (harg3 : arg3.IsWhole) (arg4 : Memref sig .tc .vmem S128x64 .f32) (harg4 : arg4.IsWhole)
    (x1 : Vec F S16384x64 .bf16) (xt : MBuf (F := F) c tbM) (fh : MBuf (F := F) c hbM)
    (hxs : Cert.Spec.InRange (tbM.view.read (Elt F) xt)) (W : Waits sig Unit) (K : PUnit → sProp 𝕄) :
    iprop(owns (c : Thread nD τ) arg3 fullShare x1 ∗ (∃ d, owns (c : Thread nD τ) arg4 fullShare d) ∗ (∃ f, mPt c scM f)
        ∗ mPt c tbM xt ∗ mPt c hbM fh ∗ owes (c : Thread nD τ) 0 W ∗ semsAll c
        ∗ (iprop(owns (c : Thread nD τ) arg3 fullShare x1
              ∗ owns (c : Thread nD τ) arg4 fullShare (out1 (tile (hbM.view.read (Elt F) fh) (tbM.view.read (Elt F) xt) hxs (ptOf i)) x1)
              ∗ (∃ f, mPt c scM f) ∗ mPt c tbM xt ∗ mPt c hbM fh ∗ (∃ W', owes (c : Thread nD τ) 0 W') ∗ semsAll c) -∗ K ⟨⟩))
      ⊢ wp frame (wpE (defs₀ (F := F)) Variants.none c none) Set.univ
          (cc1__gather_matmul_kernel i tbM htbM hbM hhbM arg3 harg3 arg4 harg4 scM hscM cc1_scratch1) K := by
  have hs := rows_split_raw (F := F) c
  have hj := rows_join_raw (F := F) c (tile (hbM.view.read (Elt F) fh) (tbM.view.read (Elt F) xt) hxs (ptOf i))
  have ht := toks_split (F := F) c fh
  have htj := toks_join (F := F) c fh
  simp only [sepUpTo, Nat.reduceLT, ↓reduceDIte] at hs hj ht htj
  simp only [cc1__gather_matmul_kernel_eq_skeleton]; unfold cc1__gather_matmul_kernel_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton]
  unfold owns semsAll
  simp only [sepUpTo]
  iintro ⟨⟨%f0, %hf0, H0⟩, ⟨%d1, %f1, -, H1⟩, ⟨%fs0, HS0⟩, HT, Hh, HW, HSems, Hk⟩
  obtain rfl := harg3.eq_unread hf0
  gather_icases_sems
  ihave HRows := hs fs0 $$ HS0
  gather_icases_rows
  ihave HTk := ht $$ Hh
  icases HTk with ⟨Hdrop, HToks⟩
  gather_icases_toks
  -- the 128 copies, each from its read share into its row on its cell, and the 128 waits
  sl_exec (disch := first | exact chk_of (word_lt c xt hxs _ _))
  -- the rows, each at the row of the matrix its word names, are the buffer at the tile
  gather_have_join
  · gather_join_rows
  unfold owns
  icases HS with ⟨%g, %hg, HS⟩
  obtain rfl := hscM.eq_unread hg
  -- the tile and the encoded nodes loaded whole, their product stored whole
  sl_exec
  sl_step
  iapply Hk
  isplitl [H0]
  · iexists _; isplitr; · ipureintro; exact harg3.read_unread _
    iexact H0
  isplitl [H1]
  · iexists _; isplitr
    swap; · iexact H1
    ipureintro
    refine (View.read_writes_eq_canon _ _ _ (cover1 _)).trans ?_
    unfold out1
    sl_unfold_run_names
    simp only [View.readAt_eq_ld, hscM.read_unread, harg3.read_unread]
  first
    | ihave HS := (sc_whole c _) $$ HS
    | skip
  first
    | (isplitl [HS]; (iexists _; iexact HS))
    | (gather_keep_rest; (iexists _; first | (iapply (sc_whole c _); iassumption) | iassumption))
  isplitl [HT]; · iexact HT
  gather_have_toks
  · isplitl [Hdrop]; · iexact Hdrop
    gather_split_toks
  isplitl [Hh]; · iexact Hh
  isplitl [HW]; · iexists _; iexact HW
  gather_split_sems

/-! ## The body obligation -/

variable (V : (c : Dev nD) → (b : Ref sig .tc) → Buf (Elt F) ((c : Thread nD τ).loc b))

/-- The encoded nodes' window holds the whole array at every point: it is fetched once and its index never moves. -/
theorem before1_0_of (a : (pcfg1 (F := F)).Adm) {c : Dev nD} (dat : Dat τ (Elt F) Unit ℕ (Pipeline.UD sig nD τ) ℕ (cfg1 a) c)
    (hA : dat.A 0 = V c (Pipeline.arrRef spec1 0)) (hafter : ∀ t, dat.after 0 t = iblk1 V a c 0 t) (t : Fin (cfg1 a).N) (d) :
    dat.before 0 t d = iblk1 V a c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_0 (a : (pcfg1 (F := F)).Adm) (ha : TblOk a) (c : Dev nD) (t : Fin (cfg1 a).N) (d) :
    (dat1 V a ha c).before 0 t d = iblk1 V a c 0 t :=
  before1_0_of V a (dat1 V a ha c) (A_eq1 V a ha c 0) (after1_0 V a ha c) t d

/-- Each window's current staging memref at point `t`, as the pipeline passes it, and its wholeness. -/
abbrev ms1_0 (a : (pcfg1 (F := F)).Adm) (t : Fin (cfg1 a).N) : Memref sig .tc .vmem S16384x64 .bf16 := spec1_0.stage ((cfg1 a).slots t 0)
abbrev hs1_0 (a : (pcfg1 (F := F)).Adm) (t : Fin (cfg1 a).N) : (ms1_0 a t).IsWhole := hstage1_0 (((cfg1 a).slots t 0).cast nbuf1_0)
abbrev ms1_1 (a : (pcfg1 (F := F)).Adm) (t : Fin (cfg1 a).N) : Memref sig .tc .vmem S128x64 .f32 := spec1_1.stage ((cfg1 a).slots t 1)
abbrev hs1_1 (a : (pcfg1 (F := F)).Adm) (t : Fin (cfg1 a).N) : (ms1_1 a t).IsWhole := hstage1_1 (((cfg1 a).slots t 1).cast nbuf1_1)
/-- The kernel body at point `t`, on what the pipeline calls it with. -/
abbrev bodyAt1 (a : (pcfg1 (F := F)).Adm) (t : Fin (cfg1 a).N) : Prog (TpuEff nD τ sig (Elt F) Λ₀ .tc) PUnit :=
  cc1__gather_matmul_kernel (grid1.coords t) tbM htbM hbM hhbM (ms1_0 a t) (hs1_0 a t) (ms1_1 a t) (hs1_1 a t) scM hscM cc1_scratch1

/-- The one table, held whole. -/
theorem prefHeld1_eq (c : Dev nD) (pf : pre1.Contents (Elt F)) :
    (Pipeline.prefHeld pre1 c (fun _ => fullShare) pf : sProp 𝕄) = mPt c tbM (pf 0) := by
  unfold Pipeline.prefHeld
  rw [show (Finset.univ : Finset (Fin 1)) = {(0 : Fin 1)} from by decide, bigSep_singleton]
  rfl
/-- The one operand left in HBM, held whole. -/
theorem hbmPts1_eq (c : Dev nD) :
    (bigSep H1 (fun b => ((c : Thread nD τ).loc b) ↦{fullShare} V c b) : sProp 𝕄) = mPt c hbM (V c main_arg1) := by
  rw [BI.bigSep_eq_bigSepL_of_eq [main_arg1] (by decide) (by decide)]; rfl

theorem sepUpTo_congr (Φ Ψ : ℕ → sProp 𝕄) : ∀ n, (∀ k, k < n → Φ k = Ψ k) → sepUpTo Φ n = sepUpTo Ψ n
  | 0, _ => rfl
  | n + 1, h => by
    show iprop(sepUpTo Φ n ∗ Φ n) = iprop(sepUpTo Ψ n ∗ Ψ n)
    rw [sepUpTo_congr Φ Ψ n (fun k hk => h k (Nat.lt_succ_of_lt hk)), h n (Nat.lt_succ_self n)]

/-- The kernel's own cells at zero, listed. -/
theorem ownSems1_eq (c : Dev nD) :
    (Pipeline.ownSems0 (Ix := Unit) (Name := ℕ) (U := Pipeline.UD sig nD τ) (Lvl := ℕ) (Val := Elt F) (τ := τ) osem1 c : sProp 𝕄) = semsAll c := by
  unfold Pipeline.ownSems0 semsAll
  rw [bigSep_fin_eq]
  exact sepUpTo_congr _ _ 128 fun k hk => by simp only [osem1Nat, dif_pos hk]

/-- A whole unscoped buffer reads as itself. -/
theorem hbM_read (c : Dev nD) (f : MBuf (F := F) c hbM) : hbM.view.read (Elt F) f = f := rfl
theorem tbM_read (c : Dev nD) (f : MBuf (F := F) c tbM) : tbM.view.read (Elt F) f = f := rfl

/-- On the one-axis grid a point's coordinate is its number. -/
theorem coord_val : ∀ t : Fin grid1.N, ((grid1.coords t) 0).val = t.val := by decide +kernel

/-- The whole store of the payload over whole loads is the payload of the buffers. -/
theorem out1_eq (T : Vec F S128x16384 .f32) (x1 : Vec F S16384x64 .bf16) : out1 T x1 = k1_pay1 T x1 := by
  unfold out1
  have hz : (![0, 0] : Fin 2 → ℕ) = fun _ => 0 := by funext a; fin_cases a <;> rfl
  rw [View.canon_unit_zero hz]
  simp only [View.ld_unit_zero (S := S128x16384) hz, View.ld_unit_zero (S := S16384x64) hz]

theorem sound_body1 [∀ e, Nonempty (Elt F e)] (a : (pcfg1 (F := F)).Adm) (ha : TblOk a) (c : Dev nD) (t : Fin (cfg1 a).N) :
    iprop((dat1 V a ha c).Φ t.castSucc ∗ (dat1 V a ha c).owesAt () t.castSucc
        ∗ (∃ d, owns (c : Thread nD τ) (ms1_0 a t) fullShare ((dat1 V a ha c).before 0 t d))
        ∗ (∃ d, owns (c : Thread nD τ) (ms1_1 a t) fullShare ((dat1 V a ha c).before 1 t d)))
      ⊢ wp frame (wpE (defs₀ (F := F)) Variants.none c none) Set.univ (bodyAt1 a t) (fun _ =>
          iprop((dat1 V a ha c).Φ t.succ ∗ (dat1 V a ha c).owesAt () t.succ
            ∗ owns (c : Thread nD τ) (ms1_0 a t) fullShare ((dat1 V a ha c).after 0 t)
            ∗ owns (c : Thread nD τ) (ms1_1 a t) fullShare ((dat1 V a ha c).after 1 t))) := by
  unfold bodyAt1
  simp only [before1_0]
  rw [show (dat1 V a ha c).Φ t.succ = Φ1 V a c from rfl, show (dat1 V a ha c).Φ t.castSucc = Φ1 V a c from rfl, after1_0, after1_1]
  unfold Φ1
  rw [scopedRest1_eq, prefHeld1_eq, hbmPts1_eq, ownSems1_eq]
  unfold Dat.owesAt Pipeline.owesWithin
  rw [show (dat1 V a ha c).owed t.castSucc = 0 from rfl, show (dat1 V a ha c).owed t.succ = 0 from rfl]
  iintro ⟨⟨Hg, Hsems, Hh, HT, ⟨HR0, HR1, HR2, HR3, HR4, HR5, HS0⟩⟩, ⟨%W, -, HW⟩, ⟨%d0, H0⟩, ⟨%d1, H1⟩⟩
  iapply (run1 c (grid1.coords t) (ms1_0 a t) (hs1_0 a t) (ms1_1 a t) (hs1_1 a t) (iblk1 V a c 0 t) (a.1 0) (V c main_arg1) ha W _)
  isplitl [H0]; · iexact H0
  isplitl [H1]; · iexists _; iexact H1
  isplitl [HS0]; · iexact HS0
  isplitl [HT]; · iexact HT
  isplitl [Hh]; · iexact Hh
  isplitl [HW]; · iexact HW
  isplitl [Hsems]; · iexact Hsems
  iintro ⟨H0, H1, HS0, HT, Hh, ⟨%W', HW'⟩, Hsems⟩
  isplitl [Hg Hsems Hh HT HR0 HR1 HR2 HR3 HR4 HR5 HS0]
  · isplitl [Hg]; · iexact Hg
    isplitl [Hsems]; · iexact Hsems
    isplitl [Hh]; · iexact Hh
    isplitl [HT]; · iexact HT
    isplitl [HR0]; · iexact HR0
    isplitl [HR1]; · iexact HR1
    isplitl [HR2]; · iexact HR2
    isplitl [HR3]; · iexact HR3
    isplitl [HR4]; · iexact HR4
    isplitl [HR5]; · iexact HR5
    iexact HS0
  isplitl [HW']
  · iexists W'; isplitr; · ipureintro; exact fun _ _ => Or.inl trivial
    iexact HW'
  isplitl [H0]; · iexact H0
  have e : outsAt1 V a ha c t = out1 (tile (hbM.view.read (Elt F) (V c main_arg1)) (tbM.view.read (Elt F) (a.1 0)) ha (ptOf (grid1.coords t))) (iblk1 V a c 0 t) :=
    (show outsAt1 V a ha c t = k1_pay1 (tile (V c main_arg1) (a.1 0) ha (ptOf (grid1.coords t))) (iblk1 V a c 0 t) from
      congrArg (fun p => k1_pay1 (tile (V c main_arg1) (a.1 0) ha p) (iblk1 V a c 0 t)) (Fin.ext (coord_val t).symm)).trans (out1_eq _ _).symm
  rw [e]
  iexact H1

set_option maxRecDepth 65536 in
/-- The library's body obligation, at every point. -/
theorem body_obligation1 [∀ e, Nonempty (Elt F e)] (a : (pcfg1 (F := F)).Adm) (ha : TblOk a) (c : Dev nD) :
    BodyObligation (dat1 (F := F) V a ha c) (defs₀ (F := F)) Variants.none () Set.univ := fun t => by
  rw [bigSep_W1, bigSep_W1]
  exact sound_body1 V a ha c t

end Cert.Kernel.Hand

end
-- ==== Proof.AssembleB.lean ====
import proofs.«406446_j60224031424549_1_alg».proof.Proof.Gen.Kernel.Launch
import proofs.«406446_j60224031424549_1_alg».proof.Proof.Gen.Kernel.Regions
import proofs.«406446_j60224031424549_1_alg».proof.Proof.RegionsValueB
import proofs.«406446_j60224031424549_1_alg».proof.Proof.EncB
import proofs.«406446_j60224031424549_1_alg».proof.Proof.GatherB
import proofs.«406446_j60224031424549_1_alg».proof.Proof.GatherBodyB
import proofs.«406446_j60224031424549_1_alg».proof.Proof.LibRegion
import proofs.«406446_j60224031424549_1_alg».proof.Proof.LibRegionPD
import proofs.«406446_j60224031424549_1_alg».proof.Proof.Spec
import Idealize.ShloMosaic.Lib.Pipeline.Kit
import Idealize.ShloMosaic.Lib.Pipeline.Frame
import Idealize.ShloMosaic.Lib.Pipeline.Regions
import Idealize.ShloMosaic.Lib.Tactic

/-!
# The launch: both regions' records, and the run of the whole program

The program is two kernel regions in a row. The encoder reads the features, the weights and the bias and leaves the
encoded nodes in an intermediate array; the gather reads the index table, the diffusion matrix and that intermediate
array and leaves the result. Between the regions every unscoped buffer of the core is held whole at a valuation: the
launch memory, then the launch memory with the intermediate array at what the encoder's pipeline leaves, then that with
the result array at what the gather's pipeline leaves. This module fixes those valuations, the index table's contents
read off the launch memory, both pipelines' proof data, and builds each region's segment record from its body
obligation; the conditional frame then gives the run: every weakly fair execution terminates, the result array holds
what the gather's pipeline leaves, and every argument array holds its launch contents.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The index table, read off the launch memory -/

/-- The table's contents at launch (the program runs on one device: device 0's). -/
def tbl : pre1.Contents (Elt F) := fun j => m (((0 : Dev nD) : Thread nD τ).loc (pre1.ref j))

/-- Those contents as admissible contents of the gather's pipeline (its side condition is trivial). -/
def adm1 : (pcfg1 (F := F)).Adm := ⟨tbl m, trivial⟩

/-- Both pipelines' tables: the encoder has none. -/
abbrev adm : (p : Fin 2) → (pcfgs (F := F) p).Adm
  | ⟨0, _⟩ => cfg0.toPCfg_adm
  | ⟨1, _⟩ => adm1 m

/-- The table's words are row numbers exactly when the launch memory's index buffer holds row numbers. -/
theorem tbl_eq : TblOk (adm1 m) ↔ Cert.Spec.InRange (m (((0 : Dev nD) : Thread nD τ).loc main_arg4)) := Iff.rfl

/-! ## The buffers' contents between the regions -/

/-- The launch contents, at the TensorCore's references. -/
abbrev V0' (c : Dev nD) (b : Ref sig .tc) : Buf (Elt F) ((c : Thread nD τ).loc b) := Gen.V0 m c b

/-- What the encoder's pipeline leaves in the intermediate array. -/
def enc1 (c : Dev nD) : Buf (Elt F) ((c : Thread nD τ).loc main_v0) := (dat0 (V0' m) c).arrAt 3 cfg0.N

/-- The launch contents with the intermediate array at what the encoder leaves. -/
def W1 (c : Dev nD) : Valuation τ sig (Elt F) := Function.update (Gen.V0 m c) main_v0 (enc1 m c)
abbrev W1' (c : Dev nD) (b : Ref sig .tc) : Buf (Elt F) ((c : Thread nD τ).loc b) := W1 m c b

/-- What the gather's pipeline leaves in the result array. -/
def res1 (h : TblOk (adm1 m)) (c : Dev nD) : Buf (Elt F) ((c : Thread nD τ).loc main_v1) :=
  (dat1 (W1' m) (adm1 m) h c).arrAt 1 (cfg1 (adm1 m)).N

/-- The contents after the gather: the result array at what the gather leaves. -/
def W2 (h : TblOk (adm1 m)) (c : Dev nD) : Valuation τ sig (Elt F) := Function.update (W1 m c) main_v1 (res1 m h c)

/-- What the regions leave, as the conditional frame's unknowns: after the encoder the contents `W1`, after the gather
    `W2` (read only at the intermediate array after the first and at the result array after the second). -/
def outs (h : TblOk (adm1 m)) : Gen.Outs (F := F) := fun J r c =>
  (if J = 1 then W1 m c else W2 m h c) r

theorem outs_enc (h : TblOk (adm1 m)) (c : Dev nD) : outs m h 1 main_v0 c = enc1 m c := by
  unfold outs; rw [if_pos rfl]; exact Function.update_self _ _ _

theorem V1_eq (h : TblOk (adm1 m)) (c : Dev nD) : Gen.V1 m (outs m h) c = W1 m c := by
  unfold W1; rw [← outs_enc m h c]

/-- The contents the gather is entered from, at the TensorCore's references. -/
abbrev V1' (h : TblOk (adm1 m)) (c : Dev nD) (b : Ref sig .tc) : Buf (Elt F) ((c : Thread nD τ).loc b) := Gen.V1 m (outs m h) c b

theorem V1'_eq (h : TblOk (adm1 m)) : V1' m h = W1' m := by
  funext c b; exact congrFun (V1_eq m h c) _

theorem outs_res (h : TblOk (adm1 m)) (c : Dev nD) :
    outs m h 2 main_v1 c = (dat1 (V1' m h) (adm1 m) h c).arrAt 1 (cfg1 (adm1 m)).N := by
  rw [V1'_eq]; unfold outs; rw [if_neg (by decide)]; exact Function.update_self _ _ _

/-- The intermediate array the gather is entered from holds what the encoder's pipeline leaves. -/
theorem V1_enc (h : TblOk (adm1 m)) (c : Dev nD) : V1' m h c main_v0 = (dat0 (V0' m) c).arrAt 3 cfg0.N := by
  rw [V1'_eq]; exact Function.update_self _ _ _

/-- The diffusion matrix the gather is entered from is the launch memory's. -/
theorem V1_arg1 (h : TblOk (adm1 m)) (c : Dev nD) : V1' m h c main_arg1 = m ((c : Thread nD τ).loc main_arg1) :=
  Gen.V1_of m (outs m h) c main_arg1 (by decide)

/-! ## The proof data family and the launch's parameters -/

/-- Both pipelines' proof data, each at its region's entry contents. -/
def pdats (h : TblOk (adm1 m)) : (p : Fin 2) → (c : Dev nD) → Dat τ (Elt F) Unit ℕ (Pipeline.UD sig nD τ) ℕ (Pipeline.pin (pcfgs (F := F)) (adm m) p) c
  | ⟨0, _⟩ => fun c => dat0 (V0' m) c
  | ⟨1, _⟩ => fun c => dat1 (V1' m h) (adm1 m) h c

abbrev 𝒱₀ : Variants := Variants.none
/-- No core owes another anything: no level is assigned. -/
abbrev L : GSem nD τ sig → Finset Unit := fun _ => ∅
abbrev lv : GSem nD τ sig → Unit → ℕ := fun _ _ => 0

/-- A statement about each of four windows holds of every window. -/
theorem forall_fin4 {P : Fin 4 → Prop} (h0 : P 0) (h1 : P 1) (h2 : P 2) (h3 : P 3) : ∀ w, P w
  | ⟨0, _⟩ => h0 | ⟨1, _⟩ => h1 | ⟨2, _⟩ => h2 | ⟨3, _⟩ => h3

/-- A statement about each of two windows holds of every window. -/
theorem forall_fin2 {P : Fin 2 → Prop} (h0 : P 0) (h1 : P 1) : ∀ w, P w
  | ⟨0, _⟩ => h0 | ⟨1, _⟩ => h1

/-! ## The encoder's region -/

/-- At the encoder's exit each input array holds what it held at entry, which the exit valuation names for it. -/
theorem hF0_0 (h : TblOk (adm1 m)) (c : Dev nD) : (dat0 (V0' m) c).arrAt 0 cfg0.N = V1' m h c main_arg0 :=
  ((dat0 (V0' m) c).arrAt_in 0 rfl _).trans ((A_eq0 (V0' m) c 0).trans (Gen.V1_of m (outs m h) c main_arg0 (by decide)).symm)
theorem hF0_1 (h : TblOk (adm1 m)) (c : Dev nD) : (dat0 (V0' m) c).arrAt 1 cfg0.N = V1' m h c main_arg2 :=
  ((dat0 (V0' m) c).arrAt_in 1 rfl _).trans ((A_eq0 (V0' m) c 1).trans (Gen.V1_of m (outs m h) c main_arg2 (by decide)).symm)
theorem hF0_2 (h : TblOk (adm1 m)) (c : Dev nD) : (dat0 (V0' m) c).arrAt 2 cfg0.N = V1' m h c main_arg3 :=
  ((dat0 (V0' m) c).arrAt_in 2 rfl _).trans ((A_eq0 (V0' m) c 2).trans (Gen.V1_of m (outs m h) c main_arg3 (by decide)).symm)

set_option backward.isDefEq.respectTransparency.types false in
/-- The encoder's region: entered from the launch contents, left at the launch contents with the intermediate array at
    what the pipeline leaves. -/
def reg0 (h : TblOk (adm1 m)) : Pipeline.RegionSeg (pcfgs (F := F)) (adm m) (pdats m h) () defs₀ 𝒱₀ L lv 0 :=
  Cert.LibRegion.regionSegHeldA (pcfgs (F := F)) (adm m) (pdats m h) defs₀ 𝒱₀ L lv 0
    (launch0 (F := F)).win.to₀ (launch0 (F := F)).block_pos (launch0 (F := F)).stage_whole rfl
    (fun c => (body_obligation0 (V0' m) c).loose)
    (fun c => rfl) (fun c => rfl) (fun _ _ => rfl) (fun _ => rfl)
    (Gen.V0 m) (Gen.V1 m (outs m h))
    (fun c => Cert.LibRegion.arrBufs_split_distinct cfg0 c (dat0 (V0' m) c) (launch0 (F := F)).win.arr_inj (launch0 (F := F)).arr_whole
      ((dat0 (V0' m) c).share_full fun _ => rfl) (V0' m c) _ (fun w => A_eq0 (V0' m) c w))
    (fun c => Cert.LibRegion.arrBufs_join_distinct cfg0 c (dat0 (V0' m) c) (launch0 (F := F)).win.arr_inj (launch0 (F := F)).arr_whole
      ((dat0 (V0' m) c).share_full fun _ => rfl) (V1' m h c) _ (forall_fin4 (hF0_0 m h c) (hF0_1 m h c) (hF0_2 m h c) (V1_enc m h c).symm))
    (fun c b hb => Gen.V1_of m (outs m h) c b fun hmem => hb (by
      rw [List.mem_singleton.mp hmem]; exact Finset.mem_image.mpr ⟨3, Finset.mem_univ _, rfl⟩))

/-! ## The gather's region -/

/-- At the gather's exit the intermediate array holds what it held at entry. -/
theorem hF1_0 (h : TblOk (adm1 m)) (c : Dev nD) :
    (dat1 (V1' m h) (adm1 m) h c).arrAt 0 (cfg1 (adm1 m)).N = Gen.V2 m (outs m h) c main_v0 :=
  ((dat1 (V1' m h) (adm1 m) h c).arrAt_in 0 rfl _).trans
    ((A_eq1 (V1' m h) (adm1 m) h c 0).trans (Gen.V2_of m (outs m h) c main_v0 (by decide)).symm)
/-- At the gather's exit the result array holds what the pipeline leaves. -/
theorem hF1_1 (h : TblOk (adm1 m)) (c : Dev nD) :
    (dat1 (V1' m h) (adm1 m) h c).arrAt 1 (cfg1 (adm1 m)).N = Gen.V2 m (outs m h) c main_v1 :=
  ((Function.update_self _ _ _ : Gen.V2 m (outs m h) c main_v1 = outs m h 2 main_v1 c).trans (outs_res m h c)).symm

/-- On the one device the index table's buffer holds, when the gather is entered, the contents read off the launch
    memory: the encoder does not write it. -/
theorem htbl1 (h : TblOk (adm1 m)) (c : Dev nD) (k : Fin 1) :
    (fun b : Ref sig .tc => Gen.V1 m (outs m h) c b) (pre1.ref k) = (adm1 m).1 k := by
  obtain rfl : c = 0 := Subsingleton.elim _ _
  obtain rfl : k = 0 := Subsingleton.elim _ _
  exact Gen.V1_of m (outs m h) 0 main_arg4 (by decide)

set_option backward.isDefEq.respectTransparency.types false in
/-- The gather's region: entered from the contents the encoder left, left at those with the result array at what the
    pipeline leaves; the diffusion matrix enters the body's invariant whole and comes back, beside the kernel's own
    semaphores at zero and the index table. -/
def reg1 (h : TblOk (adm1 m)) : Pipeline.RegionSeg (pcfgs (F := F)) (adm m) (pdats m h) () defs₀ 𝒱₀ L lv 1 :=
  Cert.LibRegionPD.regionSegHeldPD (pcfgs (F := F)) (adm m) (pdats m h) defs₀ 𝒱₀ L lv 1
    (launch1 (F := F)).win.to₀ (launch1 (F := F)).pre (launch1 (F := F)).block_pos (launch1 (F := F)).stage_whole
    osem1 ownSemFacts1 H1 H1_sub
    (fun c => (body_obligation1 (V1' m h) (adm1 m) h c).loose)
    (Gen.V1 m (outs m h)) (Gen.V2 m (outs m h))
    (fun c => .rfl) (fun c => .rfl) (fun _ _ => rfl) (fun _ => rfl)
    (htbl1 m h)
    (fun c => Cert.LibRegion.arrBufs_split_distinct (cfg1 (adm1 m)) c (dat1 (V1' m h) (adm1 m) h c) (launch1 (F := F)).win.arr_inj (launch1 (F := F)).arr_whole
      ((dat1 (V1' m h) (adm1 m) h c).share_full fun _ => rfl) (V1' m h c) _ (fun w => A_eq1 (V1' m h) (adm1 m) h c w))
    (fun c => Cert.LibRegion.arrBufs_join_distinct (cfg1 (adm1 m)) c (dat1 (V1' m h) (adm1 m) h c) (launch1 (F := F)).win.arr_inj (launch1 (F := F)).arr_whole
      ((dat1 (V1' m h) (adm1 m) h c).share_full fun _ => rfl) (fun b => Gen.V2 m (outs m h) c b) _
      (forall_fin2 (hF1_0 m h c) (hF1_1 m h c)))
    (fun c b hb => Gen.V2_of m (outs m h) c b fun hmem => hb (by
      rw [List.mem_singleton.mp hmem]; exact Finset.mem_image.mpr ⟨1, Finset.mem_univ _, rfl⟩))

/-! ## The run -/

/-- What rides beside the buffers between the regions: the generator register at some state, the core owing nothing. -/
abbrev E (_ : Fin 3) (c : Dev nD) : sProp 𝕄 := Cert.LibRegion.R c

/-- The launch element: the pipelines' cells and launch tokens, beside the trivial counters. -/
abbrev u₀ : Pipeline.UD sig nD τ :=
  (initOf (Pipeline.cells (Pipeline.pin (pcfgs (F := F)) (adm m)) (cellOf_inj (adm m)))
    (Pipeline.launchToks (Pipeline.pin (pcfgs (F := F)) (adm m)) (cellOf_inj (adm m))), 1)

theorem hu₀ : (ownU (u₀ m) : sProp 𝕄) ⊢ |={Set.univ}=> iprop(BI.own ((embL : Emb _ 𝕄)
      (initOf (Pipeline.cells (Pipeline.pin (pcfgs (F := F)) (adm m)) (cellOf_inj (adm m)))
        (Pipeline.launchToks (Pipeline.pin (pcfgs (F := F)) (adm m)) (cellOf_inj (adm m)))))
    ∗ bigSep Finset.univ fun _ : Dev nD => (BI.emp : sProp 𝕄)) := by
  iintro Hu
  ihave H := (ownU_pair _ _) $$ Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

/-- The launch deals each core its generator register and its tallies at nothing. -/
theorem hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
    ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- THE FRAME: from any launch memory whose index table holds row numbers, every weakly fair execution of the program
    terminates and every final memory holds each argument array as launched. -/
theorem frame (h : TblOk (adm1 m)) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Gen.frame_cond m (embL) () 𝒱₀ L lv (fun _ _ => rfl) ρ (outs m h) (adm m) (pdats m h) 0 (fun _ => iprop(emp)) (u₀ m) (hu₀ m)
    E (hE0 ρ) (fun c => by iintro ⟨-, H⟩; iexact H)
    (reg0 m h) (fun c => .rfl) (fun c => .rfl) (reg1 m h) (fun c => .rfl) (fun c => .rfl)

set_option backward.isDefEq.respectTransparency.types false in
/-- THE RESULT beside the frame: every final memory also holds in the result array what the gather's pipeline leaves
    there. -/
theorem value (h : TblOk (adm1 m)) : θ_run defs (onTc (τ := τ) (main (F := F))) ⟨m, fun _ => 0, ρ⟩ (fun r => ∀ c : Dev nD,
      r.2.mem ((c.tc : Thread nD τ).loc main_v1) = (dat1 (V1' m h) (adm1 m) h c).arrAt 1 (cfg1 (adm1 m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r hr c => ⟨(hr c).1.trans (outs_res m h c), (hr c).2⟩)
    (GenV.value_cond m (embL) () 𝒱₀ L lv (fun _ _ => rfl) ρ (outs m h) (adm m) (pdats m h) 0 (fun _ => iprop(emp)) (u₀ m) (hu₀ m)
      E (hE0 ρ) (fun c => by iintro ⟨-, H⟩; iexact H)
      (reg0 m h) (fun c => .rfl) (fun c => .rfl) (reg1 m h) (fun c => .rfl) (fun c => .rfl))

end Cert.Kernel.Hand

end
-- ==== Proof.EncIValue.lean ====
import proofs.«406446_j60224031424549_1_alg».proof.Proof.EncI
import proofs.«406446_j60224031424549_1_alg».proof.Proof.Spec
import Idealize.ShloMosaic.Lib.ValueIdx
import Idealize.ShloMosaic.Lib.ValueLayout
import Idealize.ShloMosaic.Lib.Pipeline.Value
import Idealize.ShloMosaic.PureOps.Ideal.Laws

/-!
# The encoder region's value: the encoded nodes as one array

At the ideal instance the body's arithmetic at row `p`, column `q` of a block is the row of the feature block
against column `q` of the weights, plus the bias at `q`: the two format changes are the identity on extended reals
and the matrix product into a zero accumulator is the plain sum over the 128 features. Point `t` of the grid reads
rows `2048 t … 2048 t + 2047` of the features and the whole of the weights and the bias, and writes back rows
`2048 t … 2048 t + 2047` of the result; the eight points' blocks cover the 16384 rows (row `r` is in block
`r / 2048`), so after the region the result array is the encoder of the three argument arrays.
-/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

/-! ## The body's arithmetic at an index, at the ideal instance -/

/-- The product's left operand index on its row axis is the result's row. -/
theorem lhs_dot_S2048x128_S128x64_S2048x64_1_0_0_1_n_n_0 (j : S2048x64.Idx) (k : dot_S2048x128_S128x64_S2048x64_1_0_0_1_n_n.contr.Idx) :
    (dot_S2048x128_S128x64_S2048x64_1_0_0_1_n_n.lhsIdx j k 0).val = (j 0).val := by
  unfold DotDims.lhsIdx
  rw [dif_neg (show ¬(0 : Fin S2048x128.rank) ∈ dot_S2048x128_S128x64_S2048x64_1_0_0_1_n_n.lhsBatch by decide),
    dif_pos (show (0 : Fin S2048x128.rank) ∈ dot_S2048x128_S128x64_S2048x64_1_0_0_1_n_n.lhsNonContracting by decide)]
  rfl

/-- On its contracted axis it is the contraction position's coordinate. -/
theorem lhs_dot_S2048x128_S128x64_S2048x64_1_0_0_1_n_n_1 (j : S2048x64.Idx) (k : dot_S2048x128_S128x64_S2048x64_1_0_0_1_n_n.contr.Idx) :
    (dot_S2048x128_S128x64_S2048x64_1_0_0_1_n_n.lhsIdx j k 1).val = (k ⟨0, by decide⟩).val :=
  DotDims.lhsIdx_val_of_single (d := dot_S2048x128_S128x64_S2048x64_1_0_0_1_n_n) (cl := 1) rfl j k

/-- The right operand index on its contracted axis is the contraction position's coordinate. -/
theorem rhs_dot_S2048x128_S128x64_S2048x64_1_0_0_1_n_n_0 (j : S2048x64.Idx) (k : dot_S2048x128_S128x64_S2048x64_1_0_0_1_n_n.contr.Idx) :
    (dot_S2048x128_S128x64_S2048x64_1_0_0_1_n_n.rhsIdx j k 0).val = (k ⟨0, by decide⟩).val :=
  DotDims.rhsIdx_val_of_single (d := dot_S2048x128_S128x64_S2048x64_1_0_0_1_n_n) (cr := 0) rfl j k

/-- On its column axis it is the result's column. -/
theorem rhs_dot_S2048x128_S128x64_S2048x64_1_0_0_1_n_n_1 (j : S2048x64.Idx) (k : dot_S2048x128_S128x64_S2048x64_1_0_0_1_n_n.contr.Idx) :
    (dot_S2048x128_S128x64_S2048x64_1_0_0_1_n_n.rhsIdx j k 1).val = (j 1).val := by
  unfold DotDims.rhsIdx
  rw [dif_neg (show ¬(1 : Fin S128x64.rank) ∈ dot_S2048x128_S128x64_S2048x64_1_0_0_1_n_n.rhsBatch by decide),
    dif_pos (show (1 : Fin S128x64.rank) ∈ dot_S2048x128_S128x64_S2048x64_1_0_0_1_n_n.rhsNonContracting by decide)]
  rfl

/-- The matrix product into a zero accumulator, read at row `p` and column `q`: the sum over the 128 features of
    the row's entries against the column's. -/
theorem matmul_zero_ix2 {φ₁ φ₂ : FTy} (A : FVec Ideal S2048x128 φ₁) (B : FVec Ideal S128x64 φ₂) (p : Fin 2048) (q : Fin 64) :
    (matmul dot_S2048x128_S128x64_S2048x64_1_0_0_1_n_n none A B (constant S2048x64 .f32 0x00000000#32) : FVec Ideal S2048x64 .f32) (ix2 p q)
      = ∑ d : Fin 128, A (ix2 p d) * B (ix2 d q) := by
  show FloatOps.matmul _ none A B _ (ix2 p q) = _
  rw [Ideal.matmul_constant_zero_apply,
    ← Equiv.sum_comp (contrEquiv1 dot_S2048x128_S128x64_S2048x64_1_0_0_1_n_n 128 rfl rfl).symm]
  refine Finset.sum_congr rfl fun d _ => ?_
  have hk := contrEquiv1_symm_val dot_S2048x128_S128x64_S2048x64_1_0_0_1_n_n 128 rfl rfl d
  have hl : dot_S2048x128_S128x64_S2048x64_1_0_0_1_n_n.lhsIdx (ix2 p q) ((contrEquiv1 dot_S2048x128_S128x64_S2048x64_1_0_0_1_n_n 128 rfl rfl).symm d) = ix2 p d := by
    funext ax; apply Fin.ext
    match ax with
    | ⟨0, _⟩ => exact lhs_dot_S2048x128_S128x64_S2048x64_1_0_0_1_n_n_0 _ _
    | ⟨1, _⟩ => exact (lhs_dot_S2048x128_S128x64_S2048x64_1_0_0_1_n_n_1 _ _).trans hk
  have hr : dot_S2048x128_S128x64_S2048x64_1_0_0_1_n_n.rhsIdx (ix2 p q) ((contrEquiv1 dot_S2048x128_S128x64_S2048x64_1_0_0_1_n_n 128 rfl rfl).symm d) = ix2 d q := by
    funext ax; apply Fin.ext
    match ax with
    | ⟨0, _⟩ => exact (rhs_dot_S2048x128_S128x64_S2048x64_1_0_0_1_n_n_0 _ _).trans hk
    | ⟨1, _⟩ => exact rhs_dot_S2048x128_S128x64_S2048x64_1_0_0_1_n_n_1 _ _
  rw [hl, hr]

/-- The body's arithmetic at row `p` and column `q` of the block: the row of the feature block against the column of
    the weights, plus the bias at the column. The two format changes are the identity on extended reals. -/
theorem pay_ix2 (x0 : Vec Ideal S2048x128 .f32) (x1 : Vec Ideal S128x64 .f32) (x2 : Vec Ideal S64 .f32) (p : Fin 2048) (q : Fin 64) :
    k0_pay1 (F := Ideal) x0 x1 x2 (ix2 p q) = (∑ d : Fin 128, x0 (ix2 p d) * x1 (ix2 d q)) + x2 (ValueIdx.ix1 q) := by
  unfold k0_pay1
  rw [truncf_apply, addf_apply, matmul_zero_ix2, broadcastTo_1b_ab_apply, shapeCast_a_1a_apply]
  simp only [truncf_apply]

/-! ## What the body leaves in the output buffer, at an index -/

theorem zero_off2 : (![0, 0] : Fin 2 → Nat) = fun _ => 0 := funext fun a => by fin_cases a <;> rfl
theorem zero_off1 : (![0] : Fin 1 → Nat) = fun _ => 0 := funext fun a => by fin_cases a; rfl

/-- The output buffer after the body, at row `p` and column `q`: the whole loads read the buffers as they are and
    the one whole store writes the body's arithmetic. -/
theorem out_ix2 (x0 : Vec Ideal S2048x128 .f32) (x1 : Vec Ideal S128x64 .f32) (x2 : Vec Ideal S64 .f32) (p : Fin 2048) (q : Fin 64) :
    out0_3 (F := Ideal) x0 x1 x2 (ix2 p q) = (∑ d : Fin 128, x0 (ix2 p d) * x1 (ix2 d q)) + x2 (ValueIdx.ix1 q) := by
  unfold out0_3
  rw [View.canon_unit_zero zero_off2]
  simp only [View.ld_unit_zero (S := S2048x128) zero_off2, View.ld_unit_zero (S := S128x64) zero_off2,
    View.ld_unit_zero (S := S64) zero_off1]
  exact pay_ix2 x0 x1 x2 p q

/-- The same against the encoder: when the feature buffer holds rows `r₀ …` of `X`, the weight buffer `W` and the
    bias buffer `b`, the output buffer's row `p` is the encoded node `r₀ + p`. -/
theorem out_eq_enc (X : Cert.Spec.SX.Idx → EReal) (W : Cert.Spec.SW.Idx → EReal) (b : Cert.Spec.Sb.Idx → EReal)
    (x0 : Vec Ideal S2048x128 .f32) (x1 : Vec Ideal S128x64 .f32) (x2 : Vec Ideal S64 .f32)
    (p : Fin 2048) (q : Fin 64) (k : Fin 16384)
    (h0 : ∀ d : Fin 128, x0 (ix2 p d) = X (ix2 k d)) (h1 : ∀ (d : Fin 128), x1 (ix2 d q) = W (ix2 d q))
    (h2 : x2 (ValueIdx.ix1 q) = b (ValueIdx.ix1 q)) :
    out0_3 (F := Ideal) x0 x1 x2 (ix2 p q) = Cert.Spec.enc X W b k q := by
  rw [out_ix2, h2]
  unfold Cert.Spec.enc
  congr 1
  exact Finset.sum_congr rfl fun d _ => by rw [h0 d, h1 d]

/-! ## The blocks the points read and write -/

variable (V : (c : Dev nD) → (b : Ref sig .tc) → Buf (Elt Ideal) ((c : Thread nD τ).loc b))

/-- The printed index maps, decided over the eight points: the feature window and the result window are on block
    `t` of their rows, the weights and the bias on their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The feature window's block at point `t` is rows `2048 t …` of the feature array. -/
theorem blk_features (c : Dev nD) (t : Fin cfg0.N) (y : S2048x128.Idx) (k : S16384x128.Idx)
    (hk0 : (k 0).val = 2048 * t.val + (y 0).val) (hk1 : (k 1).val = (y 1).val) :
    (iblk0 V c 0 t : Vec Ideal S2048x128 .f32) y = (V c main_arg0 : S16384x128.Idx → EReal) k := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 2048 + 1 * (y 0).val = (k 0).val; rw [e0, hk0]; omega
  | ⟨1, _⟩ => show win0_0.index t 1 * 128 + 1 * (y 1).val = (k 1).val; rw [e1, hk1]; omega

/-- The weight window's one block is the weight array. -/
theorem blk_weights (c : Dev nD) (t : Fin cfg0.N) (y : S128x64.Idx) :
    (iblk0 V c 1 t : Vec Ideal S128x64 .f32) y = (V c main_arg2 : S128x64.Idx → EReal) y := by
  obtain ⟨-, -, e0, e1, -⟩ := idx_facts t
  unfold iblk0
  rw [View.read_apply]
  show V c main_arg2 _ = V c main_arg2 _
  congr 1
  funext a
  apply Fin.ext
  match a with
  | ⟨0, _⟩ => show win0_1.index t 0 * 128 + 1 * (y 0).val = (y 0).val; rw [e0]; omega
  | ⟨1, _⟩ => show win0_1.index t 1 * 64 + 1 * (y 1).val = (y 1).val; rw [e1]; omega

/-- The bias window's one block is the bias array. -/
theorem blk_bias (c : Dev nD) (t : Fin cfg0.N) (y : S64.Idx) :
    (iblk0 V c 2 t : Vec Ideal S64 .f32) y = (V c main_arg3 : S64.Idx → EReal) y := by
  obtain ⟨-, -, -, -, e0, -⟩ := idx_facts t
  unfold iblk0
  rw [View.read_apply]
  show V c main_arg3 _ = V c main_arg3 _
  congr 1
  funext a
  apply Fin.ext
  match a with
  | ⟨0, _⟩ => show win0_2.index t 0 * 64 + 1 * (y 0).val = (y 0).val; rw [e0]; omega

/-- What point `t` writes back is block `t` of the encoder of the three argument arrays. -/
theorem flushed_eq_enc (c : Dev nD) (t : Fin cfg0.N) :
    (dat0 (F := Ideal) V c).flushed 3 t
      = ((cfg0.win 3).blk t).view.read (Elt Ideal) (Cert.Spec.encArr (V c main_arg0) (V c main_arg2) (V c main_arg3)) := by
  show (cfg0.win 3).cut (grid0.coords t) ((dat0 V c).after 3 t) = _
  rw [after0_3]
  obtain ⟨-, -, -, -, -, e0, e1⟩ := idx_facts t
  have hN : t.val < 8 := lt_of_lt_of_eq t.isLt (show cfg0.N = 8 from N_0)
  funext j
  obtain ⟨p, q, rfl⟩ : ∃ (p : Fin 2048) (q : Fin 64), j = ix2 p q := ⟨j 0, j 1, eq_ix2 j⟩
  rw [View.read_apply]
  have hemb : ((cfg0.win 3).blk t).view.emb (ix2 p q) = (ix2 (⟨2048 * t.val + p.val, by omega⟩ : Fin 16384) q : S16384x64.Idx) := by
    funext a
    apply Fin.ext
    match a with
    | ⟨0, _⟩ => show win0_3.index t 0 * 2048 + 1 * p.val = 2048 * t.val + p.val; rw [e0]; omega
    | ⟨1, _⟩ => show win0_3.index t 1 * 64 + 1 * q.val = q.val; rw [e1]; omega
  rw [hemb, Cert.Spec.encArr_ix2]
  refine out_eq_enc _ _ _ _ _ _ p q _ (fun d => ?_) (fun d => ?_) ?_
  · exact blk_features V c t (ix2 p d) (ix2 _ d) rfl rfl
  · exact blk_weights V c t (ix2 d q)
  · exact blk_bias V c t (ValueIdx.ix1 q)

/-- An index of the result array is in point `t`'s block iff each coordinate is in the block's range on its axis. -/
theorem mem_blk_enc (t : Fin cfg0.N) (i : S16384x64.Idx) :
    i ∈ ((cfg0.win 3).blk t).view.set ↔ ∀ a : Fin 2, win0_3.index t a * S2048x64.size a ≤ (i a).val ∧ (i a).val < win0_3.index t a * S2048x64.size a + S2048x64.size a := by
  show i ∈ ((View.whole main_v0).slice (win0_3.rect t)).set ↔ _
  rw [View.set_slice_whole, Rect.mem_set_unit]
  exact Iff.rfl

/-- Row `r` of the result is in the block of point `r / 2048`, which writes back: the eight blocks cover the array. -/
theorem cover_enc (i : S16384x64.Idx) :
    ∃ t : Fin cfg0.N, (cfg0.win 3).flush t = true ∧ i ∈ ((cfg0.win 3).blk t).view.set := by
  have hi0 : (i 0).val < 16384 := (i 0).isLt
  have hi1 : (i 1).val < 64 := (i 1).isLt
  let t : Fin cfg0.N := ⟨(i 0).val / 2048, by rw [show cfg0.N = 8 from N_0]; omega⟩
  refine ⟨t, flush0_3 t, ?_⟩
  obtain ⟨-, -, -, -, -, e0, e1⟩ := idx_facts t
  have ht : t.val = (i 0).val / 2048 := rfl
  rw [mem_blk_enc]
  intro a
  match a with
  | ⟨0, _⟩ => show win0_3.index t (0 : Fin 2) * 2048 ≤ (i 0).val ∧ (i 0).val < win0_3.index t (0 : Fin 2) * 2048 + 2048; rw [e0, ht]; omega
  | ⟨1, _⟩ => show win0_3.index t (1 : Fin 2) * 64 ≤ (i 1).val ∧ (i 1).val < win0_3.index t (1 : Fin 2) * 64 + 64; rw [e1]; omega

/-! ## The array after the region -/

/-- After the region's eight write-backs the result array is the encoder of the three argument arrays. -/
theorem enc_arr (c : Dev nD) :
    (dat0 (F := Ideal) V c).arrAt 3 cfg0.N = Cert.Spec.encArr (V c main_arg0) (V c main_arg2) (V c main_arg3) :=
  (dat0 (F := Ideal) V c).arrAt_eq_of_cover 3 (Cert.Spec.encArr (V c main_arg0) (V c main_arg2) (V c main_arg3))
    (fun t _ => flushed_eq_enc V c t) cover_enc

end Cert.KernelIdeal.Hand

end
-- ==== Proof.GatherIValue.lean ====
import proofs.«406446_j60224031424549_1_alg».proof.Proof.Gen.KernelIdeal.Launch
import proofs.«406446_j60224031424549_1_alg».proof.Proof.Gen.KernelIdeal.Skeleton
import proofs.«406446_j60224031424549_1_alg».proof.Proof.Gen.KernelIdeal.Points
import proofs.«406446_j60224031424549_1_alg».proof.Proof.Spec
import proofs.«406446_j60224031424549_1_alg».proof.Proof.GatherI
import Idealize.ShloMosaic.Lib.ValueIdx
import Idealize.ShloMosaic.Lib.Pipeline.Value
import Idealize.ShloMosaic.PureOps.Ideal.Laws
import Idealize.ShloMosaic.Lib.Pipeline.FrameBody
import Idealize.ShloMosaic.Lib.Pipeline.Frame
import Idealize.ShloMosaic.Lib.Pipeline.Kit
import Idealize.ShloMosaic.Lib.Ring
import Idealize.ShloMosaic.Lib.Tactic

/-!
# The gather region's value: the result as one array

At the ideal instance the gather kernel's arithmetic at row `p`, column `q` of a block is the gathered tile's row
`p` against column `q` of the encoded nodes: the format change and the shape cast of a shape to itself are the
identity and the matrix product into a zero accumulator is the plain sum over the 16384 nodes. Row `p` of the tile
gathered at point `t` is the row of the diffusion matrix that word `128 t + p` of the table names, and point `t`
writes back rows `128 t … 128 t + 127` of the result; the 32 points' blocks cover its 4096 rows (row `r` is in block
`r / 128`). So after the region row `r` of the result is the row of the diffusion matrix that word `r` names, against
the encoded nodes.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F]

local notation "𝕄" => MT nD τ sig Unit (Elt F) ℕ (Pipeline.UD sig nD τ) ℕ

/-! ## The body's arithmetic at an index, at the ideal instance -/

/-- The product's left operand index on its row axis is the result's row. -/
theorem lhs_dot_S128x16384_S16384x64_S128x64_1_0_0_1_n_n_0 (j : S128x64.Idx) (k : dot_S128x16384_S16384x64_S128x64_1_0_0_1_n_n.contr.Idx) :
    (dot_S128x16384_S16384x64_S128x64_1_0_0_1_n_n.lhsIdx j k 0).val = (j 0).val := by
  unfold DotDims.lhsIdx
  rw [dif_neg (show ¬(0 : Fin S128x16384.rank) ∈ dot_S128x16384_S16384x64_S128x64_1_0_0_1_n_n.lhsBatch by decide),
    dif_pos (show (0 : Fin S128x16384.rank) ∈ dot_S128x16384_S16384x64_S128x64_1_0_0_1_n_n.lhsNonContracting by decide)]
  rfl

/-- On its contracted axis it is the contraction position's coordinate. -/
theorem lhs_dot_S128x16384_S16384x64_S128x64_1_0_0_1_n_n_1 (j : S128x64.Idx) (k : dot_S128x16384_S16384x64_S128x64_1_0_0_1_n_n.contr.Idx) :
    (dot_S128x16384_S16384x64_S128x64_1_0_0_1_n_n.lhsIdx j k 1).val = (k ⟨0, by decide⟩).val :=
  DotDims.lhsIdx_val_of_single (d := dot_S128x16384_S16384x64_S128x64_1_0_0_1_n_n) (cl := 1) rfl j k

/-- The right operand index on its contracted axis is the contraction position's coordinate. -/
theorem rhs_dot_S128x16384_S16384x64_S128x64_1_0_0_1_n_n_0 (j : S128x64.Idx) (k : dot_S128x16384_S16384x64_S128x64_1_0_0_1_n_n.contr.Idx) :
    (dot_S128x16384_S16384x64_S128x64_1_0_0_1_n_n.rhsIdx j k 0).val = (k ⟨0, by decide⟩).val :=
  DotDims.rhsIdx_val_of_single (d := dot_S128x16384_S16384x64_S128x64_1_0_0_1_n_n) (cr := 0) rfl j k

/-- On its column axis it is the result's column. -/
theorem rhs_dot_S128x16384_S16384x64_S128x64_1_0_0_1_n_n_1 (j : S128x64.Idx) (k : dot_S128x16384_S16384x64_S128x64_1_0_0_1_n_n.contr.Idx) :
    (dot_S128x16384_S16384x64_S128x64_1_0_0_1_n_n.rhsIdx j k 1).val = (j 1).val := by
  unfold DotDims.rhsIdx
  rw [dif_neg (show ¬(1 : Fin S16384x64.rank) ∈ dot_S128x16384_S16384x64_S128x64_1_0_0_1_n_n.rhsBatch by decide),
    dif_pos (show (1 : Fin S16384x64.rank) ∈ dot_S128x16384_S16384x64_S128x64_1_0_0_1_n_n.rhsNonContracting by decide)]
  rfl

/-- The matrix product into a zero accumulator, read at row `p` and column `q`: the sum over the 16384 nodes of the
    row's entries against the column's. -/
theorem matmul_nodes_zero_ix2 {φ₁ φ₂ : FTy} (A : FVec Ideal S128x16384 φ₁) (B : FVec Ideal S16384x64 φ₂) (p : Fin 128) (q : Fin 64) :
    (matmul dot_S128x16384_S16384x64_S128x64_1_0_0_1_n_n none A B (constant S128x64 .f32 0x00000000#32) : FVec Ideal S128x64 .f32) (ValueIdx.ix2 p q)
      = ∑ k : Fin 16384, A (ValueIdx.ix2 p k) * B (ValueIdx.ix2 k q) := by
  show FloatOps.matmul _ none A B _ (ValueIdx.ix2 p q) = _
  rw [Ideal.matmul_constant_zero_apply,
    ← Equiv.sum_comp (contrEquiv1 dot_S128x16384_S16384x64_S128x64_1_0_0_1_n_n 16384 rfl rfl).symm]
  refine Finset.sum_congr rfl fun d _ => ?_
  have hk := contrEquiv1_symm_val dot_S128x16384_S16384x64_S128x64_1_0_0_1_n_n 16384 rfl rfl d
  have hl : dot_S128x16384_S16384x64_S128x64_1_0_0_1_n_n.lhsIdx (ValueIdx.ix2 p q) ((contrEquiv1 dot_S128x16384_S16384x64_S128x64_1_0_0_1_n_n 16384 rfl rfl).symm d) = ValueIdx.ix2 p d := by
    funext ax; apply Fin.ext
    match ax with
    | ⟨0, _⟩ => exact lhs_dot_S128x16384_S16384x64_S128x64_1_0_0_1_n_n_0 _ _
    | ⟨1, _⟩ => exact (lhs_dot_S128x16384_S16384x64_S128x64_1_0_0_1_n_n_1 _ _).trans hk
  have hr : dot_S128x16384_S16384x64_S128x64_1_0_0_1_n_n.rhsIdx (ValueIdx.ix2 p q) ((contrEquiv1 dot_S128x16384_S16384x64_S128x64_1_0_0_1_n_n 16384 rfl rfl).symm d) = ValueIdx.ix2 d q := by
    funext ax; apply Fin.ext
    match ax with
    | ⟨0, _⟩ => exact (rhs_dot_S128x16384_S16384x64_S128x64_1_0_0_1_n_n_0 _ _).trans hk
    | ⟨1, _⟩ => exact rhs_dot_S128x16384_S16384x64_S128x64_1_0_0_1_n_n_1 _ _
  rw [hl, hr]

/-- The body's arithmetic at row `p` and column `q` of the block: the tile's row against the column of the encoded
    nodes. The format change and the shape cast are the identity. -/
theorem gather_pay_ix2 (T : Vec Ideal S128x16384 .f32) (E : Vec Ideal S16384x64 .bf16) (p : Fin 128) (q : Fin 64) :
    k1_pay1 (F := Ideal) T E (ValueIdx.ix2 p q) = ∑ k : Fin 16384, T (ValueIdx.ix2 p k) * E (ValueIdx.ix2 k q) := by
  unfold k1_pay1
  rw [shapeCast_self, matmul_nodes_zero_ix2]
  simp only [truncf_apply]

/-! ## The blocks the points read and write -/

variable (V : (c : Dev nD) → (b : Ref sig .tc) → Buf (Elt Ideal) ((c : Thread nD τ).loc b))

/-- The printed index maps, decided over the 32 points: the encoded nodes are on their one block, the result window
    on block `t` of its rows. -/
theorem transform_facts1 : ∀ t : Fin grid1.N, cc1_transform_1 (grid1.coords t) (0 : Fin 2) = 0 ∧ cc1_transform_1 (grid1.coords t) (1 : Fin 2) = 0
    ∧ cc1_transform_2 (grid1.coords t) (0 : Fin 2) = t.val ∧ cc1_transform_2 (grid1.coords t) (1 : Fin 2) = 0 := by
  decide +kernel

/-- The same of the pipeline's windows, at any admissible contents of the table: no index map reads it. -/
theorem idx_facts1 (a : (pcfg1 (F := Ideal)).Adm) (t : Fin (cfg1 a).N) :
    ((cfg1 a).win 0).index t (0 : Fin 2) = 0 ∧ ((cfg1 a).win 0).index t (1 : Fin 2) = 0
    ∧ ((cfg1 a).win 1).index t (0 : Fin 2) = t.val ∧ ((cfg1 a).win 1).index t (1 : Fin 2) = 0 :=
  transform_facts1 t

/-- The result window is written back at every point. -/
theorem flushOf1_1 : ∀ t : Fin grid1.N, Window.flushOf grid1 true cc1_transform_2 t = true := by
  decide +kernel
theorem flush1_1 (a : (pcfg1 (F := Ideal)).Adm) (t : Fin (cfg1 a).N) : ((cfg1 a).win 1).flush t = true :=
  flushOf1_1 t

/-- The grid has 32 points at any contents. -/
theorem N1_eq (a : (pcfg1 (F := Ideal)).Adm) : (cfg1 a).N = 32 := N_1

/-- The encoded nodes' one block is the encoded array. -/
theorem blk_nodes (a : (pcfg1 (F := Ideal)).Adm) (c : Dev nD) (t : Fin (cfg1 a).N) (y : S16384x64.Idx) :
    (iblk1 V a c 0 t : Vec Ideal S16384x64 .bf16) y = (V c main_v0 : S16384x64.Idx → EReal) y := by
  obtain ⟨e0, e1, -⟩ := idx_facts1 a t
  unfold iblk1
  show (V c main_v0 : S16384x64.Idx → EReal) ((((cfg1 a).win 0).blk t).view.emb y) = V c main_v0 y
  refine congrArg (V c main_v0 : S16384x64.Idx → EReal) (?_ : ((((cfg1 a).win 0).blk t).view.emb y : S16384x64.Idx) = y)
  funext ax
  apply Fin.ext
  match ax with
  | ⟨0, _⟩ => show ((cfg1 a).win 0).index t (0 : Fin 2) * 16384 + 1 * (y 0).val = (y 0).val; rw [e0]; omega
  | ⟨1, _⟩ => show ((cfg1 a).win 0).index t (1 : Fin 2) * 64 + 1 * (y 1).val = (y 1).val; rw [e1]; omega

/-- Row `p`, column `q` of the block point `t` computes is entry `(128 t + p, q)` of the result: the row of the
    diffusion matrix that word `128 t + p` names, against column `q` of the encoded nodes. -/
theorem block_eq_out (a : (pcfg1 (F := Ideal)).Adm) (ha : TblOk a) (c : Dev nD) (t : Fin (cfg1 a).N) (p : Fin 128) (q : Fin 64)
    (h : 128 * t.val + p.val < 4096) :
    outsAt1 V a ha c t (ValueIdx.ix2 p q)
      = Cert.Spec.out (V c main_arg1) (fun k j => V c main_v0 (ValueIdx.ix2 k j)) (Cert.Spec.rowOf (a.1 0) ha) ⟨128 * t.val + p.val, h⟩ q := by
  unfold outsAt1
  refine (gather_pay_ix2 (tile (V c main_arg1) (a.1 0) ha t) (iblk1 V a c 0 t) p q).trans ?_
  unfold Cert.Spec.out
  refine Finset.sum_congr rfl fun k _ => ?_
  refine congrArg₂ (fun x y : EReal => x * y) ?_ (blk_nodes V a c t (ValueIdx.ix2 k q))
  rfl

/-- The result window's blocks are whole: what is written back of a block's contents is the contents. -/
theorem cut_out (a : (pcfg1 (F := Ideal)).Adm) (t : Fin (cfg1 a).N) (X : Vec Ideal S128x64 .f32) (j : S128x64.Idx) :
    ((cfg1 a).win 1).cut ((cfg1 a).grid.coords t) X j = X j := rfl

/-- An array read through point `t`'s block of the result window. -/
theorem read_out (a : (pcfg1 (F := Ideal)).Adm) (t : Fin (cfg1 a).N) (G : S4096x64.Idx → EReal) (j : S128x64.Idx) :
    (((cfg1 a).win 1).blk t).view.read (Elt Ideal) G j = G ((((cfg1 a).win 1).blk t).view.emb j : S4096x64.Idx) := rfl

/-- Row `p` of point `t`'s block is row `128 t + p` of the result array. -/
theorem emb_out (a : (pcfg1 (F := Ideal)).Adm) (t : Fin (cfg1 a).N) (p : Fin 128) (q : Fin 64) (h : 128 * t.val + p.val < 4096) :
    ((((cfg1 a).win 1).blk t).view.emb (ValueIdx.ix2 p q) : S4096x64.Idx) = ValueIdx.ix2 (⟨128 * t.val + p.val, h⟩ : Fin 4096) q := by
  obtain ⟨-, -, e0, e1⟩ := idx_facts1 a t
  funext ax; apply Fin.ext
  match ax with
  | ⟨0, _⟩ => show ((cfg1 a).win 1).index t (0 : Fin 2) * 128 + 1 * p.val = 128 * t.val + p.val; rw [e0]; omega
  | ⟨1, _⟩ => show ((cfg1 a).win 1).index t (1 : Fin 2) * 64 + 1 * q.val = q.val; rw [e1]; omega

/-- What point `t` writes back is block `t` of the result. -/
theorem flushed_eq_out (a : (pcfg1 (F := Ideal)).Adm) (ha : TblOk a) (c : Dev nD) (t : Fin (cfg1 a).N) :
    (dat1 (F := Ideal) V a ha c).flushed 1 t
      = (((cfg1 a).win 1).blk t).view.read (Elt Ideal) (show Cert.Spec.SO.Idx → EReal from fun i => Cert.Spec.out (V c main_arg1) (fun k j => V c main_v0 (ValueIdx.ix2 k j)) (Cert.Spec.rowOf (a.1 0) ha) (i 0) (i 1)) := by
  show ((cfg1 a).win 1).cut ((cfg1 a).grid.coords t) ((dat1 V a ha c).after 1 t) = _
  rw [after1_1]
  have hN : t.val < 32 := lt_of_lt_of_eq t.isLt (N1_eq a)
  exact funext fun (j : S128x64.Idx) => by
    obtain ⟨p, q, rfl⟩ : ∃ (p : Fin 128) (q : Fin 64), j = ValueIdx.ix2 p q := ⟨j 0, j 1, eq_ix2 j⟩
    have h : 128 * t.val + p.val < 4096 := by omega
    refine (cut_out a t (outsAt1 V a ha c t) (ValueIdx.ix2 p q)).trans ?_
    refine (block_eq_out V a ha c t p q h).trans ?_
    refine Eq.trans ?_ (read_out a t _ (ValueIdx.ix2 p q)).symm
    rw [emb_out a t p q h]

/-- An index of the result array is in point `t`'s block iff each coordinate is in the block's range on its axis. -/
theorem mem_blk_out (a : (pcfg1 (F := Ideal)).Adm) (t : Fin (cfg1 a).N) (i : S4096x64.Idx) :
    i ∈ (((cfg1 a).win 1).blk t).view.set ↔ ∀ ax : Fin 2, ((cfg1 a).win 1).index t ax * S128x64.size ax ≤ (i ax).val ∧ (i ax).val < ((cfg1 a).win 1).index t ax * S128x64.size ax + S128x64.size ax :=
  Iff.trans (Eq.to_iff (congrArg (fun s => i ∈ s) (View.set_slice_whole main_v1 (((cfg1 a).win 1).rect t)))) Rect.mem_set_unit

/-- Row `r` of the result is in the block of point `r / 128`, which writes back: the 32 blocks cover the array. -/
theorem cover_out (a : (pcfg1 (F := Ideal)).Adm) (i : S4096x64.Idx) :
    ∃ t : Fin (cfg1 a).N, ((cfg1 a).win 1).flush t = true ∧ i ∈ (((cfg1 a).win 1).blk t).view.set := by
  have hi0 : (i 0).val < 4096 := (i 0).isLt
  have hi1 : (i 1).val < 64 := (i 1).isLt
  let t : Fin (cfg1 a).N := ⟨(i 0).val / 128, by rw [N1_eq a]; omega⟩
  refine ⟨t, flush1_1 a t, ?_⟩
  obtain ⟨-, -, e0, e1⟩ := idx_facts1 a t
  have ht : t.val = (i 0).val / 128 := rfl
  refine (mem_blk_out a t i).mpr fun ax => ?_
  match ax with
  | ⟨0, _⟩ => show ((cfg1 a).win 1).index t (0 : Fin 2) * 128 ≤ (i 0).val ∧ (i 0).val < ((cfg1 a).win 1).index t (0 : Fin 2) * 128 + 128; rw [e0, ht]; omega
  | ⟨1, _⟩ => show ((cfg1 a).win 1).index t (1 : Fin 2) * 64 ≤ (i 1).val ∧ (i 1).val < ((cfg1 a).win 1).index t (1 : Fin 2) * 64 + 64; rw [e1]; omega

/-! ## The array after the region -/

/-- After the gather kernel's 32 write-backs the result array holds, row by row, the named row of the diffusion matrix
    against the encoded nodes. -/
theorem out_arr (a : (pcfg1 (F := Ideal)).Adm) (ha : TblOk a) (c : Dev nD) :
    (dat1 (F := Ideal) V a ha c).arrAt 1 (cfg1 a).N
      = (show Cert.Spec.SO.Idx → EReal from fun i => Cert.Spec.out (V c main_arg1) (fun k j => V c main_v0 (ValueIdx.ix2 k j)) (Cert.Spec.rowOf (a.1 0) ha) (i 0) (i 1)) :=
  (dat1 (F := Ideal) V a ha c).arrAt_eq_of_cover 1 _ (fun t _ => flushed_eq_out V a ha c t) (cover_out a)

end Cert.KernelIdeal.Hand

end
-- ==== Proof.BridgeI.lean ====
import proofs.«406446_j60224031424549_1_alg».proof.Proof.AssembleI
import proofs.«406446_j60224031424549_1_alg».proof.Proof.EncIValue
import proofs.«406446_j60224031424549_1_alg».proof.Proof.GatherIValue
import proofs.«406446_j60224031424549_1_alg».proof.Proof.Spec
import Idealize.ShloMosaic.Lib.ValueIdx

/-!
# The result array, in the specification's words

After the second region the result array holds, row by row, the row of the diffusion matrix that the seed's word names
against the array the first region left; the first region left the encoder of the features, the weights and the bias;
the diffusion matrix and the index table are the launch memory's. Put together, the result array is the
specification's result of the five argument arrays as launched.
-/

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg)
open Idealize.ShloMosaic.ValueIdx

/-- The specification's result depends only on the five arrays: equal arrays, with index words in range on both sides,
    give equal results. -/
theorem result_congr {X X' : Cert.Spec.SX.Idx → EReal} {P P' : Cert.Spec.SP.Idx → EReal} {W W' : Cert.Spec.SW.Idx → EReal}
    {b b' : Cert.Spec.Sb.Idx → EReal} {idx idx' : Cert.Spec.SI.Idx → BitVec 32}
    (eX : X' = X) (eP : P' = P) (eW : W' = W) (eb : b' = b) (ei : idx' = idx)
    (h' : Cert.Spec.InRange idx') (h : Cert.Spec.InRange idx) :
    Cert.Spec.result X' P' W' b' idx' h' = Cert.Spec.result X P W b idx h := by
  subst eX eP eW eb ei; rfl

/-- The array the gather is entered from holds, at node `k` and feature `j`, the encoder of the launch memory's
    features, weights and bias. -/
theorem V1_enc_ix2 (m : (ℓ : Loc nD τ sig) → Buf (Elt Ideal) ℓ) (h : TblOk (adm1 (F := Ideal) m)) (c : Dev nD) (k : Fin 16384) (j : Fin 64) :
    (V1' m h c main_v0 : Cert.Spec.SE.Idx → EReal) (ValueIdx.ix2 k j)
      = Cert.Spec.enc (m ((c.tc : Thread nD τ).loc main_arg0)) (m ((c.tc : Thread nD τ).loc main_arg2)) (m ((c.tc : Thread nD τ).loc main_arg3)) k j :=
  (congrFun ((V1_enc m h c).trans (enc_arr (V0' m) c)) (ValueIdx.ix2 k j)).trans (Cert.Spec.encArr_ix2 _ _ _ k j)

/-- THE RESULT ARRAY after the program is the specification's result of the launch memory's five argument arrays. -/
theorem result_eq (m : (ℓ : Loc nD τ sig) → Buf (Elt Ideal) ℓ) (h : TblOk (adm1 (F := Ideal) m)) (c : Dev nD)
    (hin : Cert.Spec.InRange (m ((c.tc : Thread nD τ).loc main_arg4))) :
    (dat1 (F := Ideal) (V1' m h) (adm1 m) h c).arrAt 1 (cfg1 (adm1 m)).N
      = Cert.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) hin := by
  obtain rfl : c = 0 := Subsingleton.elim _ _
  refine (out_arr (V1' m h) (adm1 m) h 0).trans ?_
  have e0 : (fun (k : Fin 16384) (j : Fin 64) => (V1' m h 0 main_v0 : Cert.Spec.SE.Idx → EReal) (ValueIdx.ix2 k j))
      = Cert.Spec.enc (m (((0 : Dev nD).tc : Thread nD τ).loc main_arg0)) (m (((0 : Dev nD).tc : Thread nD τ).loc main_arg2)) (m (((0 : Dev nD).tc : Thread nD τ).loc main_arg3)) :=
    funext fun k => funext fun j => V1_enc_ix2 m h 0 k j
  funext i
  show Cert.Spec.out (V1' m h 0 main_arg1) (fun k j => (V1' m h 0 main_v0 : Cert.Spec.SE.Idx → EReal) (ValueIdx.ix2 k j)) (Cert.Spec.rowOf ((adm1 m).1 0) h) (i 0) (i 1) = _
  rw [e0, V1_arg1 m h 0]
  rfl

end Cert.KernelIdeal.Hand

end
-- ==== Proof.RefRun.lean ====
import proofs.«406446_j60224031424549_1_alg».proof.ReferenceIdeal
import Idealize.ShloMosaic.Lib.StableHlo.Run

/-!
# The reference as a straight line of host operations, and its run

The reference computes the encoder X · W + b, takes rows of the diffusion matrix by the index words (jnp's take:
negative words wrapped by the number of rows, then a range test, the gather, and a select between the gathered
row and a fill value), and multiplies the taken rows with the encoded nodes. Its two outlined functions are inlined
at their calls, which makes @main one list of twenty-eight operations; every execution ends with each buffer at the
fold of those operations over the launch contents. The result buffer's fold is the composed term outV of the five
arguments.
-/

noncomputable section

namespace Cert.RefSide

open Cert.ReferenceIdeal Cert.ReferenceIdeal.Facts₀ Idealize.ShloMosaic Idealize.ShloMosaic.TcCoe Idealize.SL.Sem
  Idealize.ShloMosaic.StableHlo

variable {F : FTy → Type} [FloatOps F] [Cert.ReferenceIdeal.Facts]

/-! ## The composed values -/

/-- The encoder: the product of the features with the weights, plus the bias broadcast down the rows. -/
def encV (X : (⟨S16384x128, .f32⟩ : BufTy).Contents (Elt F)) (W : (⟨S128x64, .f32⟩ : BufTy).Contents (Elt F))
    (b : (⟨S64, .f32⟩ : BufTy).Contents (Elt F)) : (⟨S16384x64, .f32⟩ : BufTy).Contents (Elt F) :=
  addf (Host.dotGeneral dot_S16384x128_S128x64_S16384x64_1_0_0_1_n_n none X W)
    (broadcastInDim S16384x64 ![0, 1] bcast_S1x64_S16384x64_0_1 (broadcastInDim S1x64 ![1] bcast_S64_S1x64_1 b))

/-- The index words with the negative ones wrapped by the number of rows. -/
def wrapV (idx : IVec S4096 32) : IVec S4096 32 :=
  select (cmpi .slt idx (broadcastInDim S4096 ![] bcast_S_S4096 (constantI S_ 32 0#32)))
    (addi idx (broadcastInDim S4096 ![] bcast_S_S4096 (constantI S_ 32 16384#32))) idx

/-- The wrapped words as a column of start indices. -/
def colV (idx : IVec S4096 32) : IVec S4096x1 32 :=
  broadcastInDim S4096x1 ![0] bcast_S4096_S4096x1_0 (wrapV idx)

/-- The range test: per word, whether it lies in 0 … 16383, reduced by and over the column's one entry. -/
def maskV (idx : IVec S4096 32) : IVec S4096 1 :=
  Host.reduce IntOp.andi
    (andi (cmpi .sge (colV idx) (broadcastInDim S4096x1 ![] bcast_S_S4096x1 (constantI S_ 32 0#32)))
      (cmpi .sle (colV idx)
        (broadcastInDim S4096x1 ![0, 1] bcast_S1x1_S4096x1_0_1 (broadcastInDim S1x1 ![1] bcast_S1_S1x1_1 (constantI S1 32 16383#32)))))
    (constantI S_ 1 1#1) reducesTo_S4096x1_S4096_d1 h_S_

/-- The taken rows: the gathered row where the word passed the range test, the fill value elsewhere. -/
def takeV (P : (⟨S16384x16384, .f32⟩ : BufTy).Contents (Elt F)) (idx : IVec S4096 32) :
    (⟨S4096x16384, .f32⟩ : BufTy).Contents (Elt F) :=
  select (broadcastInDim S4096x16384 ![0] bcast_S4096_S4096x16384_0 (maskV idx))
    (Host.gather gather_S16384x16384_S4096x1_S4096x16384_1_0_n_n_0_1_116384 P (colV idx))
    (broadcastInDim S4096x16384 ![] bcast_S_S4096x16384 (constant S_ .f32 0x7FC00000#32))

/-- The reference's result: the taken rows against the encoded nodes. -/
def outV (X : (⟨S16384x128, .f32⟩ : BufTy).Contents (Elt F)) (P : (⟨S16384x16384, .f32⟩ : BufTy).Contents (Elt F))
    (W : (⟨S128x64, .f32⟩ : BufTy).Contents (Elt F)) (b : (⟨S64, .f32⟩ : BufTy).Contents (Elt F)) (idx : IVec S4096 32) :
    (⟨S4096x64, .f32⟩ : BufTy).Contents (Elt F) :=
  Host.dotGeneral dot_S4096x16384_S16384x64_S4096x64_1_0_0_1_n_n none (takeV P idx) (encV X W b)

/-! ## The operations -/

/-- @main's operations in order, the two calls unfolded: four for the encoder, the take's twenty-three (the select
    of the wrap among them, into its own record's buffer), the final product. -/
abbrev ops : List (HloOp τ sig (Elt F)) :=
  [ binary main_arg0 main_arg2 main_v0 ((fun l r => Host.dotGeneral dot_S16384x128_S128x64_S16384x64_1_0_0_1_n_n none l r) : (⟨S16384x128, .f32⟩ : BufTy).Contents (Elt F) → (⟨S128x64, .f32⟩ : BufTy).Contents (Elt F) → (⟨S16384x64, .f32⟩ : BufTy).Contents (Elt F)),
    unary main_arg3 main_v1 (broadcastInDim S1x64 ![1] bcast_S64_S1x64_1 : (⟨S64, .f32⟩ : BufTy).Contents (Elt F) → (⟨S1x64, .f32⟩ : BufTy).Contents (Elt F)),
    unary main_v1 main_v2 (broadcastInDim S16384x64 ![0, 1] bcast_S1x64_S16384x64_0_1 : (⟨S1x64, .f32⟩ : BufTy).Contents (Elt F) → (⟨S16384x64, .f32⟩ : BufTy).Contents (Elt F)),
    binary main_v0 main_v2 main_v3 (addf : (⟨S16384x64, .f32⟩ : BufTy).Contents (Elt F) → (⟨S16384x64, .f32⟩ : BufTy).Contents (Elt F) → (⟨S16384x64, .f32⟩ : BufTy).Contents (Elt F)),
    TRef.nullary main_call0.c (constantI S_ 32 0#32),
    TRef.unary main_call0.c main_call0.v0 (broadcastInDim S4096 ![] bcast_S_S4096),
    TRef.binary (.of main_arg4) main_call0.v0 main_call0.v1 (cmpi .slt),
    TRef.nullary main_call0.c_0 (constantI S_ 32 16384#32),
    TRef.unary main_call0.c_0 main_call0.v2 (broadcastInDim S4096 ![] bcast_S_S4096),
    TRef.binary (.of main_arg4) main_call0.v2 main_call0.v3 addi,
    TRef.ternary main_call0.v1 main_call0.v3 (.of main_arg4) main_call0.call0.v0 select,
    TRef.unary main_call0.call0.v0 main_call0.v5 (broadcastInDim S4096x1 ![0] bcast_S4096_S4096x1_0),
    TRef.nullary main_call0.c_1 (constantI S1 32 16383#32),
    TRef.nullary main_call0.c_2 (constantI S_ 32 0#32),
    TRef.unary main_call0.c_2 main_call0.v6 (broadcastInDim S4096x1 ![] bcast_S_S4096x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S4096x1 ![0, 1] bcast_S1x1_S4096x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x1_S4096_d1 h_S_),
    TRef.binary (.of main_arg1) main_call0.v5 main_call0.v13 (fun x i => Host.gather gather_S16384x16384_S4096x1_S4096x16384_1_0_n_n_0_1_116384 x i),
    TRef.unary main_call0.v12 main_call0.v14 (broadcastInDim S4096x16384 ![0] bcast_S4096_S4096x16384_0),
    TRef.nullary main_call0.cst (constant S_ .f32 0x7FC00000#32),
    TRef.unary main_call0.cst main_call0.v15 (broadcastInDim S4096x16384 ![] bcast_S_S4096x16384),
    TRef.ternary main_call0.v14 main_call0.v13 main_call0.v15 main_call0.v16 select,
    binary main_v4 main_v3 main_v5 ((fun l r => Host.dotGeneral dot_S4096x16384_S16384x64_S4096x64_1_0_0_1_n_n none l r) : (⟨S4096x16384, .f32⟩ : BufTy).Contents (Elt F) → (⟨S16384x64, .f32⟩ : BufTy).Contents (Elt F) → (⟨S4096x64, .f32⟩ : BufTy).Contents (Elt F)) ]

set_option maxRecDepth 1024 in
/-- @main is that straight line: the functions' definitions unfolded at their calls, both sides are one chain of
    host steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., binary_bufs_sub ..⟩

set_option maxHeartbeats 1000000 in
/-- The fold at the result buffer is the composed term of the five arguments. -/
theorem out_eq (V : Valuation τ sig (Elt F)) :
    after ops V (main_v5 : DevRef τ sig)
      = outV (V (main_arg0 : DevRef τ sig)) (V (main_arg1 : DevRef τ sig)) (V (main_arg2 : DevRef τ sig))
          (V (main_arg3 : DevRef τ sig)) (V (main_arg4 : DevRef τ sig)) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp

/-- Every weakly fair execution of @main terminates with each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefSide

end
-- ==== Proof.LibGather.lean ====
/-
  The two rank-2 forms of StableHLO's gather that indexing a matrix by a vector of positions produces, each read at
  one result index.

  A ROW gather takes an operand [N, D] and a column [B, 1] of start indices to the result [B, D] whose row b is the
  operand's row named by the b-th start index. A COLUMN gather takes an operand [N, M] and a column [B, 1] of start
  indices to the result [N, B] whose column b is the operand's column named by the b-th start index. StableHLO reads a
  start index as a signed word and clamps it so that the slice fits inside the operand. For a 32-bit word whose
  unsigned value is below the extent of the indexed axis, and an extent of at most 2^31, the signed reading is the
  unsigned value and the clamp does nothing: the result element is the operand's element at that row (column).

  Both theorems are stated for any record of dimension numbers whose fields are the lists of these two
  forms; the record's well-formedness proof is left abstract.
-/
import Idealize.ShloMosaic.PureOps.Dims
import Idealize.ShloMosaic.PureOps.ShapeOps
import Idealize.ShloMosaic.Lib.ValueIdx

namespace Cert.LibGather

open Idealize.ShloMosaic Idealize.ShloMosaic.ValueIdx

/-- A 32-bit start index whose unsigned value is below an extent n ≤ 2^31, read signed and clamped into [0, n − 1],
    is its unsigned value: the sign bit is clear, and the value is already at most n − 1. -/
private theorem clamp_eq (v : BitVec 32) (n : Nat) (hn : n ≤ 2 ^ 31) (hlt : v.toNat < n) :
    min v.toInt.toNat (n - 1) = v.toNat := by
  have h2 : 2 * v.toNat < 2 ^ 32 := by omega
  rw [BitVec.toInt_eq_toNat_of_lt h2, Int.toNat_natCast]
  exact Nat.min_eq_left (by omega)

private theorem zero_mem : (0 : Fin 2) ∈ ([0] : List (Fin 2)) := by decide
private theorem one_mem : (1 : Fin 2) ∈ ([1] : List (Fin 2)) := by decide
private theorem one_not_mem : (1 : Fin 2) ∉ ([0] : List (Fin 2)) := by decide
private theorem zero_not_mem : (0 : Fin 2) ∉ ([1] : List (Fin 2)) := by decide

/-! ## The row gather -/

/-- The dimension numbers of a row gather (operand [N, D], start indices [B, 1], result [B, D]), over an abstract
    proof of their conditions. -/
private abbrev rowsDims (N D B : Nat)
    (wf : GatherDims.WF ⟨2, ![N, D]⟩ ⟨2, ![B, 1]⟩ ⟨2, ![B, D]⟩ [1] [0] [] [0] [] 1 ![1, D]) :
    GatherDims ⟨2, ![N, D]⟩ ⟨2, ![B, 1]⟩ ⟨2, ![B, D]⟩ where
  offsetDims := [1]
  collapsedSliceDims := [0]
  operandBatchingDims := []
  startIndicesBatchingDims := []
  startIndexMap := [0]
  indexVectorDim := 1
  sliceSizes := ![1, D]
  wf := wf

private theorem rows_apply {N D B : Nat} {α : Type}
    (wf : GatherDims.WF ⟨2, ![N, D]⟩ ⟨2, ![B, 1]⟩ ⟨2, ![B, D]⟩ [1] [0] [] [0] [] 1 ![1, D])
    (x : (⟨2, ![N, D]⟩ : Shape).Idx → α) (idx : IVec ⟨2, ![B, 1]⟩ 32) (b : Fin B) (c : Fin D)
    (hN : N ≤ 2 ^ 31) (hlt : (idx (ix2 b 0)).toNat < N) :
    Host.gather (rowsDims N D B wf) x idx (ix2 b c) = x (ix2 ⟨(idx (ix2 b 0)).toNat, hlt⟩ c) := by
  unfold Host.gather
  refine congrArg x ?_
  funext a
  refine Fin.ext ?_
  show (rowsDims N D B wf).start (ix2 b c) idx a + (rowsDims N D B wf).batchCoord (ix2 b c) a
      + (rowsDims N D B wf).offCoord (ix2 b c) a = _
  rw [GatherDims.batchCoord_eq_zero _ _ _ List.not_mem_nil, Nat.add_zero]
  match a with
  | ⟨0, _⟩ =>
    -- axis 0 is collapsed and start-indexed: the clamped start index, no offset
    show (rowsDims N D B wf).start (ix2 b c) idx (0 : Fin 2) + (rowsDims N D B wf).offCoord (ix2 b c) (0 : Fin 2)
      = (idx (ix2 b 0)).toNat
    rw [GatherDims.offCoord_eq_zero _ _ _ (fun h => ((GatherDims.mem_sKept _ _).mp h).1 zero_mem), Nat.add_zero]
    unfold GatherDims.start
    rw [dif_pos (show (0 : Fin 2) ∈ (rowsDims N D B wf).startIndexMap from zero_mem)]
    have hsi : (rowsDims N D B wf).siIdx (ix2 b c) ⟨List.idxOf (0 : Fin 2) (rowsDims N D B wf).startIndexMap,
        List.idxOf_lt_length_iff.2 zero_mem⟩ = ix2 b 0 := by
      funext k; refine Fin.ext ?_
      match k with
      | ⟨0, _⟩ => rfl
      | ⟨1, _⟩ => rfl
    rw [hsi]
    exact clamp_eq _ N hN hlt
  | ⟨1, _⟩ =>
    -- axis 1 is the offset axis, not start-indexed: start 0, the result's column coordinate
    show (rowsDims N D B wf).start (ix2 b c) idx (1 : Fin 2) + (rowsDims N D B wf).offCoord (ix2 b c) (1 : Fin 2)
      = c.val
    have hs : (rowsDims N D B wf).start (ix2 b c) idx (1 : Fin 2) = 0 := by
      unfold GatherDims.start
      rw [dif_neg (show (1 : Fin 2) ∉ (rowsDims N D B wf).startIndexMap from one_not_mem)]
    rw [hs, Nat.zero_add]
    rfl

/-- A row gather (operand [N, D], start indices [B, 1], result [B, D]; offset_dims = [1], collapsed_slice_dims = [0],
    start_index_map = [0], index_vector_dim = 1, slice sizes [1, D]) read at (b, c): row (idx b) of the operand at
    column c, when the word idx b names a row. -/
theorem gather_rows_apply {N D B : Nat} {α : Type} (d : GatherDims ⟨2, ![N, D]⟩ ⟨2, ![B, 1]⟩ ⟨2, ![B, D]⟩)
    (h1 : d.offsetDims = [1]) (h2 : d.collapsedSliceDims = [0]) (h3 : d.operandBatchingDims = [])
    (h4 : d.startIndicesBatchingDims = [])
    (h5 : d.startIndexMap = [0]) (h6 : d.indexVectorDim = 1) (h7 : d.sliceSizes = ![1, D])
    (x : (⟨2, ![N, D]⟩ : Shape).Idx → α) (idx : IVec ⟨2, ![B, 1]⟩ 32) (b : Fin B) (c : Fin D)
    (hN : N ≤ 2 ^ 31) (hlt : (idx (ix2 b 0)).toNat < N) :
    Host.gather d x idx (ix2 b c) = x (ix2 ⟨(idx (ix2 b 0)).toNat, hlt⟩ c) := by
  obtain ⟨od, cd, ob, sb, sm, iv, ss, wf⟩ := d
  dsimp only at h1 h2 h3 h4 h5 h6 h7
  subst h1 h2 h3 h4 h5 h6 h7
  exact rows_apply wf x idx b c hN hlt

/-! ## The column gather -/

/-- The dimension numbers of a column gather (operand [N, M], start indices [B, 1], result [N, B]), over an abstract
    proof of their conditions. -/
private abbrev colsDims (N M B : Nat)
    (wf : GatherDims.WF ⟨2, ![N, M]⟩ ⟨2, ![B, 1]⟩ ⟨2, ![N, B]⟩ [0] [1] [] [1] [] 1 ![N, 1]) :
    GatherDims ⟨2, ![N, M]⟩ ⟨2, ![B, 1]⟩ ⟨2, ![N, B]⟩ where
  offsetDims := [0]
  collapsedSliceDims := [1]
  operandBatchingDims := []
  startIndicesBatchingDims := []
  startIndexMap := [1]
  indexVectorDim := 1
  sliceSizes := ![N, 1]
  wf := wf

private theorem cols_apply {N M B : Nat} {α : Type}
    (wf : GatherDims.WF ⟨2, ![N, M]⟩ ⟨2, ![B, 1]⟩ ⟨2, ![N, B]⟩ [0] [1] [] [1] [] 1 ![N, 1])
    (x : (⟨2, ![N, M]⟩ : Shape).Idx → α) (idx : IVec ⟨2, ![B, 1]⟩ 32) (n : Fin N) (b : Fin B)
    (hM : M ≤ 2 ^ 31) (hlt : (idx (ix2 b 0)).toNat < M) :
    Host.gather (colsDims N M B wf) x idx (ix2 n b) = x (ix2 n ⟨(idx (ix2 b 0)).toNat, hlt⟩) := by
  unfold Host.gather
  refine congrArg x ?_
  funext a
  refine Fin.ext ?_
  show (colsDims N M B wf).start (ix2 n b) idx a + (colsDims N M B wf).batchCoord (ix2 n b) a
      + (colsDims N M B wf).offCoord (ix2 n b) a = _
  rw [GatherDims.batchCoord_eq_zero _ _ _ List.not_mem_nil, Nat.add_zero]
  match a with
  | ⟨0, _⟩ =>
    -- axis 0 is the offset axis, not start-indexed: start 0, the result's row coordinate
    show (colsDims N M B wf).start (ix2 n b) idx (0 : Fin 2) + (colsDims N M B wf).offCoord (ix2 n b) (0 : Fin 2)
      = n.val
    have hs : (colsDims N M B wf).start (ix2 n b) idx (0 : Fin 2) = 0 := by
      unfold GatherDims.start
      rw [dif_neg (show (0 : Fin 2) ∉ (colsDims N M B wf).startIndexMap from zero_not_mem)]
    rw [hs, Nat.zero_add]
    rfl
  | ⟨1, _⟩ =>
    -- axis 1 is collapsed and start-indexed: the clamped start index, no offset
    show (colsDims N M B wf).start (ix2 n b) idx (1 : Fin 2) + (colsDims N M B wf).offCoord (ix2 n b) (1 : Fin 2)
      = (idx (ix2 b 0)).toNat
    rw [GatherDims.offCoord_eq_zero _ _ _ (fun h => ((GatherDims.mem_sKept _ _).mp h).1 one_mem), Nat.add_zero]
    unfold GatherDims.start
    rw [dif_pos (show (1 : Fin 2) ∈ (colsDims N M B wf).startIndexMap from one_mem)]
    have hsi : (colsDims N M B wf).siIdx (ix2 n b) ⟨List.idxOf (1 : Fin 2) (colsDims N M B wf).startIndexMap,
        List.idxOf_lt_length_iff.2 one_mem⟩ = ix2 b 0 := by
      funext k; refine Fin.ext ?_
      match k with
      | ⟨0, _⟩ => rfl
      | ⟨1, _⟩ => rfl
    rw [hsi]
    exact clamp_eq _ M hM hlt

/-- A column gather (operand [N, M], start indices [B, 1], result [N, B]; offset_dims = [0], collapsed_slice_dims = [1],
    start_index_map = [1], index_vector_dim = 1, slice sizes [N, 1]) read at (n, b): column (idx b) of the operand at
    row n, when the word idx b names a column. -/
theorem gather_cols_apply {N M B : Nat} {α : Type} (d : GatherDims ⟨2, ![N, M]⟩ ⟨2, ![B, 1]⟩ ⟨2, ![N, B]⟩)
    (h1 : d.offsetDims = [0]) (h2 : d.collapsedSliceDims = [1]) (h3 : d.operandBatchingDims = [])
    (h4 : d.startIndicesBatchingDims = [])
    (h5 : d.startIndexMap = [1]) (h6 : d.indexVectorDim = 1) (h7 : d.sliceSizes = ![N, 1])
    (x : (⟨2, ![N, M]⟩ : Shape).Idx → α) (idx : IVec ⟨2, ![B, 1]⟩ 32) (n : Fin N) (b : Fin B)
    (hM : M ≤ 2 ^ 31) (hlt : (idx (ix2 b 0)).toNat < M) :
    Host.gather d x idx (ix2 n b) = x (ix2 n ⟨(idx (ix2 b 0)).toNat, hlt⟩) := by
  obtain ⟨od, cd, ob, sb, sm, iv, ss, wf⟩ := d
  dsimp only at h1 h2 h3 h4 h5 h6 h7
  subst h1 h2 h3 h4 h5 h6 h7
  exact cols_apply wf x idx n b hM hlt

end Cert.LibGather
-- ==== Proof.LibAndReduce.lean ====
/-
  An and-reduce of an array of one-bit words that are all 1.

  General facts, independent of any program: a left fold by `and` that starts at 1 and meets only 1s ends at 1; so a
  `stablehlo.reduce` by `and` from the constant 1, over whichever axes, of an array whose every entry is 1 is 1 at
  every index of its result. (The library has the other direction: a reduce that came out 1 met only 1s.) This is what
  a range test `all(lo <= idx <= hi)` along an axis comes to when every index is known to be in range, for instance
  the test a take in fill mode makes before it chooses between the gathered row and its fill.
-/
import Idealize.ShloMosaic.PureOps.Reduce
import Idealize.ShloMosaic.Lib.ReduceAll

namespace Cert.LibAndReduce

open Idealize.ShloMosaic

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

/-- An and-reduce, from initial values that are 1, of an array whose every entry is 1 is 1 at every index of the
    result, whatever the shapes and the reduced axes. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  unfold Host.reduce
  rw [hi]
  exact foldl_andi_one (fun n => x (s.rowMajor.symm n)) (fun n => hx _) _

end Cert.LibAndReduce
-- ==== Proof.RefSide.lean ====
import proofs.«406446_j60224031424549_1_alg».proof.Proof.RefRun
import proofs.«406446_j60224031424549_1_alg».proof.Proof.Spec
import proofs.«406446_j60224031424549_1_alg».proof.Proof.LibGather
import proofs.«406446_j60224031424549_1_alg».proof.Proof.LibAndReduce
import Idealize.ShloMosaic.PureOps.Ideal.Laws
import Idealize.ShloMosaic.Lib.ValueIdx
import Idealize.ShloMosaic.Lib.Pipeline.Value
import Idealize.ShloMosaic.Lib.StackMember

/-!
# The reference's value, with every index word in range

The reference's result is the composed term outV of its five arguments (the run of its twenty-eight operations).
Here that term is read index by index at the ideal values. A word below 16384 is not negative as a signed number, so
the wrap leaves it; it lies in 0 … 16383, so the range test is 1 for every seed and the select keeps the gathered row;
the gather reads row (idx r) of the diffusion matrix. Both products are plain matrix products, sums over the contracted
coordinate, and the bias is broadcast down the rows. Together: the result at (r, j) is the sum over k of
P (idx r, k) · enc (k, j), the specification's result. The run then ends with the result buffer at the specification's
result and the arguments unchanged.
-/

noncomputable section

namespace Cert.RefSide

open Cert.ReferenceIdeal Cert.ReferenceIdeal.Facts₀ Idealize.ShloMosaic Idealize.ShloMosaic.ValueIdx Idealize.ShloMosaic.StackMember
  Idealize.ShloMosaic.TcCoe Idealize.SL.Sem Idealize.ShloMosaic.StableHlo

variable [Cert.ReferenceIdeal.Facts]

/-! ## Words in range -/

/-- A word below 16384 read as a signed number is its unsigned value. -/
theorem toInt_small (v : BitVec 32) (hv : v.toNat < 16384) : v.toInt = (v.toNat : Int) :=
  BitVec.toInt_eq_toNat_of_lt (by omega)

/-- A word below 16384 is not negative. -/
theorem slt_zero (v : BitVec 32) (hv : v.toNat < 16384) : IntOp.cmpi .slt v 0#32 = 0#1 := by
  have h := toInt_small v hv
  have h0 : (0#32 : BitVec 32).toInt = 0 := by decide
  have hb : v.slt 0#32 = false := by
    unfold BitVec.slt
    exact decide_eq_false (by rw [h, h0]; omega)
  show BitVec.ofBool (v.slt 0#32) = 0#1
  rw [hb]; rfl

/-- A word below 16384 is at least 0 as a signed number. -/
theorem sge_zero (v : BitVec 32) (hv : v.toNat < 16384) : IntOp.cmpi .sge v 0#32 = 1#1 := by
  have h := toInt_small v hv
  have h0 : (0#32 : BitVec 32).toInt = 0 := by decide
  have hb : (0#32 : BitVec 32).sle v = true := by
    unfold BitVec.sle
    exact decide_eq_true (by rw [h, h0]; omega)
  show BitVec.ofBool ((0#32 : BitVec 32).sle v) = 1#1
  rw [hb]; rfl

/-- A word below 16384 is at most 16383 as a signed number. -/
theorem sle_max (v : BitVec 32) (hv : v.toNat < 16384) : IntOp.cmpi .sle v 16383#32 = 1#1 := by
  have h := toInt_small v hv
  have h0 : (16383#32 : BitVec 32).toInt = 16383 := by decide
  have hb : v.sle 16383#32 = true := by
    unfold BitVec.sle
    exact decide_eq_true (by rw [h, h0]; omega)
  show BitVec.ofBool (v.sle 16383#32) = 1#1
  rw [hb]; rfl

/-! ## The take, with every word in range -/

/-- The wrap leaves a word in range as it is: it is not negative. -/
theorem wrapV_apply (idx : IVec S4096 32) (h : Cert.Spec.InRange idx) (r : Fin 4096) : wrapV idx (ix1 r) = idx (ix1 r) := by
  show Scalar.select (IntOp.cmpi .slt (idx (ix1 r)) 0#32) (IntOp.addi (idx (ix1 r)) 16384#32) (idx (ix1 r)) = idx (ix1 r)
  rw [slt_zero _ (h r), select_zero]

/-- The column of start indices at row r is the word of seed r. -/
theorem colV_apply (idx : IVec S4096 32) (h : Cert.Spec.InRange idx) (r : Fin 4096) (c : Fin 1) :
    colV idx (ix2 r c) = idx (ix1 r) := by
  unfold colV
  rw [broadcastInDim_apply ![0] bcast_S4096_S4096x1_0 (wrapV idx) (ix2 r c) (ix1 r) (fun a => by
    match a with
    | ⟨0, _⟩ => rfl)]
  exact wrapV_apply idx h r

/-- Every word passes the range test. -/
theorem maskV_apply (idx : IVec S4096 32) (h : Cert.Spec.InRange idx) (j : S4096.Idx) : maskV idx j = 1#1 := by
  unfold maskV
  refine Cert.LibAndReduce.reduce_andi_one _ _ _ _ (fun i => ?_) (fun _ => rfl) j
  obtain ⟨r, c, rfl⟩ : ∃ (r : Fin 4096) (c : Fin 1), i = ix2 r c := ⟨i 0, i 1, eq_ix2 i⟩
  show IntOp.andi (IntOp.cmpi .sge (colV idx (ix2 r c)) 0#32) (IntOp.cmpi .sle (colV idx (ix2 r c)) 16383#32) = 1#1
  rw [colV_apply idx h, sge_zero _ (h r), sle_max _ (h r)]
  rfl

/-- The taken rows at (r, k): the diffusion matrix at the row the word of seed r names, column k. -/
theorem takeV_apply (P : S16384x16384.Idx → EReal) (idx : IVec S4096 32) (h : Cert.Spec.InRange idx) (r : Fin 4096) (k : Fin 16384) :
    takeV (F := Ideal) P idx (ix2 r k) = P (ix2 (Cert.Spec.rowOf idx h r) k) := by
  have hc : colV idx (ix2 r (0 : Fin 1)) = idx (ix1 r) := colV_apply idx h r 0
  have hlt : (colV idx (ix2 r (0 : Fin 1))).toNat < 16384 := by rw [hc]; exact h r
  show Scalar.select (maskV idx _) (Host.gather gather_S16384x16384_S4096x1_S4096x16384_1_0_n_n_0_1_116384 P (colV idx) (ix2 r k)) _ = _
  rw [maskV_apply idx h, select_one,
    Cert.LibGather.gather_rows_apply gather_S16384x16384_S4096x1_S4096x16384_1_0_n_n_0_1_116384 rfl rfl rfl rfl rfl rfl rfl P (colV idx) r k
      (by norm_num) hlt]
  refine congrArg P (congrArg (fun q => ix2 q k) (Fin.ext ?_))
  show (colV idx (ix2 r (0 : Fin 1))).toNat = (idx (ix1 r)).toNat
  rw [hc]

/-! ## The encoder -/

/-- The encoder at (k, j): the feature row k against column j of the weights, plus the bias at j. -/
theorem encV_apply (X : S16384x128.Idx → EReal) (W : S128x64.Idx → EReal) (b : S64.Idx → EReal) (k : Fin 16384) (j : Fin 64) :
    encV (F := Ideal) X W b (ix2 k j) = Cert.Spec.enc X W b k j := by
  have e : dot_S16384x128_S128x64_S16384x64_1_0_0_1_n_n = DotDims.plain 16384 128 64 := rfl
  unfold encV Cert.Spec.enc
  rw [addf_apply, e, dotGeneral_plain_apply]
  congr 1
  rw [broadcastInDim_apply ![0, 1] bcast_S1x64_S16384x64_0_1 _ (ix2 k j) (ix2 (0 : Fin 1) j) (fun a => by
    match a with
    | ⟨0, _⟩ => rfl
    | ⟨1, _⟩ => rfl)]
  exact broadcastInDim_apply ![1] bcast_S64_S1x64_1 b (ix2 (0 : Fin 1) j) (ix1 j) (fun a => by
    match a with
    | ⟨0, _⟩ => rfl)

/-! ## The result -/

/-- With every word in range the reference's composed term is the specification's result. -/
theorem outV_eq (X : S16384x128.Idx → EReal) (P : S16384x16384.Idx → EReal) (W : S128x64.Idx → EReal) (b : S64.Idx → EReal)
    (idx : IVec S4096 32) (h : Cert.Spec.InRange idx) :
    outV (F := Ideal) X P W b idx = Cert.Spec.result X P W b idx h := by
  have e : dot_S4096x16384_S16384x64_S4096x64_1_0_0_1_n_n = DotDims.plain 4096 16384 64 := rfl
  funext i
  obtain ⟨r, j, rfl⟩ : ∃ (r : Fin 4096) (j : Fin 64), i = ix2 r j := ⟨i 0, i 1, eq_ix2 i⟩
  rw [Cert.Spec.result_ix2]
  unfold outV Cert.Spec.out
  rw [e, dotGeneral_plain_apply]
  refine Finset.sum_congr rfl fun k _ => ?_
  rw [takeV_apply P idx h, encV_apply]

/-! ## The run -/

/-- From any memory whose index words are all in range, every weakly fair execution of the reference terminates with
    the result buffer at the specification's result and the five arguments unchanged. -/
theorem run
    (m' : (ℓ : Loc Cert.ReferenceIdeal.nD Cert.ReferenceIdeal.τ Cert.ReferenceIdeal.sig) → Buf (Elt Ideal) ℓ) (g' : Dev Cert.ReferenceIdeal.nD → PrngReg)
    (h : ∀ c : Dev Cert.ReferenceIdeal.nD, Cert.Spec.InRange (m' ((c.tc : Thread Cert.ReferenceIdeal.nD Cert.ReferenceIdeal.τ).loc Cert.ReferenceIdeal.main_arg4))) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = Cert.Spec.result (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (h c)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) :=
  (θ_run _ _ _).mono (fun r hr c =>
      ⟨((hr c main_v5).trans (out_eq _)).trans (outV_eq _ _ _ _ _ (h c)),
        (hr c main_arg0).trans (arg0_eq _), (hr c main_arg1).trans (arg1_eq _), (hr c main_arg2).trans (arg2_eq _),
        (hr c main_arg3).trans (arg3_eq _), (hr c main_arg4).trans (arg4_eq _)⟩)
    (run_main m' g')

end Cert.RefSide

end
-- ==== Proof.PreIdx.lean ====
import proofs.«406446_j60224031424549_1_alg».proof.Proof.Spec
import proofs.«406446_j60224031424549_1_alg».proof.Defs
import proofs.«406446_j60224031424549_1_alg».proof.Proof.Gen.Pre_finite_inputs
import Idealize.ShloMosaic.Lib.ReduceAll
import Idealize.ShloMosaic.Lib.StableHlo.Predicate
import Idealize.ShloMosaic.Lib.ValueIdx

/-!
# The index words are row numbers

The precondition is a conjunction of five one-bit words; the last is the `and`, over all 4096 positions, of
`0 ≤ idx r` and `idx r < 16384`, both read signed. A conjunction that is 1 has every conjunct 1; an `and` over all
positions that is 1 has a 1 at every position; and a word in `[0, 16384)` read signed is below 16384 read unsigned.
The four conjuncts about the float arrays are never opened, so the float instance is arbitrary.
-/

namespace Cert.PreIdx

open Idealize.ShloMosaic Idealize.ShloMosaic.ValueIdx

/-- The scalar shape has one index. -/
instance : Subsingleton Cert.Pre_finite_inputs.S_.Idx := ⟨fun a b => funext fun d => d.elim0⟩

/-- A word in `[0, 16384)` read signed is below 16384 read unsigned. -/
theorem toNat_lt_of_signed (w : BitVec 32) (h0 : (0#32 : BitVec 32).toInt ≤ w.toInt)
    (h1 : w.toInt < (16384#32 : BitVec 32).toInt) : w.toNat < 16384 := by
  have e0 : (0#32 : BitVec 32).toInt = 0 := by decide
  have e1 : (16384#32 : BitVec 32).toInt = 16384 := by decide
  rw [e0] at h0
  rw [e1] at h1
  have hw := w.isLt
  rw [BitVec.toInt_eq_toNat_cond] at h0 h1
  split at h0 <;> omega

/-- THE PRECONDITION DECODED: every index word names a row, whatever the float instance. -/
theorem inRange {F : FTy → Type} [FloatOps F] [Cert.Pre_finite_inputs.Facts]
    (X : FVec F Cert.Pre_finite_inputs.S16384x128 .f32) (P : FVec F Cert.Pre_finite_inputs.S16384x16384 .f32)
    (W : FVec F Cert.Pre_finite_inputs.S128x64 .f32) (b : FVec F Cert.Pre_finite_inputs.S64 .f32)
    (idx : IVec Cert.Pre_finite_inputs.S4096 32)
    (h : Cert.Pre_finite_inputs.fn (F := F) X P W b idx = fun _ => 1#1) : Cert.Spec.InRange idx := by
  intro r
  have e := congrFun h ValueIdx.ix0
  dsimp only [Cert.Pre_finite_inputs.fn, Cert.Pre_finite_inputs.fn_part1] at e
  -- the outer conjunction: keep its last conjunct, the `and` over all positions
  have e2 := (IntOp.andi_eq_one.1 e).2
  -- every position of the reduced array is 1
  have e3 := Host.reduce_andi_all _ _ _ _ _ e2 (ix1 r)
  -- at position r: both comparisons hold
  obtain ⟨hge, hlt⟩ := IntOp.andi_eq_one.1 e3
  -- a broadcast scalar constant reads the constant at every position
  have hge' : (0#32 : BitVec 32).toInt ≤ (idx (ix1 r)).toInt := IntOp.cmpi_sge.1 hge
  have hlt' : (idx (ix1 r)).toInt < (16384#32 : BitVec 32).toInt := IntOp.cmpi_slt.1 hlt
  exact toNat_lt_of_signed _ hge' hlt'

open Idealize.SL.Sem

/-- The idealized kernel's index table, on every device, under its precondition. -/
theorem of_pre_kernelIdeal [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.InRange (m ((c.tc : Thread Cert.KernelIdeal.nD Cert.KernelIdeal.τ).loc Cert.KernelIdeal.main_arg4)) :=
  inRange _ _ _ _ _ (h c)

/-- The kernel's index table at the bit-exact instance, on every device, under its precondition. -/
theorem of_pre_kernel [Cert.Kernel.Facts] [Cert.Pre_finite_inputs.Facts]
    (m : (ℓ : Loc Cert.Kernel.nD Cert.Kernel.τ Cert.Kernel.sig) → Buf (Elt Bits) ℓ)
    (h : Cert.Pre_Kernel m) (c : Dev Cert.Kernel.nD) :
    Cert.Spec.InRange (m ((c.tc : Thread Cert.Kernel.nD Cert.Kernel.τ).loc Cert.Kernel.main_arg4)) :=
  inRange _ _ _ _ _ (h c)

/-- The reference's index table, on every device, under its precondition. -/
theorem of_pre_referenceIdeal [Cert.ReferenceIdeal.Facts] [Cert.Pre_finite_inputs.Facts]
    (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    Cert.Spec.InRange (m ((c.tc : Thread Cert.ReferenceIdeal.nD Cert.ReferenceIdeal.τ).loc Cert.ReferenceIdeal.main_arg4)) :=
  inRange _ _ _ _ _ (h c)

end Cert.PreIdx
-- ==== Proof.lean ====
import proofs.«406446_j60224031424549_1_alg».proof.Defs
import proofs.«406446_j60224031424549_1_alg».proof.Proof.Gen.Kernel
import proofs.«406446_j60224031424549_1_alg».proof.Proof.Gen.Kernel.Skeleton
import proofs.«406446_j60224031424549_1_alg».proof.Proof.Gen.Kernel.Launch
import proofs.«406446_j60224031424549_1_alg».proof.Proof.Gen.Kernel.Regions
import proofs.«406446_j60224031424549_1_alg».proof.Proof.Gen.Kernel.Points
import proofs.«406446_j60224031424549_1_alg».proof.Proof.Gen.KernelIdeal
import proofs.«406446_j60224031424549_1_alg».proof.Proof.Gen.KernelIdeal.Skeleton
import proofs.«406446_j60224031424549_1_alg».proof.Proof.Gen.KernelIdeal.Launch
import proofs.«406446_j60224031424549_1_alg».proof.Proof.Gen.KernelIdeal.Regions
import proofs.«406446_j60224031424549_1_alg».proof.Proof.Gen.KernelIdeal.Points
import proofs.«406446_j60224031424549_1_alg».proof.Proof.Gen.ReferenceIdeal
import proofs.«406446_j60224031424549_1_alg».proof.Proof.Gen.Pre_finite_inputs
import proofs.«406446_j60224031424549_1_alg».proof.Proof.AssembleI
import proofs.«406446_j60224031424549_1_alg».proof.Proof.AssembleB
import proofs.«406446_j60224031424549_1_alg».proof.Proof.BridgeI
import proofs.«406446_j60224031424549_1_alg».proof.Proof.RefSide
import proofs.«406446_j60224031424549_1_alg».proof.Proof.PreIdx
import Idealize.ShloMosaic.Adequacy
import Idealize.ShloMosaic.Init

/-!
# Both programs compute one result, and every argument array comes back as launched

Nodes carry feature rows; the encoder maps node `k` to `enc k = X k · W + b`. A seed `r` of the minibatch names, by
its index word `idx r`, one row of the dense diffusion matrix `P`, and the result's row `r` is that row applied to
the encoded nodes: `result r j = Σₖ P (idx r) k · enc k j`, that is `out P (enc X W b) (rowOf idx)`. The
precondition makes every index word a row number.

The kernel program is two kernel regions in a row, the encoder and the gather. From the launch, over the two regions'
segment records, every weakly fair execution terminates, every argument array ends as launched (at the bit-exact
instance and at the ideal one), and at the ideal instance the result array ends at `result` of the launched
arguments. The reference is a host program; its run ends with its result array at the same `result` of its
arguments and its arguments as launched. From memories that agree on the arguments both results are therefore the
same array.
-/

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  -- the kernel as printed: the launch over the two regions, its index table in range by the precondition
  fun m g hpre => Cert.Kernel.Hand.frame m g ((Cert.Kernel.Hand.tbl_eq m).mpr (Cert.PreIdx.of_pre_kernel m hpre 0)),
  -- the same at the ideal instance
  fun m g hpre => Cert.KernelIdeal.Hand.frame m g ((Cert.KernelIdeal.Hand.tbl_eq m).mpr (Cert.PreIdx.of_pre_kernelIdeal m hpre 0)),
  -- the reference: its host run, the result conjunct dropped
  fun m g hpre => (θ_run _ _ _).mono (fun _ h c => (h c).2)
    (Cert.RefSide.run m g (fun c => Cert.PreIdx.of_pre_referenceIdeal m hpre c)),
  trivial,
  -- both results are the specification's result of the kernel's launched arguments
  fun m g m' g' hpre hagree =>
    have hin : ∀ c : Dev Cert.KernelIdeal.nD, Cert.Spec.InRange (m ((c.tc : Thread Cert.KernelIdeal.nD Cert.KernelIdeal.τ).loc Cert.KernelIdeal.main_arg4)) :=
      fun c => Cert.PreIdx.of_pre_kernelIdeal m hpre c
    have hT : Cert.KernelIdeal.Hand.TblOk (Cert.KernelIdeal.Hand.adm1 m) := (Cert.KernelIdeal.Hand.tbl_eq m).mpr (hin 0)
    have hin' : ∀ c : Dev Cert.ReferenceIdeal.nD, Cert.Spec.InRange (m' ((c.tc : Thread Cert.ReferenceIdeal.nD Cert.ReferenceIdeal.τ).loc Cert.ReferenceIdeal.main_arg4)) :=
      fun c => (hagree c).2.2.2.2 ▸ hin c
    ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (hin c),
      (θ_run _ _ _).mono (fun r hr c => ⟨(hr c).1.trans (Cert.KernelIdeal.Hand.result_eq m hT c (hin c)), (hr c).2⟩)
        (Cert.KernelIdeal.Hand.value m g hT),
      (θ_run _ _ _).mono (fun r hr c => ⟨(hr c).1.trans
          (Cert.KernelIdeal.Hand.result_congr (hagree c).1 (hagree c).2.1 (hagree c).2.2.1 (hagree c).2.2.2.1 (hagree c).2.2.2.2 (hin' c) (hin c)),
          (hr c).2⟩)
        (Cert.RefSide.run m' g' hin')⟩⟩

end Cert.Proof

end
